-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x512x1024 : Shape := ⟨3, ![1, 512, 1024]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel

variable [Facts]

def fn {F : FTy → Type} [FloatOps F] (main_arg0 : FVec F S1x512x1024 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  main_v3
-- ==== Pre_finite_inputs_ReferenceIdeal.lean ====
abbrev S2x512x1024 : Shape := ⟨3, ![2, 512, 1024]⟩
abbrev S_ : Shape := ⟨0, ![]⟩

class Facts : Prop where
  bcast_S_S2x512x1024 : S_.BroadcastsInDim S2x512x1024 (![] : Fin 0 → Fin S2x512x1024.rank)
  reducesTo_S2x512x1024_S_d0_1_2 : S2x512x1024.ReducesTo [0, 1, 2] S_
  h_S_ : 0 < S_.numel

variable [Facts]

def fn {F : FTy → Type} [FloatOps F] (main_arg0 : FVec F S2x512x1024 .f32) : IVec S_ 1 :=
  let main_v0 : FVec F S2x512x1024 .f32 := Host.absf main_arg0
  let main_cst : FVec F S_ .f32 := constant S_ .f32 0x7F800000#32
  let main_v1 : FVec F S2x512x1024 .f32 := broadcastInDim S2x512x1024 ![] bcast_S_S2x512x1024 main_cst
  let main_v2 : IVec S2x512x1024 1 := cmpf .olt main_v0 main_v1
  let main_c : IVec S_ 1 := constantI S_ 1 1#1
  let main_v3 : IVec S_ 1 := (fun x v => Host.reduce IntOp.andi x v reducesTo_S2x512x1024_S_d0_1_2 h_S_) main_v2 main_c
  main_v3
-- ==== Kernel.lean ====
abbrev S1x512x1024 : Shape := ⟨3, ![1, 512, 1024]⟩
abbrev S512x512 : Shape := ⟨2, ![512, 512]⟩
abbrev S256x512 : Shape := ⟨2, ![256, 512]⟩
abbrev S8 : Shape := ⟨1, ![8]⟩
abbrev S_ : Shape := ⟨0, ![]⟩
abbrev S1 : Shape := ⟨1, ![1]⟩
abbrev S32x512 : Shape := ⟨2, ![32, 512]⟩
abbrev S1x32x512 : Shape := ⟨3, ![1, 32, 512]⟩
abbrev S1x256x512 : Shape := ⟨3, ![1, 256, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x512x1024, .f32⟩
  | .hbm, ⟨1, _⟩ => ⟨S512x512, .f32⟩
  | .local _ .vmem, ⟨0, _⟩ => ⟨S1x512x1024, .f32⟩
  | .local _ .vmem, ⟨1, _⟩ => ⟨S512x512, .f32⟩
  | .local _ .vmem, ⟨2, _⟩ => ⟨S256x512, .f32⟩
  | .local _ .vmem, ⟨3, _⟩ => ⟨S256x512, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32 v12
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_7 : BitVec 32 := 2#32
  let v14 : BitVec 32 := Scalar.muli v9 c2_i32_7
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v16 : BitVec 32 := Scalar.muli v8 c1_i32_8
  let v17 : BitVec 32 := Scalar.addi v15 v16
  v17.toNat
def k0_dev2 (d0 : Dev nD) : Nat :=
  let c0_i32_11 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_10 : BitVec 32 := 4#32
  let v18 : BitVec 32 := Scalar.muli v10 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k0_off1 (d0 : Dev nD) (c0_i32_19 : BitVec 32) : Fin 3 → Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v30 : BitVec 32 := Scalar.addi v24 c0_i32_19
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_17 v5
  let c512_i32_18 : BitVec 32 := 512#32
  let v29 : BitVec 32 := Scalar.muli v28 c512_i32_18
  ![0, v30.toNat, v29.toNat]
def k0_dev3 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v31 : BitVec 32 := Scalar.muli v2 c4_i32_23
  let v32 : BitVec 32 := Scalar.addi c0_i32_24 v31
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_25 : BitVec 32 := 2#32
  let v33 : BitVec 32 := Scalar.muli v9 c2_i32_25
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v35 : BitVec 32 := Scalar.muli v8 c1_i32_26
  let v36 : BitVec 32 := Scalar.addi v34 v35
  v36.toNat
def k0_dev4 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v45 : BitVec 32 := Scalar.muli v2 c4_i32_32
  let v46 : BitVec 32 := Scalar.addi c0_i32_33 v45
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_34 : BitVec 32 := 2#32
  let v47 : BitVec 32 := Scalar.muli v9 c2_i32_34
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v49 : BitVec 32 := Scalar.muli v8 c1_i32_35
  let v50 : BitVec 32 := Scalar.addi v48 v49
  v50.toNat
def k0_dev5 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v59 : BitVec 32 := Scalar.muli v2 c4_i32_41
  let v60 : BitVec 32 := Scalar.addi c0_i32_42 v59
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_43 : BitVec 32 := 2#32
  let v61 : BitVec 32 := Scalar.muli v9 c2_i32_43
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v63 : BitVec 32 := Scalar.muli v8 c1_i32_44
  let v64 : BitVec 32 := Scalar.addi v62 v63
  v64.toNat
def k0_dev6 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v73 : BitVec 32 := Scalar.muli v2 c4_i32_49
  let v74 : BitVec 32 := Scalar.addi c0_i32_50 v73
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_51 : BitVec 32 := 2#32
  let v75 : BitVec 32 := Scalar.muli v9 c2_i32_51
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v77 : BitVec 32 := Scalar.muli v8 c1_i32_52
  let v78 : BitVec 32 := Scalar.addi v76 v77
  v78.toNat
def k0_dev7 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v87 : BitVec 32 := Scalar.muli v2 c4_i32_58
  let v88 : BitVec 32 := Scalar.addi c0_i32_59 v87
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_60 : BitVec 32 := 2#32
  let v89 : BitVec 32 := Scalar.muli v9 c2_i32_60
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v91 : BitVec 32 := Scalar.muli v8 c1_i32_61
  let v92 : BitVec 32 := Scalar.addi v90 v91
  v92.toNat
def k0_dev8 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v101 : BitVec 32 := Scalar.muli v2 c4_i32_66
  let v102 : BitVec 32 := Scalar.addi c0_i32_67 v101
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_68 : BitVec 32 := 2#32
  let v103 : BitVec 32 := Scalar.muli v9 c2_i32_68
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v105 : BitVec 32 := Scalar.muli v8 c1_i32_69
  let v106 : BitVec 32 := Scalar.addi v104 v105
  v106.toNat
def k0_dev9 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v115 : BitVec 32 := Scalar.muli v2 c4_i32_74
  let v116 : BitVec 32 := Scalar.addi c0_i32_75 v115
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_76 : BitVec 32 := 2#32
  let v117 : BitVec 32 := Scalar.muli v9 c2_i32_76
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v119 : BitVec 32 := Scalar.muli v8 c1_i32_77
  let v120 : BitVec 32 := Scalar.addi v118 v119
  v120.toNat
def k0_dev10 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v129 : BitVec 32 := Scalar.muli v2 c4_i32_82
  let v130 : BitVec 32 := Scalar.addi c0_i32_83 v129
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_84 : BitVec 32 := 2#32
  let v131 : BitVec 32 := Scalar.muli v9 c2_i32_84
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v133 : BitVec 32 := Scalar.muli v8 c1_i32_85
  let v134 : BitVec 32 := Scalar.addi v132 v133
  v134.toNat
def k0_dev11 (d0 : Dev nD) : Nat :=
  let c0_i32_100 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_99 : BitVec 32 := 4#32
  let v153 : BitVec 32 := Scalar.muli v10 c4_i32_99
  let v154 : BitVec 32 := Scalar.addi c0_i32_100 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v155 : BitVec 32 := Scalar.muli v5 c2_i32_101
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v157 : BitVec 32 := Scalar.muli v8 c1_i32_102
  let v158 : BitVec 32 := Scalar.addi v156 v157
  v158.toNat
def k0_dev12 (d0 : Dev nD) : Nat :=
  let c0_i32_119 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_118 : BitVec 32 := 4#32
  let v176 : BitVec 32 := Scalar.muli v10 c4_i32_118
  let v177 : BitVec 32 := Scalar.addi c0_i32_119 v176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_120 : BitVec 32 := 2#32
  let v178 : BitVec 32 := Scalar.muli v5 c2_i32_120
  let v179 : BitVec 32 := Scalar.addi v177 v178
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v180 : BitVec 32 := Scalar.muli v8 c1_i32_121
  let v181 : BitVec 32 := Scalar.addi v179 v180
  v181.toNat
def k0_dev13 (d0 : Dev nD) : Nat :=
  let c0_i32_138 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_137 : BitVec 32 := 4#32
  let v199 : BitVec 32 := Scalar.muli v10 c4_i32_137
  let v200 : BitVec 32 := Scalar.addi c0_i32_138 v199
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v201 : BitVec 32 := Scalar.muli v5 c2_i32_139
  let v202 : BitVec 32 := Scalar.addi v200 v201
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v203 : BitVec 32 := Scalar.muli v8 c1_i32_140
  let v204 : BitVec 32 := Scalar.addi v202 v203
  v204.toNat
def k0_dev14 (d0 : Dev nD) : Nat :=
  let c0_i32_157 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_156 : BitVec 32 := 4#32
  let v222 : BitVec 32 := Scalar.muli v10 c4_i32_156
  let v223 : BitVec 32 := Scalar.addi c0_i32_157 v222
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_158 : BitVec 32 := 2#32
  let v224 : BitVec 32 := Scalar.muli v5 c2_i32_158
  let v225 : BitVec 32 := Scalar.addi v223 v224
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v226 : BitVec 32 := Scalar.muli v8 c1_i32_159
  let v227 : BitVec 32 := Scalar.addi v225 v226
  v227.toNat
def k0_dev15 (d0 : Dev nD) : Nat :=
  let c0_i32_176 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_175 : BitVec 32 := 4#32
  let v245 : BitVec 32 := Scalar.muli v10 c4_i32_175
  let v246 : BitVec 32 := Scalar.addi c0_i32_176 v245
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_177 : BitVec 32 := 2#32
  let v247 : BitVec 32 := Scalar.muli v5 c2_i32_177
  let v248 : BitVec 32 := Scalar.addi v246 v247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_178 : BitVec 32 := 1#32
  let v249 : BitVec 32 := Scalar.muli v8 c1_i32_178
  let v250 : BitVec 32 := Scalar.addi v248 v249
  v250.toNat
def k0_dev16 (d0 : Dev nD) : Nat :=
  let c0_i32_195 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_194 : BitVec 32 := 4#32
  let v268 : BitVec 32 := Scalar.muli v10 c4_i32_194
  let v269 : BitVec 32 := Scalar.addi c0_i32_195 v268
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_196 : BitVec 32 := 2#32
  let v270 : BitVec 32 := Scalar.muli v5 c2_i32_196
  let v271 : BitVec 32 := Scalar.addi v269 v270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_197 : BitVec 32 := 1#32
  let v272 : BitVec 32 := Scalar.muli v8 c1_i32_197
  let v273 : BitVec 32 := Scalar.addi v271 v272
  v273.toNat
def k0_dev17 (d0 : Dev nD) : Nat :=
  let c0_i32_214 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_213 : BitVec 32 := 4#32
  let v291 : BitVec 32 := Scalar.muli v10 c4_i32_213
  let v292 : BitVec 32 := Scalar.addi c0_i32_214 v291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v293 : BitVec 32 := Scalar.muli v5 c2_i32_215
  let v294 : BitVec 32 := Scalar.addi v292 v293
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_216 : BitVec 32 := 1#32
  let v295 : BitVec 32 := Scalar.muli v8 c1_i32_216
  let v296 : BitVec 32 := Scalar.addi v294 v295
  v296.toNat
def k0_dev18 (d0 : Dev nD) : Nat :=
  let c0_i32_233 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_232 : BitVec 32 := 4#32
  let v314 : BitVec 32 := Scalar.muli v10 c4_i32_232
  let v315 : BitVec 32 := Scalar.addi c0_i32_233 v314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_234 : BitVec 32 := 2#32
  let v316 : BitVec 32 := Scalar.muli v5 c2_i32_234
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_235 : BitVec 32 := 1#32
  let v318 : BitVec 32 := Scalar.muli v8 c1_i32_235
  let v319 : BitVec 32 := Scalar.addi v317 v318
  v319.toNat
def k0_off2 (d0 : Dev nD) : Fin 3 → Nat :=
  let c0_241 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v327 : Index := Scalar.indexCast v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32 : BitVec 32 := 512#32
  let v27 : BitVec 32 := Scalar.muli v5 c512_i32
  let v328 : Index := Scalar.indexCast v27
  ![0, v327.toNat, v328.toNat]
def k0_off3 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v332 : Index := Scalar.indexCast v24
  let c0_242 : Index := 0#32
  ![v332.toNat, 0]
def k0_off4 (d0 : Dev nD) : Fin 3 → Nat :=
  let c0_325 : Index := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v415 : Index := Scalar.indexCast v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32 : BitVec 32 := 512#32
  let v27 : BitVec 32 := Scalar.muli v5 c512_i32
  let v416 : Index := Scalar.indexCast v27
  ![0, v415.toNat, v416.toNat]
def k0_off5 (d0 : Dev nD) : Fin 2 → Nat :=
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v420 : Index := Scalar.indexCast v26
  let c0_326 : Index := 0#32
  ![v420.toNat, 0]
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S8_S1_0 : ∀ a, (![0] : Fin 1 → Nat) a + S1.size a ≤ S8.size a
  squeezes_S1_S_ : S1.Squeezes S_
  inb_S256x512_S32x512_0_0 : ∀ a, (![0, 0] : Fin 2 → Nat) a + S32x512.size a ≤ S256x512.size a
  squeezes_S1x32x512_S32x512 : S1x32x512.Squeezes S32x512
  inb_S8_S1_1 : ∀ a, (![1] : Fin 1 → Nat) a + S1.size a ≤ S8.size a
  inb_S256x512_S32x512_32_0 : ∀ a, (![32, 0] : Fin 2 → Nat) a + S32x512.size a ≤ S256x512.size a
  inb_S8_S1_2 : ∀ a, (![2] : Fin 1 → Nat) a + S1.size a ≤ S8.size a
  inb_S256x512_S32x512_64_0 : ∀ a, (![64, 0] : Fin 2 → Nat) a + S32x512.size a ≤ S256x512.size a
  inb_S8_S1_3 : ∀ a, (![3] : Fin 1 → Nat) a + S1.size a ≤ S8.size a
  inb_S256x512_S32x512_96_0 : ∀ a, (![96, 0] : Fin 2 → Nat) a + S32x512.size a ≤ S256x512.size a
  inb_S8_S1_4 : ∀ a, (![4] : Fin 1 → Nat) a + S1.size a ≤ S8.size a
  inb_S256x512_S32x512_128_0 : ∀ a, (![128, 0] : Fin 2 → Nat) a + S32x512.size a ≤ S256x512.size a
  inb_S8_S1_5 : ∀ a, (![5] : Fin 1 → Nat) a + S1.size a ≤ S8.size a
  inb_S256x512_S32x512_160_0 : ∀ a, (![160, 0] : Fin 2 → Nat) a + S32x512.size a ≤ S256x512.size a
  inb_S8_S1_6 : ∀ a, (![6] : Fin 1 → Nat) a + S1.size a ≤ S8.size a
  inb_S256x512_S32x512_192_0 : ∀ a, (![192, 0] : Fin 2 → Nat) a + S32x512.size a ≤ S256x512.size a
  inb_S8_S1_7 : ∀ a, (![7] : Fin 1 → Nat) a + S1.size a ≤ S8.size a
  inb_S256x512_S32x512_224_0 : ∀ a, (![224, 0] : Fin 2 → Nat) a + S32x512.size a ≤ S256x512.size a
  inb_S256x512_S256x512_0_0 : ∀ a, (![0, 0] : Fin 2 → Nat) a + S256x512.size a ≤ S256x512.size a
  h_S256x512 : 0 < S256x512.numel
  h_S1x256x512 : 0 < S1x256x512.numel
  shapeCasts_S1x256x512_S256x512 : S1x256x512.ShapeCasts S256x512
  hcc0_scratch2 : 2 + S8.numel ≤ 34
  hcc0_scratch3 : 10 + S8.numel ≤ 34
  hcc0_scratch4 : 18 + S8.numel ≤ 34
  hcc0_scratch5 : 26 + S8.numel ≤ 34
  k0_dev1_lt : ∀ d0 : Dev nD, (k0_dev1 d0) < nD
  k0_dev2_lt : ∀ d0 : Dev nD, (k0_dev2 d0) < nD
  k0_off1_inb : ∀ d0 : Dev nD, ∀ (r : Fin 8), ∀ a, (k0_off1 d0 (BitVec.ofNat 32 (32 * r.val))) a + S1x32x512.size a ≤ S1x512x1024.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off2_inb : ∀ d0 : Dev nD, ∀ a, (k0_off2 d0) a + S1x256x512.size a ≤ S1x512x1024.size a
  k0_off3_inb : ∀ d0 : Dev nD, ∀ a, (k0_off3 d0) a + S256x512.size a ≤ S512x512.size a
  k0_off4_inb : ∀ d0 : Dev nD, ∀ a, (k0_off4 d0) a + S1x256x512.size a ≤ S1x512x1024.size a
  k0_off5_inb : ∀ d0 : Dev nD, ∀ a, (k0_off5 d0) a + S256x512.size a ≤ S512x512.size a
  hstage0_0 : ∀ j, (stage0_0 j).IsWhole
  hstage0_1 : ∀ j, (stage0_1 j).IsWhole

variable [Facts₀]

abbrev cc0_scratch2 : DmaSems sig S8 := SemArray.consecutive 2 S8 hcc0_scratch2
abbrev cc0_scratch3 : DmaSems sig S8 := SemArray.consecutive 10 S8 hcc0_scratch3
abbrev cc0_scratch4 : DmaSems sig S8 := SemArray.consecutive 18 S8 hcc0_scratch4
abbrev cc0_scratch5 : DmaSems sig S8 := SemArray.consecutive 26 S8 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S_, .f32⟩
  | .hbm, ⟨2, _⟩ => ⟨S512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x512x1024_S512x1024_d0 : S2x512x1024.ReducesTo [0] S512x1024
  h_S_ : 0 < S_.numel

variable [Facts₀]

class Facts : Prop extends Facts₀ where

variable [Facts]
-- ==== Proof.Word.Names.lean ====
/-
The reduce-scatter protocol on the 2×2×2 mesh, its names.

Device `c = 4·x + 2·y + z`. Its PARTNER `par c` differs in `y` only, its SIBLING `sib c` in `x` only; both maps are
involutions and they commute. A device holds block `y` of the input (one 512×1024 slab) and must end with columns
`512·y … 512·y+511` of the sum of the two slabs, all 512 rows.

Rows `256·x … 256·x+255` of that result it computes itself: its partner sends it the partner slab's entries there
(eight transfers of 32 rows each into the first landing buffer), and it adds its own slab's entries. The other 256 rows'
partner entries its sibling has received in the same way; the sibling forwards them, chunk by chunk as they land
(eight more transfers, into the second landing buffer), and the device again adds its own slab's entries.
-/
import proofs.«901027_g7700000000001028_dist_rs_v7x_xyz2x2x2_y_m512_n512_f32_1_alg».proof.Proof.Gen.Kernel
import proofs.«901027_g7700000000001028_dist_rs_v7x_xyz2x2x2_y_m512_n512_f32_1_alg».proof.Proof.Gen.Kernel.Skeleton
import proofs.«901027_g7700000000001028_dist_rs_v7x_xyz2x2x2_y_m512_n512_f32_1_alg».proof.Proof.Gen.Kernel.Launch
import proofs.«901027_g7700000000001028_dist_rs_v7x_xyz2x2x2_y_m512_n512_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds copy (duties `Unit`) beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partner and sibling -/

/-- The device that differs from `c` in its `y` coordinate only. -/
def par (c : Dev nD) : Dev nD := ⟨k0_dev1 c, k0_dev1_lt c⟩
/-- The device that differs from `c` in its `x` coordinate only. -/
def sib (c : Dev nD) : Dev nD := ⟨k0_dev2 c, k0_dev2_lt c⟩

theorem par_par (c : Dev nD) : par (par c) = c := by revert c; decide +kernel
theorem sib_sib (c : Dev nD) : sib (sib c) = c := by revert c; decide +kernel
theorem par_sib (c : Dev nD) : par (sib c) = sib (par c) := by revert c; decide +kernel
theorem par_ne (c : Dev nD) : par c ≠ c := by revert c; decide +kernel
theorem sib_ne (c : Dev nD) : sib c ≠ c := by revert c; decide +kernel
theorem par_ne_sib (c : Dev nD) : par c ≠ sib c := by revert c; decide +kernel

theorem par_val (c : Dev nD) : (par c).val = (4 * (c.val / 4) + (c.val % 2) + 2) - 2 * ((c.val / 2) % 2) := k0_dev1_eq c
theorem sib_val (c : Dev nD) : (sib c).val = (2 * ((c.val / 2) % 2) + (c.val % 2) + 4) - 4 * (c.val / 4) := k0_dev2_eq c

def parE : Dev nD ≃ Dev nD := ⟨par, par, par_par, par_par⟩
def sibE : Dev nD ≃ Dev nD := ⟨sib, sib, sib_sib, sib_sib⟩

/-- The printed device chains: the first signal and the eight transfers of the first wave name the partner, the second
    signal and the eight of the second wave the sibling. -/
theorem dev1_eq (c : Dev nD) : (⟨k0_dev1 c, k0_dev1_lt c⟩ : Dev nD) = par c := rfl
theorem dev2_eq (c : Dev nD) : (⟨k0_dev2 c, k0_dev2_lt c⟩ : Dev nD) = sib c := rfl
theorem dev3_eq (c : Dev nD) : (⟨k0_dev3 c, k0_dev3_lt c⟩ : Dev nD) = par c := Fin.ext ((k0_dev3_eq c).trans (k0_dev1_eq c).symm)
theorem dev4_eq (c : Dev nD) : (⟨k0_dev4 c, k0_dev4_lt c⟩ : Dev nD) = par c := Fin.ext ((k0_dev4_eq c).trans (k0_dev1_eq c).symm)
theorem dev5_eq (c : Dev nD) : (⟨k0_dev5 c, k0_dev5_lt c⟩ : Dev nD) = par c := Fin.ext ((k0_dev5_eq c).trans (k0_dev1_eq c).symm)
theorem dev6_eq (c : Dev nD) : (⟨k0_dev6 c, k0_dev6_lt c⟩ : Dev nD) = par c := Fin.ext ((k0_dev6_eq c).trans (k0_dev1_eq c).symm)
theorem dev7_eq (c : Dev nD) : (⟨k0_dev7 c, k0_dev7_lt c⟩ : Dev nD) = par c := Fin.ext ((k0_dev7_eq c).trans (k0_dev1_eq c).symm)
theorem dev8_eq (c : Dev nD) : (⟨k0_dev8 c, k0_dev8_lt c⟩ : Dev nD) = par c := Fin.ext ((k0_dev8_eq c).trans (k0_dev1_eq c).symm)
theorem dev9_eq (c : Dev nD) : (⟨k0_dev9 c, k0_dev9_lt c⟩ : Dev nD) = par c := Fin.ext ((k0_dev9_eq c).trans (k0_dev1_eq c).symm)
theorem dev10_eq (c : Dev nD) : (⟨k0_dev10 c, k0_dev10_lt c⟩ : Dev nD) = par c := Fin.ext ((k0_dev10_eq c).trans (k0_dev1_eq c).symm)
theorem dev11_eq (c : Dev nD) : (⟨k0_dev11 c, k0_dev11_lt c⟩ : Dev nD) = sib c := Fin.ext ((k0_dev11_eq c).trans (k0_dev2_eq c).symm)
theorem dev12_eq (c : Dev nD) : (⟨k0_dev12 c, k0_dev12_lt c⟩ : Dev nD) = sib c := Fin.ext ((k0_dev12_eq c).trans (k0_dev2_eq c).symm)
theorem dev13_eq (c : Dev nD) : (⟨k0_dev13 c, k0_dev13_lt c⟩ : Dev nD) = sib c := Fin.ext ((k0_dev13_eq c).trans (k0_dev2_eq c).symm)
theorem dev14_eq (c : Dev nD) : (⟨k0_dev14 c, k0_dev14_lt c⟩ : Dev nD) = sib c := Fin.ext ((k0_dev14_eq c).trans (k0_dev2_eq c).symm)
theorem dev15_eq (c : Dev nD) : (⟨k0_dev15 c, k0_dev15_lt c⟩ : Dev nD) = sib c := Fin.ext ((k0_dev15_eq c).trans (k0_dev2_eq c).symm)
theorem dev16_eq (c : Dev nD) : (⟨k0_dev16 c, k0_dev16_lt c⟩ : Dev nD) = sib c := Fin.ext ((k0_dev16_eq c).trans (k0_dev2_eq c).symm)
theorem dev17_eq (c : Dev nD) : (⟨k0_dev17 c, k0_dev17_lt c⟩ : Dev nD) = sib c := Fin.ext ((k0_dev17_eq c).trans (k0_dev2_eq c).symm)
theorem dev18_eq (c : Dev nD) : (⟨k0_dev18 c, k0_dev18_lt c⟩ : Dev nD) = sib c := Fin.ext ((k0_dev18_eq c).trans (k0_dev2_eq c).symm)

/-! ## The buffers and their 32-row chunks -/

/-- The input slab's staging buffer, the result's staging buffer, the two landing buffers. -/
abbrev xM : Memref sig .tc .vmem S1x512x1024 .f32 := Memref.whole cc0_stg0_0
abbrev oM : Memref sig .tc .vmem S512x512 .f32 := Memref.whole cc0_stg1_0
abbrev aM : Memref sig .tc .vmem S256x512 .f32 := Memref.whole cc0_scratch0
abbrev bM : Memref sig .tc .vmem S256x512 .f32 := Memref.whole cc0_scratch1

theorem chunk_inb (k : Fin 8) : ∀ a, (![32 * k.val, 0] : Fin 2 → Nat) a + S32x512.size a ≤ S256x512.size a := by revert k; decide

/-- Rows `32·k … 32·k+31` of the first landing buffer; of the second. -/
abbrev aCh (k : Fin 8) : Memref sig .tc .vmem S32x512 .f32 :=
  aM.slice (Rect.unit (s := S256x512) ![32 * k.val, 0] S32x512.size (chunk_inb k)) (fun _ => rfl)
abbrev bCh (k : Fin 8) : Memref sig .tc .vmem S32x512 .f32 :=
  bM.slice (Rect.unit (s := S256x512) ![32 * k.val, 0] S32x512.size (chunk_inb k)) (fun _ => rfl)

/-- The piece of device `c`'s slab that its `k`-th transfer of the first wave sends: rows `256·x + 32·k …`, the
    partner's column half. -/
abbrev xSl (c : Dev nD) (k : Fin 8) : Memref sig .tc .vmem S32x512 .f32 :=
  (xM.slice (Rect.unit (s := S1x512x1024) (k0_off1 c (BitVec.ofNat 32 (32 * k.val))) S1x32x512.size (k0_off1_inb c k)) (fun _ => rfl)).squeeze
    S32x512 squeezes_S1x32x512_S32x512

/-! ## The semaphores and cells -/

abbrev barS : Sem sig := (SemArray.scalar (sig.barrier 0 rfl) : Sems sig S_).sem

/-- The protocol's 32 DMA semaphores: family `j` (0 the first wave's send side, 1 its receive side, 2 the second wave's
    send side, 3 its receive side), chunk `k`. -/
def qsem (j : Fin 4) (k : Fin 8) : DmaSem sig := ⟨2 + 8 * j.val + k.val, by have := j.isLt; have := k.isLt; show 2 + 8 * j.val + k.val < 34; omega⟩

abbrev barCell (c : Dev nD) : GSem nD τ sig := ((c : Thread nD τ), .reg barS)
abbrev qCell (c : Dev nD) (j : Fin 4) (k : Fin 8) : GSem nD τ sig := ((c : Thread nD τ), .dma (qsem j k))

theorem sem_inb (k : Fin 8) : ∀ a, (![k.val] : Fin 1 → Nat) a + S1.size a ≤ S8.size a := by revert k; decide

/-- The printed semaphore views are the table's entries. -/
theorem sem2_eq (k : Fin 8) : ((cc0_scratch2.slice (Rect.unit (s := S8) ![k.val] S1.size (sem_inb k))).squeeze S_ squeezes_S1_S_).sem = qsem 0 k := by
  revert k; decide
theorem sem3_eq (k : Fin 8) : ((cc0_scratch3.slice (Rect.unit (s := S8) ![k.val] S1.size (sem_inb k))).squeeze S_ squeezes_S1_S_).sem = qsem 1 k := by
  revert k; decide
theorem sem4_eq (k : Fin 8) : ((cc0_scratch4.slice (Rect.unit (s := S8) ![k.val] S1.size (sem_inb k))).squeeze S_ squeezes_S1_S_).sem = qsem 2 k := by
  revert k; decide
theorem sem5_eq (k : Fin 8) : ((cc0_scratch5.slice (Rect.unit (s := S8) ![k.val] S1.size (sem_inb k))).squeeze S_ squeezes_S1_S_).sem = qsem 3 k := by
  revert k; decide

theorem qsem_inj {j j' : Fin 4} {k k' : Fin 8} (h : qsem j k = qsem j' k') : j = j' ∧ k = k' := by
  have h' : 2 + 8 * j.val + k.val = 2 + 8 * j'.val + k'.val := congrArg Fin.val h
  have := j.isLt; have := j'.isLt; have := k.isLt; have := k'.isLt
  exact ⟨Fin.ext (by omega), Fin.ext (by omega)⟩

/-- The credit one 32×512 transfer puts on each of its two cells. -/
abbrev N32 : ℕ := (aCh 0 : Memref sig .tc .vmem S32x512 .f32).view.dmaCredit
theorem N32_pos : 0 < N32 := View.dmaCredit_pos _ (by decide)

end Cert.Kernel.RS

end
-- ==== Proof.Word.Sched.lean ====
/-
What the buffers hold, and the schedule of the protocol's cells.

Every cell has ONE round. A device's barrier cell has two duties of one unit: its partner's signal, which hands over the
partner's first landing buffer (for the device to fill), and its sibling's, which hands over the sibling's second landing
buffer. Each of the 32 transfer cells has one duty of a 32×512 block's credit: a send cell returns the source to the
sender, a receive cell gives the receiver its 32 rows WITH the values that landed.
-/
import proofs.«901027_g7700000000001028_dist_rs_v7x_xyz2x2x2_y_m512_n512_f32_1_alg».proof.Proof.Word.Names

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device `c`'s slab as its staging buffer holds it once fetched. -/
def xstg (c : Dev nD) : (cc0_stg0_0 : Ref sig .tc).ty.Contents (Elt F) :=
  (win0_0.blk t0_0).view.read (Elt F) (m ((c : Thread nD τ).loc main_arg0))

/-- The four rectangles of the two additions: the slab's entries at the device's own column half, rows `256·x …` and
    the other 256 rows; the result's rows `256·x …` and the other 256; and a landing buffer whole. -/
abbrev rX1 (c : Dev nD) : Rect S1x512x1024 := Rect.unit (s := S1x512x1024) (k0_off2 c) S1x256x512.size (k0_off2_inb c)
abbrev rX2 (c : Dev nD) : Rect S1x512x1024 := Rect.unit (s := S1x512x1024) (k0_off4 c) S1x256x512.size (k0_off4_inb c)
abbrev rO1 (c : Dev nD) : Rect S512x512 := Rect.unit (s := S512x512) (k0_off3 c) S256x512.size (k0_off3_inb c)
abbrev rO2 (c : Dev nD) : Rect S512x512 := Rect.unit (s := S512x512) (k0_off5 c) S256x512.size (k0_off5_inb c)
abbrev rA : Rect S256x512 := Rect.unit (s := S256x512) ![0, 0] S256x512.size inb_S256x512_S256x512_0_0

/-- A slab's 256×512 block at device `c`'s own rows and columns; at its other rows. -/
def xHalf1 (c : Dev nD) (f : (cc0_stg0_0 : Ref sig .tc).ty.Contents (Elt F)) : Vec F S1x256x512 .f32 :=
  (xM : Memref sig .tc .vmem S1x512x1024 .f32).view.readAt (Elt F) (rX1 c).toLoadRect f
def xHalf2 (c : Dev nD) (f : (cc0_stg0_0 : Ref sig .tc).ty.Contents (Elt F)) : Vec F S1x256x512 .f32 :=
  (xM : Memref sig .tc .vmem S1x512x1024 .f32).view.readAt (Elt F) (rX2 c).toLoadRect f

/-- What the first landing buffer of `c` holds once its eight chunks have landed: the PARTNER's slab at `c`'s own rows
    and columns. -/
def aVal (c : Dev nD) : (cc0_scratch0 : Ref sig .tc).ty.Contents (Elt F) :=
  shapeCast S256x512 (xHalf1 c (xstg m (par c))) shapeCasts_S1x256x512_S256x512
/-- What the second holds: what the SIBLING's first landing buffer holds. -/
def bVal (c : Dev nD) : (cc0_scratch1 : Ref sig .tc).ty.Contents (Elt F) := aVal m (sib c)

/-- The result on device `c`: its own rows from the first landing buffer, the other rows from the second, each plus its
    own slab's entries there. -/
def outAt (c : Dev nD) : (cc0_stg1_0 : Ref sig .tc).ty.Contents (Elt F) :=
  ((oM : Memref sig .tc .vmem S512x512 .f32).access (rO2 c) : View sig .tc _ _ _).write (Elt F)
    (((oM : Memref sig .tc .vmem S512x512 .f32).access (rO1 c) : View sig .tc _ _ _).write (Elt F) (fun _ => Classical.arbitrary _)
      (k0_pay1 (aVal m c) (xHalf1 c (xstg m c))) Finset.univ)
    (k0_pay2 (bVal m c) (xHalf2 c (xstg m c))) Finset.univ

/-! ## Points-to, by chunk -/

def aPt (c : Dev nD) (k : Fin 8) (q : PosShare TreeShare) (f : Buf (Elt F) ((aCh k : Memref sig .tc .vmem S32x512 .f32).view.loc (c : Thread nD τ))) : sProp 𝕄 :=
  (aCh k : Memref sig .tc .vmem S32x512 .f32).view.loc (c : Thread nD τ) ↦[(aCh k : Memref sig .tc .vmem S32x512 .f32).view.set]{q} f
def bPt (c : Dev nD) (k : Fin 8) (q : PosShare TreeShare) (f : Buf (Elt F) ((bCh k : Memref sig .tc .vmem S32x512 .f32).view.loc (c : Thread nD τ))) : sProp 𝕄 :=
  (bCh k : Memref sig .tc .vmem S32x512 .f32).view.loc (c : Thread nD τ) ↦[(bCh k : Memref sig .tc .vmem S32x512 .f32).view.set]{q} f
def xPt (c : Dev nD) (k : Fin 8) (f : Buf (Elt F) ((xSl c k : Memref sig .tc .vmem S32x512 .f32).view.loc (c : Thread nD τ))) : sProp 𝕄 :=
  (xSl c k : Memref sig .tc .vmem S32x512 .f32).view.loc (c : Thread nD τ) ↦[(xSl c k : Memref sig .tc .vmem S32x512 .f32).view.set]{fullShare} f

def aWhole (c : Dev nD) (f : Buf (Elt F) ((c : Thread nD τ).loc cc0_scratch0)) : sProp 𝕄 := ((c : Thread nD τ).loc cc0_scratch0) ↦{fullShare} f
def bWhole (c : Dev nD) (f : Buf (Elt F) ((c : Thread nD τ).loc cc0_scratch1)) : sProp 𝕄 := ((c : Thread nD τ).loc cc0_scratch1) ↦{fullShare} f

/-! ## The payloads -/

/-- Duty `false` of `c`'s barrier cell, the partner's signal: the partner's first landing buffer. Duty `true`, the
    sibling's: the sibling's second landing buffer. -/
def payBarP (c : Dev nD) : sProp 𝕄 := iprop(∃ f, aWhole (par c) f)
def payBarS (c : Dev nD) : sProp 𝕄 := iprop(∃ f, bWhole (sib c) f)
/-- The four transfer families. -/
def payAS (c : Dev nD) (k : Fin 8) : sProp 𝕄 := xPt c k (xstg m c)
def payAR (c : Dev nD) (k : Fin 8) : sProp 𝕄 := aPt c k fullShare (aVal m c)
def payBS (c : Dev nD) (k : Fin 8) : sProp 𝕄 := aPt c k fullShare.left (aVal m c)
def payBR (c : Dev nD) (k : Fin 8) : sProp 𝕄 := bPt c k fullShare (bVal m c)

def jOf (s : DmaSem sig) : ℕ := (s.val - 2) / 8
def kOf (s : DmaSem sig) : Fin 8 := ⟨(s.val - 2) % 8, Nat.mod_lt _ (by decide)⟩

theorem jOf_qsem (j : Fin 4) (k : Fin 8) : jOf (qsem j k) = j.val := by
  have := j.isLt; have := k.isLt; show (2 + 8 * j.val + k.val - 2) / 8 = j.val; omega
theorem kOf_qsem (j : Fin 4) (k : Fin 8) : kOf (qsem j k) = k := by
  have := j.isLt; have := k.isLt; exact Fin.ext (show (2 + 8 * j.val + k.val - 2) % 8 = k.val by omega)
theorem two_le_qsem (j : Fin 4) (k : Fin 8) : 2 ≤ (qsem j k).val := by show 2 ≤ 2 + 8 * j.val + k.val; omega

def payJ (c : Dev nD) (k : Fin 8) : ℕ → sProp 𝕄
  | 0 => payAS m c k
  | 1 => payAR m c k
  | 2 => payBS m c k
  | _ => payBR m c k

def payQ (c : Dev nD) (s : DmaSem sig) : sProp 𝕄 := if 2 ≤ s.val then payJ m c (kOf s) (jOf s) else iprop(emp)

/-! ## The schedule -/

def rd : Rounds.Schedule (GSem nD τ sig) Bool 𝕄 where
  duties g r := if r = 0 ∧ g.1.2 = .tc then
      (match g.2 with
        | .reg s => if s = barS then Finset.univ else ∅
        | .dma s => if 2 ≤ s.val then {false} else ∅)
    else ∅
  amount g _ _ := match g.2 with
    | .reg _ => 1
    | .dma _ => N32
  payload g _ d := match g.2 with
    | .reg s => if s = barS then (if d then payBarS g.1.1 else payBarP g.1.1) else iprop(emp)
    | .dma s => payQ m g.1.1 s
  amount_pos g _ _ _ := by
    cases g.2 with
    | reg s => exact Nat.one_pos
    | dma s => exact N32_pos

instance rd_payload_storable (g : GSem nD τ sig) (r : ℕ) (d : Bool) :
    BI.Storable (upEmb : UEmb _ 𝕄) ((rd (F := F) m).payload g r d) := by
  show BI.Storable upEmb (match g.2 with
    | .reg s => if s = barS then (if d then payBarS g.1.1 else payBarP g.1.1) else iprop(emp)
    | .dma s => payQ m g.1.1 s)
  cases g.2 with
  | reg s => dsimp only; unfold payBarS payBarP aWhole bWhole; (repeat' split) <;> infer_instance
  | dma s =>
    dsimp only; unfold payQ
    split
    · unfold payJ; split <;> (first | (unfold payAS xPt; infer_instance) | (unfold payAR aPt; infer_instance) | (unfold payBS aPt; infer_instance) | (unfold payBR bPt; infer_instance))
    · infer_instance

section Tables
variable (c : Dev nD)

omit [FloatOps F] in
theorem duties_bar : (rd (F := F) m).duties (barCell c) 0 = Finset.univ := by
  dsimp only [rd]; rw [if_pos ⟨rfl, rfl⟩]; exact if_pos rfl
omit [FloatOps F] in
theorem duties_q (j : Fin 4) (k : Fin 8) : (rd (F := F) m).duties (qCell c j k) 0 = {false} := by
  dsimp only [rd]; rw [if_pos ⟨rfl, rfl⟩]; exact if_pos (two_le_qsem j k)
omit [FloatOps F] in
theorem duties_later (g : GSem nD τ sig) : ∀ r, 1 ≤ r → (rd (F := F) m).duties g r = ∅ :=
  fun r hr => by dsimp only [rd]; rw [if_neg fun h => by omega]
omit [FloatOps F] in
theorem amount_bar (d : Bool) : (rd (F := F) m).amount (barCell c) 0 d = 1 := rfl
omit [FloatOps F] in
theorem amount_q (j : Fin 4) (k : Fin 8) (d : Bool) : (rd (F := F) m).amount (qCell c j k) 0 d = N32 := rfl
omit [FloatOps F] in
theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_q (j : Fin 4) (k : Fin 8) : (rd (F := F) m).expect (qCell c j k) 0 = N32 := by
  unfold Schedule.expect Schedule.amountOf; rw [duties_q, Finset.sum_singleton, amount_q]

omit [FloatOps F] in
theorem payload_bar_true : (rd (F := F) m).payload (barCell c) 0 true = payBarS c := by
  dsimp only [rd]; rw [if_pos rfl, if_pos rfl]
omit [FloatOps F] in
theorem payload_bar_false : (rd (F := F) m).payload (barCell c) 0 false = payBarP c := by
  dsimp only [rd]; rw [if_pos rfl]; exact if_neg Bool.false_ne_true
omit [FloatOps F] in
theorem payload_q (j : Fin 4) (k : Fin 8) (d : Bool) : (rd (F := F) m).payload (qCell c j k) 0 d = payJ m c k j.val := by
  dsimp only [rd]; unfold payQ; rw [if_pos (two_le_qsem j k), jOf_qsem, kOf_qsem]
omit [FloatOps F] in
theorem payload_AS (k : Fin 8) (d : Bool) : (rd (F := F) m).payload (qCell c 0 k) 0 d = payAS m c k := payload_q m c 0 k d
omit [FloatOps F] in
theorem payload_AR (k : Fin 8) (d : Bool) : (rd (F := F) m).payload (qCell c 1 k) 0 d = payAR m c k := payload_q m c 1 k d
omit [FloatOps F] in
theorem payload_BS (k : Fin 8) (d : Bool) : (rd (F := F) m).payload (qCell c 2 k) 0 d = payBS m c k := payload_q m c 2 k d
omit [FloatOps F] in
theorem payload_BR (k : Fin 8) (d : Bool) : (rd (F := F) m).payload (qCell c 3 k) 0 d = payBR m c k := payload_q m c 3 k d

omit [FloatOps F] in
/-- The whole round of the barrier cell: the partner's landing buffer and the sibling's. -/
theorem rest_bar : bigSep ((rd (F := F) m).duties (barCell c) 0 \ ∅) (fun d => (rd (F := F) m).payload (barCell c) 0 d) = iprop(payBarP c ∗ payBarS c) := by
  rw [Finset.sdiff_empty, duties_bar, bigSep_univ_eq_bigSepL [false, true] (by decide) (by decide), bigSepL_cons_cons, bigSepL_singleton,
    payload_bar_false, payload_bar_true]
  rfl
omit [FloatOps F] in
theorem rest_q (j : Fin 4) (k : Fin 8) : bigSep ((rd (F := F) m).duties (qCell c j k) 0 \ ∅) (fun d => (rd (F := F) m).payload (qCell c j k) 0 d) = payJ m c k j.val := by
  rw [Finset.sdiff_empty, duties_q, bigSep_singleton, payload_q]

end Tables

/-! ## What a device owes at launch; the levels -/

/-- The receive credit of the first wave's transfers not yet sent (to the partner), of the second wave's (to the sibling). -/
def oweA (c : Dev nD) (S : Finset (Fin 8)) : CellTallies nD τ sig Unit := ∑ k ∈ S, tallyAt (qCell (par c) 1 k) () N32
def oweB (c : Dev nD) (S : Finset (Fin 8)) : CellTallies nD τ sig Unit := ∑ k ∈ S, tallyAt (qCell (sib c) 3 k) () N32

/-- At launch: all sixteen, and a unit on each neighbour's barrier cell — summed so that the first signal (to the
    partner) peels the last summand and the second (to the sibling) the next. -/
def O₁ (c : Dev nD) : CellTallies nD τ sig Unit := oweA c Finset.univ + oweB c Finset.univ
def O₀ (c : Dev nD) : CellTallies nD τ sig Unit := O₁ c + tallyAt (barCell (sib c)) () 1 + tallyAt (barCell (par c)) () 1

theorem oweA_insert (c : Dev nD) {k : Fin 8} {S : Finset (Fin 8)} (h : k ∉ S) :
    oweA c (insert k S) = oweA c S + tallyAt (qCell (par c) 1 k) () N32 := by
  unfold oweA; rw [Finset.sum_insert h, add_comm]
theorem oweB_insert (c : Dev nD) {k : Fin 8} {S : Finset (Fin 8)} (h : k ∉ S) :
    oweB c (insert k S) = oweB c S + tallyAt (qCell (sib c) 3 k) () N32 := by
  unfold oweB; rw [Finset.sum_insert h, add_comm]
theorem oweA_empty (c : Dev nD) : oweA c ∅ = 0 := Finset.sum_empty
theorem oweB_empty (c : Dev nD) : oweB c ∅ = 0 := Finset.sum_empty

def L (g : GSem nD τ sig) : Finset Unit := if g.1.2 = .tc then {()} else ∅
/-- Staging and send cells at 0, barrier cells at 1, the first wave's receive cells at 2, the second wave's at 3: a
    device waits on a cell only while everything it still owes sits strictly above it. -/
def lv (g : GSem nD τ sig) (_ : Unit) : ℕ := match g.2 with
  | .reg s => if s = barS then 1 else 0
  | .dma s => if 2 ≤ s.val then (if jOf s = 1 then 2 else if jOf s = 3 then 3 else 0) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; exact if_pos rfl
theorem lv_q (c : Dev nD) (j : Fin 4) (k : Fin 8) : lv (qCell c j k) () = if j.val = 1 then 2 else if j.val = 3 then 3 else 0 := by
  dsimp only [lv]; rw [if_pos (two_le_qsem j k), jOf_qsem]

end Cert.Kernel.RS

end
-- ==== Proof.Word.State.lean ====
/-
The state of one device's thread between the statements of the kernel body.

Besides the persistent records (every cell's invariant and that its one round is reached) a device holds, for each of
its eight chunks `k`, a small bundle whose shape depends only on how far that chunk has come:
  0  nothing sent yet (the piece of the slab to send, the partner's and the sibling's landing rows to fill, four positions,
     four duty tokens, the two receive credits);
  1  first-wave transfer `k` sent;
  2  its partner's first-wave transfer `k` has landed: rows `32k…` of the first landing buffer hold the partner's values;
  3  those rows forwarded to the sibling (the left half of their share lent to that transfer);
  4  the sibling's forward has landed: rows `32k…` of the second landing buffer hold their values;
  5  the first-wave send side waited for (the slab piece is back);
  6  the second-wave send side waited for (the lent half is back): all four cells closed at zero.
-/
import proofs.«901027_g7700000000001028_dist_rs_v7x_xyz2x2x2_y_m512_n512_f32_1_alg».proof.Proof.Word.Sched

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The persistent records -/

def recs (K : GSem nD τ sig → ℕ) : sProp 𝕄 :=
  iprop((bigSep Finset.univ fun c : Dev nD => cellInv ER (rd m) (K (barCell c)) (barCell c))
    ∗ (bigSep Finset.univ fun x : Dev nD × Fin 4 × Fin 8 => cellInv ER (rd m) (K (qCell x.1 x.2.1 x.2.2)) (qCell x.1 x.2.1 x.2.2))
    ∗ (bigSep Finset.univ fun c : Dev nD => reached ER (barCell c) 0)
    ∗ (bigSep Finset.univ fun x : Dev nD × Fin 4 × Fin 8 => reached ER (qCell x.1 x.2.1 x.2.2) 0))

instance recs_persistent (K : GSem nD τ sig → ℕ) : BI.Persistent (recs m K) := by unfold recs; infer_instance

omit [FloatOps F] in
theorem barInv_at (K : GSem nD τ sig → ℕ) (c : Dev nD) :
    (bigSep Finset.univ fun c : Dev nD => (cellInv ER (rd m) (K (barCell c)) (barCell c) : sProp 𝕄)) ⊢ cellInv ER (rd m) (K (barCell c)) (barCell c) :=
  bigSep_elim (Finset.mem_univ c)
omit [FloatOps F] in
theorem barReached_at (c : Dev nD) :
    (bigSep Finset.univ fun c : Dev nD => (reached ER (barCell c) 0 : sProp 𝕄)) ⊢ reached ER (barCell c) 0 :=
  bigSep_elim (Finset.mem_univ c)
omit [FloatOps F] in
theorem qInv_at (K : GSem nD τ sig → ℕ) (x : Dev nD × Fin 4 × Fin 8) :
    (bigSep Finset.univ fun x : Dev nD × Fin 4 × Fin 8 => (cellInv ER (rd m) (K (qCell x.1 x.2.1 x.2.2)) (qCell x.1 x.2.1 x.2.2) : sProp 𝕄))
      ⊢ cellInv ER (rd m) (K (qCell x.1 x.2.1 x.2.2)) (qCell x.1 x.2.1 x.2.2) :=
  bigSep_elim (Finset.mem_univ x)
omit [FloatOps F] in
theorem qReached_at (x : Dev nD × Fin 4 × Fin 8) :
    (bigSep Finset.univ fun x : Dev nD × Fin 4 × Fin 8 => (reached ER (qCell x.1 x.2.1 x.2.2) 0 : sProp 𝕄)) ⊢ reached ER (qCell x.1 x.2.1 x.2.2) 0 :=
  bigSep_elim (Finset.mem_univ x)

omit [FloatOps F] in
theorem recs_bar (K : GSem nD τ sig → ℕ) (c : Dev nD) :
    recs m K ⊢ iprop(cellInv ER (rd m) (K (barCell c)) (barCell c) ∗ reached ER (barCell c) 0) := by
  unfold recs
  iintro ⟨#H1, -, #H3, -⟩
  isplitr
  · iapply (barInv_at m K c); iexact H1
  · iapply (barReached_at (F := F) c); iexact H3

omit [FloatOps F] in
theorem recs_q (K : GSem nD τ sig → ℕ) (c : Dev nD) (j : Fin 4) (k : Fin 8) :
    recs m K ⊢ iprop(cellInv ER (rd m) (K (qCell c j k)) (qCell c j k) ∗ reached ER (qCell c j k) 0) := by
  unfold recs
  iintro ⟨-, #H2, -, #H4⟩
  isplitr
  · iapply (qInv_at m K (c, j, k)); iexact H2
  · iapply (qReached_at (F := F) (c, j, k)); iexact H4

/-! ## One chunk's bundle -/

abbrev atQ (c : Dev nD) (j : Fin 4) (k : Fin 8) : sProp 𝕄 := atPos ER (qCell c j k) 0 ∅ 0
abbrev tokQ (c : Dev nD) (j : Fin 4) (k : Fin 8) : sProp 𝕄 := dutyTok ER (qCell c j k) 0 false
abbrev credQ (c : Dev nD) (j : Fin 4) (k : Fin 8) : sProp 𝕄 := cred (tallyAt (qCell c j k) () N32)
abbrev zQ (c : Dev nD) (j : Fin 4) (k : Fin 8) : sProp 𝕄 := semVal (qCell c j k) 0

def chunkSt (c : Dev nD) (k : Fin 8) : ℕ → sProp 𝕄
  | 0 => iprop(atQ c 0 k ∗ atQ c 1 k ∗ atQ c 2 k ∗ atQ c 3 k ∗ tokQ c 0 k ∗ tokQ (par c) 1 k ∗ tokQ c 2 k ∗ tokQ (sib c) 3 k
        ∗ credQ c 1 k ∗ credQ c 3 k ∗ xPt c k (xstg m c) ∗ (∃ f, aPt (par c) k fullShare f) ∗ (∃ f, bPt (sib c) k fullShare f))
  | 1 => iprop(atQ c 0 k ∗ atQ c 1 k ∗ atQ c 2 k ∗ atQ c 3 k ∗ tokQ c 2 k ∗ tokQ (sib c) 3 k
        ∗ credQ c 1 k ∗ credQ c 3 k ∗ credQ c 0 k ∗ (∃ f, bPt (sib c) k fullShare f))
  | 2 => iprop(atQ c 0 k ∗ zQ c 1 k ∗ atQ c 2 k ∗ atQ c 3 k ∗ tokQ c 2 k ∗ tokQ (sib c) 3 k
        ∗ credQ c 3 k ∗ credQ c 0 k ∗ (∃ f, bPt (sib c) k fullShare f) ∗ aPt c k fullShare (aVal m c))
  | 3 => iprop(atQ c 0 k ∗ zQ c 1 k ∗ atQ c 2 k ∗ atQ c 3 k ∗ credQ c 3 k ∗ credQ c 0 k ∗ credQ c 2 k ∗ aPt c k fullShare.right (aVal m c))
  | 4 => iprop(atQ c 0 k ∗ zQ c 1 k ∗ atQ c 2 k ∗ zQ c 3 k ∗ credQ c 0 k ∗ credQ c 2 k ∗ aPt c k fullShare.right (aVal m c) ∗ bPt c k fullShare (bVal m c))
  | 5 => iprop(zQ c 0 k ∗ zQ c 1 k ∗ atQ c 2 k ∗ zQ c 3 k ∗ credQ c 2 k ∗ aPt c k fullShare.right (aVal m c) ∗ bPt c k fullShare (bVal m c) ∗ xPt c k (xstg m c))
  | _ => iprop(zQ c 0 k ∗ zQ c 1 k ∗ zQ c 2 k ∗ zQ c 3 k ∗ aPt c k fullShare (aVal m c) ∗ bPt c k fullShare (bVal m c) ∗ xPt c k (xstg m c))

/-- The eight bundles, chunk `i` at stage `s i`. -/
def St (c : Dev nD) (s : Fin 8 → ℕ) : sProp 𝕄 :=
  iprop(chunkSt m c 0 (s 0) ∗ chunkSt m c 1 (s 1) ∗ chunkSt m c 2 (s 2) ∗ chunkSt m c 3 (s 3)
    ∗ chunkSt m c 4 (s 4) ∗ chunkSt m c 5 (s 5) ∗ chunkSt m c 6 (s 6) ∗ chunkSt m c 7 (s 7))

/-! ## The rest of the slab's staging buffer, and the result's -/

/-- The slab's entries that no first-wave transfer sends (they include both rectangles the additions read). -/
def xRestSet (c : Dev nD) : Finset (Idx ((c : Thread nD τ).loc cc0_stg0_0)) :=
  Finset.univ \ (Finset.univ : Finset (Fin 8)).biUnion fun k => (xSl c k : Memref sig .tc .vmem S32x512 .f32).view.set
def xRest (c : Dev nD) : sProp 𝕄 := ((c : Thread nD τ).loc cc0_stg0_0) ↦[xRestSet c]{fullShare} xstg m c
def xWhole (c : Dev nD) (f : Buf (Elt F) ((c : Thread nD τ).loc cc0_stg0_0)) : sProp 𝕄 := ((c : Thread nD τ).loc cc0_stg0_0) ↦{fullShare} f
def oWhole (c : Dev nD) (f : Buf (Elt F) ((c : Thread nD τ).loc cc0_stg1_0)) : sProp 𝕄 := ((c : Thread nD τ).loc cc0_stg1_0) ↦{fullShare} f

/-- The result's staging buffer: arbitrary; after the first addition's store; after the second's. -/
def oSt (c : Dev nD) : ℕ → sProp 𝕄
  | 0 => iprop(∃ g, oWhole c g)
  | 1 => iprop(∃ g, oWhole c (((oM : Memref sig .tc .vmem S512x512 .f32).access (rO1 c) : View sig .tc _ _ _).write (Elt F) g
            (k0_pay1 (aVal m c) (xHalf1 c (xstg m c))) Finset.univ))
  | _ => oWhole c (outAt m c)

/-- The state between two statements once the entry handshake is over: chunk `i` at stage `s i`, the result's buffer at
    stage `os`; the device still owes the receive credit of exactly the transfers it has not yet sent. -/
def PSt (K : GSem nD τ sig → ℕ) (c : Dev nD) (s : Fin 8 → ℕ) (os : ℕ) : sProp 𝕄 :=
  iprop(recs m K ∗ levAts L lv
    ∗ (∃ W, owes (c : Thread nD τ) (oweA c (Finset.univ.filter fun i => s i = 0) + oweB c (Finset.univ.filter fun i => s i < 3)) W)
    ∗ St m c s ∗ xRest m c ∗ oSt m c os)

/-! ## What a device starts from and ends with -/

def chunkG (c : Dev nD) (k : Fin 8) : sProp 𝕄 :=
  iprop(atQ c 0 k ∗ atQ c 1 k ∗ atQ c 2 k ∗ atQ c 3 k ∗ tokQ c 0 k ∗ tokQ (par c) 1 k ∗ tokQ c 2 k ∗ tokQ (sib c) 3 k)

/-- The linear ghost state: the barrier cell's position, the two barrier duties the device pays (its partner's `false`,
    its sibling's `true`), and per chunk the four positions and the four transfer duties it pays. -/
def linear (c : Dev nD) : sProp 𝕄 :=
  iprop(atPos ER (barCell c) 0 ∅ 0 ∗ dutyTok ER (barCell (par c)) 0 false ∗ dutyTok ER (barCell (sib c)) 0 true
    ∗ bigSep Finset.univ (chunkG (F := F) c))

def G' (c : Dev nD) : sProp 𝕄 := iprop(∃ K, recs m K ∗ linear (F := F) c)

def start (c : Dev nD) : sProp 𝕄 :=
  iprop(G' m c ∗ cred (tallyAt (barCell c) () 2)
    ∗ (bigSep Finset.univ fun k : Fin 8 => iprop(credQ (F := F) c 1 k ∗ credQ (F := F) c 3 k)) ∗ levAts L lv)

def Φ₀ (c : Dev nD) : sProp 𝕄 := iprop(start m c ∗ (∃ f, aWhole c f) ∗ (∃ f, bWhole c f))
def Φ₁ (c : Dev nD) : sProp 𝕄 :=
  iprop((∃ f, aWhole c f) ∗ (∃ f, bWhole c f) ∗ bigSep Finset.univ fun x : Fin 4 × Fin 8 => zQ (F := F) c x.1 x.2)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.Kernel.RS

end
-- ==== Proof.Word.Levels.lean ====
/-
Why every wait is allowed (what is still owed sits strictly above the cell waited on), and the credit each device is
dealt at launch (what all devices together owe its cells).
-/
import proofs.«901027_g7700000000001028_dist_rs_v7x_xyz2x2x2_y_m512_n512_f32_1_alg».proof.Proof.Word.State

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where the owed tallies sit -/

omit [FloatOps F] in
/-- The only index of a cell of a device's own thread. -/
theorem unit_mem_L (c : Dev nD) (sm : SemLoc sig) : () ∈ L ((c : Thread nD τ), sm) := by
  rw [L_tc]; exact Finset.mem_singleton_self _

omit [FloatOps F] in
/-- First-wave receive credit sits on first-wave receive cells: level 2. -/
theorem oweA_pos {c : Dev nD} {S : Finset (Fin 8)} {g : GSem nD τ sig} {i : Unit} (h : 0 < oweA c S g i) : i ∈ L g ∧ lv g i = 2 := by
  unfold oweA at h
  obtain ⟨k, -, hk⟩ := Pipeline.sum_pos_exists h
  obtain ⟨rfl, rfl⟩ := Pipeline.tallyAt_pos hk
  exact ⟨unit_mem_L _ _, by rw [lv_q]; rfl⟩

omit [FloatOps F] in
/-- Second-wave receive credit sits on second-wave receive cells: level 3. -/
theorem oweB_pos {c : Dev nD} {S : Finset (Fin 8)} {g : GSem nD τ sig} {i : Unit} (h : 0 < oweB c S g i) : i ∈ L g ∧ lv g i = 3 := by
  unfold oweB at h
  obtain ⟨k, -, hk⟩ := Pipeline.sum_pos_exists h
  obtain ⟨rfl, rfl⟩ := Pipeline.tallyAt_pos hk
  exact ⟨unit_mem_L _ _, by rw [lv_q]; rfl⟩

omit [FloatOps F] in
/-- A unit owed to a device's barrier cell sits at level 1. -/
theorem bar_pos {d : Dev nD} {n : ℕ} {g : GSem nD τ sig} {i : Unit} (h : 0 < tallyAt (barCell d) () n g i) : i ∈ L g ∧ lv g i = 1 := by
  obtain ⟨rfl, rfl⟩ := Pipeline.tallyAt_pos h
  exact ⟨unit_mem_L _ _, lv_bar d⟩

omit [FloatOps F] in
/-- After the handshake everything owed is receive credit: level 2 or more. -/
theorem O₁_pos {c : Dev nD} {g : GSem nD τ sig} {i : Unit} (h : 0 < O₁ c g i) : i ∈ L g ∧ 2 ≤ lv g i := by
  unfold O₁ at h
  rcases Pipeline.add_pos_cases h with h | h
  · obtain ⟨h1, h2⟩ := oweA_pos h; exact ⟨h1, by omega⟩
  · obtain ⟨h1, h2⟩ := oweB_pos h; exact ⟨h1, by omega⟩

omit [FloatOps F] in
/-- At launch everything owed sits at level 1 or more. -/
theorem O₀_pos {c : Dev nD} {g : GSem nD τ sig} {i : Unit} (h : 0 < O₀ c g i) : i ∈ L g ∧ 1 ≤ lv g i := by
  unfold O₀ at h
  rcases Pipeline.add_pos_cases h with h | h
  · rcases Pipeline.add_pos_cases h with h | h
    · obtain ⟨h1, h2⟩ := O₁_pos h; exact ⟨h1, by omega⟩
    · obtain ⟨h1, h2⟩ := bar_pos h; exact ⟨h1, by omega⟩
  · obtain ⟨h1, h2⟩ := bar_pos h; exact ⟨h1, by omega⟩

/-! ## The waits -/

omit [FloatOps F] in
/-- At the barrier wait a device owes only receive credit (levels 2 and 3); the barrier cell is at level 1. -/
theorem mayWait_bar (c : Dev nD) : (levAts L lv : sProp 𝕄) ⊢ MayWait (c : Thread nD τ) (.reg barS) () (O₁ c) := by
  refine Pipeline.mayWait_of_levAts (unit_mem_L c _) (fun g i h => ?_)
  obtain ⟨h1, h2⟩ := O₁_pos h
  have h0 : lv ((c : Thread nD τ), .reg barS) () = 1 := lv_bar c
  exact ⟨h1, by rw [h0]; omega⟩

omit [FloatOps F] in
/-- At a first-wave receive wait (level 2) it owes only second-wave receive credit (level 3). -/
theorem mayWait_AR (c : Dev nD) (k : Fin 8) (SB : Finset (Fin 8)) :
    (levAts L lv : sProp 𝕄) ⊢ MayWait (c : Thread nD τ) (.dma (qsem 1 k)) () (oweA c ∅ + oweB c SB) := by
  refine Pipeline.mayWait_of_levAts (unit_mem_L c _) (fun g i h => ?_)
  rw [oweA_empty, zero_add] at h
  obtain ⟨h1, h2⟩ := oweB_pos h
  have h0 : lv ((c : Thread nD τ), .dma (qsem 1 k)) () = 2 := by rw [lv_q]; rfl
  exact ⟨h1, by rw [h0, h2]; decide⟩

omit [FloatOps F] in
/-- The pipeline's two staging semaphores (level 0) may be waited on whatever is owed: all of `O₀`, or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  refine Pipeline.mayWait_of_levAts (unit_mem_L c _) (fun g i h => ?_)
  have h0 : lv ((c : Thread nD τ), .dma q) () = 0 := by dsimp only [lv]; exact if_neg (by omega)
  rcases hO with rfl | rfl
  · obtain ⟨h1, h2⟩ := O₀_pos h
    exact ⟨h1, by rw [h0]; omega⟩
  · rw [Pi.zero_apply, Finsupp.zero_apply] at h
    exact absurd h (Nat.lt_irrefl 0)

omit [FloatOps F] in
/-- Nothing owed: `oweA c ∅ + oweB c ∅` is zero. -/
theorem owe_empty (c : Dev nD) : oweA c ∅ + oweB c ∅ = (0 : CellTallies nD τ sig Unit) := by
  rw [oweA_empty, oweB_empty, add_zero]

/-! ## The launch credit -/

omit [FloatOps F] in
/-- The two units on a device's barrier cell: its sibling owes one (the device is its sibling's sibling), its partner
    the other. -/
theorem creds_bar (c : Dev nD) :
    (iprop(Pipeline.launchCred (fun d : Dev nD => (tallyAt (barCell (sib d)) () 1 : CellTallies nD τ sig Unit)) c
        ∗ Pipeline.launchCred (fun d : Dev nD => (tallyAt (barCell (par d)) () 1 : CellTallies nD τ sig Unit)) c) : sProp 𝕄)
      ⊢ cred (tallyAt (barCell c) () 2) :=
  (BIClass.sep_mono (Pipeline.launchCred_tallyAt (.reg barS) sib sib sib_sib sib_sib () 1 c)
      (Pipeline.launchCred_tallyAt (.reg barS) par par par_par par_par () 1 c)).trans
    ((cred_add _ _).2.trans (Entails.of_eq (by rw [tallyAt_add])))

omit [FloatOps F] in
/-- The first wave's receive credit: cell `k` of device `c` is owed a block's credit by the one device whose partner is `c`. -/
theorem creds_A (c : Dev nD) :
    (bigSep Finset.univ fun k : Fin 8 => (Pipeline.launchCred (fun d : Dev nD => (tallyAt (qCell (par d) 1 k) () N32 : CellTallies nD τ sig Unit)) c : sProp 𝕄))
      ⊢ bigSep Finset.univ fun k : Fin 8 => credQ (F := F) c 1 k :=
  bigSep_mono fun k _ => Pipeline.launchCred_tallyAt (.dma (qsem 1 k)) par par par_par par_par () N32 c

omit [FloatOps F] in
/-- The second wave's: by the one device whose sibling is `c`. -/
theorem creds_B (c : Dev nD) :
    (bigSep Finset.univ fun k : Fin 8 => (Pipeline.launchCred (fun d : Dev nD => (tallyAt (qCell (sib d) 3 k) () N32 : CellTallies nD τ sig Unit)) c : sProp 𝕄))
      ⊢ bigSep Finset.univ fun k : Fin 8 => credQ (F := F) c 3 k :=
  bigSep_mono fun k _ => Pipeline.launchCred_tallyAt (.dma (qsem 3 k)) sib sib sib_sib sib_sib () N32 c

omit [FloatOps F] in
/-- The credit device `c` is dealt at launch: two units on its barrier cell (its partner's and its sibling's signals) and a
    block's credit on each of its sixteen receive cells. -/
theorem creds (c : Dev nD) :
    (Pipeline.launchCred O₀ c : sProp 𝕄)
      ⊢ iprop(cred (tallyAt (barCell c) () 2) ∗ bigSep Finset.univ fun k : Fin 8 => iprop(credQ (F := F) c 1 k ∗ credQ (F := F) c 3 k)) := by
  have hO : (O₀ : Dev nD → CellTallies nD τ sig Unit) = fun d =>
      ((∑ k : Fin 8, tallyAt (qCell (par d) 1 k) () N32) + (∑ k : Fin 8, tallyAt (qCell (sib d) 3 k) () N32)
        + tallyAt (barCell (sib d)) () 1) + tallyAt (barCell (par d)) () 1 := rfl
  rw [hO, Pipeline.launchCred_add, Pipeline.launchCred_add, Pipeline.launchCred_add, Pipeline.launchCred_sum, Pipeline.launchCred_sum, bigSep_sep']
  iintro ⟨⟨⟨HA, HB⟩, HS⟩, HP⟩
  isplitl [HS HP]
  · iapply (creds_bar (F := F) c)
    isplitl [HS]
    · iexact HS
    · iexact HP
  · isplitl [HA]
    · iapply (creds_A (F := F) c); iexact HA
    · iapply (creds_B (F := F) c); iexact HB

end Cert.Kernel.RS

end
-- ==== Proof.Word.Launch.lean ====
/-
The launch: from "each device's body is proved" to the run of the whole program on the eight devices.
-/
import proofs.«901027_g7700000000001028_dist_rs_v7x_xyz2x2x2_y_m512_n512_f32_1_alg».proof.Proof.Word.Levels
import proofs.«901027_g7700000000001028_dist_rs_v7x_xyz2x2x2_y_m512_n512_f32_1_alg».proof.Proof.Gen.Kernel.Frame

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duty tokens made at launch -/

/-- A transfer cell, by (device, family, chunk). -/
private abbrev qCellF (x : Dev nD × Fin 4 × Fin 8) : GSem nD τ sig := qCell x.1 x.2.1 x.2.2

private theorem barCell_injective : Function.Injective (barCell : Dev nD → GSem nD τ sig) :=
  fun a b h => congrArg (fun g : GSem nD τ sig => g.1.1) h

private theorem qCellF_injective : Function.Injective (qCellF : Dev nD × Fin 4 × Fin 8 → GSem nD τ sig) := by
  rintro ⟨c, j, k⟩ ⟨c', j', k'⟩ h
  have h1 : c = c' := congrArg (fun g : GSem nD τ sig => g.1.1) h
  have h2 : qsem j k = qsem j' k' := SemLoc.dma.inj (congrArg Prod.snd h)
  obtain ⟨hj, hk⟩ := qsem_inj h2
  subst h1 hj hk; rfl

/-- All eight barrier cells; all 256 transfer cells. The two sets share no cell: a barrier cell is a regular
    semaphore, a transfer cell a DMA semaphore. -/
private def barCells : Finset (GSem nD τ sig) := Finset.univ.map ⟨barCell, barCell_injective⟩
private def qCells : Finset (GSem nD τ sig) := Finset.univ.map ⟨qCellF, qCellF_injective⟩

private theorem cells_disjoint : Disjoint (barCells : Finset (GSem nD τ sig)) qCells := by
  rw [Finset.disjoint_left]
  intro g hb hq
  obtain ⟨c, -, rfl⟩ := Finset.mem_map.mp hb
  obtain ⟨x, -, hx⟩ := Finset.mem_map.mp hq
  have : (SemLoc.dma (qsem x.2.1 x.2.2) : SemLoc sig) = .reg barS := congrArg Prod.snd hx
  cases this

private def allCells : Finset (GSem nD τ sig) := barCells ∪ qCells

/-- A barrier cell has two duties, a transfer cell one. -/
private abbrev barTokF (x : Dev nD × Bool) : GSem nD τ sig × ℕ × Bool := (barCell x.1, 0, x.2)
private abbrev qTokF (x : Dev nD × Fin 4 × Fin 8) : GSem nD τ sig × ℕ × Bool := (qCellF x, 0, false)

private theorem barTokF_injective : Function.Injective (barTokF : Dev nD × Bool → GSem nD τ sig × ℕ × Bool) := by
  rintro ⟨c, d⟩ ⟨c', d'⟩ h
  have h1 : c = c' := congrArg (fun y : GSem nD τ sig × ℕ × Bool => y.1.1.1) h
  have h2 : d = d' := congrArg (fun y : GSem nD τ sig × ℕ × Bool => y.2.2) h
  subst h1 h2; rfl
private theorem qTokF_injective : Function.Injective (qTokF : Dev nD × Fin 4 × Fin 8 → GSem nD τ sig × ℕ × Bool) :=
  fun a b h => qCellF_injective (congrArg Prod.fst h)

private def barToks : Finset (GSem nD τ sig × ℕ × Bool) := Finset.univ.map ⟨barTokF, barTokF_injective⟩
private def qToks : Finset (GSem nD τ sig × ℕ × Bool) := Finset.univ.map ⟨qTokF, qTokF_injective⟩

private theorem toks_disjoint : Disjoint (barToks : Finset (GSem nD τ sig × ℕ × Bool)) qToks := by
  rw [Finset.disjoint_left]
  intro y hb hq
  obtain ⟨x, -, rfl⟩ := Finset.mem_map.mp hb
  obtain ⟨x', -, hx⟩ := Finset.mem_map.mp hq
  have : (SemLoc.dma (qsem x'.2.1 x'.2.2) : SemLoc sig) = .reg barS := congrArg (fun y : GSem nD τ sig × ℕ × Bool => y.1.2) hx
  cases this

private def allToks : Finset (GSem nD τ sig × ℕ × Bool) := barToks ∪ qToks

/-- The launch element: the pipeline's staging cells beside the protocol's cells and tokens. -/
private def u₀ : UU :=
  (initOf (Pipeline.cells cfgs cellOf_inj) (Pipeline.launchToks cfgs cellOf_inj), initOf allCells allToks)

omit [FloatOps F] in
/-- A family over all cells is the barrier cells' part and the transfer cells' part. -/
private theorem bigSep_cells (Φ : GSem nD τ sig → sProp 𝕄) :
    bigSep allCells Φ = iprop((bigSep Finset.univ fun c : Dev nD => Φ (barCell c)) ∗ bigSep Finset.univ fun x : Dev nD × Fin 4 × Fin 8 => Φ (qCellF x)) := by
  unfold allCells
  rw [bigSep_union cells_disjoint]
  unfold barCells qCells
  rw [bigSep_map, bigSep_map]; rfl

omit [FloatOps F] in
private theorem bigSep_bool (Φ : Bool → sProp 𝕄) : bigSep Finset.univ Φ = iprop(Φ false ∗ Φ true) :=
  bigSep_univ_eq_bigSepL [false, true] (by decide) (by decide) Φ

omit [FloatOps F] in
private theorem bigSep_toks (Φ : GSem nD τ sig × ℕ × Bool → sProp 𝕄) :
    bigSep allToks Φ = iprop((bigSep Finset.univ fun c : Dev nD => iprop(Φ (barCell c, 0, false) ∗ Φ (barCell c, 0, true)))
      ∗ bigSep Finset.univ fun x : Dev nD × Fin 4 × Fin 8 => Φ (qCellF x, 0, false)) := by
  unfold allToks
  rw [bigSep_union toks_disjoint]
  unfold barToks qToks
  rw [bigSep_map, bigSep_map, bigSep_univ_prod]
  congr 1
  exact bigSep_congr fun c _ => bigSep_bool _

/-! ## What the launch element deals a device -/

/-- A family over cells, at device `c`'s 33 own cells: its barrier cell and its 32 transfer cells. -/
private def cellFam (Φ : GSem nD τ sig → sProp 𝕄) (c : Dev nD) : sProp 𝕄 :=
  iprop(Φ (barCell c) ∗ bigSep Finset.univ fun x : Fin 4 × Fin 8 => Φ (qCell c x.1 x.2))

/-- The duty tokens of device `c`'s own cells. -/
private def toks (c : Dev nD) : sProp 𝕄 :=
  iprop((dutyTok ER (barCell c) 0 false ∗ dutyTok ER (barCell c) 0 true) ∗ bigSep Finset.univ fun x : Fin 4 × Fin 8 => tokQ (F := F) c x.1 x.2)

/-- Per device: the round state at counter zero of its 33 cells, that round 0 of each is reached, its position at the
    start of each, and its cells' tokens. -/
private def G (c : Dev nD) : sProp 𝕄 :=
  iprop(cellFam (fun g => roundState ER (rd m) g 0) c ∗ cellFam (fun g => reached ER g 0) c ∗ cellFam (fun g => atPos ER g 0 ∅ 0) c ∗ toks (F := F) c)

omit [FloatOps F] in
/-- A family over all cells, device by device. -/
private theorem bigSep_cells_dev (Φ : GSem nD τ sig → sProp 𝕄) : bigSep allCells Φ = bigSep Finset.univ (cellFam Φ) := by
  unfold cellFam
  rw [bigSep_cells, bigSep_univ_prod, ← bigSep_sep']

omit [FloatOps F] in
private theorem fund_all : BI.own (ER (initOf allCells allToks)) ⊢ (|==> bigSep Finset.univ (G m) : sProp 𝕄) := by
  have hT : bigSep allToks (fun x => (dutyTok ER x.1 x.2.1 x.2.2 : sProp 𝕄)) = bigSep Finset.univ fun c : Dev nD => toks c := by
    rw [bigSep_toks, bigSep_univ_prod, ← bigSep_sep']; rfl
  iintro HX
  imod (Rounds.fund ER (rd m) allCells allToks) $$ HX with ⟨Hst, Hr, Hat, Htok⟩
  imodintro
  ihave Hst' := (Entails.of_eq (bigSep_cells_dev fun g => roundState ER (rd m) g 0)) $$ Hst
  ihave Hr' := (Entails.of_eq (bigSep_cells_dev fun g => reached ER g 0)) $$ Hr
  ihave Hat' := (Entails.of_eq (bigSep_cells_dev fun g => atPos ER g 0 ∅ 0)) $$ Hat
  ihave Htok' := (Entails.of_eq hT) $$ Htok
  unfold G; rw [bigSep_sep', bigSep_sep', bigSep_sep']
  isplitl [Hst']; · iexact Hst'
  isplitl [Hr']; · iexact Hr'
  isplitl [Hat']; · iexact Hat'
  iexact Htok'

/-! ## The semaphores handed over at launch -/

/-- The kernel's own scoped semaphores: the 32 of the four transfer families. -/
private abbrev osem : Fin 4 × Fin 8 → SemLoc sig := fun x => .dma (qsem x.1 x.2)

private theorem ownSemFacts : Pipeline.OwnSemFacts cfg0.spec osem := by decide

private theorem share_eq (c : Dev nD) (w : Fin cfg0.W) : (dats m 0 c).share w = fullShare := by unfold Dat.share; split <;> rfl

omit [FloatOps F] in
private theorem ownSems0_eq (c : Dev nD) : (Pipeline.ownSems0 (Ix := Unit) (Name := ℕ) (U := UU) (Lvl := ℕ) (Val := Elt F) (τ := τ) osem c : sProp 𝕄)
    = bigSep Finset.univ fun x : Fin 4 × Fin 8 => zQ (F := F) c x.1 x.2 := rfl

omit [FloatOps F] in
/-- The barrier semaphore is the one semaphore that is not scoped. -/
private theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Each of the 33 counters at zero with its cell's round state at zero makes the cell's invariant, at some name. -/
private theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(cellFam (fun g => iprop(∃ κ : ℕ, cellInv ER (rd m) κ g)) c
          ∗ cellFam (fun g => reached ER g 0) c ∗ cellFam (fun g => atPos ER g 0 ∅ 0) c ∗ toks (F := F) c) := by
  rw [ownSems0_eq, unscopedSems0_eq]
  unfold G
  iintro ⟨Hos, Hus, Hst, Hr, Hat, Htok⟩
  ihave Hst' := (show cellFam (fun g => roundState ER (rd m) g 0) c
      ⊢ iprop(roundState ER (rd m) (barCell c) 0 ∗ bigSep Finset.univ fun x : Fin 4 × Fin 8 => roundState ER (rd m) (qCell c x.1 x.2) 0) from Entails.of_eq rfl) $$ Hst
  icases Hst' with ⟨HstB, HstQ⟩
  imod ((Rounds.body_intro ER (rd m) (barCell c)).trans inv_alloc) $$ [Hus HstB] with HinvB
  · isplitl [Hus] <;> iassumption
  imod (show iprop((bigSep Finset.univ fun x : Fin 4 × Fin 8 => zQ (F := F) c x.1 x.2) ∗ bigSep Finset.univ fun x : Fin 4 × Fin 8 => roundState ER (rd m) (qCell c x.1 x.2) 0)
      ⊢ (|={Set.univ}=> bigSep Finset.univ fun x : Fin 4 × Fin 8 => iprop(∃ κ : ℕ, cellInv ER (rd m) κ (qCell c x.1 x.2)) : sProp 𝕄) from by
        rw [← bigSep_sep']
        exact (bigSep_mono fun x _ => (Rounds.body_intro ER (rd m) (qCell c x.1 x.2)).trans inv_alloc).trans (bigSep_fupd _ _)) $$ [Hos HstQ] with HinvQ
  · isplitl [Hos] <;> iassumption
  imodintro
  isplitl [HinvB HinvQ]
  · iapply (show iprop((∃ κ : ℕ, cellInv ER (rd m) κ (barCell c)) ∗ bigSep Finset.univ fun x : Fin 4 × Fin 8 => iprop(∃ κ : ℕ, cellInv ER (rd m) κ (qCell c x.1 x.2)))
        ⊢ cellFam (fun g => iprop(∃ κ : ℕ, cellInv ER (rd m) κ g)) c from Entails.of_eq rfl)
    isplitl [HinvB] <;> iassumption
  isplitl [Hr]; · iexact Hr
  isplitl [Hat]; · iexact Hat
  iexact Htok

/-! ## From what is dealt to what each device starts from -/

omit [FloatOps F] in
private theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A family over (family, chunk), read chunk by chunk. -/
private theorem bigSep_q (Φ : Fin 4 → Fin 8 → sProp 𝕄) :
    (bigSep Finset.univ fun x : Fin 4 × Fin 8 => Φ x.1 x.2) = bigSep Finset.univ fun k : Fin 8 => iprop(Φ 0 k ∗ Φ 1 k ∗ Φ 2 k ∗ Φ 3 k) := by
  rw [bigSep_univ_prod (fun x : Fin 4 × Fin 8 => Φ x.1 x.2), bigSep_fin4]
  simp only [bigSep_sep']

private theorem parE_apply (c : Dev nD) : parE c = par c := rfl
private theorem sibE_apply (c : Dev nD) : sibE c = sib c := rfl

omit [FloatOps F] in
/-- Dealing a family over (device, family, chunk) to the devices: families 0 and 2 stay, family 1 crosses to the partner,
    family 3 to the sibling (both maps are involutions of the eight devices). -/
private theorem bigSep_deal (Φ : Dev nD → Fin 4 → Fin 8 → sProp 𝕄) :
    (bigSep Finset.univ fun c : Dev nD => bigSep Finset.univ fun x : Fin 4 × Fin 8 => Φ c x.1 x.2)
      = bigSep Finset.univ fun c : Dev nD => bigSep Finset.univ fun k : Fin 8 => iprop(Φ c 0 k ∗ Φ (par c) 1 k ∗ Φ c 2 k ∗ Φ (sib c) 3 k) := by
  rw [bigSep_congr (s := Finset.univ) fun (c : Dev nD) _ => bigSep_q (Φ c)]
  simp only [bigSep_sep']
  rw [bigSep_univ_equiv parE (fun c : Dev nD => bigSep Finset.univ fun k : Fin 8 => Φ c 1 k),
    bigSep_univ_equiv sibE (fun c : Dev nD => bigSep Finset.univ fun k : Fin 8 => Φ c 3 k)]
  rfl

omit [FloatOps F] in
/-- One chunk's positions and tokens. -/
private theorem chunkG_of (c : Dev nD) (k : Fin 8) :
    iprop((atQ (F := F) c 0 k ∗ atQ (F := F) c 1 k ∗ atQ (F := F) c 2 k ∗ atQ (F := F) c 3 k)
        ∗ (tokQ (F := F) c 0 k ∗ tokQ (F := F) (par c) 1 k ∗ tokQ (F := F) c 2 k ∗ tokQ (F := F) (sib c) 3 k))
      ⊢ chunkG (F := F) c k := by
  unfold chunkG
  iintro ⟨⟨A0, A1, A2, A3⟩, T0, T1, T2, T3⟩
  isplitl [A0]; · iexact A0
  isplitl [A1]; · iexact A1
  isplitl [A2]; · iexact A2
  isplitl [A3]; · iexact A3
  isplitl [T0]; · iexact T0
  isplitl [T1]; · iexact T1
  isplitl [T2]; · iexact T2
  iexact T3

/-- The five parts of one device's linear state: its barrier position, the partner's and the sibling's barrier duty, its 32
    transfer positions, and the 32 transfer duties it pays. -/
private def linParts (c : Dev nD) : sProp 𝕄 :=
  iprop(atPos ER (barCell c) 0 ∅ 0 ∗ dutyTok ER (barCell (par c)) 0 false ∗ dutyTok ER (barCell (sib c)) 0 true
    ∗ (bigSep Finset.univ fun k : Fin 8 => iprop(atQ (F := F) c 0 k ∗ atQ (F := F) c 1 k ∗ atQ (F := F) c 2 k ∗ atQ (F := F) c 3 k))
    ∗ (bigSep Finset.univ fun k : Fin 8 => iprop(tokQ (F := F) c 0 k ∗ tokQ (F := F) (par c) 1 k ∗ tokQ (F := F) c 2 k ∗ tokQ (F := F) (sib c) 3 k)))

omit [FloatOps F] in
private theorem linear_of (c : Dev nD) : linParts (F := F) c ⊢ linear (F := F) c := by
  unfold linear linParts
  iintro ⟨H1, H2, H3, H4, H5⟩
  isplitl [H1]; · iexact H1
  isplitl [H2]; · iexact H2
  isplitl [H3]; · iexact H3
  iapply (show iprop((bigSep Finset.univ fun k : Fin 8 => iprop(atQ (F := F) c 0 k ∗ atQ (F := F) c 1 k ∗ atQ (F := F) c 2 k ∗ atQ (F := F) c 3 k))
        ∗ (bigSep Finset.univ fun k : Fin 8 => iprop(tokQ (F := F) c 0 k ∗ tokQ (F := F) (par c) 1 k ∗ tokQ (F := F) c 2 k ∗ tokQ (F := F) (sib c) 3 k)))
      ⊢ bigSep Finset.univ (chunkG (F := F) c) from by
        rw [← bigSep_sep']
        exact bigSep_mono fun k _ => chunkG_of (F := F) c k)
  isplitl [H4] <;> iassumption

omit [FloatOps F] in
private theorem linear_all : (bigSep Finset.univ fun c : Dev nD => linParts (F := F) c) ⊢ bigSep Finset.univ fun c : Dev nD => linear (F := F) c :=
  bigSep_mono fun c _ => linear_of (F := F) c

omit [FloatOps F] in
/-- All devices' positions and tokens, dealt: a barrier cell's `false` token goes to the partner, its `true` token to the
    sibling; a first-wave receive token to the partner, a second-wave receive token to the sibling. -/
private theorem linear_intro :
    iprop((bigSep Finset.univ (cellFam (F := F) fun g => atPos ER g 0 ∅ 0)) ∗ bigSep Finset.univ fun c : Dev nD => toks (F := F) c)
      ⊢ bigSep Finset.univ fun c : Dev nD => linear (F := F) c := by
  unfold toks cellFam
  rw [bigSep_sep', bigSep_sep', bigSep_sep',
    bigSep_congr (s := Finset.univ) (fun (c : Dev nD) _ => bigSep_q (fun j k => atQ (F := F) c j k)),
    bigSep_deal (fun c j k => tokQ (F := F) c j k),
    bigSep_univ_equiv parE (fun c : Dev nD => (dutyTok ER (barCell c) 0 false : sProp 𝕄)),
    bigSep_univ_equiv sibE (fun c : Dev nD => (dutyTok ER (barCell c) 0 true : sProp 𝕄))]
  simp only [parE_apply, sibE_apply]
  iintro ⟨⟨H1, H4⟩, ⟨H2, H3⟩, H5⟩
  iapply (linear_all (F := F))
  unfold linParts
  rw [bigSep_sep', bigSep_sep', bigSep_sep', bigSep_sep']
  isplitl [H1]; · iexact H1
  isplitl [H2]; · iexact H2
  isplitl [H3]; · iexact H3
  isplitl [H4] <;> iassumption

omit [FloatOps F] in
private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
private theorem G'_intro (K : GSem nD τ sig → ℕ) (c : Dev nD) : iprop(recs m K ∗ linear (F := F) c) ⊢ G' m c := by
  unfold G'; iintro ⟨#HRc, HLc⟩; iexists K; isplitr; · iexact HRc
  iexact HLc

omit [FloatOps F] in
private theorem regroup :
    (bigSep Finset.univ fun c : Dev nD => iprop(cellFam (fun g => iprop(∃ κ : ℕ, cellInv ER (rd m) κ g)) c
          ∗ cellFam (fun g => reached ER g 0) c ∗ cellFam (fun g => atPos ER g 0 ∅ 0) c ∗ toks (F := F) c) : sProp 𝕄)
      ⊢ bigSep Finset.univ (G' m) := by
  rw [bigSep_sep', bigSep_sep', bigSep_sep',
    ← bigSep_cells_dev (fun g => iprop(∃ κ : ℕ, cellInv ER (rd m) κ g)),
    ← bigSep_cells_dev (fun g => (reached ER g 0 : sProp 𝕄))]
  iintro ⟨HI, #HR, Hat, Htok⟩
  ihave HK := (BI.bigSep_exists_pi allCells (fun (g : GSem nD τ sig) (κ : ℕ) => (cellInv ER (rd m) κ g : sProp 𝕄))) $$ HI
  icases HK with ⟨%K, #HI⟩
  ihave HI' := (Entails.of_eq (bigSep_cells fun g => (cellInv ER (rd m) (K g) g : sProp 𝕄))) $$ HI
  ihave HR' := (Entails.of_eq (bigSep_cells fun g => (reached ER g 0 : sProp 𝕄))) $$ HR
  icases HI' with ⟨#HIb, #HIq⟩
  icases HR' with ⟨#HRb, #HRq⟩
  ihave HL := (linear_intro (F := F)) $$ [Hat Htok]
  · isplitl [Hat] <;> iassumption
  iapply (bigSep_with_persistent (R := recs m K) (Φ := fun c : Dev nD => linear (F := F) c) fun c _ => G'_intro m K c)
  isplitr
  · unfold recs
    isplitr; · iexact HIb
    isplitr; · iexact HIq
    isplitr; · iexact HRb
    iexact HRq
  · iexact HL

omit [FloatOps F] in
/-- The global step: every device's 33 counters at once, with what the launch element dealt. -/
private theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions of the run -/

/-- What a device starts from: what the global step made, the credit the others owe its cells, the level facts. -/
private theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

/-- Before the one grid point: that, and the two landing buffers whole at some contents. -/
private theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ aWhole bWhole
  iintro ⟨Hs, -, Ha, Hb⟩
  isplitl [Hs]; · iexact Hs
  isplitl [Ha] <;> iassumption

/-- After it: the two landing buffers back, and the 32 transfer counters at zero. -/
private theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁ aWhole bWhole
  iintro ⟨Ha, Hb, Hz⟩
  isplitr; · iempintro
  isplitl [Hz]; · iexact Hz
  isplitl [Ha] <;> iassumption

/-- The two staging semaphores sit at level 0: a device may wait on them whatever it owes. -/
private theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- Each window's array after the run, as the pipeline's proof data names it. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- At the compiled mesh of eight devices, from any memory with zero counters: every weakly fair execution of @main
    terminates, and every final state has each device's two arrays at the contents the proof data names. -/
theorem run_main (hbody : ∀ c : Dev nD, BodyObligation (dats (F := F) m 0 c) (defs₀ (F := F)) 𝒱₀ () Set.univ) :
    θ_run defs (onTc (τ := τ) (main (F := F))) ⟨m, fun _ => 0, ρ⟩ (QC m) := by
  exact Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.Kernel.RS

end
-- ==== Proof.Word.Final.lean ====
/-
From the run: the argument array of every device ends unchanged, and its result array ends holding `outAt`.
-/
import proofs.«901027_g7700000000001028_dist_rs_v7x_xyz2x2x2_y_m512_n512_f32_1_alg».proof.Proof.Word.Launch

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The slab's array after the run holds what it held. -/
theorem finalA_x (c : Dev nD) : finalA m c (0 : Fin 2) = m ((c : Thread nD τ).loc main_arg0) :=
  (dats (F := F) m 0 c).arrAt_in (0 : Fin 2) rfl _

/-- What the one write-back writes: the window is not cut, so it is all of what the body left in the staging buffer. -/
theorem flushed_o (c : Dev nD) : (dats (F := F) m 0 c).flushed (1 : Fin 2) t0_0 = outAt m c := by
  unfold dats; rfl

/-- The result's array after the run holds what the body left in its staging buffer. -/
theorem finalA_o (c : Dev nD) : finalA m c (1 : Fin 2) = outAt m c := by
  -- The grid has one point; after it the array has been overwritten once, through the point's block.
  have h1 : finalA m c (1 : Fin 2) = (dats (F := F) m 0 c).arrAt (1 : Fin 2) ((t0_0 : Fin cfg0.N).val + 1) :=
    congrArg ((dats (F := F) m 0 c).arrAt (1 : Fin 2)) N_0
  rw [h1, Dat.arrAt_succ, if_pos (flush0_1 t0_0), flushed_o]
  -- That block sits at offset zero and has the array's own sizes: written everywhere, it leaves exactly what was written.
  have hz : (fun a => win0_1.index t0_0 a * main_v1.ty.shape.size a) = fun _ => 0 := funext fun a => Nat.zero_mul _
  exact Memref.write_access_unit_zero_univ (Elt F) main_v1 hz (fun a => by rw [congrFun hz a]; simp) _ _

/-- The run, with each device's result named and its argument unchanged. -/
theorem run_values (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c 1).trans (finalA_o m c), (h c 0).trans (finalA_x m c)⟩) (run_main m ρ hbody)

/-- The frame: the run with the values dropped. -/
theorem run_frame (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_values m ρ hbody)

end Cert.Kernel.RS

end
-- ==== Proof.Word.Regions.lean ====
/-
The landing buffers as eight chunks of 32 rows, the slab's staging buffer as the eight pieces sent plus the rest; what a
landing writes, read index by index; the two stores of the result cover it.
-/
import proofs.«901027_g7700000000001028_dist_rs_v7x_xyz2x2x2_y_m512_n512_f32_1_alg».proof.Proof.Word.State
import Idealize.ShloMosaic.Lib.Pipeline.Value

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Splitting and joining -/

/-- The eight row blocks 32k … 32k+31 of a 256×512 buffer. -/
abbrev chR (k : Fin 8) : Rect S256x512 := Rect.unit (s := S256x512) ![32 * k.val, 0] S32x512.size (chunk_inb k)

/-- Two different row blocks share no entry: their rows are apart. -/
theorem chR_disjoint {k k' : Fin 8} (h : k ≠ k') : Disjoint (chR k).set (chR k').set :=
  Rect.unit_disjoint (0 : Fin 2) (by
    show 32 * k.val + 32 ≤ 32 * k'.val ∨ 32 * k'.val + 32 ≤ 32 * k.val
    have : k.val ≠ k'.val := fun e => h (Fin.ext e)
    omega)

/-- Every entry lies in the block of its row divided by 32. -/
theorem chR_cover : (Finset.univ : Finset (Fin 8)).biUnion (fun k => (chR k).set) = Finset.univ := by
  ext i
  simp only [Finset.mem_biUnion, Finset.mem_univ, true_and, iff_true]
  have h0 : (i 0).val < 256 := (i 0).isLt
  have h1 : (i 1).val < 512 := (i 1).isLt
  refine ⟨⟨(i 0).val / 32, by omega⟩, Rect.mem_set_unit.mpr fun a => ?_⟩
  match a with
  | ⟨0, _⟩ =>
    show 32 * ((i 0).val / 32) ≤ (i 0).val ∧ (i 0).val < 32 * ((i 0).val / 32) + 32
    omega
  | ⟨1, _⟩ =>
    show 0 ≤ (i 1).val ∧ (i 1).val < 0 + 512
    omega

omit [FloatOps F] in
theorem aCh_set (k : Fin 8) : (aCh k : Memref sig .tc .vmem S32x512 .f32).view.set = (chR k).set :=
  View.set_slice_whole cc0_scratch0 _
omit [FloatOps F] in
theorem bCh_set (k : Fin 8) : (bCh k : Memref sig .tc .vmem S32x512 .f32).view.set = (chR k).set :=
  View.set_slice_whole cc0_scratch1 _

/-- The piece of the slab that the k-th transfer of the first wave sends, as a rectangle of the slab. -/
abbrev xR (c : Dev nD) (k : Fin 8) : Rect S1x512x1024 :=
  Rect.unit (s := S1x512x1024) (k0_off1 c (BitVec.ofNat 32 (32 * k.val))) S1x32x512.size (k0_off1_inb c k)

omit [FloatOps F] in
theorem xSl_set (c : Dev nD) (k : Fin 8) : (xSl c k : Memref sig .tc .vmem S32x512 .f32).view.set = (xR c k).set :=
  (View.set_reshape _ _).trans (View.set_slice_whole cc0_stg0_0 _)

/-- Two different pieces sent share no entry: their rows are apart. -/
theorem xR_disjoint (c : Dev nD) {k k' : Fin 8} (h : k ≠ k') : Disjoint (xR c k).set (xR c k').set :=
  Rect.unit_disjoint (1 : Fin 3) (by
    rw [congrFun (k0_off1_eq c k) 1, congrFun (k0_off1_eq c k') 1]
    show 256 * (c.val / 4) + 32 * k.val + 32 ≤ 256 * (c.val / 4) + 32 * k'.val ∨ 256 * (c.val / 4) + 32 * k'.val + 32 ≤ 256 * (c.val / 4) + 32 * k.val
    have : k.val ≠ k'.val := fun e => h (Fin.ext e)
    omega)

omit [FloatOps F] in
/-- An entry of a piece sent has its column in the half that is not the device's own. -/
theorem xR_col (c : Dev nD) (k : Fin 8) {i : S1x512x1024.Idx} (h : i ∈ (xR c k).set) :
    512 - 512 * ((c.val / 2) % 2) ≤ (i 2).val ∧ (i 2).val < 512 - 512 * ((c.val / 2) % 2) + 512 := by
  have h2 := (Rect.mem_set_unit.mp h) 2
  rw [congrFun (k0_off1_eq c k) 2] at h2
  exact h2

omit [FloatOps F] in
/-- A landing buffer held whole at a share is its eight chunks held at that share. -/
theorem a_split (c : Dev nD) (q : PosShare TreeShare) (f : Buf (Elt F) ((c : Thread nD τ).loc cc0_scratch0)) :
    ((((c : Thread nD τ).loc cc0_scratch0) ↦{q} f) : sProp 𝕄) = bigSep Finset.univ fun k : Fin 8 => aPt c k q f := by
  have h := pointsTo_biUnion (ℓ := (c : Thread nD τ).loc cc0_scratch0) (q := q) (f := f) (Val := Elt F) (Ix := Unit) (Name := ℕ) (U := UU) (Lvl := ℕ)
    (Finset.univ : Finset (Fin 8)) (fun k => (aCh k : Memref sig .tc .vmem S32x512 .f32).view.set)
    (fun k _ k' _ hk => by rw [aCh_set, aCh_set]; exact chR_disjoint hk)
  refine Eq.trans (congrArg (fun S => ((((c : Thread nD τ).loc cc0_scratch0) ↦[S]{q} f) : sProp 𝕄)) ?_) h
  -- every entry lies in the chunk of its row divided by 32
  ext i
  simp only [Finset.mem_univ, Finset.mem_biUnion, true_and, true_iff]
  have h0 : (i 0).val < 256 := (i 0).isLt
  have h1 : (i 1).val < 512 := (i 1).isLt
  refine ⟨⟨(i 0).val / 32, by omega⟩, ?_⟩
  rw [aCh_set]
  refine Rect.mem_set_unit.mpr fun a => ?_
  match a with
  | ⟨0, _⟩ =>
    show 32 * ((i 0).val / 32) ≤ (i 0).val ∧ (i 0).val < 32 * ((i 0).val / 32) + 32
    omega
  | ⟨1, _⟩ =>
    show 0 ≤ (i 1).val ∧ (i 1).val < 0 + 512
    omega
omit [FloatOps F] in
theorem b_split (c : Dev nD) (q : PosShare TreeShare) (f : Buf (Elt F) ((c : Thread nD τ).loc cc0_scratch1)) :
    ((((c : Thread nD τ).loc cc0_scratch1) ↦{q} f) : sProp 𝕄) = bigSep Finset.univ fun k : Fin 8 => bPt c k q f := by
  have h := pointsTo_biUnion (ℓ := (c : Thread nD τ).loc cc0_scratch1) (q := q) (f := f) (Val := Elt F) (Ix := Unit) (Name := ℕ) (U := UU) (Lvl := ℕ)
    (Finset.univ : Finset (Fin 8)) (fun k => (bCh k : Memref sig .tc .vmem S32x512 .f32).view.set)
    (fun k _ k' _ hk => by rw [bCh_set, bCh_set]; exact chR_disjoint hk)
  refine Eq.trans (congrArg (fun S => ((((c : Thread nD τ).loc cc0_scratch1) ↦[S]{q} f) : sProp 𝕄)) ?_) h
  -- every entry lies in the chunk of its row divided by 32
  ext i
  simp only [Finset.mem_univ, Finset.mem_biUnion, true_and, true_iff]
  have h0 : (i 0).val < 256 := (i 0).isLt
  have h1 : (i 1).val < 512 := (i 1).isLt
  refine ⟨⟨(i 0).val / 32, by omega⟩, ?_⟩
  rw [bCh_set]
  refine Rect.mem_set_unit.mpr fun a => ?_
  match a with
  | ⟨0, _⟩ =>
    show 32 * ((i 0).val / 32) ≤ (i 0).val ∧ (i 0).val < 32 * ((i 0).val / 32) + 32
    omega
  | ⟨1, _⟩ =>
    show 0 ≤ (i 1).val ∧ (i 1).val < 0 + 512
    omega
omit [FloatOps F] in
/-- The slab's staging buffer held whole is the eight pieces the first wave sends and the rest. -/
theorem x_split (c : Dev nD) (f : Buf (Elt F) ((c : Thread nD τ).loc cc0_stg0_0)) :
    (xWhole c f : sProp 𝕄) = iprop((bigSep Finset.univ fun k : Fin 8 => xPt c k f) ∗ (((c : Thread nD τ).loc cc0_stg0_0) ↦[xRestSet c]{fullShare} f)) := by
  have h : ((((c : Thread nD τ).loc cc0_stg0_0) ↦[Finset.univ]{fullShare} f) : sProp 𝕄)
      ⊣⊢ iprop((((c : Thread nD τ).loc cc0_stg0_0) ↦[(Finset.univ : Finset (Fin 8)).biUnion fun k => (xSl c k : Memref sig .tc .vmem S32x512 .f32).view.set]{fullShare} f)
        ∗ (((c : Thread nD τ).loc cc0_stg0_0) ↦[Finset.univ \ (Finset.univ : Finset (Fin 8)).biUnion fun k => (xSl c k : Memref sig .tc .vmem S32x512 .f32).view.set]{fullShare} f)) :=
    pointsTo_split_subset (Finset.subset_univ _)
  have hb : ((((c : Thread nD τ).loc cc0_stg0_0) ↦[(Finset.univ : Finset (Fin 8)).biUnion fun k => (xSl c k : Memref sig .tc .vmem S32x512 .f32).view.set]{fullShare} f) : sProp 𝕄)
      = bigSep Finset.univ fun k : Fin 8 => xPt c k f :=
    pointsTo_biUnion _ _ fun k _ k' _ hk => by rw [xSl_set, xSl_set]; exact xR_disjoint c hk
  unfold xWhole xRestSet
  rw [BI.equiv_iff.mp ⟨h.1, h.2⟩, hb]
omit [FloatOps F] in
/-- A chunk's rows held whole are their two halves. -/
theorem a_halves (c : Dev nD) (k : Fin 8) (f : Buf (Elt F) ((aCh k : Memref sig .tc .vmem S32x512 .f32).view.loc (c : Thread nD τ))) :
    (aPt c k fullShare f : sProp 𝕄) ⊣⊢ iprop(aPt c k fullShare.left f ∗ aPt c k fullShare.right f) := by
  unfold aPt
  exact pointsTo_share (PosShare.mem_left_op_right fullShare)
omit [FloatOps F] in
/-- An eight-fold conjunction over the chunks, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## What the loads read -/

/-- The offset pair of a landing buffer's whole rectangle is zero on both axes. -/
theorem zero2 : (![0, 0] : Fin 2 → Nat) = fun _ => 0 :=
  funext fun a => match a with | ⟨0, _⟩ => rfl | ⟨1, _⟩ => rfl

omit [FloatOps F] in
/-- The two rectangles of the slab the additions read lie in the part no transfer sends. -/
theorem rX1_sub (c : Dev nD) : (xM : Memref sig .tc .vmem S1x512x1024 .f32).view.setOn (rX1 c).toLoadRect.set ⊆ xRestSet c := by
  intro i hi
  obtain ⟨x, hx, rfl⟩ := Finset.mem_map.mp hi
  unfold xRestSet
  refine Finset.mem_sdiff.mpr ⟨Finset.mem_univ _, fun hmem => ?_⟩
  obtain ⟨k, -, hk⟩ := Finset.mem_biUnion.mp hmem
  rw [xSl_set] at hk
  have h2 := xR_col c k hk
  have h1 := (Rect.mem_set_unit.mp hx) 2
  rw [congrFun (k0_off2_eq c) 2] at h1
  have h1' : 512 * ((c.val / 2) % 2) ≤ (x 2).val ∧ (x 2).val < 512 * ((c.val / 2) % 2) + 512 := h1
  have h2' : 512 - 512 * ((c.val / 2) % 2) ≤ (x 2).val ∧ (x 2).val < 512 - 512 * ((c.val / 2) % 2) + 512 := h2
  have hy : (c.val / 2) % 2 < 2 := Nat.mod_lt _ (by decide)
  omega
omit [FloatOps F] in
theorem rX2_sub (c : Dev nD) : (xM : Memref sig .tc .vmem S1x512x1024 .f32).view.setOn (rX2 c).toLoadRect.set ⊆ xRestSet c := by
  intro i hi
  obtain ⟨x, hx, rfl⟩ := Finset.mem_map.mp hi
  unfold xRestSet
  refine Finset.mem_sdiff.mpr ⟨Finset.mem_univ _, fun hmem => ?_⟩
  obtain ⟨k, -, hk⟩ := Finset.mem_biUnion.mp hmem
  rw [xSl_set] at hk
  have h2 := xR_col c k hk
  have h1 := (Rect.mem_set_unit.mp hx) 2
  rw [congrFun (k0_off4_eq c) 2] at h1
  have h1' : 512 * ((c.val / 2) % 2) ≤ (x 2).val ∧ (x 2).val < 512 * ((c.val / 2) % 2) + 512 := h1
  have h2' : 512 - 512 * ((c.val / 2) % 2) ≤ (x 2).val ∧ (x 2).val < 512 - 512 * ((c.val / 2) % 2) + 512 := h2
  have hy : (c.val / 2) % 2 < 2 := Nat.mod_lt _ (by decide)
  omega
omit [FloatOps F] in
/-- A landing buffer loaded whole reads its contents. -/
theorem read_a (f : (cc0_scratch0 : Ref sig .tc).ty.Contents (Elt F)) :
    (aM : Memref sig .tc .vmem S256x512 .f32).view.readAt (Elt F) rA.toLoadRect f = f :=
  Memref.readAt_unit_zero (Elt F) cc0_scratch0 zero2 inb_S256x512_S256x512_0_0 f
omit [FloatOps F] in
theorem read_b (f : (cc0_scratch1 : Ref sig .tc).ty.Contents (Elt F)) :
    (bM : Memref sig .tc .vmem S256x512 .f32).view.readAt (Elt F) rA.toLoadRect f = f :=
  Memref.readAt_unit_zero (Elt F) cc0_scratch1 zero2 inb_S256x512_S256x512_0_0 f

/-! ## What the landings write -/

/-- A 1×32×512 block and a 32×512 block have as many entries. -/
theorem shapeCasts_S1x32x512_S32x512 : S1x32x512.ShapeCasts S32x512 := by decide

/-- The partner's own block of the slab, named from the sender: same rows, the other column half. -/
theorem off2_par (c : Dev nD) : k0_off2 (par c) = ![0, 256 * (c.val / 4), 512 - 512 * ((c.val / 2) % 2)] := by
  rw [k0_off2_eq, par_val]; revert c; decide

/-- First-wave transfer `k` of device `c` leaves in rows `32k…` of its partner's first landing buffer, whatever they held,
    the values the partner's schedule names. -/
theorem landA (c : Dev nD) (k : Fin 8) (fd : Buf (Elt F) ((aCh k : Memref sig .tc .vmem S32x512 .f32).view.loc (par c : Thread nD τ))) :
    ((aCh k : Memref sig .tc .vmem S32x512 .f32).view.loc (par c : Thread nD τ) ↦[(aCh k : Memref sig .tc .vmem S32x512 .f32).view.set]{fullShare}
        ((aCh k : Memref sig .tc .vmem S32x512 .f32).view.write (Elt F) fd ((xSl c k : Memref sig .tc .vmem S32x512 .f32).view.read (Elt F) (xstg m c)) Finset.univ) : sProp 𝕄)
      = payAR m (par c) k := by
  unfold payAR aPt
  refine pointsTo_congr fun i hi => ?_
  obtain ⟨x, rfl⟩ := View.exists_emb_of_mem_set _ hi
  rw [View.write_emb_of_mem _ _ (Finset.mem_univ x)]
  -- the sender's piece at (r, col) is its slab at (0, 256·x + 32k + r, 512·(1 − y) + col)
  have hL : (xSl c k : Memref sig .tc .vmem S32x512 .f32).view.read (Elt F) (xstg m c) x
      = xstg m c ((Rect.unit (s := S1x512x1024) (k0_off1 c (BitVec.ofNat 32 (32 * k.val))) S1x32x512.size (k0_off1_inb c k)).toLoadRect.idx
          (Fin.cons ⟨0, Nat.one_pos⟩ x)) := by
    rw [Memref.read_squeeze_slice (Val := Elt F) xM _ (fun _ => rfl) squeezes_S1x32x512_S32x512 shapeCasts_S1x32x512_S32x512 (xstg m c)]
    rw [shapeCast_dropUnit_apply]
    rfl
  -- the receiver's schedule at row 32k + r, column col names the sender's slab at (0, 256·x' + 32k + r, 512·y' + col)
  have hR : aVal m (par c) ((aCh k : Memref sig .tc .vmem S32x512 .f32).view.emb x)
      = xstg m c ((rX1 (par c)).toLoadRect.idx (Fin.cons ⟨0, Nat.one_pos⟩ ((aCh k : Memref sig .tc .vmem S32x512 .f32).view.emb x))) := by
    unfold aVal
    rw [par_par, shapeCast_dropUnit_apply]
    rfl
  rw [hL, hR, cast_eq]
  refine congrArg (xstg m c) (funext fun a => Fin.ext ?_)
  rw [LoadRect.idx_apply, LoadRect.idx_apply]
  have h1 := k0_off1_eq c k
  have h2 := off2_par c
  match a with
  | ⟨0, _⟩ =>
    show k0_off1 c (BitVec.ofNat 32 (32 * k.val)) 0 + 1 * 0 = k0_off2 (par c) 0 + 1 * 0
    rw [h1, h2]; rfl
  | ⟨1, _⟩ =>
    show k0_off1 c (BitVec.ofNat 32 (32 * k.val)) 1 + 1 * (x 0).val = k0_off2 (par c) 1 + 1 * (32 * k.val + 1 * (x 0).val)
    rw [h1, h2]
    show 256 * (c.val / 4) + 32 * k.val + 1 * (x 0).val = 256 * (c.val / 4) + 1 * (32 * k.val + 1 * (x 0).val)
    omega
  | ⟨2, _⟩ =>
    show k0_off1 c (BitVec.ofNat 32 (32 * k.val)) 2 + 1 * (x 1).val = k0_off2 (par c) 2 + 1 * (0 + 1 * (x 1).val)
    rw [h1, h2]
    show 512 - 512 * ((c.val / 2) % 2) + 1 * (x 1).val = 512 - 512 * ((c.val / 2) % 2) + 1 * (0 + 1 * (x 1).val)
    omega

/-- Second-wave transfer `k` of device `c` leaves in rows `32k…` of its sibling's second landing buffer the values the
    sibling's schedule names. -/
theorem landB (c : Dev nD) (k : Fin 8) (fd : Buf (Elt F) ((bCh k : Memref sig .tc .vmem S32x512 .f32).view.loc (sib c : Thread nD τ))) :
    ((bCh k : Memref sig .tc .vmem S32x512 .f32).view.loc (sib c : Thread nD τ) ↦[(bCh k : Memref sig .tc .vmem S32x512 .f32).view.set]{fullShare}
        ((bCh k : Memref sig .tc .vmem S32x512 .f32).view.write (Elt F) fd ((aCh k : Memref sig .tc .vmem S32x512 .f32).view.read (Elt F) (aVal m c)) Finset.univ) : sProp 𝕄)
      = payBR m (sib c) k := by
  unfold payBR bPt
  refine pointsTo_congr fun i hi => ?_
  obtain ⟨x, rfl⟩ := View.exists_emb_of_mem_set _ hi
  rw [View.write_emb_of_mem _ _ (Finset.mem_univ x), View.read_apply, cast_cast, cast_eq]
  -- the sibling of the sibling is the device itself, and chunk k sits at the same rows of both landing buffers
  unfold bVal
  rw [sib_sib]
  rfl

/-! ## The two stores cover the result -/

/-- Every row of the 512×512 result lies in the first store's rectangle (rows `256·x …`) or in the second's (the other
    256 rows), whatever its column. -/
theorem rO_cover (c : Dev nD) (i : S512x512.Idx) : i ∈ (rO1 c).set ∨ i ∈ (rO2 c).set := by
  rw [Rect.mem_set_unit, Rect.mem_set_unit, k0_off3_eq, k0_off5_eq]
  have hx : c.val / 4 = 0 ∨ c.val / 4 = 1 := by have hc : c.val < 8 := c.isLt; omega
  have h0 : (i 0).val < 512 := (i 0).isLt
  have h1 : (i 1).val < 512 := (i 1).isLt
  rcases hx with hx | hx <;> rw [hx]
  · by_cases hr : (i 0).val < 256
    · left
      refine Fin.forall_fin_two.mpr ⟨?_, ?_⟩
      · show 256 * 0 ≤ (i 0).val ∧ (i 0).val < 256 * 0 + 256
        omega
      · show 0 ≤ (i 1).val ∧ (i 1).val < 0 + 512
        omega
    · right
      refine Fin.forall_fin_two.mpr ⟨?_, ?_⟩
      · show 256 - 256 * 0 ≤ (i 0).val ∧ (i 0).val < 256 - 256 * 0 + 256
        omega
      · show 0 ≤ (i 1).val ∧ (i 1).val < 0 + 512
        omega
  · by_cases hr : (i 0).val < 256
    · right
      refine Fin.forall_fin_two.mpr ⟨?_, ?_⟩
      · show 256 - 256 * 1 ≤ (i 0).val ∧ (i 0).val < 256 - 256 * 1 + 256
        omega
      · show 0 ≤ (i 1).val ∧ (i 1).val < 0 + 512
        omega
    · left
      refine Fin.forall_fin_two.mpr ⟨?_, ?_⟩
      · show 256 * 1 ≤ (i 0).val ∧ (i 0).val < 256 * 1 + 256
        omega
      · show 0 ≤ (i 1).val ∧ (i 1).val < 0 + 512
        omega

/-- Whatever the result's staging buffer held, the two stores leave `outAt`. -/
theorem out_cover (c : Dev nD) (g : (cc0_stg1_0 : Ref sig .tc).ty.Contents (Elt F)) :
    ((oM : Memref sig .tc .vmem S512x512 .f32).access (rO2 c) : View sig .tc _ _ _).write (Elt F)
      (((oM : Memref sig .tc .vmem S512x512 .f32).access (rO1 c) : View sig .tc _ _ _).write (Elt F) g
        (k0_pay1 (aVal m c) (xHalf1 c (xstg m c))) Finset.univ)
      (k0_pay2 (bVal m c) (xHalf2 c (xstg m c))) Finset.univ = outAt m c := by
  unfold outAt
  funext i
  -- the elements the second store goes through, and the first
  by_cases h2 : i ∈ ((oM : Memref sig .tc .vmem S512x512 .f32).access (rO2 c) : View sig .tc _ _ _).setOn Finset.univ
  · -- under the second store: its payload, whatever was there
    obtain ⟨x, hx, rfl⟩ := Finset.mem_map.mp h2
    rw [View.write_emb_of_mem _ _ hx, View.write_emb_of_mem _ _ hx]
  · -- off it: what the first store left, and the index is under the first store
    rw [View.write_of_not_mem _ _ _ h2, View.write_of_not_mem _ _ _ h2]
    have h1 : i ∈ ((oM : Memref sig .tc .vmem S512x512 .f32).access (rO1 c) : View sig .tc _ _ _).setOn Finset.univ := by
      rw [View.setOn_univ, View.set_slice_whole] at h2 ⊢
      exact (rO_cover c i).resolve_right h2
    obtain ⟨x, hx, rfl⟩ := Finset.mem_map.mp h1
    rw [View.write_emb_of_mem _ _ hx, View.write_emb_of_mem _ _ hx]

end Cert.Kernel.RS

end
-- ==== Proof.Word.Steps.lean ====
/-
One rule per kind of statement of the kernel body, each moving ONE chunk's bundle one stage on.
-/
import proofs.«901027_g7700000000001028_dist_rs_v7x_xyz2x2x2_y_m512_n512_f32_1_alg».proof.Proof.Word.Regions
import proofs.«901027_g7700000000001028_dist_rs_v7x_xyz2x2x2_y_m512_n512_f32_1_alg».proof.Proof.Word.Levels

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-- What the device owes, under whatever waits it has recorded. -/
abbrev owesE (c : Dev nD) (O : CellTallies nD τ sig Unit) : sProp 𝕄 := iprop(∃ W, owes (c : Thread nD τ) O W)

open Idealize.ShloMosaic.Tactic

-- The schedule's tables, entry on the left: what each wait reads its round's duties, amounts and payloads from.
attribute [local sl_rounds] duties_q amount_q expect_q payload_q rest_q duties_later

/-! ## The seven stages of a chunk's bundle, written out -/

omit [FloatOps F] in
theorem chunkSt_0 (c : Dev nD) (k : Fin 8) : chunkSt m c k 0
    = iprop(atQ c 0 k ∗ atQ c 1 k ∗ atQ c 2 k ∗ atQ c 3 k ∗ tokQ c 0 k ∗ tokQ (par c) 1 k ∗ tokQ c 2 k ∗ tokQ (sib c) 3 k
        ∗ credQ c 1 k ∗ credQ c 3 k ∗ xPt c k (xstg m c) ∗ (∃ f, aPt (par c) k fullShare f) ∗ (∃ f, bPt (sib c) k fullShare f)) := rfl
omit [FloatOps F] in
theorem chunkSt_1 (c : Dev nD) (k : Fin 8) : chunkSt m c k 1
    = iprop(atQ c 0 k ∗ atQ c 1 k ∗ atQ c 2 k ∗ atQ c 3 k ∗ tokQ c 2 k ∗ tokQ (sib c) 3 k
        ∗ credQ c 1 k ∗ credQ c 3 k ∗ credQ c 0 k ∗ (∃ f, bPt (sib c) k fullShare f)) := rfl
omit [FloatOps F] in
theorem chunkSt_2 (c : Dev nD) (k : Fin 8) : chunkSt m c k 2
    = iprop(atQ c 0 k ∗ zQ c 1 k ∗ atQ c 2 k ∗ atQ c 3 k ∗ tokQ c 2 k ∗ tokQ (sib c) 3 k
        ∗ credQ c 3 k ∗ credQ c 0 k ∗ (∃ f, bPt (sib c) k fullShare f) ∗ aPt c k fullShare (aVal m c)) := rfl
omit [FloatOps F] in
theorem chunkSt_3 (c : Dev nD) (k : Fin 8) : chunkSt m c k 3
    = iprop(atQ c 0 k ∗ zQ c 1 k ∗ atQ c 2 k ∗ atQ c 3 k ∗ credQ c 3 k ∗ credQ c 0 k ∗ credQ c 2 k ∗ aPt c k fullShare.right (aVal m c)) := rfl
omit [FloatOps F] in
theorem chunkSt_4 (c : Dev nD) (k : Fin 8) : chunkSt m c k 4
    = iprop(atQ c 0 k ∗ zQ c 1 k ∗ atQ c 2 k ∗ zQ c 3 k ∗ credQ c 0 k ∗ credQ c 2 k ∗ aPt c k fullShare.right (aVal m c) ∗ bPt c k fullShare (bVal m c)) := rfl
omit [FloatOps F] in
theorem chunkSt_5 (c : Dev nD) (k : Fin 8) : chunkSt m c k 5
    = iprop(zQ c 0 k ∗ zQ c 1 k ∗ atQ c 2 k ∗ zQ c 3 k ∗ credQ c 2 k ∗ aPt c k fullShare.right (aVal m c) ∗ bPt c k fullShare (bVal m c) ∗ xPt c k (xstg m c)) := rfl
omit [FloatOps F] in
theorem chunkSt_6 (c : Dev nD) (k : Fin 8) : chunkSt m c k 6
    = iprop(zQ c 0 k ∗ zQ c 1 k ∗ zQ c 2 k ∗ zQ c 3 k ∗ aPt c k fullShare (aVal m c) ∗ bPt c k fullShare (bVal m c) ∗ xPt c k (xstg m c)) := rfl

/-! ## The four payloads, by family -/

omit [FloatOps F] in
theorem payJ_0 (c : Dev nD) (k : Fin 8) : payJ m c k ((0 : Fin 4) : ℕ) = xPt c k (xstg m c) := rfl
omit [FloatOps F] in
theorem payJ_1 (c : Dev nD) (k : Fin 8) : payJ m c k ((1 : Fin 4) : ℕ) = aPt c k fullShare (aVal m c) := rfl
omit [FloatOps F] in
theorem payJ_2 (c : Dev nD) (k : Fin 8) : payJ m c k ((2 : Fin 4) : ℕ) = aPt c k fullShare.left (aVal m c) := rfl
omit [FloatOps F] in
theorem payJ_3 (c : Dev nD) (k : Fin 8) : payJ m c k ((3 : Fin 4) : ℕ) = bPt c k fullShare (bVal m c) := rfl

/-- First-wave transfer `k`: the slab piece goes to the partner's landing rows `32k…`; it pays the device's own send
    duty and the partner's receive duty, whose payload is those rows holding the values sent. Stage 0 → 1. -/
theorem step_A (c n : Dev nD) (hn : n = par c) (k : Fin 8) (sS sR : DmaSem sig) (hS : sS = qsem 0 k) (hR : sR = qsem 1 k)
    (src dst : Memref sig .tc .vmem S32x512 .f32) (hsrc' : src = xSl c k) (hdst' : dst = aCh k)
    {hsc : (dst : Memref sig (Dev.tc n : Thread nD τ).2.kind .vmem S32x512 .f32).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α}
    (SA : Finset (Fin 8)) (hk : k ∉ SA) (OB : CellTallies nD τ sig Unit) :
    iprop(recs m K ∗ chunkSt m c k 0 ∗ owesE (F := F) c (oweA c (insert k SA) + OB))
      ⊢ iprop(((chunkSt m c k 1 ∗ owesE (F := F) c (oweA c SA + OB)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc n : Thread nD τ) dst (.dma sS) hsc) (.dma sR) hsrc hdst hsem) kk) Q) := by
  subst hn hS hR hsrc' hdst'
  rw [chunkSt_0, chunkSt_1]
  iintro ⟨#Hrecs, ⟨Hat0, Hat1, Hat2, Hat3, Ht0, Ht1, Ht2, Ht3, Hc1, Hc3, Hx, ⟨%fd, Ha⟩, Hb⟩, ⟨%W, HO⟩⟩ Hk
  ihave HI := (recs_q m K c 0 k) $$ Hrecs
  icases HI with ⟨#HI0, #Hr0⟩
  ihave HI := (recs_q m K (par c) 1 k) $$ Hrecs
  icases HI with ⟨#HI1, #Hr1⟩
  unfold xPt aPt
  iapply (Rounds.wp_send_pointsTo 𝒱₀ ER (rd m) (c : Thread nD τ) none (c' := (par c : Thread nD τ))
      (src := (xSl c k : Memref sig .tc .vmem S32x512 .f32)) (dst := (aCh k : Memref sig .tc .vmem S32x512 .f32))
      (q := fullShare) (fs := xstg m c) (fd := fd) (κ₁ := K (qCell c 0 k)) (κ₂ := K (qCell (par c) 1 k))
      (r₁ := 0) (r₂ := 0) (d₁ := false) (d₂ := false)
      (by rw [duties_q]; exact Finset.mem_singleton_self _) (by rw [duties_q]; exact Finset.mem_singleton_self _)
      () () N32 rfl (amount_q m c 0 k false) (amount_q m (par c) 1 k false) (O₀ := oweA c (insert k SA) + OB) (oweA c SA + OB)
      (by rw [oweA_insert c hk, add_right_comm]) (W := W)
      (by rw [payload_AS]; exact BI.Entails.refl _)
      (by rw [payload_AR]; exact Entails.of_eq (landA m c k fd))) $$ [Hx Ha HO Ht0 Ht1]
  · isplitr; · iexact HI0
    isplitr; · iexact HI1
    isplitl [Hx]; · iexact Hx
    isplitl [Ha]; · iexact Ha
    isplitl [HO]; · iexact HO
    isplitl [Ht0]; · iexact Ht0
    isplitr; · iexact Hr0
    isplitl [Ht1]; · iexact Ht1
    iexact Hr1
  iintro ⟨Hc0, HO⟩
  iapply Hk
  isplitl [Hat0 Hat1 Hat2 Hat3 Ht2 Ht3 Hc1 Hc3 Hc0 Hb]
  · isplitl [Hat0]; · iexact Hat0
    isplitl [Hat1]; · iexact Hat1
    isplitl [Hat2]; · iexact Hat2
    isplitl [Hat3]; · iexact Hat3
    isplitl [Ht2]; · iexact Ht2
    isplitl [Ht3]; · iexact Ht3
    isplitl [Hc1]; · iexact Hc1
    isplitl [Hc3]; · iexact Hc3
    isplitl [Hc0]; · iexact Hc0
    iexact Hb
  · iexists _; iexact HO

/-- The wait for the partner's first-wave transfer `k` (owing only second-wave receive credit, which sits above): rows
    `32k…` of the first landing buffer arrive holding the partner's values; the cell closes. Stage 1 → 2. -/
theorem step_waitAR (c : Dev nD) (k : Fin 8) (s : DmaSem sig) (hs : s = qsem 1 k)
    {sp sp' : Space} {sh sh' : Shape} {e e' : EltTy} {src : Memref sig .tc sp' sh' e'} {κ' : Kind} {dst : Memref sig κ' sp sh e}
    {hsrc : src.view.WordExact} {hdst : dst.view.WordExact} (hc : dst.view.dmaCredit = N32)
    {α : Type} {Q : α → sProp 𝕄} {kk : PUnit → Prog (TpuEff nD τ sig (Elt F) Λ₀ .tc) α}
    (SB : Finset (Fin 8)) :
    iprop(recs m K ∗ levAts L lv ∗ chunkSt m c k 1 ∗ owesE (F := F) c (oweA c ∅ + oweB c SB))
      ⊢ iprop(((chunkSt m c k 2 ∗ owesE (F := F) c (oweA c ∅ + oweB c SB)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  rw [chunkSt_2]
  show iprop(recs m K ∗ levAts L lv ∗ (atQ c 0 k ∗ atPos ER (qCell c 1 k) 0 ∅ 0 ∗ atQ c 2 k ∗ atQ c 3 k ∗ tokQ c 2 k ∗ tokQ (sib c) 3 k
      ∗ cred (tallyAt (qCell c 1 k) () N32) ∗ credQ c 3 k ∗ credQ c 0 k ∗ (∃ f, bPt (sib c) k fullShare f)) ∗ (∃ W, owes (c : Thread nD τ) (oweA c ∅ + oweB c SB) W)) ⊢ _
  iintro ⟨#Hrecs, #Hlev, ⟨Hat0, Hat1, Hat2, Hat3, Ht2, Ht3, Hc1, Hc3, Hc0, Hb⟩, ⟨%W, HO⟩⟩ Hk
  ihave HI := (recs_q m K c 1 k) $$ Hrecs
  icases HI with ⟨#HI1, #Hr1⟩
  have heq : (cred (tallyAt (qCell c 1 k) () N32) : sProp 𝕄) = cred (tallyAt (qCell c 1 k) () dst.view.dmaCredit) := by rw [hc]
  ihave Hc1' := (Entails.of_eq heq) $$ Hc1
  ihave HMW := (mayWait_AR c k SB) $$ Hlev
  sl_exec
  imod (Rounds.cell_close ER (rd m) (Set.mem_univ (K (qCell c 1 k))) (fun h => h) (R := 0 + 1) (duties_later m (qCell c 1 k))) $$ [Hat1] with Hz1
  · isplitr; · iexact HI1
    iexact Hat1
  ihave Hp := (Entails.of_eq (payJ_1 m c k)) $$ Hat1_pay1
  iapply Hk
  isplitl [Hat0 Hz1 Hat2 Hat3 Ht2 Ht3 Hc3 Hc0 Hb Hp]
  · isplitl [Hat0]; · iexact Hat0
    isplitl [Hz1]; · iexact Hz1
    isplitl [Hat2]; · iexact Hat2
    isplitl [Hat3]; · iexact Hat3
    isplitl [Ht2]; · iexact Ht2
    isplitl [Ht3]; · iexact Ht3
    isplitl [Hc3]; · iexact Hc3
    isplitl [Hc0]; · iexact Hc0
    isplitl [Hb]; · iexact Hb
    iexact Hp
  · iexists _; iexact HO

/-- Second-wave transfer `k`: rows `32k…` of the first landing buffer (the left half of their share lent) go to the
    sibling's second landing buffer. Stage 2 → 3. -/
theorem step_B (c n : Dev nD) (hn : n = sib c) (k : Fin 8) (sS sR : DmaSem sig) (hS : sS = qsem 2 k) (hR : sR = qsem 3 k)
    (src dst : Memref sig .tc .vmem S32x512 .f32) (hsrc' : src = aCh k) (hdst' : dst = bCh k)
    {hsc : (dst : Memref sig (Dev.tc n : Thread nD τ).2.kind .vmem S32x512 .f32).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α}
    (SB : Finset (Fin 8)) (hk : k ∉ SB) (OA : CellTallies nD τ sig Unit) :
    iprop(recs m K ∗ chunkSt m c k 2 ∗ owesE (F := F) c (OA + oweB c (insert k SB)))
      ⊢ iprop(((chunkSt m c k 3 ∗ owesE (F := F) c (OA + oweB c SB)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc n : Thread nD τ) dst (.dma sS) hsc) (.dma sR) hsrc hdst hsem) kk) Q) := by
  subst hn hS hR hsrc' hdst'
  rw [chunkSt_2, chunkSt_3]
  iintro ⟨#Hrecs, ⟨Hat0, Hz1, Hat2, Hat3, Ht2, Ht3, Hc3, Hc0, ⟨%fd, Hb⟩, Ha⟩, ⟨%W, HO⟩⟩ Hk
  ihave HI := (recs_q m K c 2 k) $$ Hrecs
  icases HI with ⟨#HI2, #Hr2⟩
  ihave HI := (recs_q m K (sib c) 3 k) $$ Hrecs
  icases HI with ⟨#HI3, #Hr3⟩
  -- the rows' share in two halves: the left one is lent to the transfer, the right one stays
  ihave Hh := (a_halves c k (aVal m c)).1 $$ Ha
  icases Hh with ⟨HaL, HaR⟩
  unfold aPt bPt
  iapply (Rounds.wp_send_pointsTo 𝒱₀ ER (rd m) (c : Thread nD τ) none (c' := (sib c : Thread nD τ))
      (src := (aCh k : Memref sig .tc .vmem S32x512 .f32)) (dst := (bCh k : Memref sig .tc .vmem S32x512 .f32))
      (q := fullShare.left) (fs := aVal m c) (fd := fd) (κ₁ := K (qCell c 2 k)) (κ₂ := K (qCell (sib c) 3 k))
      (r₁ := 0) (r₂ := 0) (d₁ := false) (d₂ := false)
      (by rw [duties_q]; exact Finset.mem_singleton_self _) (by rw [duties_q]; exact Finset.mem_singleton_self _)
      () () N32 rfl (amount_q m c 2 k false) (amount_q m (sib c) 3 k false) (O₀ := OA + oweB c (insert k SB)) (OA + oweB c SB)
      (by rw [oweB_insert c hk, add_assoc]) (W := W)
      (by rw [payload_BS]; exact BI.Entails.refl _)
      (by rw [payload_BR]; exact Entails.of_eq (landB m c k fd))) $$ [HaL Hb HO Ht2 Ht3]
  · isplitr; · iexact HI2
    isplitr; · iexact HI3
    isplitl [HaL]; · iexact HaL
    isplitl [Hb]; · iexact Hb
    isplitl [HO]; · iexact HO
    isplitl [Ht2]; · iexact Ht2
    isplitr; · iexact Hr2
    isplitl [Ht3]; · iexact Ht3
    iexact Hr3
  iintro ⟨Hc2, HO⟩
  iapply Hk
  isplitl [Hat0 Hz1 Hat2 Hat3 Hc3 Hc0 Hc2 HaR]
  · isplitl [Hat0]; · iexact Hat0
    isplitl [Hz1]; · iexact Hz1
    isplitl [Hat2]; · iexact Hat2
    isplitl [Hat3]; · iexact Hat3
    isplitl [Hc3]; · iexact Hc3
    isplitl [Hc0]; · iexact Hc0
    isplitl [Hc2]; · iexact Hc2
    iexact HaR
  · iexists _; iexact HO

/-- The wait for the sibling's second-wave transfer `k` (owing nothing). Stage 3 → 4. -/
theorem step_waitBR (c : Dev nD) (k : Fin 8) (s : DmaSem sig) (hs : s = qsem 3 k)
    {sp sp' : Space} {sh sh' : Shape} {e e' : EltTy} {src : Memref sig .tc sp' sh' e'} {κ' : Kind} {dst : Memref sig κ' sp sh e}
    {hsrc : src.view.WordExact} {hdst : dst.view.WordExact} (hc : dst.view.dmaCredit = N32)
    {α : Type} {Q : α → sProp 𝕄} {kk : PUnit → Prog (TpuEff nD τ sig (Elt F) Λ₀ .tc) α} :
    iprop(recs m K ∗ chunkSt m c k 3 ∗ owesE (F := F) c (oweA c ∅ + oweB c ∅))
      ⊢ iprop(((chunkSt m c k 4 ∗ owesE (F := F) c (oweA c ∅ + oweB c ∅)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  rw [owe_empty, chunkSt_4]
  show iprop(recs m K ∗ (atQ c 0 k ∗ zQ c 1 k ∗ atQ c 2 k ∗ atPos ER (qCell c 3 k) 0 ∅ 0 ∗ cred (tallyAt (qCell c 3 k) () N32) ∗ credQ c 0 k ∗ credQ c 2 k
      ∗ aPt c k fullShare.right (aVal m c)) ∗ (∃ W, owes (c : Thread nD τ) 0 W)) ⊢ _
  iintro ⟨#Hrecs, ⟨Hat0, Hz1, Hat2, Hat3, Hc3, Hc0, Hc2, HaR⟩, ⟨%W, HO⟩⟩ Hk
  ihave HI := (recs_q m K c 3 k) $$ Hrecs
  icases HI with ⟨#HI3, #Hr3⟩
  have heq : (cred (tallyAt (qCell c 3 k) () N32) : sProp 𝕄) = cred (tallyAt (qCell c 3 k) () dst.view.dmaCredit) := by rw [hc]
  ihave Hc3' := (Entails.of_eq heq) $$ Hc3
  sl_exec
  imod (Rounds.cell_close ER (rd m) (Set.mem_univ (K (qCell c 3 k))) (fun h => h) (R := 0 + 1) (duties_later m (qCell c 3 k))) $$ [Hat3] with Hz3
  · isplitr; · iexact HI3
    iexact Hat3
  ihave Hp := (Entails.of_eq (payJ_3 m c k)) $$ Hat3_pay1
  iapply Hk
  isplitl [Hat0 Hz1 Hat2 Hz3 Hc0 Hc2 HaR Hp]
  · isplitl [Hat0]; · iexact Hat0
    isplitl [Hz1]; · iexact Hz1
    isplitl [Hat2]; · iexact Hat2
    isplitl [Hz3]; · iexact Hz3
    isplitl [Hc0]; · iexact Hc0
    isplitl [Hc2]; · iexact Hc2
    isplitl [HaR]; · iexact HaR
    iexact Hp
  · iexists _; iexact HO

/-- The wait for the send side of the device's own first-wave transfer `k`: the slab piece is back. Stage 4 → 5. -/
theorem step_waitAS (c : Dev nD) (k : Fin 8) (s : DmaSem sig) (hs : s = qsem 0 k)
    {sp sp' : Space} {sh sh' : Shape} {e e' : EltTy} {src : Memref sig .tc sp' sh' e'} {κ' : Kind} {dst : Memref sig κ' sp sh e}
    {hsrc : src.view.WordExact} {hdst : dst.view.WordExact} (hc : dst.view.dmaCredit = N32)
    {α : Type} {Q : α → sProp 𝕄} {kk : PUnit → Prog (TpuEff nD τ sig (Elt F) Λ₀ .tc) α} :
    iprop(recs m K ∗ chunkSt m c k 4 ∗ owesE (F := F) c (oweA c ∅ + oweB c ∅))
      ⊢ iprop(((chunkSt m c k 5 ∗ owesE (F := F) c (oweA c ∅ + oweB c ∅)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  rw [owe_empty, chunkSt_5]
  show iprop(recs m K ∗ (atPos ER (qCell c 0 k) 0 ∅ 0 ∗ zQ c 1 k ∗ atQ c 2 k ∗ zQ c 3 k ∗ cred (tallyAt (qCell c 0 k) () N32) ∗ credQ c 2 k
      ∗ aPt c k fullShare.right (aVal m c) ∗ bPt c k fullShare (bVal m c)) ∗ (∃ W, owes (c : Thread nD τ) 0 W)) ⊢ _
  iintro ⟨#Hrecs, ⟨Hat0, Hz1, Hat2, Hz3, Hc0, Hc2, HaR, Hb⟩, ⟨%W, HO⟩⟩ Hk
  ihave HI := (recs_q m K c 0 k) $$ Hrecs
  icases HI with ⟨#HI0, #Hr0⟩
  have heq : (cred (tallyAt (qCell c 0 k) () N32) : sProp 𝕄) = cred (tallyAt (qCell c 0 k) () dst.view.dmaCredit) := by rw [hc]
  ihave Hc0' := (Entails.of_eq heq) $$ Hc0
  sl_exec
  imod (Rounds.cell_close ER (rd m) (Set.mem_univ (K (qCell c 0 k))) (fun h => h) (R := 0 + 1) (duties_later m (qCell c 0 k))) $$ [Hat0] with Hz0
  · isplitr; · iexact HI0
    iexact Hat0
  ihave Hp := (Entails.of_eq (payJ_0 m c k)) $$ Hat0_pay1
  iapply Hk
  isplitl [Hz0 Hz1 Hat2 Hz3 Hc2 HaR Hb Hp]
  · isplitl [Hz0]; · iexact Hz0
    isplitl [Hz1]; · iexact Hz1
    isplitl [Hat2]; · iexact Hat2
    isplitl [Hz3]; · iexact Hz3
    isplitl [Hc2]; · iexact Hc2
    isplitl [HaR]; · iexact HaR
    isplitl [Hb]; · iexact Hb
    iexact Hp
  · iexists _; iexact HO

/-- The wait for the send side of its second-wave transfer `k`: the lent half is back, the rows whole again. Stage 5 → 6. -/
theorem step_waitBS (c : Dev nD) (k : Fin 8) (s : DmaSem sig) (hs : s = qsem 2 k)
    {sp sp' : Space} {sh sh' : Shape} {e e' : EltTy} {src : Memref sig .tc sp' sh' e'} {κ' : Kind} {dst : Memref sig κ' sp sh e}
    {hsrc : src.view.WordExact} {hdst : dst.view.WordExact} (hc : dst.view.dmaCredit = N32)
    {α : Type} {Q : α → sProp 𝕄} {kk : PUnit → Prog (TpuEff nD τ sig (Elt F) Λ₀ .tc) α} :
    iprop(recs m K ∗ chunkSt m c k 5 ∗ owesE (F := F) c (oweA c ∅ + oweB c ∅))
      ⊢ iprop(((chunkSt m c k 6 ∗ owesE (F := F) c (oweA c ∅ + oweB c ∅)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  rw [owe_empty, chunkSt_6]
  show iprop(recs m K ∗ (zQ c 0 k ∗ zQ c 1 k ∗ atPos ER (qCell c 2 k) 0 ∅ 0 ∗ zQ c 3 k ∗ cred (tallyAt (qCell c 2 k) () N32)
      ∗ aPt c k fullShare.right (aVal m c) ∗ bPt c k fullShare (bVal m c) ∗ xPt c k (xstg m c)) ∗ (∃ W, owes (c : Thread nD τ) 0 W)) ⊢ _
  iintro ⟨#Hrecs, ⟨Hz0, Hz1, Hat2, Hz3, Hc2, HaR, Hb, Hx⟩, ⟨%W, HO⟩⟩ Hk
  ihave HI := (recs_q m K c 2 k) $$ Hrecs
  icases HI with ⟨#HI2, #Hr2⟩
  have heq : (cred (tallyAt (qCell c 2 k) () N32) : sProp 𝕄) = cred (tallyAt (qCell c 2 k) () dst.view.dmaCredit) := by rw [hc]
  ihave Hc2' := (Entails.of_eq heq) $$ Hc2
  sl_exec
  imod (Rounds.cell_close ER (rd m) (Set.mem_univ (K (qCell c 2 k))) (fun h => h) (R := 0 + 1) (duties_later m (qCell c 2 k))) $$ [Hat2] with Hz2
  · isplitr; · iexact HI2
    iexact Hat2
  ihave Hp := (Entails.of_eq (payJ_2 m c k)) $$ Hat2_pay1
  -- the lent half and the kept half are the rows whole again
  ihave Ha := (a_halves c k (aVal m c)).2 $$ [Hp HaR]
  · isplitl [Hp]; · iexact Hp
    iexact HaR
  iapply Hk
  isplitl [Hz0 Hz1 Hz2 Hz3 Ha Hb Hx]
  · isplitl [Hz0]; · iexact Hz0
    isplitl [Hz1]; · iexact Hz1
    isplitl [Hz2]; · iexact Hz2
    isplitl [Hz3]; · iexact Hz3
    isplitl [Ha]; · iexact Ha
    isplitl [Hb]; · iexact Hb
    iexact Hx
  · iexists _; iexact HO

end Cert.Kernel.RS

end
-- ==== Proof.Word.PartsA.lean ====
/-
The kernel body's statements, part by part as it is printed: the two waves of transfers.

Each part is a short run of statements, and each statement moves exactly one chunk's bundle one stage on: a first-wave
transfer takes its chunk from stage 0 to 1 and discharges the receive credit the device owed its partner for it; the wait
on the partner's transfer takes the chunk from 1 to 2, bringing the landed rows with the partner's values; a second-wave
transfer takes it from 2 to 3 and discharges the receive credit owed to the sibling. Both waves go out in the order of the
chunks, so at every point the chunks whose credit is still owed form a final segment `k, …, 7`, and the sets of owed
chunks read off the stage vector are such segments.
-/
import proofs.«901027_g7700000000001028_dist_rs_v7x_xyz2x2x2_y_m512_n512_f32_1_alg».proof.Proof.Word.Steps

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-! ## The chunks not yet reached -/

/-- The chunks `k, k+1, …, 7`, as a chain of insertions (`ch8` is empty). Transfers of either wave go out in the order of
    the chunks, so the set of chunks whose transfer is still to be sent is always one of these. -/
private abbrev ch8 : Finset (Fin 8) := ∅
private abbrev ch7 : Finset (Fin 8) := insert 7 ch8
private abbrev ch6 : Finset (Fin 8) := insert 6 ch7
private abbrev ch5 : Finset (Fin 8) := insert 5 ch6
private abbrev ch4 : Finset (Fin 8) := insert 4 ch5
private abbrev ch3 : Finset (Fin 8) := insert 3 ch4
private abbrev ch2 : Finset (Fin 8) := insert 2 ch3
private abbrev ch1 : Finset (Fin 8) := insert 1 ch2
private abbrev ch0 : Finset (Fin 8) := insert 0 ch1

private theorem nm0 : (0 : Fin 8) ∉ ch1 := by decide
private theorem nm1 : (1 : Fin 8) ∉ ch2 := by decide
private theorem nm2 : (2 : Fin 8) ∉ ch3 := by decide
private theorem nm3 : (3 : Fin 8) ∉ ch4 := by decide
private theorem nm4 : (4 : Fin 8) ∉ ch5 := by decide
private theorem nm5 : (5 : Fin 8) ∉ ch6 := by decide
private theorem nm6 : (6 : Fin 8) ∉ ch7 := by decide
private theorem nm7 : (7 : Fin 8) ∉ ch8 := by decide

/-- The between-statements state at a literal stage vector, with the two sets of chunks whose receive credit is still
    owed (first wave: the chunks at stage 0; second wave: the chunks below stage 3) named. -/
private theorem PSt_lit (c : Dev nD) (a0 a1 a2 a3 a4 a5 a6 a7 os : ℕ) (SA SB : Finset (Fin 8))
    (hA : (Finset.univ.filter fun i : Fin 8 => (![a0, a1, a2, a3, a4, a5, a6, a7] : Fin 8 → ℕ) i = 0) = SA)
    (hB : (Finset.univ.filter fun i : Fin 8 => (![a0, a1, a2, a3, a4, a5, a6, a7] : Fin 8 → ℕ) i < 3) = SB) :
    PSt m K c ![a0, a1, a2, a3, a4, a5, a6, a7] os
      = iprop(recs m K ∗ levAts L lv ∗ owesE (F := F) c (oweA c SA + oweB c SB)
          ∗ (chunkSt m c 0 a0 ∗ chunkSt m c 1 a1 ∗ chunkSt m c 2 a2 ∗ chunkSt m c 3 a3
              ∗ chunkSt m c 4 a4 ∗ chunkSt m c 5 a5 ∗ chunkSt m c 6 a6 ∗ chunkSt m c 7 a7)
          ∗ xRest m c ∗ oSt m c os) := by
  subst hA hB; rfl

set_option maxHeartbeats 1600000 in
/-- Statements of part 2. First-wave transfers 0 and 1. -/
theorem part2_wp (c : Dev nD) (v2 v8 v9 v24 : BitVec 32) :
    PSt m K c ![0, 0, 0, 0, 0, 0, 0, 0] 0
      ⊢ wp frame (wpE (defs₀ (F := F)) 𝒱₀ (c : Thread nD τ) none) Set.univ (k0_part2 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v8 v9 v24)
          (fun _ => PSt m K c ![1, 1, 0, 0, 0, 0, 0, 0] 0) := by
  rw [k0_part2_eq_skeleton]; unfold k0_part2_skel
  simp only [Prog.lift, Prog.bind_op, Prog.bind_ret, Prog.pure_eq_ret]
  rw [PSt_lit m K c 0 0 0 0 0 0 0 0 0 ch0 ch0 (by decide) (by decide)]
  iintro ⟨#HR, #Hlev, HO, ⟨H0, H1, H2, H3, H4, H5, H6, H7⟩, Hxr, Ho⟩
  -- chunk 0 of the slab goes to the partner: stage 0 → 1, its receive credit there no longer owed
  iapply (step_A m K c _ (dev3_eq c) 0 _ _ (sem2_eq 0) (sem3_eq 0) _ _ rfl rfl _ nm0 (oweB c ch0)) $$ [H0 HO]
  · isplitr; · iexact HR
    isplitl [H0]; · iexact H0
    iexact HO
  iintro ⟨H0, HO⟩
  -- chunk 1 of the slab goes to the partner: stage 0 → 1, its receive credit there no longer owed
  iapply (step_A m K c _ (dev4_eq c) 1 _ _ (sem2_eq 1) (sem3_eq 1) _ _ rfl rfl _ nm1 (oweB c ch0)) $$ [H1 HO]
  · isplitr; · iexact HR
    isplitl [H1]; · iexact H1
    iexact HO
  iintro ⟨H1, HO⟩
  rw [wp_ret]; imodintro
  rw [PSt_lit m K c 1 1 0 0 0 0 0 0 0 ch2 ch0 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 3. First-wave transfers 2 and 3. -/
theorem part3_wp (c : Dev nD) (v2 v8 v9 v24 v60 w : BitVec 32) :
    PSt m K c ![1, 1, 0, 0, 0, 0, 0, 0] 0
      ⊢ wp frame (wpE (defs₀ (F := F)) 𝒱₀ (c : Thread nD τ) none) Set.univ (k0_part3 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v8 v9 v24 v60 w)
          (fun _ => PSt m K c ![1, 1, 1, 1, 0, 0, 0, 0] 0) := by
  rw [k0_part3_eq_skeleton]; unfold k0_part3_skel
  simp only [Prog.lift, Prog.bind_op, Prog.bind_ret, Prog.pure_eq_ret]
  rw [PSt_lit m K c 1 1 0 0 0 0 0 0 0 ch2 ch0 (by decide) (by decide)]
  iintro ⟨#HR, #Hlev, HO, ⟨H0, H1, H2, H3, H4, H5, H6, H7⟩, Hxr, Ho⟩
  -- chunk 2 of the slab goes to the partner: stage 0 → 1, its receive credit there no longer owed
  iapply (step_A m K c _ (dev5_eq c) 2 _ _ (sem2_eq 2) (sem3_eq 2) _ _ rfl rfl _ nm2 (oweB c ch0)) $$ [H2 HO]
  · isplitr; · iexact HR
    isplitl [H2]; · iexact H2
    iexact HO
  iintro ⟨H2, HO⟩
  -- chunk 3 of the slab goes to the partner: stage 0 → 1, its receive credit there no longer owed
  iapply (step_A m K c _ (dev6_eq c) 3 _ _ (sem2_eq 3) (sem3_eq 3) _ _ rfl rfl _ nm3 (oweB c ch0)) $$ [H3 HO]
  · isplitr; · iexact HR
    isplitl [H3]; · iexact H3
    iexact HO
  iintro ⟨H3, HO⟩
  rw [wp_ret]; imodintro
  rw [PSt_lit m K c 1 1 1 1 0 0 0 0 0 ch4 ch0 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 4. First-wave transfers 4, 5 and 6. -/
theorem part4_wp (c : Dev nD) (v2 v8 v9 v24 : BitVec 32) :
    PSt m K c ![1, 1, 1, 1, 0, 0, 0, 0] 0
      ⊢ wp frame (wpE (defs₀ (F := F)) 𝒱₀ (c : Thread nD τ) none) Set.univ (k0_part4 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v8 v9 v24)
          (fun _ => PSt m K c ![1, 1, 1, 1, 1, 1, 1, 0] 0) := by
  rw [k0_part4_eq_skeleton]; unfold k0_part4_skel
  simp only [Prog.lift, Prog.bind_op, Prog.bind_ret, Prog.pure_eq_ret]
  rw [PSt_lit m K c 1 1 1 1 0 0 0 0 0 ch4 ch0 (by decide) (by decide)]
  iintro ⟨#HR, #Hlev, HO, ⟨H0, H1, H2, H3, H4, H5, H6, H7⟩, Hxr, Ho⟩
  -- chunk 4 of the slab goes to the partner: stage 0 → 1, its receive credit there no longer owed
  iapply (step_A m K c _ (dev7_eq c) 4 _ _ (sem2_eq 4) (sem3_eq 4) _ _ rfl rfl _ nm4 (oweB c ch0)) $$ [H4 HO]
  · isplitr; · iexact HR
    isplitl [H4]; · iexact H4
    iexact HO
  iintro ⟨H4, HO⟩
  -- chunk 5 of the slab goes to the partner: stage 0 → 1, its receive credit there no longer owed
  iapply (step_A m K c _ (dev8_eq c) 5 _ _ (sem2_eq 5) (sem3_eq 5) _ _ rfl rfl _ nm5 (oweB c ch0)) $$ [H5 HO]
  · isplitr; · iexact HR
    isplitl [H5]; · iexact H5
    iexact HO
  iintro ⟨H5, HO⟩
  -- chunk 6 of the slab goes to the partner: stage 0 → 1, its receive credit there no longer owed
  iapply (step_A m K c _ (dev9_eq c) 6 _ _ (sem2_eq 6) (sem3_eq 6) _ _ rfl rfl _ nm6 (oweB c ch0)) $$ [H6 HO]
  · isplitr; · iexact HR
    isplitl [H6]; · iexact H6
    iexact HO
  iintro ⟨H6, HO⟩
  rw [wp_ret]; imodintro
  rw [PSt_lit m K c 1 1 1 1 1 1 1 0 0 ch7 ch0 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 5. First-wave transfer 7; the partner's chunk 0 has landed. -/
theorem part5_wp (c : Dev nD) (v2 v5 v8 v9 v10 : BitVec 32) :
    PSt m K c ![1, 1, 1, 1, 1, 1, 1, 0] 0
      ⊢ wp frame (wpE (defs₀ (F := F)) 𝒱₀ (c : Thread nD τ) none) Set.univ (k0_part5 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v5 v8 v9 v10)
          (fun _ => PSt m K c ![2, 1, 1, 1, 1, 1, 1, 1] 0) := by
  rw [k0_part5_eq_skeleton]; unfold k0_part5_skel
  simp only [Prog.lift, Prog.bind_op, Prog.bind_ret, Prog.pure_eq_ret]
  rw [PSt_lit m K c 1 1 1 1 1 1 1 0 0 ch7 ch0 (by decide) (by decide)]
  iintro ⟨#HR, #Hlev, HO, ⟨H0, H1, H2, H3, H4, H5, H6, H7⟩, Hxr, Ho⟩
  -- chunk 7 of the slab goes to the partner: stage 0 → 1, its receive credit there no longer owed
  iapply (step_A m K c _ (dev10_eq c) 7 _ _ (sem2_eq 7) (sem3_eq 7) _ _ rfl rfl _ nm7 (oweB c ch0)) $$ [H7 HO]
  · isplitr; · iexact HR
    isplitl [H7]; · iexact H7
    iexact HO
  iintro ⟨H7, HO⟩
  -- the partner's chunk 0 has landed: stage 1 → 2
  iapply (step_waitAR m K c 0 _ (sem3_eq 0) (dst := aCh 0) rfl ch0) $$ [H0 HO]
  · isplitr; · iexact HR
    isplitr; · iexact Hlev
    isplitl [H0]; · iexact H0
    iexact HO
  iintro ⟨H0, HO⟩
  rw [wp_ret]; imodintro
  rw [PSt_lit m K c 2 1 1 1 1 1 1 1 0 ch8 ch0 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 6. Chunk 0 forwarded; chunk 1 landed and forwarded. -/
theorem part6_wp (c : Dev nD) (v2 v5 v8 v9 v10 : BitVec 32) :
    PSt m K c ![2, 1, 1, 1, 1, 1, 1, 1] 0
      ⊢ wp frame (wpE (defs₀ (F := F)) 𝒱₀ (c : Thread nD τ) none) Set.univ (k0_part6 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v5 v8 v9 v10)
          (fun _ => PSt m K c ![3, 3, 1, 1, 1, 1, 1, 1] 0) := by
  rw [k0_part6_eq_skeleton]; unfold k0_part6_skel
  simp only [Prog.lift, Prog.bind_op, Prog.bind_ret, Prog.pure_eq_ret]
  rw [PSt_lit m K c 2 1 1 1 1 1 1 1 0 ch8 ch0 (by decide) (by decide)]
  iintro ⟨#HR, #Hlev, HO, ⟨H0, H1, H2, H3, H4, H5, H6, H7⟩, Hxr, Ho⟩
  -- the landed chunk 0 is forwarded to the sibling: stage 2 → 3, its receive credit there no longer owed
  iapply (step_B m K c _ (dev11_eq c) 0 _ _ (sem4_eq 0) (sem5_eq 0) _ _ rfl rfl _ nm0 (oweA c ch8)) $$ [H0 HO]
  · isplitr; · iexact HR
    isplitl [H0]; · iexact H0
    iexact HO
  iintro ⟨H0, HO⟩
  -- the partner's chunk 1 has landed: stage 1 → 2
  iapply (step_waitAR m K c 1 _ (sem3_eq 1) (dst := aCh 1) rfl ch1) $$ [H1 HO]
  · isplitr; · iexact HR
    isplitr; · iexact Hlev
    isplitl [H1]; · iexact H1
    iexact HO
  iintro ⟨H1, HO⟩
  -- the landed chunk 1 is forwarded to the sibling: stage 2 → 3, its receive credit there no longer owed
  iapply (step_B m K c _ (dev12_eq c) 1 _ _ (sem4_eq 1) (sem5_eq 1) _ _ rfl rfl _ nm1 (oweA c ch8)) $$ [H1 HO]
  · isplitr; · iexact HR
    isplitl [H1]; · iexact H1
    iexact HO
  iintro ⟨H1, HO⟩
  rw [wp_ret]; imodintro
  rw [PSt_lit m K c 3 3 1 1 1 1 1 1 0 ch8 ch2 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 7. Chunk 2 landed and forwarded; chunk 3 landed. -/
theorem part7_wp (c : Dev nD) (v2 v5 v8 v9 v10 v191 v192 : BitVec 32) :
    PSt m K c ![3, 3, 1, 1, 1, 1, 1, 1] 0
      ⊢ wp frame (wpE (defs₀ (F := F)) 𝒱₀ (c : Thread nD τ) none) Set.univ (k0_part7 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v5 v8 v9 v10 v191 v192)
          (fun _ => PSt m K c ![3, 3, 3, 2, 1, 1, 1, 1] 0) := by
  rw [k0_part7_eq_skeleton]; unfold k0_part7_skel
  simp only [Prog.lift, Prog.bind_op, Prog.bind_ret, Prog.pure_eq_ret]
  rw [PSt_lit m K c 3 3 1 1 1 1 1 1 0 ch8 ch2 (by decide) (by decide)]
  iintro ⟨#HR, #Hlev, HO, ⟨H0, H1, H2, H3, H4, H5, H6, H7⟩, Hxr, Ho⟩
  -- the partner's chunk 2 has landed: stage 1 → 2
  iapply (step_waitAR m K c 2 _ (sem3_eq 2) (dst := aCh 2) rfl ch2) $$ [H2 HO]
  · isplitr; · iexact HR
    isplitr; · iexact Hlev
    isplitl [H2]; · iexact H2
    iexact HO
  iintro ⟨H2, HO⟩
  -- the landed chunk 2 is forwarded to the sibling: stage 2 → 3, its receive credit there no longer owed
  iapply (step_B m K c _ (dev13_eq c) 2 _ _ (sem4_eq 2) (sem5_eq 2) _ _ rfl rfl _ nm2 (oweA c ch8)) $$ [H2 HO]
  · isplitr; · iexact HR
    isplitl [H2]; · iexact H2
    iexact HO
  iintro ⟨H2, HO⟩
  -- the partner's chunk 3 has landed: stage 1 → 2
  iapply (step_waitAR m K c 3 _ (sem3_eq 3) (dst := aCh 3) rfl ch3) $$ [H3 HO]
  · isplitr; · iexact HR
    isplitr; · iexact Hlev
    isplitl [H3]; · iexact H3
    iexact HO
  iintro ⟨H3, HO⟩
  rw [wp_ret]; imodintro
  rw [PSt_lit m K c 3 3 3 2 1 1 1 1 0 ch8 ch3 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 8. Chunk 3 forwarded; chunk 4 landed and forwarded. -/
theorem part8_wp (c : Dev nD) (v2 v5 v8 v9 v10 v223 w : BitVec 32) :
    PSt m K c ![3, 3, 3, 2, 1, 1, 1, 1] 0
      ⊢ wp frame (wpE (defs₀ (F := F)) 𝒱₀ (c : Thread nD τ) none) Set.univ (k0_part8 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v5 v8 v9 v10 v223 w)
          (fun _ => PSt m K c ![3, 3, 3, 3, 3, 1, 1, 1] 0) := by
  rw [k0_part8_eq_skeleton]; unfold k0_part8_skel
  simp only [Prog.lift, Prog.bind_op, Prog.bind_ret, Prog.pure_eq_ret]
  rw [PSt_lit m K c 3 3 3 2 1 1 1 1 0 ch8 ch3 (by decide) (by decide)]
  iintro ⟨#HR, #Hlev, HO, ⟨H0, H1, H2, H3, H4, H5, H6, H7⟩, Hxr, Ho⟩
  -- the landed chunk 3 is forwarded to the sibling: stage 2 → 3, its receive credit there no longer owed
  iapply (step_B m K c _ (dev14_eq c) 3 _ _ (sem4_eq 3) (sem5_eq 3) _ _ rfl rfl _ nm3 (oweA c ch8)) $$ [H3 HO]
  · isplitr; · iexact HR
    isplitl [H3]; · iexact H3
    iexact HO
  iintro ⟨H3, HO⟩
  -- the partner's chunk 4 has landed: stage 1 → 2
  iapply (step_waitAR m K c 4 _ (sem3_eq 4) (dst := aCh 4) rfl ch4) $$ [H4 HO]
  · isplitr; · iexact HR
    isplitr; · iexact Hlev
    isplitl [H4]; · iexact H4
    iexact HO
  iintro ⟨H4, HO⟩
  -- the landed chunk 4 is forwarded to the sibling: stage 2 → 3, its receive credit there no longer owed
  iapply (step_B m K c _ (dev15_eq c) 4 _ _ (sem4_eq 4) (sem5_eq 4) _ _ rfl rfl _ nm4 (oweA c ch8)) $$ [H4 HO]
  · isplitr; · iexact HR
    isplitl [H4]; · iexact H4
    iexact HO
  iintro ⟨H4, HO⟩
  rw [wp_ret]; imodintro
  rw [PSt_lit m K c 3 3 3 3 3 1 1 1 0 ch8 ch5 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 9. Chunk 5 landed and forwarded. -/
theorem part9_wp (c : Dev nD) (v2 v5 v8 v9 v10 : BitVec 32) :
    PSt m K c ![3, 3, 3, 3, 3, 1, 1, 1] 0
      ⊢ wp frame (wpE (defs₀ (F := F)) 𝒱₀ (c : Thread nD τ) none) Set.univ (k0_part9 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v5 v8 v9 v10)
          (fun _ => PSt m K c ![3, 3, 3, 3, 3, 3, 1, 1] 0) := by
  rw [k0_part9_eq_skeleton]; unfold k0_part9_skel
  simp only [Prog.lift, Prog.bind_op, Prog.bind_ret, Prog.pure_eq_ret]
  rw [PSt_lit m K c 3 3 3 3 3 1 1 1 0 ch8 ch5 (by decide) (by decide)]
  iintro ⟨#HR, #Hlev, HO, ⟨H0, H1, H2, H3, H4, H5, H6, H7⟩, Hxr, Ho⟩
  -- the partner's chunk 5 has landed: stage 1 → 2
  iapply (step_waitAR m K c 5 _ (sem3_eq 5) (dst := aCh 5) rfl ch5) $$ [H5 HO]
  · isplitr; · iexact HR
    isplitr; · iexact Hlev
    isplitl [H5]; · iexact H5
    iexact HO
  iintro ⟨H5, HO⟩
  -- the landed chunk 5 is forwarded to the sibling: stage 2 → 3, its receive credit there no longer owed
  iapply (step_B m K c _ (dev16_eq c) 5 _ _ (sem4_eq 5) (sem5_eq 5) _ _ rfl rfl _ nm5 (oweA c ch8)) $$ [H5 HO]
  · isplitr; · iexact HR
    isplitl [H5]; · iexact H5
    iexact HO
  iintro ⟨H5, HO⟩
  rw [wp_ret]; imodintro
  rw [PSt_lit m K c 3 3 3 3 3 3 1 1 0 ch8 ch6 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 10. Chunk 6 landed and forwarded; chunk 7 landed. -/
theorem part10_wp (c : Dev nD) (v2 v5 v8 v9 v10 : BitVec 32) :
    PSt m K c ![3, 3, 3, 3, 3, 3, 1, 1] 0
      ⊢ wp frame (wpE (defs₀ (F := F)) 𝒱₀ (c : Thread nD τ) none) Set.univ (k0_part10 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v5 v8 v9 v10)
          (fun _ => PSt m K c ![3, 3, 3, 3, 3, 3, 3, 2] 0) := by
  rw [k0_part10_eq_skeleton]; unfold k0_part10_skel
  simp only [Prog.lift, Prog.bind_op, Prog.bind_ret, Prog.pure_eq_ret]
  rw [PSt_lit m K c 3 3 3 3 3 3 1 1 0 ch8 ch6 (by decide) (by decide)]
  iintro ⟨#HR, #Hlev, HO, ⟨H0, H1, H2, H3, H4, H5, H6, H7⟩, Hxr, Ho⟩
  -- the partner's chunk 6 has landed: stage 1 → 2
  iapply (step_waitAR m K c 6 _ (sem3_eq 6) (dst := aCh 6) rfl ch6) $$ [H6 HO]
  · isplitr; · iexact HR
    isplitr; · iexact Hlev
    isplitl [H6]; · iexact H6
    iexact HO
  iintro ⟨H6, HO⟩
  -- the landed chunk 6 is forwarded to the sibling: stage 2 → 3, its receive credit there no longer owed
  iapply (step_B m K c _ (dev17_eq c) 6 _ _ (sem4_eq 6) (sem5_eq 6) _ _ rfl rfl _ nm6 (oweA c ch8)) $$ [H6 HO]
  · isplitr; · iexact HR
    isplitl [H6]; · iexact H6
    iexact HO
  iintro ⟨H6, HO⟩
  -- the partner's chunk 7 has landed: stage 1 → 2
  iapply (step_waitAR m K c 7 _ (sem3_eq 7) (dst := aCh 7) rfl ch7) $$ [H7 HO]
  · isplitr; · iexact HR
    isplitr; · iexact Hlev
    isplitl [H7]; · iexact H7
    iexact HO
  iintro ⟨H7, HO⟩
  rw [wp_ret]; imodintro
  rw [PSt_lit m K c 3 3 3 3 3 3 3 2 0 ch8 ch7 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

end Cert.Kernel.RS

end
-- ==== Proof.Word.PartsB.lean ====
/-
The kernel body's statements, part by part as it is printed: the two additions and the last waits.
-/
import proofs.«901027_g7700000000001028_dist_rs_v7x_xyz2x2x2_y_m512_n512_f32_1_alg».proof.Proof.Word.Steps

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-- The eight bundles at a literal vector of stages, written out. -/
private theorem St_lit (c : Dev nD) (a0 a1 a2 a3 a4 a5 a6 a7 : ℕ) :
    St m c ![a0, a1, a2, a3, a4, a5, a6, a7]
      = iprop(chunkSt m c 0 a0 ∗ chunkSt m c 1 a1 ∗ chunkSt m c 2 a2 ∗ chunkSt m c 3 a3
          ∗ chunkSt m c 4 a4 ∗ chunkSt m c 5 a5 ∗ chunkSt m c 6 a6 ∗ chunkSt m c 7 a7) := rfl

/-- The state between statements with the two owed sets named. -/
private theorem PSt_sets (c : Dev nD) (s : Fin 8 → ℕ) (os : ℕ) (SA SB : Finset (Fin 8))
    (hA : (Finset.univ.filter fun i => s i = 0) = SA) (hB : (Finset.univ.filter fun i => s i < 3) = SB) :
    PSt m K c s os
      = iprop(recs m K ∗ levAts L lv ∗ owesE (F := F) c (oweA c SA + oweB c SB) ∗ St m c s ∗ xRest m c ∗ oSt m c os) := by
  unfold PSt; rw [hA, hB]

private theorem oSt_zero (c : Dev nD) : oSt m c 0 = iprop(∃ g, oWhole c g) := rfl
private theorem oSt_one (c : Dev nD) : oSt m c 1 = iprop(∃ g, oWhole c (((oM : Memref sig .tc .vmem S512x512 .f32).access (rO1 c) : View sig .tc _ _ _).write (Elt F) g
            (k0_pay1 (aVal m c) (xHalf1 c (xstg m c))) Finset.univ)) := rfl
private theorem oSt_two (c : Dev nD) : oSt m c 2 = oWhole c (outAt m c) := rfl

/-- A chunk forwarded but whose sibling's rows have not landed still holds the right half of its rows of the first
    landing buffer: they can be taken out and put back. -/
private theorem chunk3_a (c : Dev nD) (k : Fin 8) :
    chunkSt m c k 3 ⊢ iprop(aPt c k fullShare.right (aVal m c) ∗ (aPt c k fullShare.right (aVal m c) -∗ chunkSt m c k 3)) := by
  rw [chunkSt_3]
  iintro ⟨X1, X2, X3, X4, X5, X6, X7, P⟩
  isplitl [P]; · iexact P
  iintro P
  isplitl [X1]; · iexact X1
  isplitl [X2]; · iexact X2
  isplitl [X3]; · iexact X3
  isplitl [X4]; · iexact X4
  isplitl [X5]; · iexact X5
  isplitl [X6]; · iexact X6
  isplitl [X7]; · iexact X7
  iexact P

/-- A chunk whose sibling's rows have landed holds its rows of the second landing buffer whole. -/
private theorem chunk4_b (c : Dev nD) (k : Fin 8) :
    chunkSt m c k 4 ⊢ iprop(bPt c k fullShare (bVal m c) ∗ (bPt c k fullShare (bVal m c) -∗ chunkSt m c k 4)) := by
  rw [chunkSt_4]
  iintro ⟨X1, X2, X3, X4, X5, X6, X7, P⟩
  isplitl [P]; · iexact P
  iintro P
  isplitl [X1]; · iexact X1
  isplitl [X2]; · iexact X2
  isplitl [X3]; · iexact X3
  isplitl [X4]; · iexact X4
  isplitl [X5]; · iexact X5
  isplitl [X6]; · iexact X6
  isplitl [X7]; · iexact X7
  iexact P

/-- With all eight chunks forwarded, the first landing buffer is held whole at the right half share: it can be read,
    and given back. -/
private theorem St3_a (c : Dev nD) :
    iprop(chunkSt m c 0 3 ∗ chunkSt m c 1 3 ∗ chunkSt m c 2 3 ∗ chunkSt m c 3 3 ∗ chunkSt m c 4 3 ∗ chunkSt m c 5 3 ∗ chunkSt m c 6 3 ∗ chunkSt m c 7 3)
      ⊢ iprop((((c : Thread nD τ).loc cc0_scratch0) ↦{fullShare.right} aVal m c)
          ∗ ((((c : Thread nD τ).loc cc0_scratch0) ↦{fullShare.right} aVal m c)
              -∗ (chunkSt m c 0 3 ∗ chunkSt m c 1 3 ∗ chunkSt m c 2 3 ∗ chunkSt m c 3 3 ∗ chunkSt m c 4 3 ∗ chunkSt m c 5 3 ∗ chunkSt m c 6 3 ∗ chunkSt m c 7 3))) := by
  iintro ⟨H0, H1, H2, H3, H4, H5, H6, H7⟩
  ihave H0 := (chunk3_a m c 0) $$ H0; icases H0 with ⟨A0, B0⟩
  ihave H1 := (chunk3_a m c 1) $$ H1; icases H1 with ⟨A1, B1⟩
  ihave H2 := (chunk3_a m c 2) $$ H2; icases H2 with ⟨A2, B2⟩
  ihave H3 := (chunk3_a m c 3) $$ H3; icases H3 with ⟨A3, B3⟩
  ihave H4 := (chunk3_a m c 4) $$ H4; icases H4 with ⟨A4, B4⟩
  ihave H5 := (chunk3_a m c 5) $$ H5; icases H5 with ⟨A5, B5⟩
  ihave H6 := (chunk3_a m c 6) $$ H6; icases H6 with ⟨A6, B6⟩
  ihave H7 := (chunk3_a m c 7) $$ H7; icases H7 with ⟨A7, B7⟩
  isplitl [A0 A1 A2 A3 A4 A5 A6 A7]
  · rw [a_split c fullShare.right (aVal m c), bigSep_fin8]
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iintro Ha
  ihave Ha := (Entails.of_eq ((a_split c fullShare.right (aVal m c)).trans (bigSep_fin8 _))) $$ Ha
  icases Ha with ⟨A0, A1, A2, A3, A4, A5, A6, A7⟩
  isplitl [A0 B0]; · iapply B0 $$ A0
  isplitl [A1 B1]; · iapply B1 $$ A1
  isplitl [A2 B2]; · iapply B2 $$ A2
  isplitl [A3 B3]; · iapply B3 $$ A3
  isplitl [A4 B4]; · iapply B4 $$ A4
  isplitl [A5 B5]; · iapply B5 $$ A5
  isplitl [A6 B6]; · iapply B6 $$ A6
  iapply B7 $$ A7

/-- With all eight of the sibling's chunks landed, the second landing buffer is held whole. -/
private theorem St4_b (c : Dev nD) :
    iprop(chunkSt m c 0 4 ∗ chunkSt m c 1 4 ∗ chunkSt m c 2 4 ∗ chunkSt m c 3 4 ∗ chunkSt m c 4 4 ∗ chunkSt m c 5 4 ∗ chunkSt m c 6 4 ∗ chunkSt m c 7 4)
      ⊢ iprop((((c : Thread nD τ).loc cc0_scratch1) ↦{fullShare} bVal m c)
          ∗ ((((c : Thread nD τ).loc cc0_scratch1) ↦{fullShare} bVal m c)
              -∗ (chunkSt m c 0 4 ∗ chunkSt m c 1 4 ∗ chunkSt m c 2 4 ∗ chunkSt m c 3 4 ∗ chunkSt m c 4 4 ∗ chunkSt m c 5 4 ∗ chunkSt m c 6 4 ∗ chunkSt m c 7 4))) := by
  iintro ⟨H0, H1, H2, H3, H4, H5, H6, H7⟩
  ihave H0 := (chunk4_b m c 0) $$ H0; icases H0 with ⟨A0, B0⟩
  ihave H1 := (chunk4_b m c 1) $$ H1; icases H1 with ⟨A1, B1⟩
  ihave H2 := (chunk4_b m c 2) $$ H2; icases H2 with ⟨A2, B2⟩
  ihave H3 := (chunk4_b m c 3) $$ H3; icases H3 with ⟨A3, B3⟩
  ihave H4 := (chunk4_b m c 4) $$ H4; icases H4 with ⟨A4, B4⟩
  ihave H5 := (chunk4_b m c 5) $$ H5; icases H5 with ⟨A5, B5⟩
  ihave H6 := (chunk4_b m c 6) $$ H6; icases H6 with ⟨A6, B6⟩
  ihave H7 := (chunk4_b m c 7) $$ H7; icases H7 with ⟨A7, B7⟩
  isplitl [A0 A1 A2 A3 A4 A5 A6 A7]
  · rw [b_split c fullShare (bVal m c), bigSep_fin8]
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iintro Ha
  ihave Ha := (Entails.of_eq ((b_split c fullShare (bVal m c)).trans (bigSep_fin8 _))) $$ Ha
  icases Ha with ⟨A0, A1, A2, A3, A4, A5, A6, A7⟩
  isplitl [A0 B0]; · iapply B0 $$ A0
  isplitl [A1 B1]; · iapply B1 $$ A1
  isplitl [A2 B2]; · iapply B2 $$ A2
  isplitl [A3 B3]; · iapply B3 $$ A3
  isplitl [A4 B4]; · iapply B4 $$ A4
  isplitl [A5 B5]; · iapply B5 $$ A5
  isplitl [A6 B6]; · iapply B6 $$ A6
  iapply B7 $$ A7

set_option maxHeartbeats 1600000 in
/-- Statements of part 11. Chunk 7 forwarded; the first addition (the first landing buffer plus the slab's own rows) stored; the sibling's chunk 0 has landed. -/
theorem part11_wp (c : Dev nD) (v5 v8 v10 v24 v27 v317 v318 : BitVec 32) :
    PSt m K c ![3, 3, 3, 3, 3, 3, 3, 2] 0
      ⊢ wp frame (wpE (defs₀ (F := F)) 𝒱₀ (c : Thread nD τ) none) Set.univ (k0_part11 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v5 v8 v10 v24 v27 v317 v318)
          (fun _ => PSt m K c ![4, 3, 3, 3, 3, 3, 3, 3] 1) := by
  rw [k0_part11_eq_skeleton]; unfold k0_part11_skel
  simp only [Prog.lift, Prog.bind_op, Prog.bind_ret, Prog.pure_eq_ret]
  rw [PSt_sets m K c ![3, 3, 3, 3, 3, 3, 3, 2] 0 ∅ (insert 7 ∅) (by decide) (by decide),
    PSt_sets m K c ![4, 3, 3, 3, 3, 3, 3, 3] 1 ∅ ∅ (by decide) (by decide), St_lit, St_lit, oSt_zero, oSt_one]
  unfold xRest oWhole
  iintro ⟨#HR, #Hlev, HO, ⟨H0, H1, H2, H3, H4, H5, H6, H7⟩, Hxr, ⟨%g, Ho⟩⟩
  -- chunk 7 forwarded to the sibling
  iapply (step_B m K c _ (dev18_eq c) 7 _ _ (sem4_eq 7) (sem5_eq 7) _ _ rfl rfl ∅ (by decide) (oweA c ∅)) $$ [H7 HO]
  · isplitr; · iexact HR
    isplitl [H7]; · iexact H7
    iexact HO
  iintro ⟨H7, HO⟩
  -- the first landing buffer, read whole
  ihave HS := (St3_a m c) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  icases HS with ⟨Ha, Hback⟩
  iapply (wp_load 𝒱₀ (c : Thread nD τ) none Set.univ (m := aM) (Finset.subset_univ _)) $$ Ha; iintro Ha
  rw [read_a]
  ihave HS := Hback $$ Ha
  icases HS with ⟨H0, H1, H2, H3, H4, H5, H6, H7⟩
  -- the slab's own rows
  iapply (wp_load 𝒱₀ (c : Thread nD τ) none Set.univ (m := xM) (rX1_sub c)) $$ Hxr; iintro Hxr
  rw [show (xM : Memref sig .tc .vmem S1x512x1024 .f32).view.readAt (Elt F) (rX1 c).toLoadRect (xstg m c) = xHalf1 c (xstg m c) from rfl]
  -- the result's rows, read and overwritten
  iapply (wp_load 𝒱₀ (c : Thread nD τ) none Set.univ (m := oM) (Finset.subset_univ _)) $$ Ho; iintro Ho
  iapply (wp_store 𝒱₀ (c : Thread nD τ) none Set.univ (m := oM) (r := rO1 c) (Mk := Finset.univ) (Finset.subset_univ _)) $$ Ho; iintro Ho
  iapply (step_waitBR m K c 0 _ (sem5_eq 0) (src := aCh 0) (dst := bCh 0) rfl) $$ [H0 HO]
  · isplitr; · iexact HR
    isplitl [H0]; · iexact H0
    iexact HO
  iintro ⟨H0, HO⟩
  rw [wp_ret]; imodintro
  isplitr; · iexact HR
  isplitr; · iexact Hlev
  isplitl [HO]; · iexact HO
  isplitr [Hxr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexists g; iexact Ho

set_option maxHeartbeats 1600000 in
/-- Statements of part 12. The sibling's chunks 1, 2 and 3 have landed. -/
theorem part12_wp (c : Dev nD) (v5 v8 v10 : BitVec 32) :
    PSt m K c ![4, 3, 3, 3, 3, 3, 3, 3] 1
      ⊢ wp frame (wpE (defs₀ (F := F)) 𝒱₀ (c : Thread nD τ) none) Set.univ (k0_part12 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 v5 v8 v10)
          (fun _ => PSt m K c ![4, 4, 4, 4, 3, 3, 3, 3] 1) := by
  rw [k0_part12_eq_skeleton]; unfold k0_part12_skel
  simp only [Prog.lift, Prog.bind_op, Prog.bind_ret, Prog.pure_eq_ret]
  rw [PSt_sets m K c _ _ ∅ ∅ (by decide) (by decide), PSt_sets m K c _ _ ∅ ∅ (by decide) (by decide), St_lit, St_lit]
  iintro ⟨#HR, #Hlev, HO, ⟨H0, H1, H2, H3, H4, H5, H6, H7⟩, Hxr, Ho⟩
  iapply (step_waitBR m K c 1 _ (sem5_eq 1) (src := aCh 1) (dst := bCh 1) rfl) $$ [H1 HO]
  · isplitr; · iexact HR
    isplitl [H1]; · iexact H1
    iexact HO
  iintro ⟨H1, HO⟩
  iapply (step_waitBR m K c 2 _ (sem5_eq 2) (src := aCh 2) (dst := bCh 2) rfl) $$ [H2 HO]
  · isplitr; · iexact HR
    isplitl [H2]; · iexact H2
    iexact HO
  iintro ⟨H2, HO⟩
  iapply (step_waitBR m K c 3 _ (sem5_eq 3) (src := aCh 3) (dst := bCh 3) rfl) $$ [H3 HO]
  · isplitr; · iexact HR
    isplitl [H3]; · iexact H3
    iexact HO
  iintro ⟨H3, HO⟩
  rw [wp_ret]; imodintro
  isplitr; · iexact HR
  isplitr; · iexact Hlev
  isplitl [HO]; · iexact HO
  isplitr [Hxr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 13. The sibling's chunks 4, 5 and 6 have landed. -/
theorem part13_wp (c : Dev nD) (v5 v8 v10 v377 v378 : BitVec 32) :
    PSt m K c ![4, 4, 4, 4, 3, 3, 3, 3] 1
      ⊢ wp frame (wpE (defs₀ (F := F)) 𝒱₀ (c : Thread nD τ) none) Set.univ (k0_part13 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 v5 v8 v10 v377 v378)
          (fun _ => PSt m K c ![4, 4, 4, 4, 4, 4, 4, 3] 1) := by
  rw [k0_part13_eq_skeleton]; unfold k0_part13_skel
  simp only [Prog.lift, Prog.bind_op, Prog.bind_ret, Prog.pure_eq_ret]
  rw [PSt_sets m K c _ _ ∅ ∅ (by decide) (by decide), PSt_sets m K c _ _ ∅ ∅ (by decide) (by decide), St_lit, St_lit]
  iintro ⟨#HR, #Hlev, HO, ⟨H0, H1, H2, H3, H4, H5, H6, H7⟩, Hxr, Ho⟩
  iapply (step_waitBR m K c 4 _ (sem5_eq 4) (src := aCh 4) (dst := bCh 4) rfl) $$ [H4 HO]
  · isplitr; · iexact HR
    isplitl [H4]; · iexact H4
    iexact HO
  iintro ⟨H4, HO⟩
  iapply (step_waitBR m K c 5 _ (sem5_eq 5) (src := aCh 5) (dst := bCh 5) rfl) $$ [H5 HO]
  · isplitr; · iexact HR
    isplitl [H5]; · iexact H5
    iexact HO
  iintro ⟨H5, HO⟩
  iapply (step_waitBR m K c 6 _ (sem5_eq 6) (src := aCh 6) (dst := bCh 6) rfl) $$ [H6 HO]
  · isplitr; · iexact HR
    isplitl [H6]; · iexact H6
    iexact HO
  iintro ⟨H6, HO⟩
  rw [wp_ret]; imodintro
  isplitr; · iexact HR
  isplitr; · iexact Hlev
  isplitl [HO]; · iexact HO
  isplitr [Hxr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 14. The sibling's chunk 7 has landed; the second addition stored; chunk 0's two send sides waited for. -/
theorem part14_wp (c : Dev nD) (v8 v26 v27 v405 v406 : BitVec 32) :
    PSt m K c ![4, 4, 4, 4, 4, 4, 4, 3] 1
      ⊢ wp frame (wpE (defs₀ (F := F)) 𝒱₀ (c : Thread nD τ) none) Set.univ (k0_part14 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v8 v26 v27 v405 v406)
          (fun _ => PSt m K c ![6, 4, 4, 4, 4, 4, 4, 4] 2) := by
  rw [k0_part14_eq_skeleton]; unfold k0_part14_skel
  simp only [Prog.lift, Prog.bind_op, Prog.bind_ret, Prog.pure_eq_ret]
  rw [PSt_sets m K c ![4, 4, 4, 4, 4, 4, 4, 3] 1 ∅ ∅ (by decide) (by decide),
    PSt_sets m K c ![6, 4, 4, 4, 4, 4, 4, 4] 2 ∅ ∅ (by decide) (by decide), St_lit, St_lit, oSt_one, oSt_two]
  unfold xRest oWhole
  iintro ⟨#HR, #Hlev, HO, ⟨H0, H1, H2, H3, H4, H5, H6, H7⟩, Hxr, ⟨%g, Ho⟩⟩
  iapply (step_waitBR m K c 7 _ (sem5_eq 7) (src := aCh 7) (dst := bCh 7) rfl) $$ [H7 HO]
  · isplitr; · iexact HR
    isplitl [H7]; · iexact H7
    iexact HO
  iintro ⟨H7, HO⟩
  -- the second landing buffer, read whole
  ihave HS := (St4_b m c) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  icases HS with ⟨Hb, Hback⟩
  iapply (wp_load 𝒱₀ (c : Thread nD τ) none Set.univ (m := bM) (Finset.subset_univ _)) $$ Hb; iintro Hb
  rw [read_b]
  ihave HS := Hback $$ Hb
  icases HS with ⟨H0, H1, H2, H3, H4, H5, H6, H7⟩
  -- the slab's other rows
  iapply (wp_load 𝒱₀ (c : Thread nD τ) none Set.univ (m := xM) (rX2_sub c)) $$ Hxr; iintro Hxr
  rw [show (xM : Memref sig .tc .vmem S1x512x1024 .f32).view.readAt (Elt F) (rX2 c).toLoadRect (xstg m c) = xHalf2 c (xstg m c) from rfl]
  -- the result's other rows, read and overwritten: both halves written, the result is the sum
  iapply (wp_load 𝒱₀ (c : Thread nD τ) none Set.univ (m := oM) (Finset.subset_univ _)) $$ Ho; iintro Ho
  iapply (wp_store 𝒱₀ (c : Thread nD τ) none Set.univ (m := oM) (r := rO2 c) (Mk := Finset.univ) (Finset.subset_univ _)) $$ Ho; iintro Ho
  rw [out_cover m c g]
  iapply (step_waitAS m K c 0 _ (sem2_eq 0) (src := aCh 0) (dst := xSl c 0) rfl) $$ [H0 HO]
  · isplitr; · iexact HR
    isplitl [H0]; · iexact H0
    iexact HO
  iintro ⟨H0, HO⟩
  iapply (step_waitBS m K c 0 _ (sem4_eq 0) (src := bCh 0) (dst := aCh 0) rfl) $$ [H0 HO]
  · isplitr; · iexact HR
    isplitl [H0]; · iexact H0
    iexact HO
  iintro ⟨H0, HO⟩
  rw [wp_ret]; imodintro
  isplitr; · iexact HR
  isplitr; · iexact Hlev
  isplitl [HO]; · iexact HO
  isplitr [Hxr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 15. Send sides: chunks 1 and 2 both, chunk 3 the first wave's. -/
theorem part15_wp (c : Dev nD) :
    PSt m K c ![6, 4, 4, 4, 4, 4, 4, 4] 2
      ⊢ wp frame (wpE (defs₀ (F := F)) 𝒱₀ (c : Thread nD τ) none) Set.univ (k0_part15 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c)
          (fun _ => PSt m K c ![6, 6, 6, 5, 4, 4, 4, 4] 2) := by
  rw [k0_part15_eq_skeleton]; unfold k0_part15_skel
  simp only [Prog.lift, Prog.bind_op, Prog.bind_ret, Prog.pure_eq_ret]
  rw [PSt_sets m K c _ _ ∅ ∅ (by decide) (by decide), PSt_sets m K c _ _ ∅ ∅ (by decide) (by decide), St_lit, St_lit]
  iintro ⟨#HR, #Hlev, HO, ⟨H0, H1, H2, H3, H4, H5, H6, H7⟩, Hxr, Ho⟩
  iapply (step_waitAS m K c 1 _ (sem2_eq 1) (src := aCh 1) (dst := xSl c 1) rfl) $$ [H1 HO]
  · isplitr; · iexact HR
    isplitl [H1]; · iexact H1
    iexact HO
  iintro ⟨H1, HO⟩
  iapply (step_waitBS m K c 1 _ (sem4_eq 1) (src := bCh 1) (dst := aCh 1) rfl) $$ [H1 HO]
  · isplitr; · iexact HR
    isplitl [H1]; · iexact H1
    iexact HO
  iintro ⟨H1, HO⟩
  iapply (step_waitAS m K c 2 _ (sem2_eq 2) (src := aCh 2) (dst := xSl c 2) rfl) $$ [H2 HO]
  · isplitr; · iexact HR
    isplitl [H2]; · iexact H2
    iexact HO
  iintro ⟨H2, HO⟩
  iapply (step_waitBS m K c 2 _ (sem4_eq 2) (src := bCh 2) (dst := aCh 2) rfl) $$ [H2 HO]
  · isplitr; · iexact HR
    isplitl [H2]; · iexact H2
    iexact HO
  iintro ⟨H2, HO⟩
  iapply (step_waitAS m K c 3 _ (sem2_eq 3) (src := aCh 3) (dst := xSl c 3) rfl) $$ [H3 HO]
  · isplitr; · iexact HR
    isplitl [H3]; · iexact H3
    iexact HO
  iintro ⟨H3, HO⟩
  rw [wp_ret]; imodintro
  isplitr; · iexact HR
  isplitr; · iexact Hlev
  isplitl [HO]; · iexact HO
  isplitr [Hxr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 16. Send sides: chunk 3 the second wave's, chunks 4 and 5 both. -/
theorem part16_wp (c : Dev nD) :
    PSt m K c ![6, 6, 6, 5, 4, 4, 4, 4] 2
      ⊢ wp frame (wpE (defs₀ (F := F)) 𝒱₀ (c : Thread nD τ) none) Set.univ (k0_part16 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c)
          (fun _ => PSt m K c ![6, 6, 6, 6, 6, 6, 4, 4] 2) := by
  rw [k0_part16_eq_skeleton]; unfold k0_part16_skel
  simp only [Prog.lift, Prog.bind_op, Prog.bind_ret, Prog.pure_eq_ret]
  rw [PSt_sets m K c _ _ ∅ ∅ (by decide) (by decide), PSt_sets m K c _ _ ∅ ∅ (by decide) (by decide), St_lit, St_lit]
  iintro ⟨#HR, #Hlev, HO, ⟨H0, H1, H2, H3, H4, H5, H6, H7⟩, Hxr, Ho⟩
  iapply (step_waitBS m K c 3 _ (sem4_eq 3) (src := bCh 3) (dst := aCh 3) rfl) $$ [H3 HO]
  · isplitr; · iexact HR
    isplitl [H3]; · iexact H3
    iexact HO
  iintro ⟨H3, HO⟩
  iapply (step_waitAS m K c 4 _ (sem2_eq 4) (src := aCh 4) (dst := xSl c 4) rfl) $$ [H4 HO]
  · isplitr; · iexact HR
    isplitl [H4]; · iexact H4
    iexact HO
  iintro ⟨H4, HO⟩
  iapply (step_waitBS m K c 4 _ (sem4_eq 4) (src := bCh 4) (dst := aCh 4) rfl) $$ [H4 HO]
  · isplitr; · iexact HR
    isplitl [H4]; · iexact H4
    iexact HO
  iintro ⟨H4, HO⟩
  iapply (step_waitAS m K c 5 _ (sem2_eq 5) (src := aCh 5) (dst := xSl c 5) rfl) $$ [H5 HO]
  · isplitr; · iexact HR
    isplitl [H5]; · iexact H5
    iexact HO
  iintro ⟨H5, HO⟩
  iapply (step_waitBS m K c 5 _ (sem4_eq 5) (src := bCh 5) (dst := aCh 5) rfl) $$ [H5 HO]
  · isplitr; · iexact HR
    isplitl [H5]; · iexact H5
    iexact HO
  iintro ⟨H5, HO⟩
  rw [wp_ret]; imodintro
  isplitr; · iexact HR
  isplitr; · iexact Hlev
  isplitl [HO]; · iexact HO
  isplitr [Hxr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

end Cert.Kernel.RS

end
-- ==== Proof.Word.Finish.lean ====
/-
Every chunk through: the landing buffers and the slab's staging buffer whole again, the 32 transfer cells closed at zero.
-/
import proofs.«901027_g7700000000001028_dist_rs_v7x_xyz2x2x2_y_m512_n512_f32_1_alg».proof.Proof.Word.Steps
import proofs.«901027_g7700000000001028_dist_rs_v7x_xyz2x2x2_y_m512_n512_f32_1_alg».proof.Proof.Word.Levels

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- A four-fold conjunction over the semaphore families, written out. -/
private theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- The 32 closed transfer cells, family by family. -/
private theorem zq_all (c : Dev nD) :
    (bigSep Finset.univ fun x : Fin 4 × Fin 8 => zQ (F := F) c x.1 x.2)
      = iprop((bigSep Finset.univ fun k : Fin 8 => zQ (F := F) c 0 k) ∗ (bigSep Finset.univ fun k : Fin 8 => zQ (F := F) c 1 k)
          ∗ (bigSep Finset.univ fun k : Fin 8 => zQ (F := F) c 2 k) ∗ (bigSep Finset.univ fun k : Fin 8 => zQ (F := F) c 3 k)) :=
  (bigSep_univ_prod (fun x : Fin 4 × Fin 8 => zQ (F := F) c x.1 x.2)).trans
    (bigSep_fin4 (fun j : Fin 4 => bigSep Finset.univ fun k : Fin 8 => zQ (F := F) c j k))

/-- The eight finished bundles together: the four families of closed cells, the two landing buffers whole with their
    values, and the eight pieces of the slab that were sent. -/
private theorem chunk6_all (c : Dev nD) :
    (bigSep Finset.univ fun k : Fin 8 => chunkSt m c k 6)
      = iprop((bigSep Finset.univ fun k : Fin 8 => zQ (F := F) c 0 k) ∗ (bigSep Finset.univ fun k : Fin 8 => zQ (F := F) c 1 k)
          ∗ (bigSep Finset.univ fun k : Fin 8 => zQ (F := F) c 2 k) ∗ (bigSep Finset.univ fun k : Fin 8 => zQ (F := F) c 3 k)
          ∗ aWhole c (aVal m c) ∗ bWhole c (bVal m c) ∗ (bigSep Finset.univ fun k : Fin 8 => xPt c k (xstg m c))) := by
  show (bigSep Finset.univ fun k : Fin 8 => iprop(zQ (F := F) c 0 k ∗ zQ (F := F) c 1 k ∗ zQ (F := F) c 2 k ∗ zQ (F := F) c 3 k
      ∗ aPt c k fullShare (aVal m c) ∗ bPt c k fullShare (bVal m c) ∗ xPt c k (xstg m c))) = _
  rw [bigSep_sep', bigSep_sep', bigSep_sep', bigSep_sep', bigSep_sep', bigSep_sep']
  unfold aWhole bWhole
  rw [a_split c fullShare (aVal m c), b_split c fullShare (bVal m c)]

/-- Every chunk at stage 6 and the result stored: the buffers whole again, the 32 transfer cells closed at zero. -/
theorem finish (K : GSem nD τ sig → ℕ) (c : Dev nD) :
    PSt m K c ![6, 6, 6, 6, 6, 6, 6, 6] 2
      ⊢ iprop(Φ₁ (F := F) c ∗ owesE (F := F) c 0 ∗ xWhole c (xstg m c) ∗ oWhole c (outAt m c)) := by
  -- no chunk is before its first transfer, none before its second: nothing is owed
  have hA : (Finset.univ.filter fun i : Fin 8 => (![6, 6, 6, 6, 6, 6, 6, 6] : Fin 8 → ℕ) i = 0) = ∅ := by decide
  have hB : (Finset.univ.filter fun i : Fin 8 => (![6, 6, 6, 6, 6, 6, 6, 6] : Fin 8 → ℕ) i < 3) = ∅ := by decide
  have hSt : St m c ![6, 6, 6, 6, 6, 6, 6, 6] = bigSep Finset.univ fun k : Fin 8 => chunkSt m c k 6 :=
    (bigSep_fin8 fun k : Fin 8 => chunkSt m c k 6).symm
  -- the result's buffer after both stores
  have hOut : oSt m c 2 = oWhole c (outAt m c) := rfl
  unfold PSt Φ₁ xRest
  rw [hA, hB, owe_empty, hSt, chunk6_all, zq_all, x_split c (xstg m c), hOut]
  iintro ⟨-, -, HO, ⟨Z0, Z1, Z2, Z3, HA, HB, HX⟩, HXr, HOut⟩
  isplitl [Z0 Z1 Z2 Z3 HA HB]
  · isplitl [HA]
    · iexists _; iexact HA
    · isplitl [HB]
      · iexists _; iexact HB
      · isplitl [Z0]
        · iexact Z0
        · isplitl [Z1]
          · iexact Z1
          · isplitl [Z2]
            · iexact Z2
            · iexact Z3
  · isplitl [HO]
    · iexact HO
    · isplitl [HX HXr]
      · isplitl [HX]
        · iexact HX
        · iexact HXr
      · iexact HOut

end Cert.Kernel.RS

end
-- ==== Proof.Word.Body.lean ====
/-
The whole kernel body on one device: the entry handshake and the cutting of the buffers into chunks (part 1), the parts
in order, the last four waits, and the buffers put together again.
-/
import proofs.«901027_g7700000000001028_dist_rs_v7x_xyz2x2x2_y_m512_n512_f32_1_alg».proof.Proof.Word.PartsA
import proofs.«901027_g7700000000001028_dist_rs_v7x_xyz2x2x2_y_m512_n512_f32_1_alg».proof.Proof.Word.PartsB
import proofs.«901027_g7700000000001028_dist_rs_v7x_xyz2x2x2_y_m512_n512_f32_1_alg».proof.Proof.Word.Levels
import proofs.«901027_g7700000000001028_dist_rs_v7x_xyz2x2x2_y_m512_n512_f32_1_alg».proof.Proof.Word.Finish

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the pipeline hands the body at its one grid point, and what the body must hand back. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outAt m c))

/-- What part 1 starts from, the records' names `K` fixed. -/
def pre1 (K : GSem nD τ sig → ℕ) (c : Dev nD) : sProp 𝕄 :=
  iprop(recs m K ∗ linear (F := F) c ∗ cred (tallyAt (barCell c) () 2)
    ∗ (bigSep Finset.univ fun k : Fin 8 => iprop(credQ (F := F) c 1 k ∗ credQ (F := F) c 3 k)) ∗ levAts L lv
    ∗ (∃ f, aWhole c f) ∗ (∃ f, bWhole c f)
    ∗ owesE (F := F) c (O₀ c) ∗ xWhole c (xstg m c) ∗ (∃ g, oWhole c g))

/-! ## Sequencing -/

/-- Running `p` and then `k` on its result: a triple for `p` and one for every `k a` compose. -/
private theorem wp_seq {α β : Type} (c : Dev nD) {p : Prog (TpuEff nD τ sig (Elt F) Λ₀ .tc) α} {k : α → Prog (TpuEff nD τ sig (Elt F) Λ₀ .tc) β}
    {P : sProp 𝕄} {P' : α → sProp 𝕄} {Q : β → sProp 𝕄}
    (h1 : P ⊢ wp frame (wpE (defs₀ (F := F)) 𝒱₀ (c : Thread nD τ) none) Set.univ p P')
    (h2 : ∀ a, P' a ⊢ wp frame (wpE (defs₀ (F := F)) 𝒱₀ (c : Thread nD τ) none) Set.univ (k a) Q) :
    P ⊢ wp frame (wpE (defs₀ (F := F)) 𝒱₀ (c : Thread nD τ) none) Set.univ (p >>= k) Q := by
  rw [wp_bind]; exact h1.trans (wp_mono _ _ _ h2)

/-! ## The bundles before anything is sent -/

/-- A chunk's bundle before anything is sent is: its eight ghost pieces, its two receive credits, the slab piece it
    sends, and the partner's and the sibling's landing rows. -/
private theorem part1_chunk0 (c : Dev nD) (k : Fin 8) (fa : Buf (Elt F) ((par c : Thread nD τ).loc cc0_scratch0))
    (fb : Buf (Elt F) ((sib c : Thread nD τ).loc cc0_scratch1)) :
    iprop(chunkG (F := F) c k ∗ (credQ (F := F) c 1 k ∗ credQ (F := F) c 3 k) ∗ xPt c k (xstg m c) ∗ aPt (par c) k fullShare fa ∗ bPt (sib c) k fullShare fb)
      ⊢ chunkSt m c k 0 := by
  show _ ⊢ iprop(atQ c 0 k ∗ atQ c 1 k ∗ atQ c 2 k ∗ atQ c 3 k ∗ tokQ c 0 k ∗ tokQ (par c) 1 k ∗ tokQ c 2 k ∗ tokQ (sib c) 3 k
        ∗ credQ c 1 k ∗ credQ c 3 k ∗ xPt c k (xstg m c) ∗ (∃ f, aPt (par c) k fullShare f) ∗ (∃ f, bPt (sib c) k fullShare f))
  unfold chunkG
  iintro ⟨⟨H1, H2, H3, H4, H5, H6, H7, H8⟩, ⟨C1, C3⟩, Hx, Ha, Hb⟩
  iframe
  isplitl [Ha]
  · iexists fa; iexact Ha
  · iexists fb; iexact Hb

/-- The eight bundles before anything is sent, from the same five things for every chunk. -/
private theorem part1_St0 (c : Dev nD) (fa : Buf (Elt F) ((par c : Thread nD τ).loc cc0_scratch0))
    (fb : Buf (Elt F) ((sib c : Thread nD τ).loc cc0_scratch1)) :
    iprop(bigSep Finset.univ (chunkG (F := F) c)
        ∗ (bigSep Finset.univ fun k : Fin 8 => iprop(credQ (F := F) c 1 k ∗ credQ (F := F) c 3 k))
        ∗ (bigSep Finset.univ fun k : Fin 8 => xPt c k (xstg m c))
        ∗ (bigSep Finset.univ fun k : Fin 8 => aPt (par c) k fullShare fa)
        ∗ (bigSep Finset.univ fun k : Fin 8 => bPt (sib c) k fullShare fb))
      ⊢ St m c ![0, 0, 0, 0, 0, 0, 0, 0] := by
  rw [← bigSep_sep', ← bigSep_sep', ← bigSep_sep', ← bigSep_sep']
  refine (bigSep_mono fun k _ => part1_chunk0 m c k fa fb).trans ?_
  rw [bigSep_fin8]
  exact .refl _

/-- Part 1: the device reads its id, signals its partner's and its sibling's barrier cell — handing each its own landing
    buffer to fill — and waits for their two signals, which hand it theirs; the buffers are then cut into chunks. -/
theorem part1_wp (K : GSem nD τ sig → ℕ) (c : Dev nD) :
    pre1 m K c
      ⊢ wp frame (wpE (defs₀ (F := F)) 𝒱₀ (c : Thread nD τ) none) Set.univ (k0_part1 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5)
          (fun r => iprop(⌜r.1 = c⌝ ∗ PSt m K c ![0, 0, 0, 0, 0, 0, 0, 0] 0)) := by
  rw [k0_part1_eq_skeleton]; unfold k0_part1_skel
  simp only [semSignalWord, semWaitWord, Prog.lift, Prog.bind_op, Prog.bind_ret, Prog.pure_eq_ret, wp_deviceId]
  simp only [dev1_eq c, dev2_eq c]
  unfold pre1 linear
  iintro ⟨#HR, ⟨HatB, HtP, HtS, HG⟩, HcB, Hcs, #Hlev, ⟨%fa0, Ha0⟩, ⟨%fb0, Hb0⟩, ⟨%W, HO⟩, Hx, Ho⟩
  have hA : (Finset.univ.filter fun i : Fin 8 => (![0, 0, 0, 0, 0, 0, 0, 0] : Fin 8 → ℕ) i = 0) = Finset.univ := by decide
  have hB : (Finset.univ.filter fun i : Fin 8 => (![0, 0, 0, 0, 0, 0, 0, 0] : Fin 8 → ℕ) i < 3) = Finset.univ := by decide
  -- the records of the three barrier cells
  ihave HbP := (recs_bar m K (par c)) $$ HR
  icases HbP with ⟨#HIP, #HrP⟩
  ihave HbS := (recs_bar m K (sib c)) $$ HR
  icases HbS with ⟨#HIS, #HrS⟩
  ihave HbC := (recs_bar m K c) $$ HR
  icases HbC with ⟨#HIC, -⟩
  -- the signal to the partner: duty `false` of its barrier cell, paid with the device's own first landing buffer
  iapply (Rounds.wp_signal 𝒱₀ ER (rd m) (c : Thread nD τ) none (dst := (par c : Thread nD τ)) (κ := K (barCell (par c)))
      (d := false) (by rw [duties_bar]; exact Finset.mem_univ _) ((amount_bar m (par c) false).trans (by decide)) ()
      (O₁ c + tallyAt (barCell (sib c)) () 1) rfl)
    $$ [HO HtP Ha0]
  · isplitr; · iexact HIP
    isplitl [HO]; · iexact HO
    isplitl [HtP]; · iexact HtP
    isplitl [Ha0]
    · rw [payload_bar_false]; unfold payBarP; rw [par_par]; iexists fa0; iexact Ha0
    · iexact HrP
  iintro HO
  -- the signal to the sibling: duty `true` of its barrier cell, paid with the device's own second landing buffer
  iapply (Rounds.wp_signal 𝒱₀ ER (rd m) (c : Thread nD τ) none (dst := (sib c : Thread nD τ)) (κ := K (barCell (sib c)))
      (d := true) (by rw [duties_bar]; exact Finset.mem_univ _) ((amount_bar m (sib c) true).trans (by decide)) ()
      (O₁ c) rfl)
    $$ [HO HtS Hb0]
  · isplitr; · iexact HIS
    isplitl [HO]; · iexact HO
    isplitl [HtS]; · iexact HtS
    isplitl [Hb0]
    · rw [payload_bar_true]; unfold payBarS; rw [sib_sib]; iexists fb0; iexact Hb0
    · iexact HrS
  iintro HO
  -- the wait for both neighbours' signals, owing only receive credit: their landing buffers come with it
  iapply (Rounds.wp_wait_rest_token 𝒱₀ ER (rd m) (c : Thread nD τ) none (κ := K (barCell c))
      (wpE_semWait_eq 𝒱₀ (c : Thread nD τ) none Set.univ) (Set.mem_univ _) () (O := O₁ c) (W := W) (R := 0) (m := 0) (T := ∅)
      (by rw [expect_bar]; decide)) $$ [HcB HO HatB]
  · isplitr; · iexact HIC
    isplitl [HcB]; · iexact HcB
    isplitl [HO]; · iexact HO
    isplitr; · iapply (mayWait_bar c); iexact Hlev
    iexact HatB
  iintro ⟨HO, -, -, Hpay⟩
  ihave Hp := (Entails.of_eq (rest_bar m c)) $$ Hpay
  unfold payBarP payBarS
  icases Hp with ⟨⟨%fa, Ha⟩, ⟨%fb, Hb⟩⟩
  rw [wp_ret]; imodintro
  isplitr; · ipureintro; rfl
  -- the state after the handshake: everything owed is receive credit; the buffers cut into chunks
  unfold PSt
  rw [hA, hB]
  isplitr; · iexact HR
  isplitr; · iexact Hlev
  isplitl [HO]; · iexists _; iexact HO
  ihave Hx := (Entails.of_eq (x_split c (xstg m c))) $$ Hx
  icases Hx with ⟨Hxs, Hxr⟩
  unfold aWhole bWhole
  ihave Ha := (Entails.of_eq (a_split (par c) fullShare fa)) $$ Ha
  ihave Hb := (Entails.of_eq (b_split (sib c) fullShare fb)) $$ Hb
  isplitl [HG Hcs Hxs Ha Hb]
  · iapply (part1_St0 m c fa fb)
    isplitl [HG]; · iexact HG
    isplitl [Hcs]; · iexact Hcs
    isplitl [Hxs]; · iexact Hxs
    isplitl [Ha]; · iexact Ha
    iexact Hb
  isplitl [Hxr]; · unfold xRest; iexact Hxr
  rw [show oSt m c 0 = iprop(∃ g, oWhole c g) from rfl]
  iexact Ho

/-! ## The composition -/

/-- A pure fact beside a resource may be assumed when proving from the two. -/
private theorem pure_sep_elim {φ : Prop} {P Q : sProp 𝕄} (h : φ → P ⊢ Q) : iprop(⌜φ⌝ ∗ P) ⊢ Q := by
  iintro ⟨%hφ, H⟩
  iapply (h hφ) $$ H

/-- The whole body from what part 1 starts from: the parts in order and the last four waits leave every chunk at the
    last stage and the result stored. -/
private theorem body_chain (K : GSem nD τ sig → ℕ) (c : Dev nD) :
    pre1 m K c
      ⊢ wp frame (wpE (defs₀ (F := F)) 𝒱₀ (c : Thread nD τ) none) Set.univ (cc0_body (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5)
          (fun _ => PSt m K c ![6, 6, 6, 6, 6, 6, 6, 6] 2) := by
  rw [cc0_body_eq_skeleton]; unfold cc0_body_skel
  refine wp_seq c (part1_wp m K c) (fun r => ?_)
  obtain ⟨d0, v2, v5, v8, v9, v10, v24, v26, v27⟩ := r
  refine pure_sep_elim (fun hd => ?_)
  have hd' : c = d0 := hd.symm
  subst hd'
  dsimp only
  refine wp_seq c (part2_wp m K c v2 v8 v9 v24) (fun r => ?_)
  obtain ⟨v60, w43⟩ := r
  dsimp only
  refine wp_seq c (part3_wp m K c v2 v8 v9 v24 v60 w43) (fun _ => ?_)
  refine wp_seq c (part4_wp m K c v2 v8 v9 v24) (fun _ => ?_)
  refine wp_seq c (part5_wp m K c v2 v5 v8 v9 v10) (fun _ => ?_)
  refine wp_seq c (part6_wp m K c v2 v5 v8 v9 v10) (fun r => ?_)
  obtain ⟨v191, v192⟩ := r
  dsimp only
  refine wp_seq c (part7_wp m K c v2 v5 v8 v9 v10 v191 v192) (fun r => ?_)
  obtain ⟨v223, w158⟩ := r
  dsimp only
  refine wp_seq c (part8_wp m K c v2 v5 v8 v9 v10 v223 w158) (fun _ => ?_)
  refine wp_seq c (part9_wp m K c v2 v5 v8 v9 v10) (fun _ => ?_)
  refine wp_seq c (part10_wp m K c v2 v5 v8 v9 v10) (fun r => ?_)
  obtain ⟨v317, v318⟩ := r
  dsimp only
  refine wp_seq c (part11_wp m K c v5 v8 v10 v24 v27 v317 v318) (fun _ => ?_)
  refine wp_seq c (part12_wp m K c v5 v8 v10) (fun r => ?_)
  obtain ⟨v377, v378⟩ := r
  dsimp only
  refine wp_seq c (part13_wp m K c v5 v8 v10 v377 v378) (fun r => ?_)
  obtain ⟨v405, v406⟩ := r
  dsimp only
  refine wp_seq c (part14_wp m K c v8 v26 v27 v405 v406) (fun _ => ?_)
  refine wp_seq c (part15_wp m K c) (fun _ => ?_)
  refine wp_seq c (part16_wp m K c) (fun _ => ?_)
  -- the send sides of the last two chunks
  simp only [Prog.lift, Prog.bind_op, Prog.bind_ret, Prog.pure_eq_ret]
  have hA : (Finset.univ.filter fun i : Fin 8 => (![6, 6, 6, 6, 6, 6, 4, 4] : Fin 8 → ℕ) i = 0) = ∅ := by decide
  have hB : (Finset.univ.filter fun i : Fin 8 => (![6, 6, 6, 6, 6, 6, 4, 4] : Fin 8 → ℕ) i < 3) = ∅ := by decide
  have hA' : (Finset.univ.filter fun i : Fin 8 => (![6, 6, 6, 6, 6, 6, 6, 6] : Fin 8 → ℕ) i = 0) = ∅ := by decide
  have hB' : (Finset.univ.filter fun i : Fin 8 => (![6, 6, 6, 6, 6, 6, 6, 6] : Fin 8 → ℕ) i < 3) = ∅ := by decide
  have hS : St m c ![6, 6, 6, 6, 6, 6, 4, 4] = iprop(chunkSt m c 0 6 ∗ chunkSt m c 1 6 ∗ chunkSt m c 2 6 ∗ chunkSt m c 3 6
      ∗ chunkSt m c 4 6 ∗ chunkSt m c 5 6 ∗ chunkSt m c 6 4 ∗ chunkSt m c 7 4) := rfl
  have hS' : St m c ![6, 6, 6, 6, 6, 6, 6, 6] = iprop(chunkSt m c 0 6 ∗ chunkSt m c 1 6 ∗ chunkSt m c 2 6 ∗ chunkSt m c 3 6
      ∗ chunkSt m c 4 6 ∗ chunkSt m c 5 6 ∗ chunkSt m c 6 6 ∗ chunkSt m c 7 6) := rfl
  unfold PSt
  rw [hA, hB, hA', hB', hS, hS']
  iintro ⟨#HR, #Hlev, HO, ⟨H0, H1, H2, H3, H4, H5, H6, H7⟩, Hxr, Ho⟩
  iapply (step_waitAS m K c 6 _ (sem2_eq 6) (by rfl)) $$ [H6 HO]
  · isplitr; · iexact HR
    isplitl [H6]; · iexact H6
    iexact HO
  iintro ⟨H6, HO⟩
  iapply (step_waitBS m K c 6 _ (sem4_eq 6) (by rfl)) $$ [H6 HO]
  · isplitr; · iexact HR
    isplitl [H6]; · iexact H6
    iexact HO
  iintro ⟨H6, HO⟩
  iapply (step_waitAS m K c 7 _ (sem2_eq 7) (by rfl)) $$ [H7 HO]
  · isplitr; · iexact HR
    isplitl [H7]; · iexact H7
    iexact HO
  iintro ⟨H7, HO⟩
  iapply (step_waitBS m K c 7 _ (sem4_eq 7) (by rfl)) $$ [H7 HO]
  · isplitr; · iexact HR
    isplitl [H7]; · iexact H7
    iexact HO
  iintro ⟨H7, HO⟩
  rw [wp_ret]; imodintro
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

/-- Every chunk at the last stage and the result stored is what the pipeline takes back. -/
private theorem body_post (K : GSem nD τ sig → ℕ) (c : Dev nD) : PSt m K c ![6, 6, 6, 6, 6, 6, 6, 6] 2 ⊢ bodyPost m c := by
  refine (finish m K c).trans ?_
  unfold bodyPost Dat.owesAt Pipeline.owesWithin xWhole oWhole
  rw [show (dats m 0 c).owed t₀.succ = 0 from rfl]
  iintro ⟨HΦ, ⟨%W, HO⟩, Hx, Ho⟩
  isplitl [HΦ]; · iexact HΦ
  isplitl [HO]
  · iexists W; isplitr; · ipureintro; exact fun _ _ => Or.inl trivial
    iexact HO
  isplitl [Hx]
  · iexists _; isplitr; · (ipureintro; rfl)
    iexact Hx
  iexists _; isplitr; · (ipureintro; rfl)
  iexact Ho

/-- The body from `bodyPre'` to `bodyPost`. -/
theorem sound_body (c : Dev nD) :
    bodyPre' m c
      ⊢ wp frame (wpE (defs₀ (F := F)) 𝒱₀ (c : Thread nD τ) none) Set.univ (cc0_body (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5) (fun _ => bodyPost m c) := by
  unfold bodyPre' Φ₀ start G'
  iintro ⟨⟨⟨⟨%K, #HR, Hlin⟩, HcB, Hcs, #Hlev⟩, Ha, Hb⟩, HoA, ⟨%d0, %g0, %hg0, Hx⟩, ⟨%d1, %g1, %hg1, Hout⟩⟩
  -- the slab's staging buffer holds the fetched slab
  have hf : (cfg0.win (0 : Fin 2)).fetch t₀ = true := fetch0_0 t₀
  have hx : g0 = xstg m c := by rw [hg0]; unfold Dat.before; rw [if_pos hf]; rfl
  subst hx
  unfold Dat.owesAt Pipeline.owesWithin
  icases HoA with ⟨%W, %hW, HO⟩
  rw [show (dats m 0 c).owed t₀.castSucc = O₀ c from rfl]
  iapply (wp_mono _ _ _ (fun _ => body_post m K c))
  iapply (body_chain m K c)
  unfold pre1 xWhole oWhole
  isplitr; · iexact HR
  isplitl [Hlin]; · iexact Hlin
  isplitl [HcB]; · iexact HcB
  isplitl [Hcs]; · iexact Hcs
  isplitr; · iexact Hlev
  isplitl [Ha]; · iexact Ha
  isplitl [Hb]; · iexact Hb
  isplitl [HO]; · iexists W; iexact HO
  isplitl [Hx]; · iexact Hx
  iexists g1; iexact Hout

omit [FloatOps F] in
/-- Owning a whole buffer at given contents is: some contents, equal to the given ones, and the buffer's points-to at them. -/
private theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
set_option maxHeartbeats 1600000 in
/-- The library's body obligation on device `c`: at the one grid point, what the pipeline hands over is `bodyPre'`, and
    what it asks back is `bodyPost`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m c)
  exact sound_body m c

end Cert.Kernel.RS

end
-- ==== Proof.WordFrame.lean ====
/-
The word-level program's frame: the same run, read at the word-level instance, with the values dropped.
-/
import proofs.«901027_g7700000000001028_dist_rs_v7x_xyz2x2x2_y_m512_n512_f32_1_alg».proof.Defs
import proofs.«901027_g7700000000001028_dist_rs_v7x_xyz2x2x2_y_m512_n512_f32_1_alg».proof.Proof.Gen.Pre_finite_inputs_Kernel
import proofs.«901027_g7700000000001028_dist_rs_v7x_xyz2x2x2_y_m512_n512_f32_1_alg».proof.Proof.Word.Final
import proofs.«901027_g7700000000001028_dist_rs_v7x_xyz2x2x2_y_m512_n512_f32_1_alg».proof.Proof.Word.Body

noncomputable section

namespace Cert.Kernel.RS

open Idealize.ShloMosaic Idealize.SL.Sem

/-- From any memory, whatever the inputs hold: the eight word-level kernels run to the end, nothing faults, and every
    device's slab ends as it began. (The precondition is not used.) -/
theorem frame_Kernel : Cert.frame_Kernel :=
  fun m ρ _ => run_frame (F := Bits) m ρ (fun c => body_obligation (F := Bits) m c)

end Cert.Kernel.RS

end
-- ==== Proof.Names.lean ====
/-
The reduce-scatter protocol on the 2×2×2 mesh, its names.

Device `c = 4·x + 2·y + z`. Its PARTNER `par c` differs in `y` only, its SIBLING `sib c` in `x` only; both maps are
involutions and they commute. A device holds block `y` of the input (one 512×1024 slab) and must end with columns
`512·y … 512·y+511` of the sum of the two slabs, all 512 rows.

Rows `256·x … 256·x+255` of that result it computes itself: its partner sends it the partner slab's entries there
(eight transfers of 32 rows each into the first landing buffer), and it adds its own slab's entries. The other 256 rows'
partner entries its sibling has received in the same way; the sibling forwards them, chunk by chunk as they land
(eight more transfers, into the second landing buffer), and the device again adds its own slab's entries.
-/
import proofs.«901027_g7700000000001028_dist_rs_v7x_xyz2x2x2_y_m512_n512_f32_1_alg».proof.Proof.Gen.KernelIdeal
import proofs.«901027_g7700000000001028_dist_rs_v7x_xyz2x2x2_y_m512_n512_f32_1_alg».proof.Proof.Gen.KernelIdeal.Skeleton
import proofs.«901027_g7700000000001028_dist_rs_v7x_xyz2x2x2_y_m512_n512_f32_1_alg».proof.Proof.Gen.KernelIdeal.Launch
import proofs.«901027_g7700000000001028_dist_rs_v7x_xyz2x2x2_y_m512_n512_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds copy (duties `Unit`) beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partner and sibling -/

/-- The device that differs from `c` in its `y` coordinate only. -/
def par (c : Dev nD) : Dev nD := ⟨k0_dev1 c, k0_dev1_lt c⟩
/-- The device that differs from `c` in its `x` coordinate only. -/
def sib (c : Dev nD) : Dev nD := ⟨k0_dev2 c, k0_dev2_lt c⟩

theorem par_par (c : Dev nD) : par (par c) = c := by revert c; decide +kernel
theorem sib_sib (c : Dev nD) : sib (sib c) = c := by revert c; decide +kernel
theorem par_sib (c : Dev nD) : par (sib c) = sib (par c) := by revert c; decide +kernel
theorem par_ne (c : Dev nD) : par c ≠ c := by revert c; decide +kernel
theorem sib_ne (c : Dev nD) : sib c ≠ c := by revert c; decide +kernel
theorem par_ne_sib (c : Dev nD) : par c ≠ sib c := by revert c; decide +kernel

theorem par_val (c : Dev nD) : (par c).val = (4 * (c.val / 4) + (c.val % 2) + 2) - 2 * ((c.val / 2) % 2) := k0_dev1_eq c
theorem sib_val (c : Dev nD) : (sib c).val = (2 * ((c.val / 2) % 2) + (c.val % 2) + 4) - 4 * (c.val / 4) := k0_dev2_eq c

def parE : Dev nD ≃ Dev nD := ⟨par, par, par_par, par_par⟩
def sibE : Dev nD ≃ Dev nD := ⟨sib, sib, sib_sib, sib_sib⟩

/-- The printed device chains: the first signal and the eight transfers of the first wave name the partner, the second
    signal and the eight of the second wave the sibling. -/
theorem dev1_eq (c : Dev nD) : (⟨k0_dev1 c, k0_dev1_lt c⟩ : Dev nD) = par c := rfl
theorem dev2_eq (c : Dev nD) : (⟨k0_dev2 c, k0_dev2_lt c⟩ : Dev nD) = sib c := rfl
theorem dev3_eq (c : Dev nD) : (⟨k0_dev3 c, k0_dev3_lt c⟩ : Dev nD) = par c := Fin.ext ((k0_dev3_eq c).trans (k0_dev1_eq c).symm)
theorem dev4_eq (c : Dev nD) : (⟨k0_dev4 c, k0_dev4_lt c⟩ : Dev nD) = par c := Fin.ext ((k0_dev4_eq c).trans (k0_dev1_eq c).symm)
theorem dev5_eq (c : Dev nD) : (⟨k0_dev5 c, k0_dev5_lt c⟩ : Dev nD) = par c := Fin.ext ((k0_dev5_eq c).trans (k0_dev1_eq c).symm)
theorem dev6_eq (c : Dev nD) : (⟨k0_dev6 c, k0_dev6_lt c⟩ : Dev nD) = par c := Fin.ext ((k0_dev6_eq c).trans (k0_dev1_eq c).symm)
theorem dev7_eq (c : Dev nD) : (⟨k0_dev7 c, k0_dev7_lt c⟩ : Dev nD) = par c := Fin.ext ((k0_dev7_eq c).trans (k0_dev1_eq c).symm)
theorem dev8_eq (c : Dev nD) : (⟨k0_dev8 c, k0_dev8_lt c⟩ : Dev nD) = par c := Fin.ext ((k0_dev8_eq c).trans (k0_dev1_eq c).symm)
theorem dev9_eq (c : Dev nD) : (⟨k0_dev9 c, k0_dev9_lt c⟩ : Dev nD) = par c := Fin.ext ((k0_dev9_eq c).trans (k0_dev1_eq c).symm)
theorem dev10_eq (c : Dev nD) : (⟨k0_dev10 c, k0_dev10_lt c⟩ : Dev nD) = par c := Fin.ext ((k0_dev10_eq c).trans (k0_dev1_eq c).symm)
theorem dev11_eq (c : Dev nD) : (⟨k0_dev11 c, k0_dev11_lt c⟩ : Dev nD) = sib c := Fin.ext ((k0_dev11_eq c).trans (k0_dev2_eq c).symm)
theorem dev12_eq (c : Dev nD) : (⟨k0_dev12 c, k0_dev12_lt c⟩ : Dev nD) = sib c := Fin.ext ((k0_dev12_eq c).trans (k0_dev2_eq c).symm)
theorem dev13_eq (c : Dev nD) : (⟨k0_dev13 c, k0_dev13_lt c⟩ : Dev nD) = sib c := Fin.ext ((k0_dev13_eq c).trans (k0_dev2_eq c).symm)
theorem dev14_eq (c : Dev nD) : (⟨k0_dev14 c, k0_dev14_lt c⟩ : Dev nD) = sib c := Fin.ext ((k0_dev14_eq c).trans (k0_dev2_eq c).symm)
theorem dev15_eq (c : Dev nD) : (⟨k0_dev15 c, k0_dev15_lt c⟩ : Dev nD) = sib c := Fin.ext ((k0_dev15_eq c).trans (k0_dev2_eq c).symm)
theorem dev16_eq (c : Dev nD) : (⟨k0_dev16 c, k0_dev16_lt c⟩ : Dev nD) = sib c := Fin.ext ((k0_dev16_eq c).trans (k0_dev2_eq c).symm)
theorem dev17_eq (c : Dev nD) : (⟨k0_dev17 c, k0_dev17_lt c⟩ : Dev nD) = sib c := Fin.ext ((k0_dev17_eq c).trans (k0_dev2_eq c).symm)
theorem dev18_eq (c : Dev nD) : (⟨k0_dev18 c, k0_dev18_lt c⟩ : Dev nD) = sib c := Fin.ext ((k0_dev18_eq c).trans (k0_dev2_eq c).symm)

/-! ## The buffers and their 32-row chunks -/

/-- The input slab's staging buffer, the result's staging buffer, the two landing buffers. -/
abbrev xM : Memref sig .tc .vmem S1x512x1024 .f32 := Memref.whole cc0_stg0_0
abbrev oM : Memref sig .tc .vmem S512x512 .f32 := Memref.whole cc0_stg1_0
abbrev aM : Memref sig .tc .vmem S256x512 .f32 := Memref.whole cc0_scratch0
abbrev bM : Memref sig .tc .vmem S256x512 .f32 := Memref.whole cc0_scratch1

theorem chunk_inb (k : Fin 8) : ∀ a, (![32 * k.val, 0] : Fin 2 → Nat) a + S32x512.size a ≤ S256x512.size a := by revert k; decide

/-- Rows `32·k … 32·k+31` of the first landing buffer; of the second. -/
abbrev aCh (k : Fin 8) : Memref sig .tc .vmem S32x512 .f32 :=
  aM.slice (Rect.unit (s := S256x512) ![32 * k.val, 0] S32x512.size (chunk_inb k)) (fun _ => rfl)
abbrev bCh (k : Fin 8) : Memref sig .tc .vmem S32x512 .f32 :=
  bM.slice (Rect.unit (s := S256x512) ![32 * k.val, 0] S32x512.size (chunk_inb k)) (fun _ => rfl)

/-- The piece of device `c`'s slab that its `k`-th transfer of the first wave sends: rows `256·x + 32·k …`, the
    partner's column half. -/
abbrev xSl (c : Dev nD) (k : Fin 8) : Memref sig .tc .vmem S32x512 .f32 :=
  (xM.slice (Rect.unit (s := S1x512x1024) (k0_off1 c (BitVec.ofNat 32 (32 * k.val))) S1x32x512.size (k0_off1_inb c k)) (fun _ => rfl)).squeeze
    S32x512 squeezes_S1x32x512_S32x512

/-! ## The semaphores and cells -/

abbrev barS : Sem sig := (SemArray.scalar (sig.barrier 0 rfl) : Sems sig S_).sem

/-- The protocol's 32 DMA semaphores: family `j` (0 the first wave's send side, 1 its receive side, 2 the second wave's
    send side, 3 its receive side), chunk `k`. -/
def qsem (j : Fin 4) (k : Fin 8) : DmaSem sig := ⟨2 + 8 * j.val + k.val, by have := j.isLt; have := k.isLt; show 2 + 8 * j.val + k.val < 34; omega⟩

abbrev barCell (c : Dev nD) : GSem nD τ sig := ((c : Thread nD τ), .reg barS)
abbrev qCell (c : Dev nD) (j : Fin 4) (k : Fin 8) : GSem nD τ sig := ((c : Thread nD τ), .dma (qsem j k))

theorem sem_inb (k : Fin 8) : ∀ a, (![k.val] : Fin 1 → Nat) a + S1.size a ≤ S8.size a := by revert k; decide

/-- The printed semaphore views are the table's entries. -/
theorem sem2_eq (k : Fin 8) : ((cc0_scratch2.slice (Rect.unit (s := S8) ![k.val] S1.size (sem_inb k))).squeeze S_ squeezes_S1_S_).sem = qsem 0 k := by
  revert k; decide
theorem sem3_eq (k : Fin 8) : ((cc0_scratch3.slice (Rect.unit (s := S8) ![k.val] S1.size (sem_inb k))).squeeze S_ squeezes_S1_S_).sem = qsem 1 k := by
  revert k; decide
theorem sem4_eq (k : Fin 8) : ((cc0_scratch4.slice (Rect.unit (s := S8) ![k.val] S1.size (sem_inb k))).squeeze S_ squeezes_S1_S_).sem = qsem 2 k := by
  revert k; decide
theorem sem5_eq (k : Fin 8) : ((cc0_scratch5.slice (Rect.unit (s := S8) ![k.val] S1.size (sem_inb k))).squeeze S_ squeezes_S1_S_).sem = qsem 3 k := by
  revert k; decide

theorem qsem_inj {j j' : Fin 4} {k k' : Fin 8} (h : qsem j k = qsem j' k') : j = j' ∧ k = k' := by
  have h' : 2 + 8 * j.val + k.val = 2 + 8 * j'.val + k'.val := congrArg Fin.val h
  have := j.isLt; have := j'.isLt; have := k.isLt; have := k'.isLt
  exact ⟨Fin.ext (by omega), Fin.ext (by omega)⟩

/-- The credit one 32×512 transfer puts on each of its two cells. -/
abbrev N32 : ℕ := (aCh 0 : Memref sig .tc .vmem S32x512 .f32).view.dmaCredit
theorem N32_pos : 0 < N32 := View.dmaCredit_pos _ (by decide)

end Cert.KernelIdeal.RS

end
-- ==== Proof.Sched.lean ====
/-
What the buffers hold, and the schedule of the protocol's cells.

Every cell has ONE round. A device's barrier cell has two duties of one unit: its partner's signal, which hands over the
partner's first landing buffer (for the device to fill), and its sibling's, which hands over the sibling's second landing
buffer. Each of the 32 transfer cells has one duty of a 32×512 block's credit: a send cell returns the source to the
sender, a receive cell gives the receiver its 32 rows WITH the values that landed.
-/
import proofs.«901027_g7700000000001028_dist_rs_v7x_xyz2x2x2_y_m512_n512_f32_1_alg».proof.Proof.Names

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device `c`'s slab as its staging buffer holds it once fetched. -/
def xstg (c : Dev nD) : (cc0_stg0_0 : Ref sig .tc).ty.Contents (Elt F) :=
  (win0_0.blk t0_0).view.read (Elt F) (m ((c : Thread nD τ).loc main_arg0))

/-- The four rectangles of the two additions: the slab's entries at the device's own column half, rows `256·x …` and
    the other 256 rows; the result's rows `256·x …` and the other 256; and a landing buffer whole. -/
abbrev rX1 (c : Dev nD) : Rect S1x512x1024 := Rect.unit (s := S1x512x1024) (k0_off2 c) S1x256x512.size (k0_off2_inb c)
abbrev rX2 (c : Dev nD) : Rect S1x512x1024 := Rect.unit (s := S1x512x1024) (k0_off4 c) S1x256x512.size (k0_off4_inb c)
abbrev rO1 (c : Dev nD) : Rect S512x512 := Rect.unit (s := S512x512) (k0_off3 c) S256x512.size (k0_off3_inb c)
abbrev rO2 (c : Dev nD) : Rect S512x512 := Rect.unit (s := S512x512) (k0_off5 c) S256x512.size (k0_off5_inb c)
abbrev rA : Rect S256x512 := Rect.unit (s := S256x512) ![0, 0] S256x512.size inb_S256x512_S256x512_0_0

/-- A slab's 256×512 block at device `c`'s own rows and columns; at its other rows. -/
def xHalf1 (c : Dev nD) (f : (cc0_stg0_0 : Ref sig .tc).ty.Contents (Elt F)) : Vec F S1x256x512 .f32 :=
  (xM : Memref sig .tc .vmem S1x512x1024 .f32).view.readAt (Elt F) (rX1 c).toLoadRect f
def xHalf2 (c : Dev nD) (f : (cc0_stg0_0 : Ref sig .tc).ty.Contents (Elt F)) : Vec F S1x256x512 .f32 :=
  (xM : Memref sig .tc .vmem S1x512x1024 .f32).view.readAt (Elt F) (rX2 c).toLoadRect f

/-- What the first landing buffer of `c` holds once its eight chunks have landed: the PARTNER's slab at `c`'s own rows
    and columns. -/
def aVal (c : Dev nD) : (cc0_scratch0 : Ref sig .tc).ty.Contents (Elt F) :=
  shapeCast S256x512 (xHalf1 c (xstg m (par c))) shapeCasts_S1x256x512_S256x512
/-- What the second holds: what the SIBLING's first landing buffer holds. -/
def bVal (c : Dev nD) : (cc0_scratch1 : Ref sig .tc).ty.Contents (Elt F) := aVal m (sib c)

/-- The result on device `c`: its own rows from the first landing buffer, the other rows from the second, each plus its
    own slab's entries there. -/
def outAt (c : Dev nD) : (cc0_stg1_0 : Ref sig .tc).ty.Contents (Elt F) :=
  ((oM : Memref sig .tc .vmem S512x512 .f32).access (rO2 c) : View sig .tc _ _ _).write (Elt F)
    (((oM : Memref sig .tc .vmem S512x512 .f32).access (rO1 c) : View sig .tc _ _ _).write (Elt F) (fun _ => Classical.arbitrary _)
      (k0_pay1 (aVal m c) (xHalf1 c (xstg m c))) Finset.univ)
    (k0_pay2 (bVal m c) (xHalf2 c (xstg m c))) Finset.univ

/-! ## Points-to, by chunk -/

def aPt (c : Dev nD) (k : Fin 8) (q : PosShare TreeShare) (f : Buf (Elt F) ((aCh k : Memref sig .tc .vmem S32x512 .f32).view.loc (c : Thread nD τ))) : sProp 𝕄 :=
  (aCh k : Memref sig .tc .vmem S32x512 .f32).view.loc (c : Thread nD τ) ↦[(aCh k : Memref sig .tc .vmem S32x512 .f32).view.set]{q} f
def bPt (c : Dev nD) (k : Fin 8) (q : PosShare TreeShare) (f : Buf (Elt F) ((bCh k : Memref sig .tc .vmem S32x512 .f32).view.loc (c : Thread nD τ))) : sProp 𝕄 :=
  (bCh k : Memref sig .tc .vmem S32x512 .f32).view.loc (c : Thread nD τ) ↦[(bCh k : Memref sig .tc .vmem S32x512 .f32).view.set]{q} f
def xPt (c : Dev nD) (k : Fin 8) (f : Buf (Elt F) ((xSl c k : Memref sig .tc .vmem S32x512 .f32).view.loc (c : Thread nD τ))) : sProp 𝕄 :=
  (xSl c k : Memref sig .tc .vmem S32x512 .f32).view.loc (c : Thread nD τ) ↦[(xSl c k : Memref sig .tc .vmem S32x512 .f32).view.set]{fullShare} f

def aWhole (c : Dev nD) (f : Buf (Elt F) ((c : Thread nD τ).loc cc0_scratch0)) : sProp 𝕄 := ((c : Thread nD τ).loc cc0_scratch0) ↦{fullShare} f
def bWhole (c : Dev nD) (f : Buf (Elt F) ((c : Thread nD τ).loc cc0_scratch1)) : sProp 𝕄 := ((c : Thread nD τ).loc cc0_scratch1) ↦{fullShare} f

/-! ## The payloads -/

/-- Duty `false` of `c`'s barrier cell, the partner's signal: the partner's first landing buffer. Duty `true`, the
    sibling's: the sibling's second landing buffer. -/
def payBarP (c : Dev nD) : sProp 𝕄 := iprop(∃ f, aWhole (par c) f)
def payBarS (c : Dev nD) : sProp 𝕄 := iprop(∃ f, bWhole (sib c) f)
/-- The four transfer families. -/
def payAS (c : Dev nD) (k : Fin 8) : sProp 𝕄 := xPt c k (xstg m c)
def payAR (c : Dev nD) (k : Fin 8) : sProp 𝕄 := aPt c k fullShare (aVal m c)
def payBS (c : Dev nD) (k : Fin 8) : sProp 𝕄 := aPt c k fullShare.left (aVal m c)
def payBR (c : Dev nD) (k : Fin 8) : sProp 𝕄 := bPt c k fullShare (bVal m c)

def jOf (s : DmaSem sig) : ℕ := (s.val - 2) / 8
def kOf (s : DmaSem sig) : Fin 8 := ⟨(s.val - 2) % 8, Nat.mod_lt _ (by decide)⟩

theorem jOf_qsem (j : Fin 4) (k : Fin 8) : jOf (qsem j k) = j.val := by
  have := j.isLt; have := k.isLt; show (2 + 8 * j.val + k.val - 2) / 8 = j.val; omega
theorem kOf_qsem (j : Fin 4) (k : Fin 8) : kOf (qsem j k) = k := by
  have := j.isLt; have := k.isLt; exact Fin.ext (show (2 + 8 * j.val + k.val - 2) % 8 = k.val by omega)
theorem two_le_qsem (j : Fin 4) (k : Fin 8) : 2 ≤ (qsem j k).val := by show 2 ≤ 2 + 8 * j.val + k.val; omega

def payJ (c : Dev nD) (k : Fin 8) : ℕ → sProp 𝕄
  | 0 => payAS m c k
  | 1 => payAR m c k
  | 2 => payBS m c k
  | _ => payBR m c k

def payQ (c : Dev nD) (s : DmaSem sig) : sProp 𝕄 := if 2 ≤ s.val then payJ m c (kOf s) (jOf s) else iprop(emp)

/-! ## The schedule -/

def rd : Rounds.Schedule (GSem nD τ sig) Bool 𝕄 where
  duties g r := if r = 0 ∧ g.1.2 = .tc then
      (match g.2 with
        | .reg s => if s = barS then Finset.univ else ∅
        | .dma s => if 2 ≤ s.val then {false} else ∅)
    else ∅
  amount g _ _ := match g.2 with
    | .reg _ => 1
    | .dma _ => N32
  payload g _ d := match g.2 with
    | .reg s => if s = barS then (if d then payBarS g.1.1 else payBarP g.1.1) else iprop(emp)
    | .dma s => payQ m g.1.1 s
  amount_pos g _ _ _ := by
    cases g.2 with
    | reg s => exact Nat.one_pos
    | dma s => exact N32_pos

instance rd_payload_storable (g : GSem nD τ sig) (r : ℕ) (d : Bool) :
    BI.Storable (upEmb : UEmb _ 𝕄) ((rd (F := F) m).payload g r d) := by
  show BI.Storable upEmb (match g.2 with
    | .reg s => if s = barS then (if d then payBarS g.1.1 else payBarP g.1.1) else iprop(emp)
    | .dma s => payQ m g.1.1 s)
  cases g.2 with
  | reg s => dsimp only; unfold payBarS payBarP aWhole bWhole; (repeat' split) <;> infer_instance
  | dma s =>
    dsimp only; unfold payQ
    split
    · unfold payJ; split <;> (first | (unfold payAS xPt; infer_instance) | (unfold payAR aPt; infer_instance) | (unfold payBS aPt; infer_instance) | (unfold payBR bPt; infer_instance))
    · infer_instance

section Tables
variable (c : Dev nD)

omit [FloatOps F] in
theorem duties_bar : (rd (F := F) m).duties (barCell c) 0 = Finset.univ := by
  dsimp only [rd]; rw [if_pos ⟨rfl, rfl⟩]; exact if_pos rfl
omit [FloatOps F] in
theorem duties_q (j : Fin 4) (k : Fin 8) : (rd (F := F) m).duties (qCell c j k) 0 = {false} := by
  dsimp only [rd]; rw [if_pos ⟨rfl, rfl⟩]; exact if_pos (two_le_qsem j k)
omit [FloatOps F] in
theorem duties_later (g : GSem nD τ sig) : ∀ r, 1 ≤ r → (rd (F := F) m).duties g r = ∅ :=
  fun r hr => by dsimp only [rd]; rw [if_neg fun h => by omega]
omit [FloatOps F] in
theorem amount_bar (d : Bool) : (rd (F := F) m).amount (barCell c) 0 d = 1 := rfl
omit [FloatOps F] in
theorem amount_q (j : Fin 4) (k : Fin 8) (d : Bool) : (rd (F := F) m).amount (qCell c j k) 0 d = N32 := rfl
omit [FloatOps F] in
theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_q (j : Fin 4) (k : Fin 8) : (rd (F := F) m).expect (qCell c j k) 0 = N32 := by
  unfold Schedule.expect Schedule.amountOf; rw [duties_q, Finset.sum_singleton, amount_q]

omit [FloatOps F] in
theorem payload_bar_true : (rd (F := F) m).payload (barCell c) 0 true = payBarS c := by
  dsimp only [rd]; rw [if_pos rfl, if_pos rfl]
omit [FloatOps F] in
theorem payload_bar_false : (rd (F := F) m).payload (barCell c) 0 false = payBarP c := by
  dsimp only [rd]; rw [if_pos rfl]; exact if_neg Bool.false_ne_true
omit [FloatOps F] in
theorem payload_q (j : Fin 4) (k : Fin 8) (d : Bool) : (rd (F := F) m).payload (qCell c j k) 0 d = payJ m c k j.val := by
  dsimp only [rd]; unfold payQ; rw [if_pos (two_le_qsem j k), jOf_qsem, kOf_qsem]
omit [FloatOps F] in
theorem payload_AS (k : Fin 8) (d : Bool) : (rd (F := F) m).payload (qCell c 0 k) 0 d = payAS m c k := payload_q m c 0 k d
omit [FloatOps F] in
theorem payload_AR (k : Fin 8) (d : Bool) : (rd (F := F) m).payload (qCell c 1 k) 0 d = payAR m c k := payload_q m c 1 k d
omit [FloatOps F] in
theorem payload_BS (k : Fin 8) (d : Bool) : (rd (F := F) m).payload (qCell c 2 k) 0 d = payBS m c k := payload_q m c 2 k d
omit [FloatOps F] in
theorem payload_BR (k : Fin 8) (d : Bool) : (rd (F := F) m).payload (qCell c 3 k) 0 d = payBR m c k := payload_q m c 3 k d

omit [FloatOps F] in
/-- The whole round of the barrier cell: the partner's landing buffer and the sibling's. -/
theorem rest_bar : bigSep ((rd (F := F) m).duties (barCell c) 0 \ ∅) (fun d => (rd (F := F) m).payload (barCell c) 0 d) = iprop(payBarP c ∗ payBarS c) := by
  rw [Finset.sdiff_empty, duties_bar, bigSep_univ_eq_bigSepL [false, true] (by decide) (by decide), bigSepL_cons_cons, bigSepL_singleton,
    payload_bar_false, payload_bar_true]
  rfl
omit [FloatOps F] in
theorem rest_q (j : Fin 4) (k : Fin 8) : bigSep ((rd (F := F) m).duties (qCell c j k) 0 \ ∅) (fun d => (rd (F := F) m).payload (qCell c j k) 0 d) = payJ m c k j.val := by
  rw [Finset.sdiff_empty, duties_q, bigSep_singleton, payload_q]

end Tables

/-! ## What a device owes at launch; the levels -/

/-- The receive credit of the first wave's transfers not yet sent (to the partner), of the second wave's (to the sibling). -/
def oweA (c : Dev nD) (S : Finset (Fin 8)) : CellTallies nD τ sig Unit := ∑ k ∈ S, tallyAt (qCell (par c) 1 k) () N32
def oweB (c : Dev nD) (S : Finset (Fin 8)) : CellTallies nD τ sig Unit := ∑ k ∈ S, tallyAt (qCell (sib c) 3 k) () N32

/-- At launch: all sixteen, and a unit on each neighbour's barrier cell — summed so that the first signal (to the
    partner) peels the last summand and the second (to the sibling) the next. -/
def O₁ (c : Dev nD) : CellTallies nD τ sig Unit := oweA c Finset.univ + oweB c Finset.univ
def O₀ (c : Dev nD) : CellTallies nD τ sig Unit := O₁ c + tallyAt (barCell (sib c)) () 1 + tallyAt (barCell (par c)) () 1

theorem oweA_insert (c : Dev nD) {k : Fin 8} {S : Finset (Fin 8)} (h : k ∉ S) :
    oweA c (insert k S) = oweA c S + tallyAt (qCell (par c) 1 k) () N32 := by
  unfold oweA; rw [Finset.sum_insert h, add_comm]
theorem oweB_insert (c : Dev nD) {k : Fin 8} {S : Finset (Fin 8)} (h : k ∉ S) :
    oweB c (insert k S) = oweB c S + tallyAt (qCell (sib c) 3 k) () N32 := by
  unfold oweB; rw [Finset.sum_insert h, add_comm]
theorem oweA_empty (c : Dev nD) : oweA c ∅ = 0 := Finset.sum_empty
theorem oweB_empty (c : Dev nD) : oweB c ∅ = 0 := Finset.sum_empty

def L (g : GSem nD τ sig) : Finset Unit := if g.1.2 = .tc then {()} else ∅
/-- Staging and send cells at 0, barrier cells at 1, the first wave's receive cells at 2, the second wave's at 3: a
    device waits on a cell only while everything it still owes sits strictly above it. -/
def lv (g : GSem nD τ sig) (_ : Unit) : ℕ := match g.2 with
  | .reg s => if s = barS then 1 else 0
  | .dma s => if 2 ≤ s.val then (if jOf s = 1 then 2 else if jOf s = 3 then 3 else 0) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; exact if_pos rfl
theorem lv_q (c : Dev nD) (j : Fin 4) (k : Fin 8) : lv (qCell c j k) () = if j.val = 1 then 2 else if j.val = 3 then 3 else 0 := by
  dsimp only [lv]; rw [if_pos (two_le_qsem j k), jOf_qsem]

end Cert.KernelIdeal.RS

end
-- ==== Proof.State.lean ====
/-
The state of one device's thread between the statements of the kernel body.

Besides the persistent records (every cell's invariant and that its one round is reached) a device holds, for each of
its eight chunks `k`, a small bundle whose shape depends only on how far that chunk has come:
  0  nothing sent yet (the piece of the slab to send, the partner's and the sibling's landing rows to fill, four positions,
     four duty tokens, the two receive credits);
  1  first-wave transfer `k` sent;
  2  its partner's first-wave transfer `k` has landed: rows `32k…` of the first landing buffer hold the partner's values;
  3  those rows forwarded to the sibling (the left half of their share lent to that transfer);
  4  the sibling's forward has landed: rows `32k…` of the second landing buffer hold their values;
  5  the first-wave send side waited for (the slab piece is back);
  6  the second-wave send side waited for (the lent half is back): all four cells closed at zero.
-/
import proofs.«901027_g7700000000001028_dist_rs_v7x_xyz2x2x2_y_m512_n512_f32_1_alg».proof.Proof.Sched

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The persistent records -/

def recs (K : GSem nD τ sig → ℕ) : sProp 𝕄 :=
  iprop((bigSep Finset.univ fun c : Dev nD => cellInv ER (rd m) (K (barCell c)) (barCell c))
    ∗ (bigSep Finset.univ fun x : Dev nD × Fin 4 × Fin 8 => cellInv ER (rd m) (K (qCell x.1 x.2.1 x.2.2)) (qCell x.1 x.2.1 x.2.2))
    ∗ (bigSep Finset.univ fun c : Dev nD => reached ER (barCell c) 0)
    ∗ (bigSep Finset.univ fun x : Dev nD × Fin 4 × Fin 8 => reached ER (qCell x.1 x.2.1 x.2.2) 0))

instance recs_persistent (K : GSem nD τ sig → ℕ) : BI.Persistent (recs m K) := by unfold recs; infer_instance

omit [FloatOps F] in
theorem barInv_at (K : GSem nD τ sig → ℕ) (c : Dev nD) :
    (bigSep Finset.univ fun c : Dev nD => (cellInv ER (rd m) (K (barCell c)) (barCell c) : sProp 𝕄)) ⊢ cellInv ER (rd m) (K (barCell c)) (barCell c) :=
  bigSep_elim (Finset.mem_univ c)
omit [FloatOps F] in
theorem barReached_at (c : Dev nD) :
    (bigSep Finset.univ fun c : Dev nD => (reached ER (barCell c) 0 : sProp 𝕄)) ⊢ reached ER (barCell c) 0 :=
  bigSep_elim (Finset.mem_univ c)
omit [FloatOps F] in
theorem qInv_at (K : GSem nD τ sig → ℕ) (x : Dev nD × Fin 4 × Fin 8) :
    (bigSep Finset.univ fun x : Dev nD × Fin 4 × Fin 8 => (cellInv ER (rd m) (K (qCell x.1 x.2.1 x.2.2)) (qCell x.1 x.2.1 x.2.2) : sProp 𝕄))
      ⊢ cellInv ER (rd m) (K (qCell x.1 x.2.1 x.2.2)) (qCell x.1 x.2.1 x.2.2) :=
  bigSep_elim (Finset.mem_univ x)
omit [FloatOps F] in
theorem qReached_at (x : Dev nD × Fin 4 × Fin 8) :
    (bigSep Finset.univ fun x : Dev nD × Fin 4 × Fin 8 => (reached ER (qCell x.1 x.2.1 x.2.2) 0 : sProp 𝕄)) ⊢ reached ER (qCell x.1 x.2.1 x.2.2) 0 :=
  bigSep_elim (Finset.mem_univ x)

omit [FloatOps F] in
theorem recs_bar (K : GSem nD τ sig → ℕ) (c : Dev nD) :
    recs m K ⊢ iprop(cellInv ER (rd m) (K (barCell c)) (barCell c) ∗ reached ER (barCell c) 0) := by
  unfold recs
  iintro ⟨#H1, -, #H3, -⟩
  isplitr
  · iapply (barInv_at m K c); iexact H1
  · iapply (barReached_at (F := F) c); iexact H3

omit [FloatOps F] in
theorem recs_q (K : GSem nD τ sig → ℕ) (c : Dev nD) (j : Fin 4) (k : Fin 8) :
    recs m K ⊢ iprop(cellInv ER (rd m) (K (qCell c j k)) (qCell c j k) ∗ reached ER (qCell c j k) 0) := by
  unfold recs
  iintro ⟨-, #H2, -, #H4⟩
  isplitr
  · iapply (qInv_at m K (c, j, k)); iexact H2
  · iapply (qReached_at (F := F) (c, j, k)); iexact H4

/-! ## One chunk's bundle -/

abbrev atQ (c : Dev nD) (j : Fin 4) (k : Fin 8) : sProp 𝕄 := atPos ER (qCell c j k) 0 ∅ 0
abbrev tokQ (c : Dev nD) (j : Fin 4) (k : Fin 8) : sProp 𝕄 := dutyTok ER (qCell c j k) 0 false
abbrev credQ (c : Dev nD) (j : Fin 4) (k : Fin 8) : sProp 𝕄 := cred (tallyAt (qCell c j k) () N32)
abbrev zQ (c : Dev nD) (j : Fin 4) (k : Fin 8) : sProp 𝕄 := semVal (qCell c j k) 0

def chunkSt (c : Dev nD) (k : Fin 8) : ℕ → sProp 𝕄
  | 0 => iprop(atQ c 0 k ∗ atQ c 1 k ∗ atQ c 2 k ∗ atQ c 3 k ∗ tokQ c 0 k ∗ tokQ (par c) 1 k ∗ tokQ c 2 k ∗ tokQ (sib c) 3 k
        ∗ credQ c 1 k ∗ credQ c 3 k ∗ xPt c k (xstg m c) ∗ (∃ f, aPt (par c) k fullShare f) ∗ (∃ f, bPt (sib c) k fullShare f))
  | 1 => iprop(atQ c 0 k ∗ atQ c 1 k ∗ atQ c 2 k ∗ atQ c 3 k ∗ tokQ c 2 k ∗ tokQ (sib c) 3 k
        ∗ credQ c 1 k ∗ credQ c 3 k ∗ credQ c 0 k ∗ (∃ f, bPt (sib c) k fullShare f))
  | 2 => iprop(atQ c 0 k ∗ zQ c 1 k ∗ atQ c 2 k ∗ atQ c 3 k ∗ tokQ c 2 k ∗ tokQ (sib c) 3 k
        ∗ credQ c 3 k ∗ credQ c 0 k ∗ (∃ f, bPt (sib c) k fullShare f) ∗ aPt c k fullShare (aVal m c))
  | 3 => iprop(atQ c 0 k ∗ zQ c 1 k ∗ atQ c 2 k ∗ atQ c 3 k ∗ credQ c 3 k ∗ credQ c 0 k ∗ credQ c 2 k ∗ aPt c k fullShare.right (aVal m c))
  | 4 => iprop(atQ c 0 k ∗ zQ c 1 k ∗ atQ c 2 k ∗ zQ c 3 k ∗ credQ c 0 k ∗ credQ c 2 k ∗ aPt c k fullShare.right (aVal m c) ∗ bPt c k fullShare (bVal m c))
  | 5 => iprop(zQ c 0 k ∗ zQ c 1 k ∗ atQ c 2 k ∗ zQ c 3 k ∗ credQ c 2 k ∗ aPt c k fullShare.right (aVal m c) ∗ bPt c k fullShare (bVal m c) ∗ xPt c k (xstg m c))
  | _ => iprop(zQ c 0 k ∗ zQ c 1 k ∗ zQ c 2 k ∗ zQ c 3 k ∗ aPt c k fullShare (aVal m c) ∗ bPt c k fullShare (bVal m c) ∗ xPt c k (xstg m c))

/-- The eight bundles, chunk `i` at stage `s i`. -/
def St (c : Dev nD) (s : Fin 8 → ℕ) : sProp 𝕄 :=
  iprop(chunkSt m c 0 (s 0) ∗ chunkSt m c 1 (s 1) ∗ chunkSt m c 2 (s 2) ∗ chunkSt m c 3 (s 3)
    ∗ chunkSt m c 4 (s 4) ∗ chunkSt m c 5 (s 5) ∗ chunkSt m c 6 (s 6) ∗ chunkSt m c 7 (s 7))

/-! ## The rest of the slab's staging buffer, and the result's -/

/-- The slab's entries that no first-wave transfer sends (they include both rectangles the additions read). -/
def xRestSet (c : Dev nD) : Finset (Idx ((c : Thread nD τ).loc cc0_stg0_0)) :=
  Finset.univ \ (Finset.univ : Finset (Fin 8)).biUnion fun k => (xSl c k : Memref sig .tc .vmem S32x512 .f32).view.set
def xRest (c : Dev nD) : sProp 𝕄 := ((c : Thread nD τ).loc cc0_stg0_0) ↦[xRestSet c]{fullShare} xstg m c
def xWhole (c : Dev nD) (f : Buf (Elt F) ((c : Thread nD τ).loc cc0_stg0_0)) : sProp 𝕄 := ((c : Thread nD τ).loc cc0_stg0_0) ↦{fullShare} f
def oWhole (c : Dev nD) (f : Buf (Elt F) ((c : Thread nD τ).loc cc0_stg1_0)) : sProp 𝕄 := ((c : Thread nD τ).loc cc0_stg1_0) ↦{fullShare} f

/-- The result's staging buffer: arbitrary; after the first addition's store; after the second's. -/
def oSt (c : Dev nD) : ℕ → sProp 𝕄
  | 0 => iprop(∃ g, oWhole c g)
  | 1 => iprop(∃ g, oWhole c (((oM : Memref sig .tc .vmem S512x512 .f32).access (rO1 c) : View sig .tc _ _ _).write (Elt F) g
            (k0_pay1 (aVal m c) (xHalf1 c (xstg m c))) Finset.univ))
  | _ => oWhole c (outAt m c)

/-- The state between two statements once the entry handshake is over: chunk `i` at stage `s i`, the result's buffer at
    stage `os`; the device still owes the receive credit of exactly the transfers it has not yet sent. -/
def PSt (K : GSem nD τ sig → ℕ) (c : Dev nD) (s : Fin 8 → ℕ) (os : ℕ) : sProp 𝕄 :=
  iprop(recs m K ∗ levAts L lv
    ∗ (∃ W, owes (c : Thread nD τ) (oweA c (Finset.univ.filter fun i => s i = 0) + oweB c (Finset.univ.filter fun i => s i < 3)) W)
    ∗ St m c s ∗ xRest m c ∗ oSt m c os)

/-! ## What a device starts from and ends with -/

def chunkG (c : Dev nD) (k : Fin 8) : sProp 𝕄 :=
  iprop(atQ c 0 k ∗ atQ c 1 k ∗ atQ c 2 k ∗ atQ c 3 k ∗ tokQ c 0 k ∗ tokQ (par c) 1 k ∗ tokQ c 2 k ∗ tokQ (sib c) 3 k)

/-- The linear ghost state: the barrier cell's position, the two barrier duties the device pays (its partner's `false`,
    its sibling's `true`), and per chunk the four positions and the four transfer duties it pays. -/
def linear (c : Dev nD) : sProp 𝕄 :=
  iprop(atPos ER (barCell c) 0 ∅ 0 ∗ dutyTok ER (barCell (par c)) 0 false ∗ dutyTok ER (barCell (sib c)) 0 true
    ∗ bigSep Finset.univ (chunkG (F := F) c))

def G' (c : Dev nD) : sProp 𝕄 := iprop(∃ K, recs m K ∗ linear (F := F) c)

def start (c : Dev nD) : sProp 𝕄 :=
  iprop(G' m c ∗ cred (tallyAt (barCell c) () 2)
    ∗ (bigSep Finset.univ fun k : Fin 8 => iprop(credQ (F := F) c 1 k ∗ credQ (F := F) c 3 k)) ∗ levAts L lv)

def Φ₀ (c : Dev nD) : sProp 𝕄 := iprop(start m c ∗ (∃ f, aWhole c f) ∗ (∃ f, bWhole c f))
def Φ₁ (c : Dev nD) : sProp 𝕄 :=
  iprop((∃ f, aWhole c f) ∗ (∃ f, bWhole c f) ∗ bigSep Finset.univ fun x : Fin 4 × Fin 8 => zQ (F := F) c x.1 x.2)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.RS

end
-- ==== Proof.Levels.lean ====
/-
Why every wait is allowed (what is still owed sits strictly above the cell waited on), and the credit each device is
dealt at launch (what all devices together owe its cells).
-/
import proofs.«901027_g7700000000001028_dist_rs_v7x_xyz2x2x2_y_m512_n512_f32_1_alg».proof.Proof.State

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where the owed tallies sit -/

omit [FloatOps F] in
/-- The only index of a cell of a device's own thread. -/
theorem unit_mem_L (c : Dev nD) (sm : SemLoc sig) : () ∈ L ((c : Thread nD τ), sm) := by
  rw [L_tc]; exact Finset.mem_singleton_self _

omit [FloatOps F] in
/-- First-wave receive credit sits on first-wave receive cells: level 2. -/
theorem oweA_pos {c : Dev nD} {S : Finset (Fin 8)} {g : GSem nD τ sig} {i : Unit} (h : 0 < oweA c S g i) : i ∈ L g ∧ lv g i = 2 := by
  unfold oweA at h
  obtain ⟨k, -, hk⟩ := Pipeline.sum_pos_exists h
  obtain ⟨rfl, rfl⟩ := Pipeline.tallyAt_pos hk
  exact ⟨unit_mem_L _ _, by rw [lv_q]; rfl⟩

omit [FloatOps F] in
/-- Second-wave receive credit sits on second-wave receive cells: level 3. -/
theorem oweB_pos {c : Dev nD} {S : Finset (Fin 8)} {g : GSem nD τ sig} {i : Unit} (h : 0 < oweB c S g i) : i ∈ L g ∧ lv g i = 3 := by
  unfold oweB at h
  obtain ⟨k, -, hk⟩ := Pipeline.sum_pos_exists h
  obtain ⟨rfl, rfl⟩ := Pipeline.tallyAt_pos hk
  exact ⟨unit_mem_L _ _, by rw [lv_q]; rfl⟩

omit [FloatOps F] in
/-- A unit owed to a device's barrier cell sits at level 1. -/
theorem bar_pos {d : Dev nD} {n : ℕ} {g : GSem nD τ sig} {i : Unit} (h : 0 < tallyAt (barCell d) () n g i) : i ∈ L g ∧ lv g i = 1 := by
  obtain ⟨rfl, rfl⟩ := Pipeline.tallyAt_pos h
  exact ⟨unit_mem_L _ _, lv_bar d⟩

omit [FloatOps F] in
/-- After the handshake everything owed is receive credit: level 2 or more. -/
theorem O₁_pos {c : Dev nD} {g : GSem nD τ sig} {i : Unit} (h : 0 < O₁ c g i) : i ∈ L g ∧ 2 ≤ lv g i := by
  unfold O₁ at h
  rcases Pipeline.add_pos_cases h with h | h
  · obtain ⟨h1, h2⟩ := oweA_pos h; exact ⟨h1, by omega⟩
  · obtain ⟨h1, h2⟩ := oweB_pos h; exact ⟨h1, by omega⟩

omit [FloatOps F] in
/-- At launch everything owed sits at level 1 or more. -/
theorem O₀_pos {c : Dev nD} {g : GSem nD τ sig} {i : Unit} (h : 0 < O₀ c g i) : i ∈ L g ∧ 1 ≤ lv g i := by
  unfold O₀ at h
  rcases Pipeline.add_pos_cases h with h | h
  · rcases Pipeline.add_pos_cases h with h | h
    · obtain ⟨h1, h2⟩ := O₁_pos h; exact ⟨h1, by omega⟩
    · obtain ⟨h1, h2⟩ := bar_pos h; exact ⟨h1, by omega⟩
  · obtain ⟨h1, h2⟩ := bar_pos h; exact ⟨h1, by omega⟩

/-! ## The waits -/

omit [FloatOps F] in
/-- At the barrier wait a device owes only receive credit (levels 2 and 3); the barrier cell is at level 1. -/
theorem mayWait_bar (c : Dev nD) : (levAts L lv : sProp 𝕄) ⊢ MayWait (c : Thread nD τ) (.reg barS) () (O₁ c) := by
  refine Pipeline.mayWait_of_levAts (unit_mem_L c _) (fun g i h => ?_)
  obtain ⟨h1, h2⟩ := O₁_pos h
  have h0 : lv ((c : Thread nD τ), .reg barS) () = 1 := lv_bar c
  exact ⟨h1, by rw [h0]; omega⟩

omit [FloatOps F] in
/-- At a first-wave receive wait (level 2) it owes only second-wave receive credit (level 3). -/
theorem mayWait_AR (c : Dev nD) (k : Fin 8) (SB : Finset (Fin 8)) :
    (levAts L lv : sProp 𝕄) ⊢ MayWait (c : Thread nD τ) (.dma (qsem 1 k)) () (oweA c ∅ + oweB c SB) := by
  refine Pipeline.mayWait_of_levAts (unit_mem_L c _) (fun g i h => ?_)
  rw [oweA_empty, zero_add] at h
  obtain ⟨h1, h2⟩ := oweB_pos h
  have h0 : lv ((c : Thread nD τ), .dma (qsem 1 k)) () = 2 := by rw [lv_q]; rfl
  exact ⟨h1, by rw [h0, h2]; decide⟩

omit [FloatOps F] in
/-- The pipeline's two staging semaphores (level 0) may be waited on whatever is owed: all of `O₀`, or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  refine Pipeline.mayWait_of_levAts (unit_mem_L c _) (fun g i h => ?_)
  have h0 : lv ((c : Thread nD τ), .dma q) () = 0 := by dsimp only [lv]; exact if_neg (by omega)
  rcases hO with rfl | rfl
  · obtain ⟨h1, h2⟩ := O₀_pos h
    exact ⟨h1, by rw [h0]; omega⟩
  · rw [Pi.zero_apply, Finsupp.zero_apply] at h
    exact absurd h (Nat.lt_irrefl 0)

omit [FloatOps F] in
/-- Nothing owed: `oweA c ∅ + oweB c ∅` is zero. -/
theorem owe_empty (c : Dev nD) : oweA c ∅ + oweB c ∅ = (0 : CellTallies nD τ sig Unit) := by
  rw [oweA_empty, oweB_empty, add_zero]

/-! ## The launch credit -/

omit [FloatOps F] in
/-- The two units on a device's barrier cell: its sibling owes one (the device is its sibling's sibling), its partner
    the other. -/
theorem creds_bar (c : Dev nD) :
    (iprop(Pipeline.launchCred (fun d : Dev nD => (tallyAt (barCell (sib d)) () 1 : CellTallies nD τ sig Unit)) c
        ∗ Pipeline.launchCred (fun d : Dev nD => (tallyAt (barCell (par d)) () 1 : CellTallies nD τ sig Unit)) c) : sProp 𝕄)
      ⊢ cred (tallyAt (barCell c) () 2) :=
  (BIClass.sep_mono (Pipeline.launchCred_tallyAt (.reg barS) sib sib sib_sib sib_sib () 1 c)
      (Pipeline.launchCred_tallyAt (.reg barS) par par par_par par_par () 1 c)).trans
    ((cred_add _ _).2.trans (Entails.of_eq (by rw [tallyAt_add])))

omit [FloatOps F] in
/-- The first wave's receive credit: cell `k` of device `c` is owed a block's credit by the one device whose partner is `c`. -/
theorem creds_A (c : Dev nD) :
    (bigSep Finset.univ fun k : Fin 8 => (Pipeline.launchCred (fun d : Dev nD => (tallyAt (qCell (par d) 1 k) () N32 : CellTallies nD τ sig Unit)) c : sProp 𝕄))
      ⊢ bigSep Finset.univ fun k : Fin 8 => credQ (F := F) c 1 k :=
  bigSep_mono fun k _ => Pipeline.launchCred_tallyAt (.dma (qsem 1 k)) par par par_par par_par () N32 c

omit [FloatOps F] in
/-- The second wave's: by the one device whose sibling is `c`. -/
theorem creds_B (c : Dev nD) :
    (bigSep Finset.univ fun k : Fin 8 => (Pipeline.launchCred (fun d : Dev nD => (tallyAt (qCell (sib d) 3 k) () N32 : CellTallies nD τ sig Unit)) c : sProp 𝕄))
      ⊢ bigSep Finset.univ fun k : Fin 8 => credQ (F := F) c 3 k :=
  bigSep_mono fun k _ => Pipeline.launchCred_tallyAt (.dma (qsem 3 k)) sib sib sib_sib sib_sib () N32 c

omit [FloatOps F] in
/-- The credit device `c` is dealt at launch: two units on its barrier cell (its partner's and its sibling's signals) and a
    block's credit on each of its sixteen receive cells. -/
theorem creds (c : Dev nD) :
    (Pipeline.launchCred O₀ c : sProp 𝕄)
      ⊢ iprop(cred (tallyAt (barCell c) () 2) ∗ bigSep Finset.univ fun k : Fin 8 => iprop(credQ (F := F) c 1 k ∗ credQ (F := F) c 3 k)) := by
  have hO : (O₀ : Dev nD → CellTallies nD τ sig Unit) = fun d =>
      ((∑ k : Fin 8, tallyAt (qCell (par d) 1 k) () N32) + (∑ k : Fin 8, tallyAt (qCell (sib d) 3 k) () N32)
        + tallyAt (barCell (sib d)) () 1) + tallyAt (barCell (par d)) () 1 := rfl
  rw [hO, Pipeline.launchCred_add, Pipeline.launchCred_add, Pipeline.launchCred_add, Pipeline.launchCred_sum, Pipeline.launchCred_sum, bigSep_sep']
  iintro ⟨⟨⟨HA, HB⟩, HS⟩, HP⟩
  isplitl [HS HP]
  · iapply (creds_bar (F := F) c)
    isplitl [HS]
    · iexact HS
    · iexact HP
  · isplitl [HA]
    · iapply (creds_A (F := F) c); iexact HA
    · iapply (creds_B (F := F) c); iexact HB

end Cert.KernelIdeal.RS

end
-- ==== Proof.Launch.lean ====
/-
The launch: from "each device's body is proved" to the run of the whole program on the eight devices.
-/
import proofs.«901027_g7700000000001028_dist_rs_v7x_xyz2x2x2_y_m512_n512_f32_1_alg».proof.Proof.Levels
import proofs.«901027_g7700000000001028_dist_rs_v7x_xyz2x2x2_y_m512_n512_f32_1_alg».proof.Proof.Gen.KernelIdeal.Frame

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duty tokens made at launch -/

/-- A transfer cell, by (device, family, chunk). -/
private abbrev qCellF (x : Dev nD × Fin 4 × Fin 8) : GSem nD τ sig := qCell x.1 x.2.1 x.2.2

private theorem barCell_injective : Function.Injective (barCell : Dev nD → GSem nD τ sig) :=
  fun a b h => congrArg (fun g : GSem nD τ sig => g.1.1) h

private theorem qCellF_injective : Function.Injective (qCellF : Dev nD × Fin 4 × Fin 8 → GSem nD τ sig) := by
  rintro ⟨c, j, k⟩ ⟨c', j', k'⟩ h
  have h1 : c = c' := congrArg (fun g : GSem nD τ sig => g.1.1) h
  have h2 : qsem j k = qsem j' k' := SemLoc.dma.inj (congrArg Prod.snd h)
  obtain ⟨hj, hk⟩ := qsem_inj h2
  subst h1 hj hk; rfl

/-- All eight barrier cells; all 256 transfer cells. The two sets share no cell: a barrier cell is a regular
    semaphore, a transfer cell a DMA semaphore. -/
private def barCells : Finset (GSem nD τ sig) := Finset.univ.map ⟨barCell, barCell_injective⟩
private def qCells : Finset (GSem nD τ sig) := Finset.univ.map ⟨qCellF, qCellF_injective⟩

private theorem cells_disjoint : Disjoint (barCells : Finset (GSem nD τ sig)) qCells := by
  rw [Finset.disjoint_left]
  intro g hb hq
  obtain ⟨c, -, rfl⟩ := Finset.mem_map.mp hb
  obtain ⟨x, -, hx⟩ := Finset.mem_map.mp hq
  have : (SemLoc.dma (qsem x.2.1 x.2.2) : SemLoc sig) = .reg barS := congrArg Prod.snd hx
  cases this

private def allCells : Finset (GSem nD τ sig) := barCells ∪ qCells

/-- A barrier cell has two duties, a transfer cell one. -/
private abbrev barTokF (x : Dev nD × Bool) : GSem nD τ sig × ℕ × Bool := (barCell x.1, 0, x.2)
private abbrev qTokF (x : Dev nD × Fin 4 × Fin 8) : GSem nD τ sig × ℕ × Bool := (qCellF x, 0, false)

private theorem barTokF_injective : Function.Injective (barTokF : Dev nD × Bool → GSem nD τ sig × ℕ × Bool) := by
  rintro ⟨c, d⟩ ⟨c', d'⟩ h
  have h1 : c = c' := congrArg (fun y : GSem nD τ sig × ℕ × Bool => y.1.1.1) h
  have h2 : d = d' := congrArg (fun y : GSem nD τ sig × ℕ × Bool => y.2.2) h
  subst h1 h2; rfl
private theorem qTokF_injective : Function.Injective (qTokF : Dev nD × Fin 4 × Fin 8 → GSem nD τ sig × ℕ × Bool) :=
  fun a b h => qCellF_injective (congrArg Prod.fst h)

private def barToks : Finset (GSem nD τ sig × ℕ × Bool) := Finset.univ.map ⟨barTokF, barTokF_injective⟩
private def qToks : Finset (GSem nD τ sig × ℕ × Bool) := Finset.univ.map ⟨qTokF, qTokF_injective⟩

private theorem toks_disjoint : Disjoint (barToks : Finset (GSem nD τ sig × ℕ × Bool)) qToks := by
  rw [Finset.disjoint_left]
  intro y hb hq
  obtain ⟨x, -, rfl⟩ := Finset.mem_map.mp hb
  obtain ⟨x', -, hx⟩ := Finset.mem_map.mp hq
  have : (SemLoc.dma (qsem x'.2.1 x'.2.2) : SemLoc sig) = .reg barS := congrArg (fun y : GSem nD τ sig × ℕ × Bool => y.1.2) hx
  cases this

private def allToks : Finset (GSem nD τ sig × ℕ × Bool) := barToks ∪ qToks

/-- The launch element: the pipeline's staging cells beside the protocol's cells and tokens. -/
private def u₀ : UU :=
  (initOf (Pipeline.cells cfgs cellOf_inj) (Pipeline.launchToks cfgs cellOf_inj), initOf allCells allToks)

omit [FloatOps F] in
/-- A family over all cells is the barrier cells' part and the transfer cells' part. -/
private theorem bigSep_cells (Φ : GSem nD τ sig → sProp 𝕄) :
    bigSep allCells Φ = iprop((bigSep Finset.univ fun c : Dev nD => Φ (barCell c)) ∗ bigSep Finset.univ fun x : Dev nD × Fin 4 × Fin 8 => Φ (qCellF x)) := by
  unfold allCells
  rw [bigSep_union cells_disjoint]
  unfold barCells qCells
  rw [bigSep_map, bigSep_map]; rfl

omit [FloatOps F] in
private theorem bigSep_bool (Φ : Bool → sProp 𝕄) : bigSep Finset.univ Φ = iprop(Φ false ∗ Φ true) :=
  bigSep_univ_eq_bigSepL [false, true] (by decide) (by decide) Φ

omit [FloatOps F] in
private theorem bigSep_toks (Φ : GSem nD τ sig × ℕ × Bool → sProp 𝕄) :
    bigSep allToks Φ = iprop((bigSep Finset.univ fun c : Dev nD => iprop(Φ (barCell c, 0, false) ∗ Φ (barCell c, 0, true)))
      ∗ bigSep Finset.univ fun x : Dev nD × Fin 4 × Fin 8 => Φ (qCellF x, 0, false)) := by
  unfold allToks
  rw [bigSep_union toks_disjoint]
  unfold barToks qToks
  rw [bigSep_map, bigSep_map, bigSep_univ_prod]
  congr 1
  exact bigSep_congr fun c _ => bigSep_bool _

/-! ## What the launch element deals a device -/

/-- A family over cells, at device `c`'s 33 own cells: its barrier cell and its 32 transfer cells. -/
private def cellFam (Φ : GSem nD τ sig → sProp 𝕄) (c : Dev nD) : sProp 𝕄 :=
  iprop(Φ (barCell c) ∗ bigSep Finset.univ fun x : Fin 4 × Fin 8 => Φ (qCell c x.1 x.2))

/-- The duty tokens of device `c`'s own cells. -/
private def toks (c : Dev nD) : sProp 𝕄 :=
  iprop((dutyTok ER (barCell c) 0 false ∗ dutyTok ER (barCell c) 0 true) ∗ bigSep Finset.univ fun x : Fin 4 × Fin 8 => tokQ (F := F) c x.1 x.2)

/-- Per device: the round state at counter zero of its 33 cells, that round 0 of each is reached, its position at the
    start of each, and its cells' tokens. -/
private def G (c : Dev nD) : sProp 𝕄 :=
  iprop(cellFam (fun g => roundState ER (rd m) g 0) c ∗ cellFam (fun g => reached ER g 0) c ∗ cellFam (fun g => atPos ER g 0 ∅ 0) c ∗ toks (F := F) c)

omit [FloatOps F] in
/-- A family over all cells, device by device. -/
private theorem bigSep_cells_dev (Φ : GSem nD τ sig → sProp 𝕄) : bigSep allCells Φ = bigSep Finset.univ (cellFam Φ) := by
  unfold cellFam
  rw [bigSep_cells, bigSep_univ_prod, ← bigSep_sep']

omit [FloatOps F] in
private theorem fund_all : BI.own (ER (initOf allCells allToks)) ⊢ (|==> bigSep Finset.univ (G m) : sProp 𝕄) := by
  have hT : bigSep allToks (fun x => (dutyTok ER x.1 x.2.1 x.2.2 : sProp 𝕄)) = bigSep Finset.univ fun c : Dev nD => toks c := by
    rw [bigSep_toks, bigSep_univ_prod, ← bigSep_sep']; rfl
  iintro HX
  imod (Rounds.fund ER (rd m) allCells allToks) $$ HX with ⟨Hst, Hr, Hat, Htok⟩
  imodintro
  ihave Hst' := (Entails.of_eq (bigSep_cells_dev fun g => roundState ER (rd m) g 0)) $$ Hst
  ihave Hr' := (Entails.of_eq (bigSep_cells_dev fun g => reached ER g 0)) $$ Hr
  ihave Hat' := (Entails.of_eq (bigSep_cells_dev fun g => atPos ER g 0 ∅ 0)) $$ Hat
  ihave Htok' := (Entails.of_eq hT) $$ Htok
  unfold G; rw [bigSep_sep', bigSep_sep', bigSep_sep']
  isplitl [Hst']; · iexact Hst'
  isplitl [Hr']; · iexact Hr'
  isplitl [Hat']; · iexact Hat'
  iexact Htok'

/-! ## The semaphores handed over at launch -/

/-- The kernel's own scoped semaphores: the 32 of the four transfer families. -/
private abbrev osem : Fin 4 × Fin 8 → SemLoc sig := fun x => .dma (qsem x.1 x.2)

private theorem ownSemFacts : Pipeline.OwnSemFacts cfg0.spec osem := by decide

private theorem share_eq (c : Dev nD) (w : Fin cfg0.W) : (dats m 0 c).share w = fullShare := by unfold Dat.share; split <;> rfl

omit [FloatOps F] in
private theorem ownSems0_eq (c : Dev nD) : (Pipeline.ownSems0 (Ix := Unit) (Name := ℕ) (U := UU) (Lvl := ℕ) (Val := Elt F) (τ := τ) osem c : sProp 𝕄)
    = bigSep Finset.univ fun x : Fin 4 × Fin 8 => zQ (F := F) c x.1 x.2 := rfl

omit [FloatOps F] in
/-- The barrier semaphore is the one semaphore that is not scoped. -/
private theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Each of the 33 counters at zero with its cell's round state at zero makes the cell's invariant, at some name. -/
private theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(cellFam (fun g => iprop(∃ κ : ℕ, cellInv ER (rd m) κ g)) c
          ∗ cellFam (fun g => reached ER g 0) c ∗ cellFam (fun g => atPos ER g 0 ∅ 0) c ∗ toks (F := F) c) := by
  rw [ownSems0_eq, unscopedSems0_eq]
  unfold G
  iintro ⟨Hos, Hus, Hst, Hr, Hat, Htok⟩
  ihave Hst' := (show cellFam (fun g => roundState ER (rd m) g 0) c
      ⊢ iprop(roundState ER (rd m) (barCell c) 0 ∗ bigSep Finset.univ fun x : Fin 4 × Fin 8 => roundState ER (rd m) (qCell c x.1 x.2) 0) from Entails.of_eq rfl) $$ Hst
  icases Hst' with ⟨HstB, HstQ⟩
  imod ((Rounds.body_intro ER (rd m) (barCell c)).trans inv_alloc) $$ [Hus HstB] with HinvB
  · isplitl [Hus] <;> iassumption
  imod (show iprop((bigSep Finset.univ fun x : Fin 4 × Fin 8 => zQ (F := F) c x.1 x.2) ∗ bigSep Finset.univ fun x : Fin 4 × Fin 8 => roundState ER (rd m) (qCell c x.1 x.2) 0)
      ⊢ (|={Set.univ}=> bigSep Finset.univ fun x : Fin 4 × Fin 8 => iprop(∃ κ : ℕ, cellInv ER (rd m) κ (qCell c x.1 x.2)) : sProp 𝕄) from by
        rw [← bigSep_sep']
        exact (bigSep_mono fun x _ => (Rounds.body_intro ER (rd m) (qCell c x.1 x.2)).trans inv_alloc).trans (bigSep_fupd _ _)) $$ [Hos HstQ] with HinvQ
  · isplitl [Hos] <;> iassumption
  imodintro
  isplitl [HinvB HinvQ]
  · iapply (show iprop((∃ κ : ℕ, cellInv ER (rd m) κ (barCell c)) ∗ bigSep Finset.univ fun x : Fin 4 × Fin 8 => iprop(∃ κ : ℕ, cellInv ER (rd m) κ (qCell c x.1 x.2)))
        ⊢ cellFam (fun g => iprop(∃ κ : ℕ, cellInv ER (rd m) κ g)) c from Entails.of_eq rfl)
    isplitl [HinvB] <;> iassumption
  isplitl [Hr]; · iexact Hr
  isplitl [Hat]; · iexact Hat
  iexact Htok

/-! ## From what is dealt to what each device starts from -/

omit [FloatOps F] in
private theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A family over (family, chunk), read chunk by chunk. -/
private theorem bigSep_q (Φ : Fin 4 → Fin 8 → sProp 𝕄) :
    (bigSep Finset.univ fun x : Fin 4 × Fin 8 => Φ x.1 x.2) = bigSep Finset.univ fun k : Fin 8 => iprop(Φ 0 k ∗ Φ 1 k ∗ Φ 2 k ∗ Φ 3 k) := by
  rw [bigSep_univ_prod (fun x : Fin 4 × Fin 8 => Φ x.1 x.2), bigSep_fin4]
  simp only [bigSep_sep']

private theorem parE_apply (c : Dev nD) : parE c = par c := rfl
private theorem sibE_apply (c : Dev nD) : sibE c = sib c := rfl

omit [FloatOps F] in
/-- Dealing a family over (device, family, chunk) to the devices: families 0 and 2 stay, family 1 crosses to the partner,
    family 3 to the sibling (both maps are involutions of the eight devices). -/
private theorem bigSep_deal (Φ : Dev nD → Fin 4 → Fin 8 → sProp 𝕄) :
    (bigSep Finset.univ fun c : Dev nD => bigSep Finset.univ fun x : Fin 4 × Fin 8 => Φ c x.1 x.2)
      = bigSep Finset.univ fun c : Dev nD => bigSep Finset.univ fun k : Fin 8 => iprop(Φ c 0 k ∗ Φ (par c) 1 k ∗ Φ c 2 k ∗ Φ (sib c) 3 k) := by
  rw [bigSep_congr (s := Finset.univ) fun (c : Dev nD) _ => bigSep_q (Φ c)]
  simp only [bigSep_sep']
  rw [bigSep_univ_equiv parE (fun c : Dev nD => bigSep Finset.univ fun k : Fin 8 => Φ c 1 k),
    bigSep_univ_equiv sibE (fun c : Dev nD => bigSep Finset.univ fun k : Fin 8 => Φ c 3 k)]
  rfl

omit [FloatOps F] in
/-- One chunk's positions and tokens. -/
private theorem chunkG_of (c : Dev nD) (k : Fin 8) :
    iprop((atQ (F := F) c 0 k ∗ atQ (F := F) c 1 k ∗ atQ (F := F) c 2 k ∗ atQ (F := F) c 3 k)
        ∗ (tokQ (F := F) c 0 k ∗ tokQ (F := F) (par c) 1 k ∗ tokQ (F := F) c 2 k ∗ tokQ (F := F) (sib c) 3 k))
      ⊢ chunkG (F := F) c k := by
  unfold chunkG
  iintro ⟨⟨A0, A1, A2, A3⟩, T0, T1, T2, T3⟩
  isplitl [A0]; · iexact A0
  isplitl [A1]; · iexact A1
  isplitl [A2]; · iexact A2
  isplitl [A3]; · iexact A3
  isplitl [T0]; · iexact T0
  isplitl [T1]; · iexact T1
  isplitl [T2]; · iexact T2
  iexact T3

/-- The five parts of one device's linear state: its barrier position, the partner's and the sibling's barrier duty, its 32
    transfer positions, and the 32 transfer duties it pays. -/
private def linParts (c : Dev nD) : sProp 𝕄 :=
  iprop(atPos ER (barCell c) 0 ∅ 0 ∗ dutyTok ER (barCell (par c)) 0 false ∗ dutyTok ER (barCell (sib c)) 0 true
    ∗ (bigSep Finset.univ fun k : Fin 8 => iprop(atQ (F := F) c 0 k ∗ atQ (F := F) c 1 k ∗ atQ (F := F) c 2 k ∗ atQ (F := F) c 3 k))
    ∗ (bigSep Finset.univ fun k : Fin 8 => iprop(tokQ (F := F) c 0 k ∗ tokQ (F := F) (par c) 1 k ∗ tokQ (F := F) c 2 k ∗ tokQ (F := F) (sib c) 3 k)))

omit [FloatOps F] in
private theorem linear_of (c : Dev nD) : linParts (F := F) c ⊢ linear (F := F) c := by
  unfold linear linParts
  iintro ⟨H1, H2, H3, H4, H5⟩
  isplitl [H1]; · iexact H1
  isplitl [H2]; · iexact H2
  isplitl [H3]; · iexact H3
  iapply (show iprop((bigSep Finset.univ fun k : Fin 8 => iprop(atQ (F := F) c 0 k ∗ atQ (F := F) c 1 k ∗ atQ (F := F) c 2 k ∗ atQ (F := F) c 3 k))
        ∗ (bigSep Finset.univ fun k : Fin 8 => iprop(tokQ (F := F) c 0 k ∗ tokQ (F := F) (par c) 1 k ∗ tokQ (F := F) c 2 k ∗ tokQ (F := F) (sib c) 3 k)))
      ⊢ bigSep Finset.univ (chunkG (F := F) c) from by
        rw [← bigSep_sep']
        exact bigSep_mono fun k _ => chunkG_of (F := F) c k)
  isplitl [H4] <;> iassumption

omit [FloatOps F] in
private theorem linear_all : (bigSep Finset.univ fun c : Dev nD => linParts (F := F) c) ⊢ bigSep Finset.univ fun c : Dev nD => linear (F := F) c :=
  bigSep_mono fun c _ => linear_of (F := F) c

omit [FloatOps F] in
/-- All devices' positions and tokens, dealt: a barrier cell's `false` token goes to the partner, its `true` token to the
    sibling; a first-wave receive token to the partner, a second-wave receive token to the sibling. -/
private theorem linear_intro :
    iprop((bigSep Finset.univ (cellFam (F := F) fun g => atPos ER g 0 ∅ 0)) ∗ bigSep Finset.univ fun c : Dev nD => toks (F := F) c)
      ⊢ bigSep Finset.univ fun c : Dev nD => linear (F := F) c := by
  unfold toks cellFam
  rw [bigSep_sep', bigSep_sep', bigSep_sep',
    bigSep_congr (s := Finset.univ) (fun (c : Dev nD) _ => bigSep_q (fun j k => atQ (F := F) c j k)),
    bigSep_deal (fun c j k => tokQ (F := F) c j k),
    bigSep_univ_equiv parE (fun c : Dev nD => (dutyTok ER (barCell c) 0 false : sProp 𝕄)),
    bigSep_univ_equiv sibE (fun c : Dev nD => (dutyTok ER (barCell c) 0 true : sProp 𝕄))]
  simp only [parE_apply, sibE_apply]
  iintro ⟨⟨H1, H4⟩, ⟨H2, H3⟩, H5⟩
  iapply (linear_all (F := F))
  unfold linParts
  rw [bigSep_sep', bigSep_sep', bigSep_sep', bigSep_sep']
  isplitl [H1]; · iexact H1
  isplitl [H2]; · iexact H2
  isplitl [H3]; · iexact H3
  isplitl [H4] <;> iassumption

omit [FloatOps F] in
private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
private theorem G'_intro (K : GSem nD τ sig → ℕ) (c : Dev nD) : iprop(recs m K ∗ linear (F := F) c) ⊢ G' m c := by
  unfold G'; iintro ⟨#HRc, HLc⟩; iexists K; isplitr; · iexact HRc
  iexact HLc

omit [FloatOps F] in
private theorem regroup :
    (bigSep Finset.univ fun c : Dev nD => iprop(cellFam (fun g => iprop(∃ κ : ℕ, cellInv ER (rd m) κ g)) c
          ∗ cellFam (fun g => reached ER g 0) c ∗ cellFam (fun g => atPos ER g 0 ∅ 0) c ∗ toks (F := F) c) : sProp 𝕄)
      ⊢ bigSep Finset.univ (G' m) := by
  rw [bigSep_sep', bigSep_sep', bigSep_sep',
    ← bigSep_cells_dev (fun g => iprop(∃ κ : ℕ, cellInv ER (rd m) κ g)),
    ← bigSep_cells_dev (fun g => (reached ER g 0 : sProp 𝕄))]
  iintro ⟨HI, #HR, Hat, Htok⟩
  ihave HK := (BI.bigSep_exists_pi allCells (fun (g : GSem nD τ sig) (κ : ℕ) => (cellInv ER (rd m) κ g : sProp 𝕄))) $$ HI
  icases HK with ⟨%K, #HI⟩
  ihave HI' := (Entails.of_eq (bigSep_cells fun g => (cellInv ER (rd m) (K g) g : sProp 𝕄))) $$ HI
  ihave HR' := (Entails.of_eq (bigSep_cells fun g => (reached ER g 0 : sProp 𝕄))) $$ HR
  icases HI' with ⟨#HIb, #HIq⟩
  icases HR' with ⟨#HRb, #HRq⟩
  ihave HL := (linear_intro (F := F)) $$ [Hat Htok]
  · isplitl [Hat] <;> iassumption
  iapply (bigSep_with_persistent (R := recs m K) (Φ := fun c : Dev nD => linear (F := F) c) fun c _ => G'_intro m K c)
  isplitr
  · unfold recs
    isplitr; · iexact HIb
    isplitr; · iexact HIq
    isplitr; · iexact HRb
    iexact HRq
  · iexact HL

omit [FloatOps F] in
/-- The global step: every device's 33 counters at once, with what the launch element dealt. -/
private theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions of the run -/

/-- What a device starts from: what the global step made, the credit the others owe its cells, the level facts. -/
private theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

/-- Before the one grid point: that, and the two landing buffers whole at some contents. -/
private theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ aWhole bWhole
  iintro ⟨Hs, -, Ha, Hb⟩
  isplitl [Hs]; · iexact Hs
  isplitl [Ha] <;> iassumption

/-- After it: the two landing buffers back, and the 32 transfer counters at zero. -/
private theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁ aWhole bWhole
  iintro ⟨Ha, Hb, Hz⟩
  isplitr; · iempintro
  isplitl [Hz]; · iexact Hz
  isplitl [Ha] <;> iassumption

/-- The two staging semaphores sit at level 0: a device may wait on them whatever it owes. -/
private theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- Each window's array after the run, as the pipeline's proof data names it. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- At the compiled mesh of eight devices, from any memory with zero counters: every weakly fair execution of @main
    terminates, and every final state has each device's two arrays at the contents the proof data names. -/
theorem run_main (hbody : ∀ c : Dev nD, BodyObligation (dats (F := F) m 0 c) (defs₀ (F := F)) 𝒱₀ () Set.univ) :
    θ_run defs (onTc (τ := τ) (main (F := F))) ⟨m, fun _ => 0, ρ⟩ (QC m) := by
  exact Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.KernelIdeal.RS

end
-- ==== Proof.Final.lean ====
/-
From the run: the argument array of every device ends unchanged, and its result array ends holding `outAt`.
-/
import proofs.«901027_g7700000000001028_dist_rs_v7x_xyz2x2x2_y_m512_n512_f32_1_alg».proof.Proof.Launch

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The slab's array after the run holds what it held. -/
theorem finalA_x (c : Dev nD) : finalA m c (0 : Fin 2) = m ((c : Thread nD τ).loc main_arg0) :=
  (dats (F := F) m 0 c).arrAt_in (0 : Fin 2) rfl _

/-- What the one write-back writes: the window is not cut, so it is all of what the body left in the staging buffer. -/
theorem flushed_o (c : Dev nD) : (dats (F := F) m 0 c).flushed (1 : Fin 2) t0_0 = outAt m c := by
  unfold dats; rfl

/-- The result's array after the run holds what the body left in its staging buffer. -/
theorem finalA_o (c : Dev nD) : finalA m c (1 : Fin 2) = outAt m c := by
  -- The grid has one point; after it the array has been overwritten once, through the point's block.
  have h1 : finalA m c (1 : Fin 2) = (dats (F := F) m 0 c).arrAt (1 : Fin 2) ((t0_0 : Fin cfg0.N).val + 1) :=
    congrArg ((dats (F := F) m 0 c).arrAt (1 : Fin 2)) N_0
  rw [h1, Dat.arrAt_succ, if_pos (flush0_1 t0_0), flushed_o]
  -- That block sits at offset zero and has the array's own sizes: written everywhere, it leaves exactly what was written.
  have hz : (fun a => win0_1.index t0_0 a * main_v1.ty.shape.size a) = fun _ => 0 := funext fun a => Nat.zero_mul _
  exact Memref.write_access_unit_zero_univ (Elt F) main_v1 hz (fun a => by rw [congrFun hz a]; simp) _ _

/-- The run, with each device's result named and its argument unchanged. -/
theorem run_values (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c 1).trans (finalA_o m c), (h c 0).trans (finalA_x m c)⟩) (run_main m ρ hbody)

/-- The frame: the run with the values dropped. -/
theorem run_frame (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_values m ρ hbody)

end Cert.KernelIdeal.RS

end
-- ==== Proof.Regions.lean ====
/-
The landing buffers as eight chunks of 32 rows, the slab's staging buffer as the eight pieces sent plus the rest; what a
landing writes, read index by index; the two stores of the result cover it.
-/
import proofs.«901027_g7700000000001028_dist_rs_v7x_xyz2x2x2_y_m512_n512_f32_1_alg».proof.Proof.State
import Idealize.ShloMosaic.Lib.Pipeline.Value

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Splitting and joining -/

/-- The eight row blocks 32k … 32k+31 of a 256×512 buffer. -/
abbrev chR (k : Fin 8) : Rect S256x512 := Rect.unit (s := S256x512) ![32 * k.val, 0] S32x512.size (chunk_inb k)

/-- Two different row blocks share no entry: their rows are apart. -/
theorem chR_disjoint {k k' : Fin 8} (h : k ≠ k') : Disjoint (chR k).set (chR k').set :=
  Rect.unit_disjoint (0 : Fin 2) (by
    show 32 * k.val + 32 ≤ 32 * k'.val ∨ 32 * k'.val + 32 ≤ 32 * k.val
    have : k.val ≠ k'.val := fun e => h (Fin.ext e)
    omega)

/-- Every entry lies in the block of its row divided by 32. -/
theorem chR_cover : (Finset.univ : Finset (Fin 8)).biUnion (fun k => (chR k).set) = Finset.univ := by
  ext i
  simp only [Finset.mem_biUnion, Finset.mem_univ, true_and, iff_true]
  have h0 : (i 0).val < 256 := (i 0).isLt
  have h1 : (i 1).val < 512 := (i 1).isLt
  refine ⟨⟨(i 0).val / 32, by omega⟩, Rect.mem_set_unit.mpr fun a => ?_⟩
  match a with
  | ⟨0, _⟩ =>
    show 32 * ((i 0).val / 32) ≤ (i 0).val ∧ (i 0).val < 32 * ((i 0).val / 32) + 32
    omega
  | ⟨1, _⟩ =>
    show 0 ≤ (i 1).val ∧ (i 1).val < 0 + 512
    omega

omit [FloatOps F] in
theorem aCh_set (k : Fin 8) : (aCh k : Memref sig .tc .vmem S32x512 .f32).view.set = (chR k).set :=
  View.set_slice_whole cc0_scratch0 _
omit [FloatOps F] in
theorem bCh_set (k : Fin 8) : (bCh k : Memref sig .tc .vmem S32x512 .f32).view.set = (chR k).set :=
  View.set_slice_whole cc0_scratch1 _

/-- The piece of the slab that the k-th transfer of the first wave sends, as a rectangle of the slab. -/
abbrev xR (c : Dev nD) (k : Fin 8) : Rect S1x512x1024 :=
  Rect.unit (s := S1x512x1024) (k0_off1 c (BitVec.ofNat 32 (32 * k.val))) S1x32x512.size (k0_off1_inb c k)

omit [FloatOps F] in
theorem xSl_set (c : Dev nD) (k : Fin 8) : (xSl c k : Memref sig .tc .vmem S32x512 .f32).view.set = (xR c k).set :=
  (View.set_reshape _ _).trans (View.set_slice_whole cc0_stg0_0 _)

/-- Two different pieces sent share no entry: their rows are apart. -/
theorem xR_disjoint (c : Dev nD) {k k' : Fin 8} (h : k ≠ k') : Disjoint (xR c k).set (xR c k').set :=
  Rect.unit_disjoint (1 : Fin 3) (by
    rw [congrFun (k0_off1_eq c k) 1, congrFun (k0_off1_eq c k') 1]
    show 256 * (c.val / 4) + 32 * k.val + 32 ≤ 256 * (c.val / 4) + 32 * k'.val ∨ 256 * (c.val / 4) + 32 * k'.val + 32 ≤ 256 * (c.val / 4) + 32 * k.val
    have : k.val ≠ k'.val := fun e => h (Fin.ext e)
    omega)

omit [FloatOps F] in
/-- An entry of a piece sent has its column in the half that is not the device's own. -/
theorem xR_col (c : Dev nD) (k : Fin 8) {i : S1x512x1024.Idx} (h : i ∈ (xR c k).set) :
    512 - 512 * ((c.val / 2) % 2) ≤ (i 2).val ∧ (i 2).val < 512 - 512 * ((c.val / 2) % 2) + 512 := by
  have h2 := (Rect.mem_set_unit.mp h) 2
  rw [congrFun (k0_off1_eq c k) 2] at h2
  exact h2

omit [FloatOps F] in
/-- A landing buffer held whole at a share is its eight chunks held at that share. -/
theorem a_split (c : Dev nD) (q : PosShare TreeShare) (f : Buf (Elt F) ((c : Thread nD τ).loc cc0_scratch0)) :
    ((((c : Thread nD τ).loc cc0_scratch0) ↦{q} f) : sProp 𝕄) = bigSep Finset.univ fun k : Fin 8 => aPt c k q f := by
  have h := pointsTo_biUnion (ℓ := (c : Thread nD τ).loc cc0_scratch0) (q := q) (f := f) (Val := Elt F) (Ix := Unit) (Name := ℕ) (U := UU) (Lvl := ℕ)
    (Finset.univ : Finset (Fin 8)) (fun k => (aCh k : Memref sig .tc .vmem S32x512 .f32).view.set)
    (fun k _ k' _ hk => by rw [aCh_set, aCh_set]; exact chR_disjoint hk)
  refine Eq.trans (congrArg (fun S => ((((c : Thread nD τ).loc cc0_scratch0) ↦[S]{q} f) : sProp 𝕄)) ?_) h
  -- every entry lies in the chunk of its row divided by 32
  ext i
  simp only [Finset.mem_univ, Finset.mem_biUnion, true_and, true_iff]
  have h0 : (i 0).val < 256 := (i 0).isLt
  have h1 : (i 1).val < 512 := (i 1).isLt
  refine ⟨⟨(i 0).val / 32, by omega⟩, ?_⟩
  rw [aCh_set]
  refine Rect.mem_set_unit.mpr fun a => ?_
  match a with
  | ⟨0, _⟩ =>
    show 32 * ((i 0).val / 32) ≤ (i 0).val ∧ (i 0).val < 32 * ((i 0).val / 32) + 32
    omega
  | ⟨1, _⟩ =>
    show 0 ≤ (i 1).val ∧ (i 1).val < 0 + 512
    omega
omit [FloatOps F] in
theorem b_split (c : Dev nD) (q : PosShare TreeShare) (f : Buf (Elt F) ((c : Thread nD τ).loc cc0_scratch1)) :
    ((((c : Thread nD τ).loc cc0_scratch1) ↦{q} f) : sProp 𝕄) = bigSep Finset.univ fun k : Fin 8 => bPt c k q f := by
  have h := pointsTo_biUnion (ℓ := (c : Thread nD τ).loc cc0_scratch1) (q := q) (f := f) (Val := Elt F) (Ix := Unit) (Name := ℕ) (U := UU) (Lvl := ℕ)
    (Finset.univ : Finset (Fin 8)) (fun k => (bCh k : Memref sig .tc .vmem S32x512 .f32).view.set)
    (fun k _ k' _ hk => by rw [bCh_set, bCh_set]; exact chR_disjoint hk)
  refine Eq.trans (congrArg (fun S => ((((c : Thread nD τ).loc cc0_scratch1) ↦[S]{q} f) : sProp 𝕄)) ?_) h
  -- every entry lies in the chunk of its row divided by 32
  ext i
  simp only [Finset.mem_univ, Finset.mem_biUnion, true_and, true_iff]
  have h0 : (i 0).val < 256 := (i 0).isLt
  have h1 : (i 1).val < 512 := (i 1).isLt
  refine ⟨⟨(i 0).val / 32, by omega⟩, ?_⟩
  rw [bCh_set]
  refine Rect.mem_set_unit.mpr fun a => ?_
  match a with
  | ⟨0, _⟩ =>
    show 32 * ((i 0).val / 32) ≤ (i 0).val ∧ (i 0).val < 32 * ((i 0).val / 32) + 32
    omega
  | ⟨1, _⟩ =>
    show 0 ≤ (i 1).val ∧ (i 1).val < 0 + 512
    omega
omit [FloatOps F] in
/-- The slab's staging buffer held whole is the eight pieces the first wave sends and the rest. -/
theorem x_split (c : Dev nD) (f : Buf (Elt F) ((c : Thread nD τ).loc cc0_stg0_0)) :
    (xWhole c f : sProp 𝕄) = iprop((bigSep Finset.univ fun k : Fin 8 => xPt c k f) ∗ (((c : Thread nD τ).loc cc0_stg0_0) ↦[xRestSet c]{fullShare} f)) := by
  have h : ((((c : Thread nD τ).loc cc0_stg0_0) ↦[Finset.univ]{fullShare} f) : sProp 𝕄)
      ⊣⊢ iprop((((c : Thread nD τ).loc cc0_stg0_0) ↦[(Finset.univ : Finset (Fin 8)).biUnion fun k => (xSl c k : Memref sig .tc .vmem S32x512 .f32).view.set]{fullShare} f)
        ∗ (((c : Thread nD τ).loc cc0_stg0_0) ↦[Finset.univ \ (Finset.univ : Finset (Fin 8)).biUnion fun k => (xSl c k : Memref sig .tc .vmem S32x512 .f32).view.set]{fullShare} f)) :=
    pointsTo_split_subset (Finset.subset_univ _)
  have hb : ((((c : Thread nD τ).loc cc0_stg0_0) ↦[(Finset.univ : Finset (Fin 8)).biUnion fun k => (xSl c k : Memref sig .tc .vmem S32x512 .f32).view.set]{fullShare} f) : sProp 𝕄)
      = bigSep Finset.univ fun k : Fin 8 => xPt c k f :=
    pointsTo_biUnion _ _ fun k _ k' _ hk => by rw [xSl_set, xSl_set]; exact xR_disjoint c hk
  unfold xWhole xRestSet
  rw [BI.equiv_iff.mp ⟨h.1, h.2⟩, hb]
omit [FloatOps F] in
/-- A chunk's rows held whole are their two halves. -/
theorem a_halves (c : Dev nD) (k : Fin 8) (f : Buf (Elt F) ((aCh k : Memref sig .tc .vmem S32x512 .f32).view.loc (c : Thread nD τ))) :
    (aPt c k fullShare f : sProp 𝕄) ⊣⊢ iprop(aPt c k fullShare.left f ∗ aPt c k fullShare.right f) := by
  unfold aPt
  exact pointsTo_share (PosShare.mem_left_op_right fullShare)
omit [FloatOps F] in
/-- An eight-fold conjunction over the chunks, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## What the loads read -/

/-- The offset pair of a landing buffer's whole rectangle is zero on both axes. -/
theorem zero2 : (![0, 0] : Fin 2 → Nat) = fun _ => 0 :=
  funext fun a => match a with | ⟨0, _⟩ => rfl | ⟨1, _⟩ => rfl

omit [FloatOps F] in
/-- The two rectangles of the slab the additions read lie in the part no transfer sends. -/
theorem rX1_sub (c : Dev nD) : (xM : Memref sig .tc .vmem S1x512x1024 .f32).view.setOn (rX1 c).toLoadRect.set ⊆ xRestSet c := by
  intro i hi
  obtain ⟨x, hx, rfl⟩ := Finset.mem_map.mp hi
  unfold xRestSet
  refine Finset.mem_sdiff.mpr ⟨Finset.mem_univ _, fun hmem => ?_⟩
  obtain ⟨k, -, hk⟩ := Finset.mem_biUnion.mp hmem
  rw [xSl_set] at hk
  have h2 := xR_col c k hk
  have h1 := (Rect.mem_set_unit.mp hx) 2
  rw [congrFun (k0_off2_eq c) 2] at h1
  have h1' : 512 * ((c.val / 2) % 2) ≤ (x 2).val ∧ (x 2).val < 512 * ((c.val / 2) % 2) + 512 := h1
  have h2' : 512 - 512 * ((c.val / 2) % 2) ≤ (x 2).val ∧ (x 2).val < 512 - 512 * ((c.val / 2) % 2) + 512 := h2
  have hy : (c.val / 2) % 2 < 2 := Nat.mod_lt _ (by decide)
  omega
omit [FloatOps F] in
theorem rX2_sub (c : Dev nD) : (xM : Memref sig .tc .vmem S1x512x1024 .f32).view.setOn (rX2 c).toLoadRect.set ⊆ xRestSet c := by
  intro i hi
  obtain ⟨x, hx, rfl⟩ := Finset.mem_map.mp hi
  unfold xRestSet
  refine Finset.mem_sdiff.mpr ⟨Finset.mem_univ _, fun hmem => ?_⟩
  obtain ⟨k, -, hk⟩ := Finset.mem_biUnion.mp hmem
  rw [xSl_set] at hk
  have h2 := xR_col c k hk
  have h1 := (Rect.mem_set_unit.mp hx) 2
  rw [congrFun (k0_off4_eq c) 2] at h1
  have h1' : 512 * ((c.val / 2) % 2) ≤ (x 2).val ∧ (x 2).val < 512 * ((c.val / 2) % 2) + 512 := h1
  have h2' : 512 - 512 * ((c.val / 2) % 2) ≤ (x 2).val ∧ (x 2).val < 512 - 512 * ((c.val / 2) % 2) + 512 := h2
  have hy : (c.val / 2) % 2 < 2 := Nat.mod_lt _ (by decide)
  omega
omit [FloatOps F] in
/-- A landing buffer loaded whole reads its contents. -/
theorem read_a (f : (cc0_scratch0 : Ref sig .tc).ty.Contents (Elt F)) :
    (aM : Memref sig .tc .vmem S256x512 .f32).view.readAt (Elt F) rA.toLoadRect f = f :=
  Memref.readAt_unit_zero (Elt F) cc0_scratch0 zero2 inb_S256x512_S256x512_0_0 f
omit [FloatOps F] in
theorem read_b (f : (cc0_scratch1 : Ref sig .tc).ty.Contents (Elt F)) :
    (bM : Memref sig .tc .vmem S256x512 .f32).view.readAt (Elt F) rA.toLoadRect f = f :=
  Memref.readAt_unit_zero (Elt F) cc0_scratch1 zero2 inb_S256x512_S256x512_0_0 f

/-! ## What the landings write -/

/-- A 1×32×512 block and a 32×512 block have as many entries. -/
theorem shapeCasts_S1x32x512_S32x512 : S1x32x512.ShapeCasts S32x512 := by decide

/-- The partner's own block of the slab, named from the sender: same rows, the other column half. -/
theorem off2_par (c : Dev nD) : k0_off2 (par c) = ![0, 256 * (c.val / 4), 512 - 512 * ((c.val / 2) % 2)] := by
  rw [k0_off2_eq, par_val]; revert c; decide

/-- First-wave transfer `k` of device `c` leaves in rows `32k…` of its partner's first landing buffer, whatever they held,
    the values the partner's schedule names. -/
theorem landA (c : Dev nD) (k : Fin 8) (fd : Buf (Elt F) ((aCh k : Memref sig .tc .vmem S32x512 .f32).view.loc (par c : Thread nD τ))) :
    ((aCh k : Memref sig .tc .vmem S32x512 .f32).view.loc (par c : Thread nD τ) ↦[(aCh k : Memref sig .tc .vmem S32x512 .f32).view.set]{fullShare}
        ((aCh k : Memref sig .tc .vmem S32x512 .f32).view.write (Elt F) fd ((xSl c k : Memref sig .tc .vmem S32x512 .f32).view.read (Elt F) (xstg m c)) Finset.univ) : sProp 𝕄)
      = payAR m (par c) k := by
  unfold payAR aPt
  refine pointsTo_congr fun i hi => ?_
  obtain ⟨x, rfl⟩ := View.exists_emb_of_mem_set _ hi
  rw [View.write_emb_of_mem _ _ (Finset.mem_univ x)]
  -- the sender's piece at (r, col) is its slab at (0, 256·x + 32k + r, 512·(1 − y) + col)
  have hL : (xSl c k : Memref sig .tc .vmem S32x512 .f32).view.read (Elt F) (xstg m c) x
      = xstg m c ((Rect.unit (s := S1x512x1024) (k0_off1 c (BitVec.ofNat 32 (32 * k.val))) S1x32x512.size (k0_off1_inb c k)).toLoadRect.idx
          (Fin.cons ⟨0, Nat.one_pos⟩ x)) := by
    rw [Memref.read_squeeze_slice (Val := Elt F) xM _ (fun _ => rfl) squeezes_S1x32x512_S32x512 shapeCasts_S1x32x512_S32x512 (xstg m c)]
    rw [shapeCast_dropUnit_apply]
    rfl
  -- the receiver's schedule at row 32k + r, column col names the sender's slab at (0, 256·x' + 32k + r, 512·y' + col)
  have hR : aVal m (par c) ((aCh k : Memref sig .tc .vmem S32x512 .f32).view.emb x)
      = xstg m c ((rX1 (par c)).toLoadRect.idx (Fin.cons ⟨0, Nat.one_pos⟩ ((aCh k : Memref sig .tc .vmem S32x512 .f32).view.emb x))) := by
    unfold aVal
    rw [par_par, shapeCast_dropUnit_apply]
    rfl
  rw [hL, hR, cast_eq]
  refine congrArg (xstg m c) (funext fun a => Fin.ext ?_)
  rw [LoadRect.idx_apply, LoadRect.idx_apply]
  have h1 := k0_off1_eq c k
  have h2 := off2_par c
  match a with
  | ⟨0, _⟩ =>
    show k0_off1 c (BitVec.ofNat 32 (32 * k.val)) 0 + 1 * 0 = k0_off2 (par c) 0 + 1 * 0
    rw [h1, h2]; rfl
  | ⟨1, _⟩ =>
    show k0_off1 c (BitVec.ofNat 32 (32 * k.val)) 1 + 1 * (x 0).val = k0_off2 (par c) 1 + 1 * (32 * k.val + 1 * (x 0).val)
    rw [h1, h2]
    show 256 * (c.val / 4) + 32 * k.val + 1 * (x 0).val = 256 * (c.val / 4) + 1 * (32 * k.val + 1 * (x 0).val)
    omega
  | ⟨2, _⟩ =>
    show k0_off1 c (BitVec.ofNat 32 (32 * k.val)) 2 + 1 * (x 1).val = k0_off2 (par c) 2 + 1 * (0 + 1 * (x 1).val)
    rw [h1, h2]
    show 512 - 512 * ((c.val / 2) % 2) + 1 * (x 1).val = 512 - 512 * ((c.val / 2) % 2) + 1 * (0 + 1 * (x 1).val)
    omega

/-- Second-wave transfer `k` of device `c` leaves in rows `32k…` of its sibling's second landing buffer the values the
    sibling's schedule names. -/
theorem landB (c : Dev nD) (k : Fin 8) (fd : Buf (Elt F) ((bCh k : Memref sig .tc .vmem S32x512 .f32).view.loc (sib c : Thread nD τ))) :
    ((bCh k : Memref sig .tc .vmem S32x512 .f32).view.loc (sib c : Thread nD τ) ↦[(bCh k : Memref sig .tc .vmem S32x512 .f32).view.set]{fullShare}
        ((bCh k : Memref sig .tc .vmem S32x512 .f32).view.write (Elt F) fd ((aCh k : Memref sig .tc .vmem S32x512 .f32).view.read (Elt F) (aVal m c)) Finset.univ) : sProp 𝕄)
      = payBR m (sib c) k := by
  unfold payBR bPt
  refine pointsTo_congr fun i hi => ?_
  obtain ⟨x, rfl⟩ := View.exists_emb_of_mem_set _ hi
  rw [View.write_emb_of_mem _ _ (Finset.mem_univ x), View.read_apply, cast_cast, cast_eq]
  -- the sibling of the sibling is the device itself, and chunk k sits at the same rows of both landing buffers
  unfold bVal
  rw [sib_sib]
  rfl

/-! ## The two stores cover the result -/

/-- Every row of the 512×512 result lies in the first store's rectangle (rows `256·x …`) or in the second's (the other
    256 rows), whatever its column. -/
theorem rO_cover (c : Dev nD) (i : S512x512.Idx) : i ∈ (rO1 c).set ∨ i ∈ (rO2 c).set := by
  rw [Rect.mem_set_unit, Rect.mem_set_unit, k0_off3_eq, k0_off5_eq]
  have hx : c.val / 4 = 0 ∨ c.val / 4 = 1 := by have hc : c.val < 8 := c.isLt; omega
  have h0 : (i 0).val < 512 := (i 0).isLt
  have h1 : (i 1).val < 512 := (i 1).isLt
  rcases hx with hx | hx <;> rw [hx]
  · by_cases hr : (i 0).val < 256
    · left
      refine Fin.forall_fin_two.mpr ⟨?_, ?_⟩
      · show 256 * 0 ≤ (i 0).val ∧ (i 0).val < 256 * 0 + 256
        omega
      · show 0 ≤ (i 1).val ∧ (i 1).val < 0 + 512
        omega
    · right
      refine Fin.forall_fin_two.mpr ⟨?_, ?_⟩
      · show 256 - 256 * 0 ≤ (i 0).val ∧ (i 0).val < 256 - 256 * 0 + 256
        omega
      · show 0 ≤ (i 1).val ∧ (i 1).val < 0 + 512
        omega
  · by_cases hr : (i 0).val < 256
    · right
      refine Fin.forall_fin_two.mpr ⟨?_, ?_⟩
      · show 256 - 256 * 1 ≤ (i 0).val ∧ (i 0).val < 256 - 256 * 1 + 256
        omega
      · show 0 ≤ (i 1).val ∧ (i 1).val < 0 + 512
        omega
    · left
      refine Fin.forall_fin_two.mpr ⟨?_, ?_⟩
      · show 256 * 1 ≤ (i 0).val ∧ (i 0).val < 256 * 1 + 256
        omega
      · show 0 ≤ (i 1).val ∧ (i 1).val < 0 + 512
        omega

/-- Whatever the result's staging buffer held, the two stores leave `outAt`. -/
theorem out_cover (c : Dev nD) (g : (cc0_stg1_0 : Ref sig .tc).ty.Contents (Elt F)) :
    ((oM : Memref sig .tc .vmem S512x512 .f32).access (rO2 c) : View sig .tc _ _ _).write (Elt F)
      (((oM : Memref sig .tc .vmem S512x512 .f32).access (rO1 c) : View sig .tc _ _ _).write (Elt F) g
        (k0_pay1 (aVal m c) (xHalf1 c (xstg m c))) Finset.univ)
      (k0_pay2 (bVal m c) (xHalf2 c (xstg m c))) Finset.univ = outAt m c := by
  unfold outAt
  funext i
  -- the elements the second store goes through, and the first
  by_cases h2 : i ∈ ((oM : Memref sig .tc .vmem S512x512 .f32).access (rO2 c) : View sig .tc _ _ _).setOn Finset.univ
  · -- under the second store: its payload, whatever was there
    obtain ⟨x, hx, rfl⟩ := Finset.mem_map.mp h2
    rw [View.write_emb_of_mem _ _ hx, View.write_emb_of_mem _ _ hx]
  · -- off it: what the first store left, and the index is under the first store
    rw [View.write_of_not_mem _ _ _ h2, View.write_of_not_mem _ _ _ h2]
    have h1 : i ∈ ((oM : Memref sig .tc .vmem S512x512 .f32).access (rO1 c) : View sig .tc _ _ _).setOn Finset.univ := by
      rw [View.setOn_univ, View.set_slice_whole] at h2 ⊢
      exact (rO_cover c i).resolve_right h2
    obtain ⟨x, hx, rfl⟩ := Finset.mem_map.mp h1
    rw [View.write_emb_of_mem _ _ hx, View.write_emb_of_mem _ _ hx]

end Cert.KernelIdeal.RS

end
-- ==== Proof.Steps.lean ====
/-
One rule per kind of statement of the kernel body, each moving ONE chunk's bundle one stage on.
-/
import proofs.«901027_g7700000000001028_dist_rs_v7x_xyz2x2x2_y_m512_n512_f32_1_alg».proof.Proof.Regions
import proofs.«901027_g7700000000001028_dist_rs_v7x_xyz2x2x2_y_m512_n512_f32_1_alg».proof.Proof.Levels

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-- What the device owes, under whatever waits it has recorded. -/
abbrev owesE (c : Dev nD) (O : CellTallies nD τ sig Unit) : sProp 𝕄 := iprop(∃ W, owes (c : Thread nD τ) O W)

open Idealize.ShloMosaic.Tactic

-- The schedule's tables, entry on the left: what each wait reads its round's duties, amounts and payloads from.
attribute [local sl_rounds] duties_q amount_q expect_q payload_q rest_q duties_later

/-! ## The seven stages of a chunk's bundle, written out -/

omit [FloatOps F] in
theorem chunkSt_0 (c : Dev nD) (k : Fin 8) : chunkSt m c k 0
    = iprop(atQ c 0 k ∗ atQ c 1 k ∗ atQ c 2 k ∗ atQ c 3 k ∗ tokQ c 0 k ∗ tokQ (par c) 1 k ∗ tokQ c 2 k ∗ tokQ (sib c) 3 k
        ∗ credQ c 1 k ∗ credQ c 3 k ∗ xPt c k (xstg m c) ∗ (∃ f, aPt (par c) k fullShare f) ∗ (∃ f, bPt (sib c) k fullShare f)) := rfl
omit [FloatOps F] in
theorem chunkSt_1 (c : Dev nD) (k : Fin 8) : chunkSt m c k 1
    = iprop(atQ c 0 k ∗ atQ c 1 k ∗ atQ c 2 k ∗ atQ c 3 k ∗ tokQ c 2 k ∗ tokQ (sib c) 3 k
        ∗ credQ c 1 k ∗ credQ c 3 k ∗ credQ c 0 k ∗ (∃ f, bPt (sib c) k fullShare f)) := rfl
omit [FloatOps F] in
theorem chunkSt_2 (c : Dev nD) (k : Fin 8) : chunkSt m c k 2
    = iprop(atQ c 0 k ∗ zQ c 1 k ∗ atQ c 2 k ∗ atQ c 3 k ∗ tokQ c 2 k ∗ tokQ (sib c) 3 k
        ∗ credQ c 3 k ∗ credQ c 0 k ∗ (∃ f, bPt (sib c) k fullShare f) ∗ aPt c k fullShare (aVal m c)) := rfl
omit [FloatOps F] in
theorem chunkSt_3 (c : Dev nD) (k : Fin 8) : chunkSt m c k 3
    = iprop(atQ c 0 k ∗ zQ c 1 k ∗ atQ c 2 k ∗ atQ c 3 k ∗ credQ c 3 k ∗ credQ c 0 k ∗ credQ c 2 k ∗ aPt c k fullShare.right (aVal m c)) := rfl
omit [FloatOps F] in
theorem chunkSt_4 (c : Dev nD) (k : Fin 8) : chunkSt m c k 4
    = iprop(atQ c 0 k ∗ zQ c 1 k ∗ atQ c 2 k ∗ zQ c 3 k ∗ credQ c 0 k ∗ credQ c 2 k ∗ aPt c k fullShare.right (aVal m c) ∗ bPt c k fullShare (bVal m c)) := rfl
omit [FloatOps F] in
theorem chunkSt_5 (c : Dev nD) (k : Fin 8) : chunkSt m c k 5
    = iprop(zQ c 0 k ∗ zQ c 1 k ∗ atQ c 2 k ∗ zQ c 3 k ∗ credQ c 2 k ∗ aPt c k fullShare.right (aVal m c) ∗ bPt c k fullShare (bVal m c) ∗ xPt c k (xstg m c)) := rfl
omit [FloatOps F] in
theorem chunkSt_6 (c : Dev nD) (k : Fin 8) : chunkSt m c k 6
    = iprop(zQ c 0 k ∗ zQ c 1 k ∗ zQ c 2 k ∗ zQ c 3 k ∗ aPt c k fullShare (aVal m c) ∗ bPt c k fullShare (bVal m c) ∗ xPt c k (xstg m c)) := rfl

/-! ## The four payloads, by family -/

omit [FloatOps F] in
theorem payJ_0 (c : Dev nD) (k : Fin 8) : payJ m c k ((0 : Fin 4) : ℕ) = xPt c k (xstg m c) := rfl
omit [FloatOps F] in
theorem payJ_1 (c : Dev nD) (k : Fin 8) : payJ m c k ((1 : Fin 4) : ℕ) = aPt c k fullShare (aVal m c) := rfl
omit [FloatOps F] in
theorem payJ_2 (c : Dev nD) (k : Fin 8) : payJ m c k ((2 : Fin 4) : ℕ) = aPt c k fullShare.left (aVal m c) := rfl
omit [FloatOps F] in
theorem payJ_3 (c : Dev nD) (k : Fin 8) : payJ m c k ((3 : Fin 4) : ℕ) = bPt c k fullShare (bVal m c) := rfl

/-- First-wave transfer `k`: the slab piece goes to the partner's landing rows `32k…`; it pays the device's own send
    duty and the partner's receive duty, whose payload is those rows holding the values sent. Stage 0 → 1. -/
theorem step_A (c n : Dev nD) (hn : n = par c) (k : Fin 8) (sS sR : DmaSem sig) (hS : sS = qsem 0 k) (hR : sR = qsem 1 k)
    (src dst : Memref sig .tc .vmem S32x512 .f32) (hsrc' : src = xSl c k) (hdst' : dst = aCh k)
    {hsc : (dst : Memref sig (Dev.tc n : Thread nD τ).2.kind .vmem S32x512 .f32).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α}
    (SA : Finset (Fin 8)) (hk : k ∉ SA) (OB : CellTallies nD τ sig Unit) :
    iprop(recs m K ∗ chunkSt m c k 0 ∗ owesE (F := F) c (oweA c (insert k SA) + OB))
      ⊢ iprop(((chunkSt m c k 1 ∗ owesE (F := F) c (oweA c SA + OB)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc n : Thread nD τ) dst (.dma sS) hsc) (.dma sR) hsrc hdst hsem) kk) Q) := by
  subst hn hS hR hsrc' hdst'
  rw [chunkSt_0, chunkSt_1]
  iintro ⟨#Hrecs, ⟨Hat0, Hat1, Hat2, Hat3, Ht0, Ht1, Ht2, Ht3, Hc1, Hc3, Hx, ⟨%fd, Ha⟩, Hb⟩, ⟨%W, HO⟩⟩ Hk
  ihave HI := (recs_q m K c 0 k) $$ Hrecs
  icases HI with ⟨#HI0, #Hr0⟩
  ihave HI := (recs_q m K (par c) 1 k) $$ Hrecs
  icases HI with ⟨#HI1, #Hr1⟩
  unfold xPt aPt
  iapply (Rounds.wp_send_pointsTo 𝒱₀ ER (rd m) (c : Thread nD τ) none (c' := (par c : Thread nD τ))
      (src := (xSl c k : Memref sig .tc .vmem S32x512 .f32)) (dst := (aCh k : Memref sig .tc .vmem S32x512 .f32))
      (q := fullShare) (fs := xstg m c) (fd := fd) (κ₁ := K (qCell c 0 k)) (κ₂ := K (qCell (par c) 1 k))
      (r₁ := 0) (r₂ := 0) (d₁ := false) (d₂ := false)
      (by rw [duties_q]; exact Finset.mem_singleton_self _) (by rw [duties_q]; exact Finset.mem_singleton_self _)
      () () N32 rfl (amount_q m c 0 k false) (amount_q m (par c) 1 k false) (O₀ := oweA c (insert k SA) + OB) (oweA c SA + OB)
      (by rw [oweA_insert c hk, add_right_comm]) (W := W)
      (by rw [payload_AS]; exact BI.Entails.refl _)
      (by rw [payload_AR]; exact Entails.of_eq (landA m c k fd))) $$ [Hx Ha HO Ht0 Ht1]
  · isplitr; · iexact HI0
    isplitr; · iexact HI1
    isplitl [Hx]; · iexact Hx
    isplitl [Ha]; · iexact Ha
    isplitl [HO]; · iexact HO
    isplitl [Ht0]; · iexact Ht0
    isplitr; · iexact Hr0
    isplitl [Ht1]; · iexact Ht1
    iexact Hr1
  iintro ⟨Hc0, HO⟩
  iapply Hk
  isplitl [Hat0 Hat1 Hat2 Hat3 Ht2 Ht3 Hc1 Hc3 Hc0 Hb]
  · isplitl [Hat0]; · iexact Hat0
    isplitl [Hat1]; · iexact Hat1
    isplitl [Hat2]; · iexact Hat2
    isplitl [Hat3]; · iexact Hat3
    isplitl [Ht2]; · iexact Ht2
    isplitl [Ht3]; · iexact Ht3
    isplitl [Hc1]; · iexact Hc1
    isplitl [Hc3]; · iexact Hc3
    isplitl [Hc0]; · iexact Hc0
    iexact Hb
  · iexists _; iexact HO

/-- The wait for the partner's first-wave transfer `k` (owing only second-wave receive credit, which sits above): rows
    `32k…` of the first landing buffer arrive holding the partner's values; the cell closes. Stage 1 → 2. -/
theorem step_waitAR (c : Dev nD) (k : Fin 8) (s : DmaSem sig) (hs : s = qsem 1 k)
    {sp sp' : Space} {sh sh' : Shape} {e e' : EltTy} {src : Memref sig .tc sp' sh' e'} {κ' : Kind} {dst : Memref sig κ' sp sh e}
    {hsrc : src.view.WordExact} {hdst : dst.view.WordExact} (hc : dst.view.dmaCredit = N32)
    {α : Type} {Q : α → sProp 𝕄} {kk : PUnit → Prog (TpuEff nD τ sig (Elt F) Λ₀ .tc) α}
    (SB : Finset (Fin 8)) :
    iprop(recs m K ∗ levAts L lv ∗ chunkSt m c k 1 ∗ owesE (F := F) c (oweA c ∅ + oweB c SB))
      ⊢ iprop(((chunkSt m c k 2 ∗ owesE (F := F) c (oweA c ∅ + oweB c SB)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  rw [chunkSt_2]
  show iprop(recs m K ∗ levAts L lv ∗ (atQ c 0 k ∗ atPos ER (qCell c 1 k) 0 ∅ 0 ∗ atQ c 2 k ∗ atQ c 3 k ∗ tokQ c 2 k ∗ tokQ (sib c) 3 k
      ∗ cred (tallyAt (qCell c 1 k) () N32) ∗ credQ c 3 k ∗ credQ c 0 k ∗ (∃ f, bPt (sib c) k fullShare f)) ∗ (∃ W, owes (c : Thread nD τ) (oweA c ∅ + oweB c SB) W)) ⊢ _
  iintro ⟨#Hrecs, #Hlev, ⟨Hat0, Hat1, Hat2, Hat3, Ht2, Ht3, Hc1, Hc3, Hc0, Hb⟩, ⟨%W, HO⟩⟩ Hk
  ihave HI := (recs_q m K c 1 k) $$ Hrecs
  icases HI with ⟨#HI1, #Hr1⟩
  have heq : (cred (tallyAt (qCell c 1 k) () N32) : sProp 𝕄) = cred (tallyAt (qCell c 1 k) () dst.view.dmaCredit) := by rw [hc]
  ihave Hc1' := (Entails.of_eq heq) $$ Hc1
  ihave HMW := (mayWait_AR c k SB) $$ Hlev
  sl_exec
  imod (Rounds.cell_close ER (rd m) (Set.mem_univ (K (qCell c 1 k))) (fun h => h) (R := 0 + 1) (duties_later m (qCell c 1 k))) $$ [Hat1] with Hz1
  · isplitr; · iexact HI1
    iexact Hat1
  ihave Hp := (Entails.of_eq (payJ_1 m c k)) $$ Hat1_pay1
  iapply Hk
  isplitl [Hat0 Hz1 Hat2 Hat3 Ht2 Ht3 Hc3 Hc0 Hb Hp]
  · isplitl [Hat0]; · iexact Hat0
    isplitl [Hz1]; · iexact Hz1
    isplitl [Hat2]; · iexact Hat2
    isplitl [Hat3]; · iexact Hat3
    isplitl [Ht2]; · iexact Ht2
    isplitl [Ht3]; · iexact Ht3
    isplitl [Hc3]; · iexact Hc3
    isplitl [Hc0]; · iexact Hc0
    isplitl [Hb]; · iexact Hb
    iexact Hp
  · iexists _; iexact HO

/-- Second-wave transfer `k`: rows `32k…` of the first landing buffer (the left half of their share lent) go to the
    sibling's second landing buffer. Stage 2 → 3. -/
theorem step_B (c n : Dev nD) (hn : n = sib c) (k : Fin 8) (sS sR : DmaSem sig) (hS : sS = qsem 2 k) (hR : sR = qsem 3 k)
    (src dst : Memref sig .tc .vmem S32x512 .f32) (hsrc' : src = aCh k) (hdst' : dst = bCh k)
    {hsc : (dst : Memref sig (Dev.tc n : Thread nD τ).2.kind .vmem S32x512 .f32).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α}
    (SB : Finset (Fin 8)) (hk : k ∉ SB) (OA : CellTallies nD τ sig Unit) :
    iprop(recs m K ∗ chunkSt m c k 2 ∗ owesE (F := F) c (OA + oweB c (insert k SB)))
      ⊢ iprop(((chunkSt m c k 3 ∗ owesE (F := F) c (OA + oweB c SB)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc n : Thread nD τ) dst (.dma sS) hsc) (.dma sR) hsrc hdst hsem) kk) Q) := by
  subst hn hS hR hsrc' hdst'
  rw [chunkSt_2, chunkSt_3]
  iintro ⟨#Hrecs, ⟨Hat0, Hz1, Hat2, Hat3, Ht2, Ht3, Hc3, Hc0, ⟨%fd, Hb⟩, Ha⟩, ⟨%W, HO⟩⟩ Hk
  ihave HI := (recs_q m K c 2 k) $$ Hrecs
  icases HI with ⟨#HI2, #Hr2⟩
  ihave HI := (recs_q m K (sib c) 3 k) $$ Hrecs
  icases HI with ⟨#HI3, #Hr3⟩
  -- the rows' share in two halves: the left one is lent to the transfer, the right one stays
  ihave Hh := (a_halves c k (aVal m c)).1 $$ Ha
  icases Hh with ⟨HaL, HaR⟩
  unfold aPt bPt
  iapply (Rounds.wp_send_pointsTo 𝒱₀ ER (rd m) (c : Thread nD τ) none (c' := (sib c : Thread nD τ))
      (src := (aCh k : Memref sig .tc .vmem S32x512 .f32)) (dst := (bCh k : Memref sig .tc .vmem S32x512 .f32))
      (q := fullShare.left) (fs := aVal m c) (fd := fd) (κ₁ := K (qCell c 2 k)) (κ₂ := K (qCell (sib c) 3 k))
      (r₁ := 0) (r₂ := 0) (d₁ := false) (d₂ := false)
      (by rw [duties_q]; exact Finset.mem_singleton_self _) (by rw [duties_q]; exact Finset.mem_singleton_self _)
      () () N32 rfl (amount_q m c 2 k false) (amount_q m (sib c) 3 k false) (O₀ := OA + oweB c (insert k SB)) (OA + oweB c SB)
      (by rw [oweB_insert c hk, add_assoc]) (W := W)
      (by rw [payload_BS]; exact BI.Entails.refl _)
      (by rw [payload_BR]; exact Entails.of_eq (landB m c k fd))) $$ [HaL Hb HO Ht2 Ht3]
  · isplitr; · iexact HI2
    isplitr; · iexact HI3
    isplitl [HaL]; · iexact HaL
    isplitl [Hb]; · iexact Hb
    isplitl [HO]; · iexact HO
    isplitl [Ht2]; · iexact Ht2
    isplitr; · iexact Hr2
    isplitl [Ht3]; · iexact Ht3
    iexact Hr3
  iintro ⟨Hc2, HO⟩
  iapply Hk
  isplitl [Hat0 Hz1 Hat2 Hat3 Hc3 Hc0 Hc2 HaR]
  · isplitl [Hat0]; · iexact Hat0
    isplitl [Hz1]; · iexact Hz1
    isplitl [Hat2]; · iexact Hat2
    isplitl [Hat3]; · iexact Hat3
    isplitl [Hc3]; · iexact Hc3
    isplitl [Hc0]; · iexact Hc0
    isplitl [Hc2]; · iexact Hc2
    iexact HaR
  · iexists _; iexact HO

/-- The wait for the sibling's second-wave transfer `k` (owing nothing). Stage 3 → 4. -/
theorem step_waitBR (c : Dev nD) (k : Fin 8) (s : DmaSem sig) (hs : s = qsem 3 k)
    {sp sp' : Space} {sh sh' : Shape} {e e' : EltTy} {src : Memref sig .tc sp' sh' e'} {κ' : Kind} {dst : Memref sig κ' sp sh e}
    {hsrc : src.view.WordExact} {hdst : dst.view.WordExact} (hc : dst.view.dmaCredit = N32)
    {α : Type} {Q : α → sProp 𝕄} {kk : PUnit → Prog (TpuEff nD τ sig (Elt F) Λ₀ .tc) α} :
    iprop(recs m K ∗ chunkSt m c k 3 ∗ owesE (F := F) c (oweA c ∅ + oweB c ∅))
      ⊢ iprop(((chunkSt m c k 4 ∗ owesE (F := F) c (oweA c ∅ + oweB c ∅)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  rw [owe_empty, chunkSt_4]
  show iprop(recs m K ∗ (atQ c 0 k ∗ zQ c 1 k ∗ atQ c 2 k ∗ atPos ER (qCell c 3 k) 0 ∅ 0 ∗ cred (tallyAt (qCell c 3 k) () N32) ∗ credQ c 0 k ∗ credQ c 2 k
      ∗ aPt c k fullShare.right (aVal m c)) ∗ (∃ W, owes (c : Thread nD τ) 0 W)) ⊢ _
  iintro ⟨#Hrecs, ⟨Hat0, Hz1, Hat2, Hat3, Hc3, Hc0, Hc2, HaR⟩, ⟨%W, HO⟩⟩ Hk
  ihave HI := (recs_q m K c 3 k) $$ Hrecs
  icases HI with ⟨#HI3, #Hr3⟩
  have heq : (cred (tallyAt (qCell c 3 k) () N32) : sProp 𝕄) = cred (tallyAt (qCell c 3 k) () dst.view.dmaCredit) := by rw [hc]
  ihave Hc3' := (Entails.of_eq heq) $$ Hc3
  sl_exec
  imod (Rounds.cell_close ER (rd m) (Set.mem_univ (K (qCell c 3 k))) (fun h => h) (R := 0 + 1) (duties_later m (qCell c 3 k))) $$ [Hat3] with Hz3
  · isplitr; · iexact HI3
    iexact Hat3
  ihave Hp := (Entails.of_eq (payJ_3 m c k)) $$ Hat3_pay1
  iapply Hk
  isplitl [Hat0 Hz1 Hat2 Hz3 Hc0 Hc2 HaR Hp]
  · isplitl [Hat0]; · iexact Hat0
    isplitl [Hz1]; · iexact Hz1
    isplitl [Hat2]; · iexact Hat2
    isplitl [Hz3]; · iexact Hz3
    isplitl [Hc0]; · iexact Hc0
    isplitl [Hc2]; · iexact Hc2
    isplitl [HaR]; · iexact HaR
    iexact Hp
  · iexists _; iexact HO

/-- The wait for the send side of the device's own first-wave transfer `k`: the slab piece is back. Stage 4 → 5. -/
theorem step_waitAS (c : Dev nD) (k : Fin 8) (s : DmaSem sig) (hs : s = qsem 0 k)
    {sp sp' : Space} {sh sh' : Shape} {e e' : EltTy} {src : Memref sig .tc sp' sh' e'} {κ' : Kind} {dst : Memref sig κ' sp sh e}
    {hsrc : src.view.WordExact} {hdst : dst.view.WordExact} (hc : dst.view.dmaCredit = N32)
    {α : Type} {Q : α → sProp 𝕄} {kk : PUnit → Prog (TpuEff nD τ sig (Elt F) Λ₀ .tc) α} :
    iprop(recs m K ∗ chunkSt m c k 4 ∗ owesE (F := F) c (oweA c ∅ + oweB c ∅))
      ⊢ iprop(((chunkSt m c k 5 ∗ owesE (F := F) c (oweA c ∅ + oweB c ∅)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  rw [owe_empty, chunkSt_5]
  show iprop(recs m K ∗ (atPos ER (qCell c 0 k) 0 ∅ 0 ∗ zQ c 1 k ∗ atQ c 2 k ∗ zQ c 3 k ∗ cred (tallyAt (qCell c 0 k) () N32) ∗ credQ c 2 k
      ∗ aPt c k fullShare.right (aVal m c) ∗ bPt c k fullShare (bVal m c)) ∗ (∃ W, owes (c : Thread nD τ) 0 W)) ⊢ _
  iintro ⟨#Hrecs, ⟨Hat0, Hz1, Hat2, Hz3, Hc0, Hc2, HaR, Hb⟩, ⟨%W, HO⟩⟩ Hk
  ihave HI := (recs_q m K c 0 k) $$ Hrecs
  icases HI with ⟨#HI0, #Hr0⟩
  have heq : (cred (tallyAt (qCell c 0 k) () N32) : sProp 𝕄) = cred (tallyAt (qCell c 0 k) () dst.view.dmaCredit) := by rw [hc]
  ihave Hc0' := (Entails.of_eq heq) $$ Hc0
  sl_exec
  imod (Rounds.cell_close ER (rd m) (Set.mem_univ (K (qCell c 0 k))) (fun h => h) (R := 0 + 1) (duties_later m (qCell c 0 k))) $$ [Hat0] with Hz0
  · isplitr; · iexact HI0
    iexact Hat0
  ihave Hp := (Entails.of_eq (payJ_0 m c k)) $$ Hat0_pay1
  iapply Hk
  isplitl [Hz0 Hz1 Hat2 Hz3 Hc2 HaR Hb Hp]
  · isplitl [Hz0]; · iexact Hz0
    isplitl [Hz1]; · iexact Hz1
    isplitl [Hat2]; · iexact Hat2
    isplitl [Hz3]; · iexact Hz3
    isplitl [Hc2]; · iexact Hc2
    isplitl [HaR]; · iexact HaR
    isplitl [Hb]; · iexact Hb
    iexact Hp
  · iexists _; iexact HO

/-- The wait for the send side of its second-wave transfer `k`: the lent half is back, the rows whole again. Stage 5 → 6. -/
theorem step_waitBS (c : Dev nD) (k : Fin 8) (s : DmaSem sig) (hs : s = qsem 2 k)
    {sp sp' : Space} {sh sh' : Shape} {e e' : EltTy} {src : Memref sig .tc sp' sh' e'} {κ' : Kind} {dst : Memref sig κ' sp sh e}
    {hsrc : src.view.WordExact} {hdst : dst.view.WordExact} (hc : dst.view.dmaCredit = N32)
    {α : Type} {Q : α → sProp 𝕄} {kk : PUnit → Prog (TpuEff nD τ sig (Elt F) Λ₀ .tc) α} :
    iprop(recs m K ∗ chunkSt m c k 5 ∗ owesE (F := F) c (oweA c ∅ + oweB c ∅))
      ⊢ iprop(((chunkSt m c k 6 ∗ owesE (F := F) c (oweA c ∅ + oweB c ∅)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  rw [owe_empty, chunkSt_6]
  show iprop(recs m K ∗ (zQ c 0 k ∗ zQ c 1 k ∗ atPos ER (qCell c 2 k) 0 ∅ 0 ∗ zQ c 3 k ∗ cred (tallyAt (qCell c 2 k) () N32)
      ∗ aPt c k fullShare.right (aVal m c) ∗ bPt c k fullShare (bVal m c) ∗ xPt c k (xstg m c)) ∗ (∃ W, owes (c : Thread nD τ) 0 W)) ⊢ _
  iintro ⟨#Hrecs, ⟨Hz0, Hz1, Hat2, Hz3, Hc2, HaR, Hb, Hx⟩, ⟨%W, HO⟩⟩ Hk
  ihave HI := (recs_q m K c 2 k) $$ Hrecs
  icases HI with ⟨#HI2, #Hr2⟩
  have heq : (cred (tallyAt (qCell c 2 k) () N32) : sProp 𝕄) = cred (tallyAt (qCell c 2 k) () dst.view.dmaCredit) := by rw [hc]
  ihave Hc2' := (Entails.of_eq heq) $$ Hc2
  sl_exec
  imod (Rounds.cell_close ER (rd m) (Set.mem_univ (K (qCell c 2 k))) (fun h => h) (R := 0 + 1) (duties_later m (qCell c 2 k))) $$ [Hat2] with Hz2
  · isplitr; · iexact HI2
    iexact Hat2
  ihave Hp := (Entails.of_eq (payJ_2 m c k)) $$ Hat2_pay1
  -- the lent half and the kept half are the rows whole again
  ihave Ha := (a_halves c k (aVal m c)).2 $$ [Hp HaR]
  · isplitl [Hp]; · iexact Hp
    iexact HaR
  iapply Hk
  isplitl [Hz0 Hz1 Hz2 Hz3 Ha Hb Hx]
  · isplitl [Hz0]; · iexact Hz0
    isplitl [Hz1]; · iexact Hz1
    isplitl [Hz2]; · iexact Hz2
    isplitl [Hz3]; · iexact Hz3
    isplitl [Ha]; · iexact Ha
    isplitl [Hb]; · iexact Hb
    iexact Hx
  · iexists _; iexact HO

end Cert.KernelIdeal.RS

end
-- ==== Proof.PartsA.lean ====
/-
The kernel body's statements, part by part as it is printed: the two waves of transfers.

Each part is a short run of statements, and each statement moves exactly one chunk's bundle one stage on: a first-wave
transfer takes its chunk from stage 0 to 1 and discharges the receive credit the device owed its partner for it; the wait
on the partner's transfer takes the chunk from 1 to 2, bringing the landed rows with the partner's values; a second-wave
transfer takes it from 2 to 3 and discharges the receive credit owed to the sibling. Both waves go out in the order of the
chunks, so at every point the chunks whose credit is still owed form a final segment `k, …, 7`, and the sets of owed
chunks read off the stage vector are such segments.
-/
import proofs.«901027_g7700000000001028_dist_rs_v7x_xyz2x2x2_y_m512_n512_f32_1_alg».proof.Proof.Steps

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-! ## The chunks not yet reached -/

/-- The chunks `k, k+1, …, 7`, as a chain of insertions (`ch8` is empty). Transfers of either wave go out in the order of
    the chunks, so the set of chunks whose transfer is still to be sent is always one of these. -/
private abbrev ch8 : Finset (Fin 8) := ∅
private abbrev ch7 : Finset (Fin 8) := insert 7 ch8
private abbrev ch6 : Finset (Fin 8) := insert 6 ch7
private abbrev ch5 : Finset (Fin 8) := insert 5 ch6
private abbrev ch4 : Finset (Fin 8) := insert 4 ch5
private abbrev ch3 : Finset (Fin 8) := insert 3 ch4
private abbrev ch2 : Finset (Fin 8) := insert 2 ch3
private abbrev ch1 : Finset (Fin 8) := insert 1 ch2
private abbrev ch0 : Finset (Fin 8) := insert 0 ch1

private theorem nm0 : (0 : Fin 8) ∉ ch1 := by decide
private theorem nm1 : (1 : Fin 8) ∉ ch2 := by decide
private theorem nm2 : (2 : Fin 8) ∉ ch3 := by decide
private theorem nm3 : (3 : Fin 8) ∉ ch4 := by decide
private theorem nm4 : (4 : Fin 8) ∉ ch5 := by decide
private theorem nm5 : (5 : Fin 8) ∉ ch6 := by decide
private theorem nm6 : (6 : Fin 8) ∉ ch7 := by decide
private theorem nm7 : (7 : Fin 8) ∉ ch8 := by decide

/-- The between-statements state at a literal stage vector, with the two sets of chunks whose receive credit is still
    owed (first wave: the chunks at stage 0; second wave: the chunks below stage 3) named. -/
private theorem PSt_lit (c : Dev nD) (a0 a1 a2 a3 a4 a5 a6 a7 os : ℕ) (SA SB : Finset (Fin 8))
    (hA : (Finset.univ.filter fun i : Fin 8 => (![a0, a1, a2, a3, a4, a5, a6, a7] : Fin 8 → ℕ) i = 0) = SA)
    (hB : (Finset.univ.filter fun i : Fin 8 => (![a0, a1, a2, a3, a4, a5, a6, a7] : Fin 8 → ℕ) i < 3) = SB) :
    PSt m K c ![a0, a1, a2, a3, a4, a5, a6, a7] os
      = iprop(recs m K ∗ levAts L lv ∗ owesE (F := F) c (oweA c SA + oweB c SB)
          ∗ (chunkSt m c 0 a0 ∗ chunkSt m c 1 a1 ∗ chunkSt m c 2 a2 ∗ chunkSt m c 3 a3
              ∗ chunkSt m c 4 a4 ∗ chunkSt m c 5 a5 ∗ chunkSt m c 6 a6 ∗ chunkSt m c 7 a7)
          ∗ xRest m c ∗ oSt m c os) := by
  subst hA hB; rfl

set_option maxHeartbeats 1600000 in
/-- Statements of part 2. First-wave transfers 0 and 1. -/
theorem part2_wp (c : Dev nD) (v2 v8 v9 v24 : BitVec 32) :
    PSt m K c ![0, 0, 0, 0, 0, 0, 0, 0] 0
      ⊢ wp frame (wpE (defs₀ (F := F)) 𝒱₀ (c : Thread nD τ) none) Set.univ (k0_part2 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v8 v9 v24)
          (fun _ => PSt m K c ![1, 1, 0, 0, 0, 0, 0, 0] 0) := by
  rw [k0_part2_eq_skeleton]; unfold k0_part2_skel
  simp only [Prog.lift, Prog.bind_op, Prog.bind_ret, Prog.pure_eq_ret]
  rw [PSt_lit m K c 0 0 0 0 0 0 0 0 0 ch0 ch0 (by decide) (by decide)]
  iintro ⟨#HR, #Hlev, HO, ⟨H0, H1, H2, H3, H4, H5, H6, H7⟩, Hxr, Ho⟩
  -- chunk 0 of the slab goes to the partner: stage 0 → 1, its receive credit there no longer owed
  iapply (step_A m K c _ (dev3_eq c) 0 _ _ (sem2_eq 0) (sem3_eq 0) _ _ rfl rfl _ nm0 (oweB c ch0)) $$ [H0 HO]
  · isplitr; · iexact HR
    isplitl [H0]; · iexact H0
    iexact HO
  iintro ⟨H0, HO⟩
  -- chunk 1 of the slab goes to the partner: stage 0 → 1, its receive credit there no longer owed
  iapply (step_A m K c _ (dev4_eq c) 1 _ _ (sem2_eq 1) (sem3_eq 1) _ _ rfl rfl _ nm1 (oweB c ch0)) $$ [H1 HO]
  · isplitr; · iexact HR
    isplitl [H1]; · iexact H1
    iexact HO
  iintro ⟨H1, HO⟩
  rw [wp_ret]; imodintro
  rw [PSt_lit m K c 1 1 0 0 0 0 0 0 0 ch2 ch0 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 3. First-wave transfers 2 and 3. -/
theorem part3_wp (c : Dev nD) (v2 v8 v9 v24 v60 w : BitVec 32) :
    PSt m K c ![1, 1, 0, 0, 0, 0, 0, 0] 0
      ⊢ wp frame (wpE (defs₀ (F := F)) 𝒱₀ (c : Thread nD τ) none) Set.univ (k0_part3 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v8 v9 v24 v60 w)
          (fun _ => PSt m K c ![1, 1, 1, 1, 0, 0, 0, 0] 0) := by
  rw [k0_part3_eq_skeleton]; unfold k0_part3_skel
  simp only [Prog.lift, Prog.bind_op, Prog.bind_ret, Prog.pure_eq_ret]
  rw [PSt_lit m K c 1 1 0 0 0 0 0 0 0 ch2 ch0 (by decide) (by decide)]
  iintro ⟨#HR, #Hlev, HO, ⟨H0, H1, H2, H3, H4, H5, H6, H7⟩, Hxr, Ho⟩
  -- chunk 2 of the slab goes to the partner: stage 0 → 1, its receive credit there no longer owed
  iapply (step_A m K c _ (dev5_eq c) 2 _ _ (sem2_eq 2) (sem3_eq 2) _ _ rfl rfl _ nm2 (oweB c ch0)) $$ [H2 HO]
  · isplitr; · iexact HR
    isplitl [H2]; · iexact H2
    iexact HO
  iintro ⟨H2, HO⟩
  -- chunk 3 of the slab goes to the partner: stage 0 → 1, its receive credit there no longer owed
  iapply (step_A m K c _ (dev6_eq c) 3 _ _ (sem2_eq 3) (sem3_eq 3) _ _ rfl rfl _ nm3 (oweB c ch0)) $$ [H3 HO]
  · isplitr; · iexact HR
    isplitl [H3]; · iexact H3
    iexact HO
  iintro ⟨H3, HO⟩
  rw [wp_ret]; imodintro
  rw [PSt_lit m K c 1 1 1 1 0 0 0 0 0 ch4 ch0 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 4. First-wave transfers 4, 5 and 6. -/
theorem part4_wp (c : Dev nD) (v2 v8 v9 v24 : BitVec 32) :
    PSt m K c ![1, 1, 1, 1, 0, 0, 0, 0] 0
      ⊢ wp frame (wpE (defs₀ (F := F)) 𝒱₀ (c : Thread nD τ) none) Set.univ (k0_part4 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v8 v9 v24)
          (fun _ => PSt m K c ![1, 1, 1, 1, 1, 1, 1, 0] 0) := by
  rw [k0_part4_eq_skeleton]; unfold k0_part4_skel
  simp only [Prog.lift, Prog.bind_op, Prog.bind_ret, Prog.pure_eq_ret]
  rw [PSt_lit m K c 1 1 1 1 0 0 0 0 0 ch4 ch0 (by decide) (by decide)]
  iintro ⟨#HR, #Hlev, HO, ⟨H0, H1, H2, H3, H4, H5, H6, H7⟩, Hxr, Ho⟩
  -- chunk 4 of the slab goes to the partner: stage 0 → 1, its receive credit there no longer owed
  iapply (step_A m K c _ (dev7_eq c) 4 _ _ (sem2_eq 4) (sem3_eq 4) _ _ rfl rfl _ nm4 (oweB c ch0)) $$ [H4 HO]
  · isplitr; · iexact HR
    isplitl [H4]; · iexact H4
    iexact HO
  iintro ⟨H4, HO⟩
  -- chunk 5 of the slab goes to the partner: stage 0 → 1, its receive credit there no longer owed
  iapply (step_A m K c _ (dev8_eq c) 5 _ _ (sem2_eq 5) (sem3_eq 5) _ _ rfl rfl _ nm5 (oweB c ch0)) $$ [H5 HO]
  · isplitr; · iexact HR
    isplitl [H5]; · iexact H5
    iexact HO
  iintro ⟨H5, HO⟩
  -- chunk 6 of the slab goes to the partner: stage 0 → 1, its receive credit there no longer owed
  iapply (step_A m K c _ (dev9_eq c) 6 _ _ (sem2_eq 6) (sem3_eq 6) _ _ rfl rfl _ nm6 (oweB c ch0)) $$ [H6 HO]
  · isplitr; · iexact HR
    isplitl [H6]; · iexact H6
    iexact HO
  iintro ⟨H6, HO⟩
  rw [wp_ret]; imodintro
  rw [PSt_lit m K c 1 1 1 1 1 1 1 0 0 ch7 ch0 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 5. First-wave transfer 7; the partner's chunk 0 has landed. -/
theorem part5_wp (c : Dev nD) (v2 v5 v8 v9 v10 : BitVec 32) :
    PSt m K c ![1, 1, 1, 1, 1, 1, 1, 0] 0
      ⊢ wp frame (wpE (defs₀ (F := F)) 𝒱₀ (c : Thread nD τ) none) Set.univ (k0_part5 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v5 v8 v9 v10)
          (fun _ => PSt m K c ![2, 1, 1, 1, 1, 1, 1, 1] 0) := by
  rw [k0_part5_eq_skeleton]; unfold k0_part5_skel
  simp only [Prog.lift, Prog.bind_op, Prog.bind_ret, Prog.pure_eq_ret]
  rw [PSt_lit m K c 1 1 1 1 1 1 1 0 0 ch7 ch0 (by decide) (by decide)]
  iintro ⟨#HR, #Hlev, HO, ⟨H0, H1, H2, H3, H4, H5, H6, H7⟩, Hxr, Ho⟩
  -- chunk 7 of the slab goes to the partner: stage 0 → 1, its receive credit there no longer owed
  iapply (step_A m K c _ (dev10_eq c) 7 _ _ (sem2_eq 7) (sem3_eq 7) _ _ rfl rfl _ nm7 (oweB c ch0)) $$ [H7 HO]
  · isplitr; · iexact HR
    isplitl [H7]; · iexact H7
    iexact HO
  iintro ⟨H7, HO⟩
  -- the partner's chunk 0 has landed: stage 1 → 2
  iapply (step_waitAR m K c 0 _ (sem3_eq 0) (dst := aCh 0) rfl ch0) $$ [H0 HO]
  · isplitr; · iexact HR
    isplitr; · iexact Hlev
    isplitl [H0]; · iexact H0
    iexact HO
  iintro ⟨H0, HO⟩
  rw [wp_ret]; imodintro
  rw [PSt_lit m K c 2 1 1 1 1 1 1 1 0 ch8 ch0 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 6. Chunk 0 forwarded; chunk 1 landed and forwarded. -/
theorem part6_wp (c : Dev nD) (v2 v5 v8 v9 v10 : BitVec 32) :
    PSt m K c ![2, 1, 1, 1, 1, 1, 1, 1] 0
      ⊢ wp frame (wpE (defs₀ (F := F)) 𝒱₀ (c : Thread nD τ) none) Set.univ (k0_part6 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v5 v8 v9 v10)
          (fun _ => PSt m K c ![3, 3, 1, 1, 1, 1, 1, 1] 0) := by
  rw [k0_part6_eq_skeleton]; unfold k0_part6_skel
  simp only [Prog.lift, Prog.bind_op, Prog.bind_ret, Prog.pure_eq_ret]
  rw [PSt_lit m K c 2 1 1 1 1 1 1 1 0 ch8 ch0 (by decide) (by decide)]
  iintro ⟨#HR, #Hlev, HO, ⟨H0, H1, H2, H3, H4, H5, H6, H7⟩, Hxr, Ho⟩
  -- the landed chunk 0 is forwarded to the sibling: stage 2 → 3, its receive credit there no longer owed
  iapply (step_B m K c _ (dev11_eq c) 0 _ _ (sem4_eq 0) (sem5_eq 0) _ _ rfl rfl _ nm0 (oweA c ch8)) $$ [H0 HO]
  · isplitr; · iexact HR
    isplitl [H0]; · iexact H0
    iexact HO
  iintro ⟨H0, HO⟩
  -- the partner's chunk 1 has landed: stage 1 → 2
  iapply (step_waitAR m K c 1 _ (sem3_eq 1) (dst := aCh 1) rfl ch1) $$ [H1 HO]
  · isplitr; · iexact HR
    isplitr; · iexact Hlev
    isplitl [H1]; · iexact H1
    iexact HO
  iintro ⟨H1, HO⟩
  -- the landed chunk 1 is forwarded to the sibling: stage 2 → 3, its receive credit there no longer owed
  iapply (step_B m K c _ (dev12_eq c) 1 _ _ (sem4_eq 1) (sem5_eq 1) _ _ rfl rfl _ nm1 (oweA c ch8)) $$ [H1 HO]
  · isplitr; · iexact HR
    isplitl [H1]; · iexact H1
    iexact HO
  iintro ⟨H1, HO⟩
  rw [wp_ret]; imodintro
  rw [PSt_lit m K c 3 3 1 1 1 1 1 1 0 ch8 ch2 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 7. Chunk 2 landed and forwarded; chunk 3 landed. -/
theorem part7_wp (c : Dev nD) (v2 v5 v8 v9 v10 v191 v192 : BitVec 32) :
    PSt m K c ![3, 3, 1, 1, 1, 1, 1, 1] 0
      ⊢ wp frame (wpE (defs₀ (F := F)) 𝒱₀ (c : Thread nD τ) none) Set.univ (k0_part7 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v5 v8 v9 v10 v191 v192)
          (fun _ => PSt m K c ![3, 3, 3, 2, 1, 1, 1, 1] 0) := by
  rw [k0_part7_eq_skeleton]; unfold k0_part7_skel
  simp only [Prog.lift, Prog.bind_op, Prog.bind_ret, Prog.pure_eq_ret]
  rw [PSt_lit m K c 3 3 1 1 1 1 1 1 0 ch8 ch2 (by decide) (by decide)]
  iintro ⟨#HR, #Hlev, HO, ⟨H0, H1, H2, H3, H4, H5, H6, H7⟩, Hxr, Ho⟩
  -- the partner's chunk 2 has landed: stage 1 → 2
  iapply (step_waitAR m K c 2 _ (sem3_eq 2) (dst := aCh 2) rfl ch2) $$ [H2 HO]
  · isplitr; · iexact HR
    isplitr; · iexact Hlev
    isplitl [H2]; · iexact H2
    iexact HO
  iintro ⟨H2, HO⟩
  -- the landed chunk 2 is forwarded to the sibling: stage 2 → 3, its receive credit there no longer owed
  iapply (step_B m K c _ (dev13_eq c) 2 _ _ (sem4_eq 2) (sem5_eq 2) _ _ rfl rfl _ nm2 (oweA c ch8)) $$ [H2 HO]
  · isplitr; · iexact HR
    isplitl [H2]; · iexact H2
    iexact HO
  iintro ⟨H2, HO⟩
  -- the partner's chunk 3 has landed: stage 1 → 2
  iapply (step_waitAR m K c 3 _ (sem3_eq 3) (dst := aCh 3) rfl ch3) $$ [H3 HO]
  · isplitr; · iexact HR
    isplitr; · iexact Hlev
    isplitl [H3]; · iexact H3
    iexact HO
  iintro ⟨H3, HO⟩
  rw [wp_ret]; imodintro
  rw [PSt_lit m K c 3 3 3 2 1 1 1 1 0 ch8 ch3 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 8. Chunk 3 forwarded; chunk 4 landed and forwarded. -/
theorem part8_wp (c : Dev nD) (v2 v5 v8 v9 v10 v223 w : BitVec 32) :
    PSt m K c ![3, 3, 3, 2, 1, 1, 1, 1] 0
      ⊢ wp frame (wpE (defs₀ (F := F)) 𝒱₀ (c : Thread nD τ) none) Set.univ (k0_part8 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v5 v8 v9 v10 v223 w)
          (fun _ => PSt m K c ![3, 3, 3, 3, 3, 1, 1, 1] 0) := by
  rw [k0_part8_eq_skeleton]; unfold k0_part8_skel
  simp only [Prog.lift, Prog.bind_op, Prog.bind_ret, Prog.pure_eq_ret]
  rw [PSt_lit m K c 3 3 3 2 1 1 1 1 0 ch8 ch3 (by decide) (by decide)]
  iintro ⟨#HR, #Hlev, HO, ⟨H0, H1, H2, H3, H4, H5, H6, H7⟩, Hxr, Ho⟩
  -- the landed chunk 3 is forwarded to the sibling: stage 2 → 3, its receive credit there no longer owed
  iapply (step_B m K c _ (dev14_eq c) 3 _ _ (sem4_eq 3) (sem5_eq 3) _ _ rfl rfl _ nm3 (oweA c ch8)) $$ [H3 HO]
  · isplitr; · iexact HR
    isplitl [H3]; · iexact H3
    iexact HO
  iintro ⟨H3, HO⟩
  -- the partner's chunk 4 has landed: stage 1 → 2
  iapply (step_waitAR m K c 4 _ (sem3_eq 4) (dst := aCh 4) rfl ch4) $$ [H4 HO]
  · isplitr; · iexact HR
    isplitr; · iexact Hlev
    isplitl [H4]; · iexact H4
    iexact HO
  iintro ⟨H4, HO⟩
  -- the landed chunk 4 is forwarded to the sibling: stage 2 → 3, its receive credit there no longer owed
  iapply (step_B m K c _ (dev15_eq c) 4 _ _ (sem4_eq 4) (sem5_eq 4) _ _ rfl rfl _ nm4 (oweA c ch8)) $$ [H4 HO]
  · isplitr; · iexact HR
    isplitl [H4]; · iexact H4
    iexact HO
  iintro ⟨H4, HO⟩
  rw [wp_ret]; imodintro
  rw [PSt_lit m K c 3 3 3 3 3 1 1 1 0 ch8 ch5 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 9. Chunk 5 landed and forwarded. -/
theorem part9_wp (c : Dev nD) (v2 v5 v8 v9 v10 : BitVec 32) :
    PSt m K c ![3, 3, 3, 3, 3, 1, 1, 1] 0
      ⊢ wp frame (wpE (defs₀ (F := F)) 𝒱₀ (c : Thread nD τ) none) Set.univ (k0_part9 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v5 v8 v9 v10)
          (fun _ => PSt m K c ![3, 3, 3, 3, 3, 3, 1, 1] 0) := by
  rw [k0_part9_eq_skeleton]; unfold k0_part9_skel
  simp only [Prog.lift, Prog.bind_op, Prog.bind_ret, Prog.pure_eq_ret]
  rw [PSt_lit m K c 3 3 3 3 3 1 1 1 0 ch8 ch5 (by decide) (by decide)]
  iintro ⟨#HR, #Hlev, HO, ⟨H0, H1, H2, H3, H4, H5, H6, H7⟩, Hxr, Ho⟩
  -- the partner's chunk 5 has landed: stage 1 → 2
  iapply (step_waitAR m K c 5 _ (sem3_eq 5) (dst := aCh 5) rfl ch5) $$ [H5 HO]
  · isplitr; · iexact HR
    isplitr; · iexact Hlev
    isplitl [H5]; · iexact H5
    iexact HO
  iintro ⟨H5, HO⟩
  -- the landed chunk 5 is forwarded to the sibling: stage 2 → 3, its receive credit there no longer owed
  iapply (step_B m K c _ (dev16_eq c) 5 _ _ (sem4_eq 5) (sem5_eq 5) _ _ rfl rfl _ nm5 (oweA c ch8)) $$ [H5 HO]
  · isplitr; · iexact HR
    isplitl [H5]; · iexact H5
    iexact HO
  iintro ⟨H5, HO⟩
  rw [wp_ret]; imodintro
  rw [PSt_lit m K c 3 3 3 3 3 3 1 1 0 ch8 ch6 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 10. Chunk 6 landed and forwarded; chunk 7 landed. -/
theorem part10_wp (c : Dev nD) (v2 v5 v8 v9 v10 : BitVec 32) :
    PSt m K c ![3, 3, 3, 3, 3, 3, 1, 1] 0
      ⊢ wp frame (wpE (defs₀ (F := F)) 𝒱₀ (c : Thread nD τ) none) Set.univ (k0_part10 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v2 v5 v8 v9 v10)
          (fun _ => PSt m K c ![3, 3, 3, 3, 3, 3, 3, 2] 0) := by
  rw [k0_part10_eq_skeleton]; unfold k0_part10_skel
  simp only [Prog.lift, Prog.bind_op, Prog.bind_ret, Prog.pure_eq_ret]
  rw [PSt_lit m K c 3 3 3 3 3 3 1 1 0 ch8 ch6 (by decide) (by decide)]
  iintro ⟨#HR, #Hlev, HO, ⟨H0, H1, H2, H3, H4, H5, H6, H7⟩, Hxr, Ho⟩
  -- the partner's chunk 6 has landed: stage 1 → 2
  iapply (step_waitAR m K c 6 _ (sem3_eq 6) (dst := aCh 6) rfl ch6) $$ [H6 HO]
  · isplitr; · iexact HR
    isplitr; · iexact Hlev
    isplitl [H6]; · iexact H6
    iexact HO
  iintro ⟨H6, HO⟩
  -- the landed chunk 6 is forwarded to the sibling: stage 2 → 3, its receive credit there no longer owed
  iapply (step_B m K c _ (dev17_eq c) 6 _ _ (sem4_eq 6) (sem5_eq 6) _ _ rfl rfl _ nm6 (oweA c ch8)) $$ [H6 HO]
  · isplitr; · iexact HR
    isplitl [H6]; · iexact H6
    iexact HO
  iintro ⟨H6, HO⟩
  -- the partner's chunk 7 has landed: stage 1 → 2
  iapply (step_waitAR m K c 7 _ (sem3_eq 7) (dst := aCh 7) rfl ch7) $$ [H7 HO]
  · isplitr; · iexact HR
    isplitr; · iexact Hlev
    isplitl [H7]; · iexact H7
    iexact HO
  iintro ⟨H7, HO⟩
  rw [wp_ret]; imodintro
  rw [PSt_lit m K c 3 3 3 3 3 3 3 2 0 ch8 ch7 (by decide) (by decide)]
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

end Cert.KernelIdeal.RS

end
-- ==== Proof.PartsB.lean ====
/-
The kernel body's statements, part by part as it is printed: the two additions and the last waits.
-/
import proofs.«901027_g7700000000001028_dist_rs_v7x_xyz2x2x2_y_m512_n512_f32_1_alg».proof.Proof.Steps

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-- The eight bundles at a literal vector of stages, written out. -/
private theorem St_lit (c : Dev nD) (a0 a1 a2 a3 a4 a5 a6 a7 : ℕ) :
    St m c ![a0, a1, a2, a3, a4, a5, a6, a7]
      = iprop(chunkSt m c 0 a0 ∗ chunkSt m c 1 a1 ∗ chunkSt m c 2 a2 ∗ chunkSt m c 3 a3
          ∗ chunkSt m c 4 a4 ∗ chunkSt m c 5 a5 ∗ chunkSt m c 6 a6 ∗ chunkSt m c 7 a7) := rfl

/-- The state between statements with the two owed sets named. -/
private theorem PSt_sets (c : Dev nD) (s : Fin 8 → ℕ) (os : ℕ) (SA SB : Finset (Fin 8))
    (hA : (Finset.univ.filter fun i => s i = 0) = SA) (hB : (Finset.univ.filter fun i => s i < 3) = SB) :
    PSt m K c s os
      = iprop(recs m K ∗ levAts L lv ∗ owesE (F := F) c (oweA c SA + oweB c SB) ∗ St m c s ∗ xRest m c ∗ oSt m c os) := by
  unfold PSt; rw [hA, hB]

private theorem oSt_zero (c : Dev nD) : oSt m c 0 = iprop(∃ g, oWhole c g) := rfl
private theorem oSt_one (c : Dev nD) : oSt m c 1 = iprop(∃ g, oWhole c (((oM : Memref sig .tc .vmem S512x512 .f32).access (rO1 c) : View sig .tc _ _ _).write (Elt F) g
            (k0_pay1 (aVal m c) (xHalf1 c (xstg m c))) Finset.univ)) := rfl
private theorem oSt_two (c : Dev nD) : oSt m c 2 = oWhole c (outAt m c) := rfl

/-- A chunk forwarded but whose sibling's rows have not landed still holds the right half of its rows of the first
    landing buffer: they can be taken out and put back. -/
private theorem chunk3_a (c : Dev nD) (k : Fin 8) :
    chunkSt m c k 3 ⊢ iprop(aPt c k fullShare.right (aVal m c) ∗ (aPt c k fullShare.right (aVal m c) -∗ chunkSt m c k 3)) := by
  rw [chunkSt_3]
  iintro ⟨X1, X2, X3, X4, X5, X6, X7, P⟩
  isplitl [P]; · iexact P
  iintro P
  isplitl [X1]; · iexact X1
  isplitl [X2]; · iexact X2
  isplitl [X3]; · iexact X3
  isplitl [X4]; · iexact X4
  isplitl [X5]; · iexact X5
  isplitl [X6]; · iexact X6
  isplitl [X7]; · iexact X7
  iexact P

/-- A chunk whose sibling's rows have landed holds its rows of the second landing buffer whole. -/
private theorem chunk4_b (c : Dev nD) (k : Fin 8) :
    chunkSt m c k 4 ⊢ iprop(bPt c k fullShare (bVal m c) ∗ (bPt c k fullShare (bVal m c) -∗ chunkSt m c k 4)) := by
  rw [chunkSt_4]
  iintro ⟨X1, X2, X3, X4, X5, X6, X7, P⟩
  isplitl [P]; · iexact P
  iintro P
  isplitl [X1]; · iexact X1
  isplitl [X2]; · iexact X2
  isplitl [X3]; · iexact X3
  isplitl [X4]; · iexact X4
  isplitl [X5]; · iexact X5
  isplitl [X6]; · iexact X6
  isplitl [X7]; · iexact X7
  iexact P

/-- With all eight chunks forwarded, the first landing buffer is held whole at the right half share: it can be read,
    and given back. -/
private theorem St3_a (c : Dev nD) :
    iprop(chunkSt m c 0 3 ∗ chunkSt m c 1 3 ∗ chunkSt m c 2 3 ∗ chunkSt m c 3 3 ∗ chunkSt m c 4 3 ∗ chunkSt m c 5 3 ∗ chunkSt m c 6 3 ∗ chunkSt m c 7 3)
      ⊢ iprop((((c : Thread nD τ).loc cc0_scratch0) ↦{fullShare.right} aVal m c)
          ∗ ((((c : Thread nD τ).loc cc0_scratch0) ↦{fullShare.right} aVal m c)
              -∗ (chunkSt m c 0 3 ∗ chunkSt m c 1 3 ∗ chunkSt m c 2 3 ∗ chunkSt m c 3 3 ∗ chunkSt m c 4 3 ∗ chunkSt m c 5 3 ∗ chunkSt m c 6 3 ∗ chunkSt m c 7 3))) := by
  iintro ⟨H0, H1, H2, H3, H4, H5, H6, H7⟩
  ihave H0 := (chunk3_a m c 0) $$ H0; icases H0 with ⟨A0, B0⟩
  ihave H1 := (chunk3_a m c 1) $$ H1; icases H1 with ⟨A1, B1⟩
  ihave H2 := (chunk3_a m c 2) $$ H2; icases H2 with ⟨A2, B2⟩
  ihave H3 := (chunk3_a m c 3) $$ H3; icases H3 with ⟨A3, B3⟩
  ihave H4 := (chunk3_a m c 4) $$ H4; icases H4 with ⟨A4, B4⟩
  ihave H5 := (chunk3_a m c 5) $$ H5; icases H5 with ⟨A5, B5⟩
  ihave H6 := (chunk3_a m c 6) $$ H6; icases H6 with ⟨A6, B6⟩
  ihave H7 := (chunk3_a m c 7) $$ H7; icases H7 with ⟨A7, B7⟩
  isplitl [A0 A1 A2 A3 A4 A5 A6 A7]
  · rw [a_split c fullShare.right (aVal m c), bigSep_fin8]
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iintro Ha
  ihave Ha := (Entails.of_eq ((a_split c fullShare.right (aVal m c)).trans (bigSep_fin8 _))) $$ Ha
  icases Ha with ⟨A0, A1, A2, A3, A4, A5, A6, A7⟩
  isplitl [A0 B0]; · iapply B0 $$ A0
  isplitl [A1 B1]; · iapply B1 $$ A1
  isplitl [A2 B2]; · iapply B2 $$ A2
  isplitl [A3 B3]; · iapply B3 $$ A3
  isplitl [A4 B4]; · iapply B4 $$ A4
  isplitl [A5 B5]; · iapply B5 $$ A5
  isplitl [A6 B6]; · iapply B6 $$ A6
  iapply B7 $$ A7

/-- With all eight of the sibling's chunks landed, the second landing buffer is held whole. -/
private theorem St4_b (c : Dev nD) :
    iprop(chunkSt m c 0 4 ∗ chunkSt m c 1 4 ∗ chunkSt m c 2 4 ∗ chunkSt m c 3 4 ∗ chunkSt m c 4 4 ∗ chunkSt m c 5 4 ∗ chunkSt m c 6 4 ∗ chunkSt m c 7 4)
      ⊢ iprop((((c : Thread nD τ).loc cc0_scratch1) ↦{fullShare} bVal m c)
          ∗ ((((c : Thread nD τ).loc cc0_scratch1) ↦{fullShare} bVal m c)
              -∗ (chunkSt m c 0 4 ∗ chunkSt m c 1 4 ∗ chunkSt m c 2 4 ∗ chunkSt m c 3 4 ∗ chunkSt m c 4 4 ∗ chunkSt m c 5 4 ∗ chunkSt m c 6 4 ∗ chunkSt m c 7 4))) := by
  iintro ⟨H0, H1, H2, H3, H4, H5, H6, H7⟩
  ihave H0 := (chunk4_b m c 0) $$ H0; icases H0 with ⟨A0, B0⟩
  ihave H1 := (chunk4_b m c 1) $$ H1; icases H1 with ⟨A1, B1⟩
  ihave H2 := (chunk4_b m c 2) $$ H2; icases H2 with ⟨A2, B2⟩
  ihave H3 := (chunk4_b m c 3) $$ H3; icases H3 with ⟨A3, B3⟩
  ihave H4 := (chunk4_b m c 4) $$ H4; icases H4 with ⟨A4, B4⟩
  ihave H5 := (chunk4_b m c 5) $$ H5; icases H5 with ⟨A5, B5⟩
  ihave H6 := (chunk4_b m c 6) $$ H6; icases H6 with ⟨A6, B6⟩
  ihave H7 := (chunk4_b m c 7) $$ H7; icases H7 with ⟨A7, B7⟩
  isplitl [A0 A1 A2 A3 A4 A5 A6 A7]
  · rw [b_split c fullShare (bVal m c), bigSep_fin8]
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iintro Ha
  ihave Ha := (Entails.of_eq ((b_split c fullShare (bVal m c)).trans (bigSep_fin8 _))) $$ Ha
  icases Ha with ⟨A0, A1, A2, A3, A4, A5, A6, A7⟩
  isplitl [A0 B0]; · iapply B0 $$ A0
  isplitl [A1 B1]; · iapply B1 $$ A1
  isplitl [A2 B2]; · iapply B2 $$ A2
  isplitl [A3 B3]; · iapply B3 $$ A3
  isplitl [A4 B4]; · iapply B4 $$ A4
  isplitl [A5 B5]; · iapply B5 $$ A5
  isplitl [A6 B6]; · iapply B6 $$ A6
  iapply B7 $$ A7

set_option maxHeartbeats 1600000 in
/-- Statements of part 11. Chunk 7 forwarded; the first addition (the first landing buffer plus the slab's own rows) stored; the sibling's chunk 0 has landed. -/
theorem part11_wp (c : Dev nD) (v5 v8 v10 v24 v27 v317 v318 : BitVec 32) :
    PSt m K c ![3, 3, 3, 3, 3, 3, 3, 2] 0
      ⊢ wp frame (wpE (defs₀ (F := F)) 𝒱₀ (c : Thread nD τ) none) Set.univ (k0_part11 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v5 v8 v10 v24 v27 v317 v318)
          (fun _ => PSt m K c ![4, 3, 3, 3, 3, 3, 3, 3] 1) := by
  rw [k0_part11_eq_skeleton]; unfold k0_part11_skel
  simp only [Prog.lift, Prog.bind_op, Prog.bind_ret, Prog.pure_eq_ret]
  rw [PSt_sets m K c ![3, 3, 3, 3, 3, 3, 3, 2] 0 ∅ (insert 7 ∅) (by decide) (by decide),
    PSt_sets m K c ![4, 3, 3, 3, 3, 3, 3, 3] 1 ∅ ∅ (by decide) (by decide), St_lit, St_lit, oSt_zero, oSt_one]
  unfold xRest oWhole
  iintro ⟨#HR, #Hlev, HO, ⟨H0, H1, H2, H3, H4, H5, H6, H7⟩, Hxr, ⟨%g, Ho⟩⟩
  -- chunk 7 forwarded to the sibling
  iapply (step_B m K c _ (dev18_eq c) 7 _ _ (sem4_eq 7) (sem5_eq 7) _ _ rfl rfl ∅ (by decide) (oweA c ∅)) $$ [H7 HO]
  · isplitr; · iexact HR
    isplitl [H7]; · iexact H7
    iexact HO
  iintro ⟨H7, HO⟩
  -- the first landing buffer, read whole
  ihave HS := (St3_a m c) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  icases HS with ⟨Ha, Hback⟩
  iapply (wp_load 𝒱₀ (c : Thread nD τ) none Set.univ (m := aM) (Finset.subset_univ _)) $$ Ha; iintro Ha
  rw [read_a]
  ihave HS := Hback $$ Ha
  icases HS with ⟨H0, H1, H2, H3, H4, H5, H6, H7⟩
  -- the slab's own rows
  iapply (wp_load 𝒱₀ (c : Thread nD τ) none Set.univ (m := xM) (rX1_sub c)) $$ Hxr; iintro Hxr
  rw [show (xM : Memref sig .tc .vmem S1x512x1024 .f32).view.readAt (Elt F) (rX1 c).toLoadRect (xstg m c) = xHalf1 c (xstg m c) from rfl]
  -- the result's rows, read and overwritten
  iapply (wp_load 𝒱₀ (c : Thread nD τ) none Set.univ (m := oM) (Finset.subset_univ _)) $$ Ho; iintro Ho
  iapply (wp_store 𝒱₀ (c : Thread nD τ) none Set.univ (m := oM) (r := rO1 c) (Mk := Finset.univ) (Finset.subset_univ _)) $$ Ho; iintro Ho
  iapply (step_waitBR m K c 0 _ (sem5_eq 0) (src := aCh 0) (dst := bCh 0) rfl) $$ [H0 HO]
  · isplitr; · iexact HR
    isplitl [H0]; · iexact H0
    iexact HO
  iintro ⟨H0, HO⟩
  rw [wp_ret]; imodintro
  isplitr; · iexact HR
  isplitr; · iexact Hlev
  isplitl [HO]; · iexact HO
  isplitr [Hxr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexists g; iexact Ho

set_option maxHeartbeats 1600000 in
/-- Statements of part 12. The sibling's chunks 1, 2 and 3 have landed. -/
theorem part12_wp (c : Dev nD) (v5 v8 v10 : BitVec 32) :
    PSt m K c ![4, 3, 3, 3, 3, 3, 3, 3] 1
      ⊢ wp frame (wpE (defs₀ (F := F)) 𝒱₀ (c : Thread nD τ) none) Set.univ (k0_part12 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 v5 v8 v10)
          (fun _ => PSt m K c ![4, 4, 4, 4, 3, 3, 3, 3] 1) := by
  rw [k0_part12_eq_skeleton]; unfold k0_part12_skel
  simp only [Prog.lift, Prog.bind_op, Prog.bind_ret, Prog.pure_eq_ret]
  rw [PSt_sets m K c _ _ ∅ ∅ (by decide) (by decide), PSt_sets m K c _ _ ∅ ∅ (by decide) (by decide), St_lit, St_lit]
  iintro ⟨#HR, #Hlev, HO, ⟨H0, H1, H2, H3, H4, H5, H6, H7⟩, Hxr, Ho⟩
  iapply (step_waitBR m K c 1 _ (sem5_eq 1) (src := aCh 1) (dst := bCh 1) rfl) $$ [H1 HO]
  · isplitr; · iexact HR
    isplitl [H1]; · iexact H1
    iexact HO
  iintro ⟨H1, HO⟩
  iapply (step_waitBR m K c 2 _ (sem5_eq 2) (src := aCh 2) (dst := bCh 2) rfl) $$ [H2 HO]
  · isplitr; · iexact HR
    isplitl [H2]; · iexact H2
    iexact HO
  iintro ⟨H2, HO⟩
  iapply (step_waitBR m K c 3 _ (sem5_eq 3) (src := aCh 3) (dst := bCh 3) rfl) $$ [H3 HO]
  · isplitr; · iexact HR
    isplitl [H3]; · iexact H3
    iexact HO
  iintro ⟨H3, HO⟩
  rw [wp_ret]; imodintro
  isplitr; · iexact HR
  isplitr; · iexact Hlev
  isplitl [HO]; · iexact HO
  isplitr [Hxr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 13. The sibling's chunks 4, 5 and 6 have landed. -/
theorem part13_wp (c : Dev nD) (v5 v8 v10 v377 v378 : BitVec 32) :
    PSt m K c ![4, 4, 4, 4, 3, 3, 3, 3] 1
      ⊢ wp frame (wpE (defs₀ (F := F)) 𝒱₀ (c : Thread nD τ) none) Set.univ (k0_part13 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 v5 v8 v10 v377 v378)
          (fun _ => PSt m K c ![4, 4, 4, 4, 4, 4, 4, 3] 1) := by
  rw [k0_part13_eq_skeleton]; unfold k0_part13_skel
  simp only [Prog.lift, Prog.bind_op, Prog.bind_ret, Prog.pure_eq_ret]
  rw [PSt_sets m K c _ _ ∅ ∅ (by decide) (by decide), PSt_sets m K c _ _ ∅ ∅ (by decide) (by decide), St_lit, St_lit]
  iintro ⟨#HR, #Hlev, HO, ⟨H0, H1, H2, H3, H4, H5, H6, H7⟩, Hxr, Ho⟩
  iapply (step_waitBR m K c 4 _ (sem5_eq 4) (src := aCh 4) (dst := bCh 4) rfl) $$ [H4 HO]
  · isplitr; · iexact HR
    isplitl [H4]; · iexact H4
    iexact HO
  iintro ⟨H4, HO⟩
  iapply (step_waitBR m K c 5 _ (sem5_eq 5) (src := aCh 5) (dst := bCh 5) rfl) $$ [H5 HO]
  · isplitr; · iexact HR
    isplitl [H5]; · iexact H5
    iexact HO
  iintro ⟨H5, HO⟩
  iapply (step_waitBR m K c 6 _ (sem5_eq 6) (src := aCh 6) (dst := bCh 6) rfl) $$ [H6 HO]
  · isplitr; · iexact HR
    isplitl [H6]; · iexact H6
    iexact HO
  iintro ⟨H6, HO⟩
  rw [wp_ret]; imodintro
  isplitr; · iexact HR
  isplitr; · iexact Hlev
  isplitl [HO]; · iexact HO
  isplitr [Hxr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 14. The sibling's chunk 7 has landed; the second addition stored; chunk 0's two send sides waited for. -/
theorem part14_wp (c : Dev nD) (v8 v26 v27 v405 v406 : BitVec 32) :
    PSt m K c ![4, 4, 4, 4, 4, 4, 4, 3] 1
      ⊢ wp frame (wpE (defs₀ (F := F)) 𝒱₀ (c : Thread nD τ) none) Set.univ (k0_part14 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c v8 v26 v27 v405 v406)
          (fun _ => PSt m K c ![6, 4, 4, 4, 4, 4, 4, 4] 2) := by
  rw [k0_part14_eq_skeleton]; unfold k0_part14_skel
  simp only [Prog.lift, Prog.bind_op, Prog.bind_ret, Prog.pure_eq_ret]
  rw [PSt_sets m K c ![4, 4, 4, 4, 4, 4, 4, 3] 1 ∅ ∅ (by decide) (by decide),
    PSt_sets m K c ![6, 4, 4, 4, 4, 4, 4, 4] 2 ∅ ∅ (by decide) (by decide), St_lit, St_lit, oSt_one, oSt_two]
  unfold xRest oWhole
  iintro ⟨#HR, #Hlev, HO, ⟨H0, H1, H2, H3, H4, H5, H6, H7⟩, Hxr, ⟨%g, Ho⟩⟩
  iapply (step_waitBR m K c 7 _ (sem5_eq 7) (src := aCh 7) (dst := bCh 7) rfl) $$ [H7 HO]
  · isplitr; · iexact HR
    isplitl [H7]; · iexact H7
    iexact HO
  iintro ⟨H7, HO⟩
  -- the second landing buffer, read whole
  ihave HS := (St4_b m c) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  icases HS with ⟨Hb, Hback⟩
  iapply (wp_load 𝒱₀ (c : Thread nD τ) none Set.univ (m := bM) (Finset.subset_univ _)) $$ Hb; iintro Hb
  rw [read_b]
  ihave HS := Hback $$ Hb
  icases HS with ⟨H0, H1, H2, H3, H4, H5, H6, H7⟩
  -- the slab's other rows
  iapply (wp_load 𝒱₀ (c : Thread nD τ) none Set.univ (m := xM) (rX2_sub c)) $$ Hxr; iintro Hxr
  rw [show (xM : Memref sig .tc .vmem S1x512x1024 .f32).view.readAt (Elt F) (rX2 c).toLoadRect (xstg m c) = xHalf2 c (xstg m c) from rfl]
  -- the result's other rows, read and overwritten: both halves written, the result is the sum
  iapply (wp_load 𝒱₀ (c : Thread nD τ) none Set.univ (m := oM) (Finset.subset_univ _)) $$ Ho; iintro Ho
  iapply (wp_store 𝒱₀ (c : Thread nD τ) none Set.univ (m := oM) (r := rO2 c) (Mk := Finset.univ) (Finset.subset_univ _)) $$ Ho; iintro Ho
  rw [out_cover m c g]
  iapply (step_waitAS m K c 0 _ (sem2_eq 0) (src := aCh 0) (dst := xSl c 0) rfl) $$ [H0 HO]
  · isplitr; · iexact HR
    isplitl [H0]; · iexact H0
    iexact HO
  iintro ⟨H0, HO⟩
  iapply (step_waitBS m K c 0 _ (sem4_eq 0) (src := bCh 0) (dst := aCh 0) rfl) $$ [H0 HO]
  · isplitr; · iexact HR
    isplitl [H0]; · iexact H0
    iexact HO
  iintro ⟨H0, HO⟩
  rw [wp_ret]; imodintro
  isplitr; · iexact HR
  isplitr; · iexact Hlev
  isplitl [HO]; · iexact HO
  isplitr [Hxr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 15. Send sides: chunks 1 and 2 both, chunk 3 the first wave's. -/
theorem part15_wp (c : Dev nD) :
    PSt m K c ![6, 4, 4, 4, 4, 4, 4, 4] 2
      ⊢ wp frame (wpE (defs₀ (F := F)) 𝒱₀ (c : Thread nD τ) none) Set.univ (k0_part15 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c)
          (fun _ => PSt m K c ![6, 6, 6, 5, 4, 4, 4, 4] 2) := by
  rw [k0_part15_eq_skeleton]; unfold k0_part15_skel
  simp only [Prog.lift, Prog.bind_op, Prog.bind_ret, Prog.pure_eq_ret]
  rw [PSt_sets m K c _ _ ∅ ∅ (by decide) (by decide), PSt_sets m K c _ _ ∅ ∅ (by decide) (by decide), St_lit, St_lit]
  iintro ⟨#HR, #Hlev, HO, ⟨H0, H1, H2, H3, H4, H5, H6, H7⟩, Hxr, Ho⟩
  iapply (step_waitAS m K c 1 _ (sem2_eq 1) (src := aCh 1) (dst := xSl c 1) rfl) $$ [H1 HO]
  · isplitr; · iexact HR
    isplitl [H1]; · iexact H1
    iexact HO
  iintro ⟨H1, HO⟩
  iapply (step_waitBS m K c 1 _ (sem4_eq 1) (src := bCh 1) (dst := aCh 1) rfl) $$ [H1 HO]
  · isplitr; · iexact HR
    isplitl [H1]; · iexact H1
    iexact HO
  iintro ⟨H1, HO⟩
  iapply (step_waitAS m K c 2 _ (sem2_eq 2) (src := aCh 2) (dst := xSl c 2) rfl) $$ [H2 HO]
  · isplitr; · iexact HR
    isplitl [H2]; · iexact H2
    iexact HO
  iintro ⟨H2, HO⟩
  iapply (step_waitBS m K c 2 _ (sem4_eq 2) (src := bCh 2) (dst := aCh 2) rfl) $$ [H2 HO]
  · isplitr; · iexact HR
    isplitl [H2]; · iexact H2
    iexact HO
  iintro ⟨H2, HO⟩
  iapply (step_waitAS m K c 3 _ (sem2_eq 3) (src := aCh 3) (dst := xSl c 3) rfl) $$ [H3 HO]
  · isplitr; · iexact HR
    isplitl [H3]; · iexact H3
    iexact HO
  iintro ⟨H3, HO⟩
  rw [wp_ret]; imodintro
  isplitr; · iexact HR
  isplitr; · iexact Hlev
  isplitl [HO]; · iexact HO
  isplitr [Hxr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

set_option maxHeartbeats 1600000 in
/-- Statements of part 16. Send sides: chunk 3 the second wave's, chunks 4 and 5 both. -/
theorem part16_wp (c : Dev nD) :
    PSt m K c ![6, 6, 6, 5, 4, 4, 4, 4] 2
      ⊢ wp frame (wpE (defs₀ (F := F)) 𝒱₀ (c : Thread nD τ) none) Set.univ (k0_part16 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5 c)
          (fun _ => PSt m K c ![6, 6, 6, 6, 6, 6, 4, 4] 2) := by
  rw [k0_part16_eq_skeleton]; unfold k0_part16_skel
  simp only [Prog.lift, Prog.bind_op, Prog.bind_ret, Prog.pure_eq_ret]
  rw [PSt_sets m K c _ _ ∅ ∅ (by decide) (by decide), PSt_sets m K c _ _ ∅ ∅ (by decide) (by decide), St_lit, St_lit]
  iintro ⟨#HR, #Hlev, HO, ⟨H0, H1, H2, H3, H4, H5, H6, H7⟩, Hxr, Ho⟩
  iapply (step_waitBS m K c 3 _ (sem4_eq 3) (src := bCh 3) (dst := aCh 3) rfl) $$ [H3 HO]
  · isplitr; · iexact HR
    isplitl [H3]; · iexact H3
    iexact HO
  iintro ⟨H3, HO⟩
  iapply (step_waitAS m K c 4 _ (sem2_eq 4) (src := aCh 4) (dst := xSl c 4) rfl) $$ [H4 HO]
  · isplitr; · iexact HR
    isplitl [H4]; · iexact H4
    iexact HO
  iintro ⟨H4, HO⟩
  iapply (step_waitBS m K c 4 _ (sem4_eq 4) (src := bCh 4) (dst := aCh 4) rfl) $$ [H4 HO]
  · isplitr; · iexact HR
    isplitl [H4]; · iexact H4
    iexact HO
  iintro ⟨H4, HO⟩
  iapply (step_waitAS m K c 5 _ (sem2_eq 5) (src := aCh 5) (dst := xSl c 5) rfl) $$ [H5 HO]
  · isplitr; · iexact HR
    isplitl [H5]; · iexact H5
    iexact HO
  iintro ⟨H5, HO⟩
  iapply (step_waitBS m K c 5 _ (sem4_eq 5) (src := bCh 5) (dst := aCh 5) rfl) $$ [H5 HO]
  · isplitr; · iexact HR
    isplitl [H5]; · iexact H5
    iexact HO
  iintro ⟨H5, HO⟩
  rw [wp_ret]; imodintro
  isplitr; · iexact HR
  isplitr; · iexact Hlev
  isplitl [HO]; · iexact HO
  isplitr [Hxr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

end Cert.KernelIdeal.RS

end
-- ==== Proof.Finish.lean ====
/-
Every chunk through: the landing buffers and the slab's staging buffer whole again, the 32 transfer cells closed at zero.
-/
import proofs.«901027_g7700000000001028_dist_rs_v7x_xyz2x2x2_y_m512_n512_f32_1_alg».proof.Proof.Steps
import proofs.«901027_g7700000000001028_dist_rs_v7x_xyz2x2x2_y_m512_n512_f32_1_alg».proof.Proof.Levels

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- A four-fold conjunction over the semaphore families, written out. -/
private theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- The 32 closed transfer cells, family by family. -/
private theorem zq_all (c : Dev nD) :
    (bigSep Finset.univ fun x : Fin 4 × Fin 8 => zQ (F := F) c x.1 x.2)
      = iprop((bigSep Finset.univ fun k : Fin 8 => zQ (F := F) c 0 k) ∗ (bigSep Finset.univ fun k : Fin 8 => zQ (F := F) c 1 k)
          ∗ (bigSep Finset.univ fun k : Fin 8 => zQ (F := F) c 2 k) ∗ (bigSep Finset.univ fun k : Fin 8 => zQ (F := F) c 3 k)) :=
  (bigSep_univ_prod (fun x : Fin 4 × Fin 8 => zQ (F := F) c x.1 x.2)).trans
    (bigSep_fin4 (fun j : Fin 4 => bigSep Finset.univ fun k : Fin 8 => zQ (F := F) c j k))

/-- The eight finished bundles together: the four families of closed cells, the two landing buffers whole with their
    values, and the eight pieces of the slab that were sent. -/
private theorem chunk6_all (c : Dev nD) :
    (bigSep Finset.univ fun k : Fin 8 => chunkSt m c k 6)
      = iprop((bigSep Finset.univ fun k : Fin 8 => zQ (F := F) c 0 k) ∗ (bigSep Finset.univ fun k : Fin 8 => zQ (F := F) c 1 k)
          ∗ (bigSep Finset.univ fun k : Fin 8 => zQ (F := F) c 2 k) ∗ (bigSep Finset.univ fun k : Fin 8 => zQ (F := F) c 3 k)
          ∗ aWhole c (aVal m c) ∗ bWhole c (bVal m c) ∗ (bigSep Finset.univ fun k : Fin 8 => xPt c k (xstg m c))) := by
  show (bigSep Finset.univ fun k : Fin 8 => iprop(zQ (F := F) c 0 k ∗ zQ (F := F) c 1 k ∗ zQ (F := F) c 2 k ∗ zQ (F := F) c 3 k
      ∗ aPt c k fullShare (aVal m c) ∗ bPt c k fullShare (bVal m c) ∗ xPt c k (xstg m c))) = _
  rw [bigSep_sep', bigSep_sep', bigSep_sep', bigSep_sep', bigSep_sep', bigSep_sep']
  unfold aWhole bWhole
  rw [a_split c fullShare (aVal m c), b_split c fullShare (bVal m c)]

/-- Every chunk at stage 6 and the result stored: the buffers whole again, the 32 transfer cells closed at zero. -/
theorem finish (K : GSem nD τ sig → ℕ) (c : Dev nD) :
    PSt m K c ![6, 6, 6, 6, 6, 6, 6, 6] 2
      ⊢ iprop(Φ₁ (F := F) c ∗ owesE (F := F) c 0 ∗ xWhole c (xstg m c) ∗ oWhole c (outAt m c)) := by
  -- no chunk is before its first transfer, none before its second: nothing is owed
  have hA : (Finset.univ.filter fun i : Fin 8 => (![6, 6, 6, 6, 6, 6, 6, 6] : Fin 8 → ℕ) i = 0) = ∅ := by decide
  have hB : (Finset.univ.filter fun i : Fin 8 => (![6, 6, 6, 6, 6, 6, 6, 6] : Fin 8 → ℕ) i < 3) = ∅ := by decide
  have hSt : St m c ![6, 6, 6, 6, 6, 6, 6, 6] = bigSep Finset.univ fun k : Fin 8 => chunkSt m c k 6 :=
    (bigSep_fin8 fun k : Fin 8 => chunkSt m c k 6).symm
  -- the result's buffer after both stores
  have hOut : oSt m c 2 = oWhole c (outAt m c) := rfl
  unfold PSt Φ₁ xRest
  rw [hA, hB, owe_empty, hSt, chunk6_all, zq_all, x_split c (xstg m c), hOut]
  iintro ⟨-, -, HO, ⟨Z0, Z1, Z2, Z3, HA, HB, HX⟩, HXr, HOut⟩
  isplitl [Z0 Z1 Z2 Z3 HA HB]
  · isplitl [HA]
    · iexists _; iexact HA
    · isplitl [HB]
      · iexists _; iexact HB
      · isplitl [Z0]
        · iexact Z0
        · isplitl [Z1]
          · iexact Z1
          · isplitl [Z2]
            · iexact Z2
            · iexact Z3
  · isplitl [HO]
    · iexact HO
    · isplitl [HX HXr]
      · isplitl [HX]
        · iexact HX
        · iexact HXr
      · iexact HOut

end Cert.KernelIdeal.RS

end
-- ==== Proof.Body.lean ====
/-
The whole kernel body on one device: the entry handshake and the cutting of the buffers into chunks (part 1), the parts
in order, the last four waits, and the buffers put together again.
-/
import proofs.«901027_g7700000000001028_dist_rs_v7x_xyz2x2x2_y_m512_n512_f32_1_alg».proof.Proof.PartsA
import proofs.«901027_g7700000000001028_dist_rs_v7x_xyz2x2x2_y_m512_n512_f32_1_alg».proof.Proof.PartsB
import proofs.«901027_g7700000000001028_dist_rs_v7x_xyz2x2x2_y_m512_n512_f32_1_alg».proof.Proof.Levels
import proofs.«901027_g7700000000001028_dist_rs_v7x_xyz2x2x2_y_m512_n512_f32_1_alg».proof.Proof.Finish

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the pipeline hands the body at its one grid point, and what the body must hand back. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outAt m c))

/-- What part 1 starts from, the records' names `K` fixed. -/
def pre1 (K : GSem nD τ sig → ℕ) (c : Dev nD) : sProp 𝕄 :=
  iprop(recs m K ∗ linear (F := F) c ∗ cred (tallyAt (barCell c) () 2)
    ∗ (bigSep Finset.univ fun k : Fin 8 => iprop(credQ (F := F) c 1 k ∗ credQ (F := F) c 3 k)) ∗ levAts L lv
    ∗ (∃ f, aWhole c f) ∗ (∃ f, bWhole c f)
    ∗ owesE (F := F) c (O₀ c) ∗ xWhole c (xstg m c) ∗ (∃ g, oWhole c g))

/-! ## Sequencing -/

/-- Running `p` and then `k` on its result: a triple for `p` and one for every `k a` compose. -/
private theorem wp_seq {α β : Type} (c : Dev nD) {p : Prog (TpuEff nD τ sig (Elt F) Λ₀ .tc) α} {k : α → Prog (TpuEff nD τ sig (Elt F) Λ₀ .tc) β}
    {P : sProp 𝕄} {P' : α → sProp 𝕄} {Q : β → sProp 𝕄}
    (h1 : P ⊢ wp frame (wpE (defs₀ (F := F)) 𝒱₀ (c : Thread nD τ) none) Set.univ p P')
    (h2 : ∀ a, P' a ⊢ wp frame (wpE (defs₀ (F := F)) 𝒱₀ (c : Thread nD τ) none) Set.univ (k a) Q) :
    P ⊢ wp frame (wpE (defs₀ (F := F)) 𝒱₀ (c : Thread nD τ) none) Set.univ (p >>= k) Q := by
  rw [wp_bind]; exact h1.trans (wp_mono _ _ _ h2)

/-! ## The bundles before anything is sent -/

/-- A chunk's bundle before anything is sent is: its eight ghost pieces, its two receive credits, the slab piece it
    sends, and the partner's and the sibling's landing rows. -/
private theorem part1_chunk0 (c : Dev nD) (k : Fin 8) (fa : Buf (Elt F) ((par c : Thread nD τ).loc cc0_scratch0))
    (fb : Buf (Elt F) ((sib c : Thread nD τ).loc cc0_scratch1)) :
    iprop(chunkG (F := F) c k ∗ (credQ (F := F) c 1 k ∗ credQ (F := F) c 3 k) ∗ xPt c k (xstg m c) ∗ aPt (par c) k fullShare fa ∗ bPt (sib c) k fullShare fb)
      ⊢ chunkSt m c k 0 := by
  show _ ⊢ iprop(atQ c 0 k ∗ atQ c 1 k ∗ atQ c 2 k ∗ atQ c 3 k ∗ tokQ c 0 k ∗ tokQ (par c) 1 k ∗ tokQ c 2 k ∗ tokQ (sib c) 3 k
        ∗ credQ c 1 k ∗ credQ c 3 k ∗ xPt c k (xstg m c) ∗ (∃ f, aPt (par c) k fullShare f) ∗ (∃ f, bPt (sib c) k fullShare f))
  unfold chunkG
  iintro ⟨⟨H1, H2, H3, H4, H5, H6, H7, H8⟩, ⟨C1, C3⟩, Hx, Ha, Hb⟩
  iframe
  isplitl [Ha]
  · iexists fa; iexact Ha
  · iexists fb; iexact Hb

/-- The eight bundles before anything is sent, from the same five things for every chunk. -/
private theorem part1_St0 (c : Dev nD) (fa : Buf (Elt F) ((par c : Thread nD τ).loc cc0_scratch0))
    (fb : Buf (Elt F) ((sib c : Thread nD τ).loc cc0_scratch1)) :
    iprop(bigSep Finset.univ (chunkG (F := F) c)
        ∗ (bigSep Finset.univ fun k : Fin 8 => iprop(credQ (F := F) c 1 k ∗ credQ (F := F) c 3 k))
        ∗ (bigSep Finset.univ fun k : Fin 8 => xPt c k (xstg m c))
        ∗ (bigSep Finset.univ fun k : Fin 8 => aPt (par c) k fullShare fa)
        ∗ (bigSep Finset.univ fun k : Fin 8 => bPt (sib c) k fullShare fb))
      ⊢ St m c ![0, 0, 0, 0, 0, 0, 0, 0] := by
  rw [← bigSep_sep', ← bigSep_sep', ← bigSep_sep', ← bigSep_sep']
  refine (bigSep_mono fun k _ => part1_chunk0 m c k fa fb).trans ?_
  rw [bigSep_fin8]
  exact .refl _

/-- Part 1: the device reads its id, signals its partner's and its sibling's barrier cell — handing each its own landing
    buffer to fill — and waits for their two signals, which hand it theirs; the buffers are then cut into chunks. -/
theorem part1_wp (K : GSem nD τ sig → ℕ) (c : Dev nD) :
    pre1 m K c
      ⊢ wp frame (wpE (defs₀ (F := F)) 𝒱₀ (c : Thread nD τ) none) Set.univ (k0_part1 (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5)
          (fun r => iprop(⌜r.1 = c⌝ ∗ PSt m K c ![0, 0, 0, 0, 0, 0, 0, 0] 0)) := by
  rw [k0_part1_eq_skeleton]; unfold k0_part1_skel
  simp only [semSignalWord, semWaitWord, Prog.lift, Prog.bind_op, Prog.bind_ret, Prog.pure_eq_ret, wp_deviceId]
  simp only [dev1_eq c, dev2_eq c]
  unfold pre1 linear
  iintro ⟨#HR, ⟨HatB, HtP, HtS, HG⟩, HcB, Hcs, #Hlev, ⟨%fa0, Ha0⟩, ⟨%fb0, Hb0⟩, ⟨%W, HO⟩, Hx, Ho⟩
  have hA : (Finset.univ.filter fun i : Fin 8 => (![0, 0, 0, 0, 0, 0, 0, 0] : Fin 8 → ℕ) i = 0) = Finset.univ := by decide
  have hB : (Finset.univ.filter fun i : Fin 8 => (![0, 0, 0, 0, 0, 0, 0, 0] : Fin 8 → ℕ) i < 3) = Finset.univ := by decide
  -- the records of the three barrier cells
  ihave HbP := (recs_bar m K (par c)) $$ HR
  icases HbP with ⟨#HIP, #HrP⟩
  ihave HbS := (recs_bar m K (sib c)) $$ HR
  icases HbS with ⟨#HIS, #HrS⟩
  ihave HbC := (recs_bar m K c) $$ HR
  icases HbC with ⟨#HIC, -⟩
  -- the signal to the partner: duty `false` of its barrier cell, paid with the device's own first landing buffer
  iapply (Rounds.wp_signal 𝒱₀ ER (rd m) (c : Thread nD τ) none (dst := (par c : Thread nD τ)) (κ := K (barCell (par c)))
      (d := false) (by rw [duties_bar]; exact Finset.mem_univ _) ((amount_bar m (par c) false).trans (by decide)) ()
      (O₁ c + tallyAt (barCell (sib c)) () 1) rfl)
    $$ [HO HtP Ha0]
  · isplitr; · iexact HIP
    isplitl [HO]; · iexact HO
    isplitl [HtP]; · iexact HtP
    isplitl [Ha0]
    · rw [payload_bar_false]; unfold payBarP; rw [par_par]; iexists fa0; iexact Ha0
    · iexact HrP
  iintro HO
  -- the signal to the sibling: duty `true` of its barrier cell, paid with the device's own second landing buffer
  iapply (Rounds.wp_signal 𝒱₀ ER (rd m) (c : Thread nD τ) none (dst := (sib c : Thread nD τ)) (κ := K (barCell (sib c)))
      (d := true) (by rw [duties_bar]; exact Finset.mem_univ _) ((amount_bar m (sib c) true).trans (by decide)) ()
      (O₁ c) rfl)
    $$ [HO HtS Hb0]
  · isplitr; · iexact HIS
    isplitl [HO]; · iexact HO
    isplitl [HtS]; · iexact HtS
    isplitl [Hb0]
    · rw [payload_bar_true]; unfold payBarS; rw [sib_sib]; iexists fb0; iexact Hb0
    · iexact HrS
  iintro HO
  -- the wait for both neighbours' signals, owing only receive credit: their landing buffers come with it
  iapply (Rounds.wp_wait_rest_token 𝒱₀ ER (rd m) (c : Thread nD τ) none (κ := K (barCell c))
      (wpE_semWait_eq 𝒱₀ (c : Thread nD τ) none Set.univ) (Set.mem_univ _) () (O := O₁ c) (W := W) (R := 0) (m := 0) (T := ∅)
      (by rw [expect_bar]; decide)) $$ [HcB HO HatB]
  · isplitr; · iexact HIC
    isplitl [HcB]; · iexact HcB
    isplitl [HO]; · iexact HO
    isplitr; · iapply (mayWait_bar c); iexact Hlev
    iexact HatB
  iintro ⟨HO, -, -, Hpay⟩
  ihave Hp := (Entails.of_eq (rest_bar m c)) $$ Hpay
  unfold payBarP payBarS
  icases Hp with ⟨⟨%fa, Ha⟩, ⟨%fb, Hb⟩⟩
  rw [wp_ret]; imodintro
  isplitr; · ipureintro; rfl
  -- the state after the handshake: everything owed is receive credit; the buffers cut into chunks
  unfold PSt
  rw [hA, hB]
  isplitr; · iexact HR
  isplitr; · iexact Hlev
  isplitl [HO]; · iexists _; iexact HO
  ihave Hx := (Entails.of_eq (x_split c (xstg m c))) $$ Hx
  icases Hx with ⟨Hxs, Hxr⟩
  unfold aWhole bWhole
  ihave Ha := (Entails.of_eq (a_split (par c) fullShare fa)) $$ Ha
  ihave Hb := (Entails.of_eq (b_split (sib c) fullShare fb)) $$ Hb
  isplitl [HG Hcs Hxs Ha Hb]
  · iapply (part1_St0 m c fa fb)
    isplitl [HG]; · iexact HG
    isplitl [Hcs]; · iexact Hcs
    isplitl [Hxs]; · iexact Hxs
    isplitl [Ha]; · iexact Ha
    iexact Hb
  isplitl [Hxr]; · unfold xRest; iexact Hxr
  rw [show oSt m c 0 = iprop(∃ g, oWhole c g) from rfl]
  iexact Ho

/-! ## The composition -/

/-- A pure fact beside a resource may be assumed when proving from the two. -/
private theorem pure_sep_elim {φ : Prop} {P Q : sProp 𝕄} (h : φ → P ⊢ Q) : iprop(⌜φ⌝ ∗ P) ⊢ Q := by
  iintro ⟨%hφ, H⟩
  iapply (h hφ) $$ H

/-- The whole body from what part 1 starts from: the parts in order and the last four waits leave every chunk at the
    last stage and the result stored. -/
private theorem body_chain (K : GSem nD τ sig → ℕ) (c : Dev nD) :
    pre1 m K c
      ⊢ wp frame (wpE (defs₀ (F := F)) 𝒱₀ (c : Thread nD τ) none) Set.univ (cc0_body (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5)
          (fun _ => PSt m K c ![6, 6, 6, 6, 6, 6, 6, 6] 2) := by
  rw [cc0_body_eq_skeleton]; unfold cc0_body_skel
  refine wp_seq c (part1_wp m K c) (fun r => ?_)
  obtain ⟨d0, v2, v5, v8, v9, v10, v24, v26, v27⟩ := r
  refine pure_sep_elim (fun hd => ?_)
  have hd' : c = d0 := hd.symm
  subst hd'
  dsimp only
  refine wp_seq c (part2_wp m K c v2 v8 v9 v24) (fun r => ?_)
  obtain ⟨v60, w43⟩ := r
  dsimp only
  refine wp_seq c (part3_wp m K c v2 v8 v9 v24 v60 w43) (fun _ => ?_)
  refine wp_seq c (part4_wp m K c v2 v8 v9 v24) (fun _ => ?_)
  refine wp_seq c (part5_wp m K c v2 v5 v8 v9 v10) (fun _ => ?_)
  refine wp_seq c (part6_wp m K c v2 v5 v8 v9 v10) (fun r => ?_)
  obtain ⟨v191, v192⟩ := r
  dsimp only
  refine wp_seq c (part7_wp m K c v2 v5 v8 v9 v10 v191 v192) (fun r => ?_)
  obtain ⟨v223, w158⟩ := r
  dsimp only
  refine wp_seq c (part8_wp m K c v2 v5 v8 v9 v10 v223 w158) (fun _ => ?_)
  refine wp_seq c (part9_wp m K c v2 v5 v8 v9 v10) (fun _ => ?_)
  refine wp_seq c (part10_wp m K c v2 v5 v8 v9 v10) (fun r => ?_)
  obtain ⟨v317, v318⟩ := r
  dsimp only
  refine wp_seq c (part11_wp m K c v5 v8 v10 v24 v27 v317 v318) (fun _ => ?_)
  refine wp_seq c (part12_wp m K c v5 v8 v10) (fun r => ?_)
  obtain ⟨v377, v378⟩ := r
  dsimp only
  refine wp_seq c (part13_wp m K c v5 v8 v10 v377 v378) (fun r => ?_)
  obtain ⟨v405, v406⟩ := r
  dsimp only
  refine wp_seq c (part14_wp m K c v8 v26 v27 v405 v406) (fun _ => ?_)
  refine wp_seq c (part15_wp m K c) (fun _ => ?_)
  refine wp_seq c (part16_wp m K c) (fun _ => ?_)
  -- the send sides of the last two chunks
  simp only [Prog.lift, Prog.bind_op, Prog.bind_ret, Prog.pure_eq_ret]
  have hA : (Finset.univ.filter fun i : Fin 8 => (![6, 6, 6, 6, 6, 6, 4, 4] : Fin 8 → ℕ) i = 0) = ∅ := by decide
  have hB : (Finset.univ.filter fun i : Fin 8 => (![6, 6, 6, 6, 6, 6, 4, 4] : Fin 8 → ℕ) i < 3) = ∅ := by decide
  have hA' : (Finset.univ.filter fun i : Fin 8 => (![6, 6, 6, 6, 6, 6, 6, 6] : Fin 8 → ℕ) i = 0) = ∅ := by decide
  have hB' : (Finset.univ.filter fun i : Fin 8 => (![6, 6, 6, 6, 6, 6, 6, 6] : Fin 8 → ℕ) i < 3) = ∅ := by decide
  have hS : St m c ![6, 6, 6, 6, 6, 6, 4, 4] = iprop(chunkSt m c 0 6 ∗ chunkSt m c 1 6 ∗ chunkSt m c 2 6 ∗ chunkSt m c 3 6
      ∗ chunkSt m c 4 6 ∗ chunkSt m c 5 6 ∗ chunkSt m c 6 4 ∗ chunkSt m c 7 4) := rfl
  have hS' : St m c ![6, 6, 6, 6, 6, 6, 6, 6] = iprop(chunkSt m c 0 6 ∗ chunkSt m c 1 6 ∗ chunkSt m c 2 6 ∗ chunkSt m c 3 6
      ∗ chunkSt m c 4 6 ∗ chunkSt m c 5 6 ∗ chunkSt m c 6 6 ∗ chunkSt m c 7 6) := rfl
  unfold PSt
  rw [hA, hB, hA', hB', hS, hS']
  iintro ⟨#HR, #Hlev, HO, ⟨H0, H1, H2, H3, H4, H5, H6, H7⟩, Hxr, Ho⟩
  iapply (step_waitAS m K c 6 _ (sem2_eq 6) (by rfl)) $$ [H6 HO]
  · isplitr; · iexact HR
    isplitl [H6]; · iexact H6
    iexact HO
  iintro ⟨H6, HO⟩
  iapply (step_waitBS m K c 6 _ (sem4_eq 6) (by rfl)) $$ [H6 HO]
  · isplitr; · iexact HR
    isplitl [H6]; · iexact H6
    iexact HO
  iintro ⟨H6, HO⟩
  iapply (step_waitAS m K c 7 _ (sem2_eq 7) (by rfl)) $$ [H7 HO]
  · isplitr; · iexact HR
    isplitl [H7]; · iexact H7
    iexact HO
  iintro ⟨H7, HO⟩
  iapply (step_waitBS m K c 7 _ (sem4_eq 7) (by rfl)) $$ [H7 HO]
  · isplitr; · iexact HR
    isplitl [H7]; · iexact H7
    iexact HO
  iintro ⟨H7, HO⟩
  rw [wp_ret]; imodintro
  isplitr; · iexact HR
  isplitr; · iexact Hlev
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hxr]; · iexact Hxr
  iexact Ho

/-- Every chunk at the last stage and the result stored is what the pipeline takes back. -/
private theorem body_post (K : GSem nD τ sig → ℕ) (c : Dev nD) : PSt m K c ![6, 6, 6, 6, 6, 6, 6, 6] 2 ⊢ bodyPost m c := by
  refine (finish m K c).trans ?_
  unfold bodyPost Dat.owesAt Pipeline.owesWithin xWhole oWhole
  rw [show (dats m 0 c).owed t₀.succ = 0 from rfl]
  iintro ⟨HΦ, ⟨%W, HO⟩, Hx, Ho⟩
  isplitl [HΦ]; · iexact HΦ
  isplitl [HO]
  · iexists W; isplitr; · ipureintro; exact fun _ _ => Or.inl trivial
    iexact HO
  isplitl [Hx]
  · iexists _; isplitr; · (ipureintro; rfl)
    iexact Hx
  iexists _; isplitr; · (ipureintro; rfl)
  iexact Ho

/-- The body from `bodyPre'` to `bodyPost`. -/
theorem sound_body (c : Dev nD) :
    bodyPre' m c
      ⊢ wp frame (wpE (defs₀ (F := F)) 𝒱₀ (c : Thread nD τ) none) Set.univ (cc0_body (F := F) (xM : Memref sig .tc .vmem S1x512x1024 .f32) (Memref.isWhole_whole _) (oM : Memref sig .tc .vmem S512x512 .f32) (Memref.isWhole_whole _) (aM : Memref sig .tc .vmem S256x512 .f32) (Memref.isWhole_whole _) (bM : Memref sig .tc .vmem S256x512 .f32) (Memref.isWhole_whole _) cc0_scratch2 cc0_scratch3 cc0_scratch4 cc0_scratch5) (fun _ => bodyPost m c) := by
  unfold bodyPre' Φ₀ start G'
  iintro ⟨⟨⟨⟨%K, #HR, Hlin⟩, HcB, Hcs, #Hlev⟩, Ha, Hb⟩, HoA, ⟨%d0, %g0, %hg0, Hx⟩, ⟨%d1, %g1, %hg1, Hout⟩⟩
  -- the slab's staging buffer holds the fetched slab
  have hf : (cfg0.win (0 : Fin 2)).fetch t₀ = true := fetch0_0 t₀
  have hx : g0 = xstg m c := by rw [hg0]; unfold Dat.before; rw [if_pos hf]; rfl
  subst hx
  unfold Dat.owesAt Pipeline.owesWithin
  icases HoA with ⟨%W, %hW, HO⟩
  rw [show (dats m 0 c).owed t₀.castSucc = O₀ c from rfl]
  iapply (wp_mono _ _ _ (fun _ => body_post m K c))
  iapply (body_chain m K c)
  unfold pre1 xWhole oWhole
  isplitr; · iexact HR
  isplitl [Hlin]; · iexact Hlin
  isplitl [HcB]; · iexact HcB
  isplitl [Hcs]; · iexact Hcs
  isplitr; · iexact Hlev
  isplitl [Ha]; · iexact Ha
  isplitl [Hb]; · iexact Hb
  isplitl [HO]; · iexists W; iexact HO
  isplitl [Hx]; · iexact Hx
  iexists g1; iexact Hout

omit [FloatOps F] in
/-- Owning a whole buffer at given contents is: some contents, equal to the given ones, and the buffer's points-to at them. -/
private theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
set_option maxHeartbeats 1600000 in
/-- The library's body obligation on device `c`: at the one grid point, what the pipeline hands over is `bodyPre'`, and
    what it asks back is `bodyPost`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m c)
  exact sound_body m c

end Cert.KernelIdeal.RS

end
-- ==== Proof.Value.lean ====
/-
The value: on device `c` the result `outAt`, read at the exact instance, is columns `512·y … 512·y+511` of the sum of the
two slabs — block `c` of what the one-device reference computes. Both are sums of the same two entries; they differ
only in the order of the two summands, and addition of extended reals is commutative.
-/
import proofs.«901027_g7700000000001028_dist_rs_v7x_xyz2x2x2_y_m512_n512_f32_1_alg».proof.Proof.Final
import proofs.«901027_g7700000000001028_dist_rs_v7x_xyz2x2x2_y_m512_n512_f32_1_alg».proof.Proof.Body
import proofs.«901027_g7700000000001028_dist_rs_v7x_xyz2x2x2_y_m512_n512_f32_1_alg».proof.Proof.Gen.ReferenceIdeal.Run
import proofs.«901027_g7700000000001028_dist_rs_v7x_xyz2x2x2_y_m512_n512_f32_1_alg».proof.Proof.Gen.ReferenceIdeal.Read
import proofs.«901027_g7700000000001028_dist_rs_v7x_xyz2x2x2_y_m512_n512_f32_1_alg».proof.Defs
import proofs.«901027_g7700000000001028_dist_rs_v7x_xyz2x2x2_y_m512_n512_f32_1_alg».proof.Proof.Gen.Pre_finite_inputs_Kernel
import proofs.«901027_g7700000000001028_dist_rs_v7x_xyz2x2x2_y_m512_n512_f32_1_alg».proof.Proof.Gen.Pre_finite_inputs_ReferenceIdeal
import Idealize.ShloMosaic.Lib.Layout
import Idealize.ShloMosaic.Lib.ValueIdx
import Idealize.ShloMosaic.Lib.Pipeline.Value
import Idealize.ShloMosaic.PureOps.Ideal.Laws

noncomputable section

namespace Cert.KernelIdeal.RS.Value

open Cert.KernelIdeal Cert.KernelIdeal.Gen Cert.KernelIdeal.RS
open Idealize.ShloMosaic Idealize.SL.Sem

variable (m : (ℓ : Loc nD τ sig) → Buf (Elt Ideal) ℓ)

/-! ## An update of a block, read at an index -/

/-- Inside the block the update reads the block, at the index less the block's offsets. -/
theorem updateSlice_of_mem {α : Type} {s u : Shape} (x : s.Idx → α) (upd : u.Idx → α) (start : Fin s.rank → Nat) (h : s.Slices start u) (i : s.Idx)
    (hin : ∀ a : Fin s.rank, start a ≤ (i a).val ∧ (i a).val < start a + u.size (a.cast h.1.symm)) :
    ∃ k : u.Idx, (∀ b : Fin u.rank, (k b).val = (i (b.cast h.1)).val - start (b.cast h.1)) ∧ updateSlice x upd start h i = upd k := by
  unfold updateSlice; rw [dif_pos hin]; exact ⟨_, fun _ => rfl, rfl⟩

/-- Outside it the update reads what was there. -/
theorem updateSlice_of_not_mem {α : Type} {s u : Shape} (x : s.Idx → α) (upd : u.Idx → α) (start : Fin s.rank → Nat) (h : s.Slices start u) (i : s.Idx)
    (hout : ¬ ∀ a : Fin s.rank, start a ≤ (i a).val ∧ (i a).val < start a + u.size (a.cast h.1.symm)) :
    updateSlice x upd start h i = x i := by
  unfold updateSlice; rw [dif_neg hout]

/-! ## The result buffer as two block updates; the slab's staging buffer -/

/-- The two stores, each through a rectangle of the whole result buffer, are two block updates: first the 256 rows at
    `256·x`, then the other 256. -/
theorem outAt_eq (c : Dev nD) : outAt (F := Ideal) m c
    = updateSlice (s := S512x512) (u := S256x512)
        (updateSlice (s := S512x512) (u := S256x512) (fun _ => Classical.arbitrary _) (k0_pay1 (aVal m c) (xHalf1 c (xstg m c))) (k0_off3 c) ⟨rfl, k0_off3_inb c⟩)
        (k0_pay2 (bVal m c) (xHalf2 c (xstg m c))) (k0_off5 c) ⟨rfl, k0_off5_inb c⟩ := by
  unfold outAt
  rw [View.write_whole_slice_unit cc0_stg1_0 (k0_off5 c) S256x512.size (k0_off5_inb c), View.write_whole_slice_unit cc0_stg1_0 (k0_off3 c) S256x512.size (k0_off3_inb c)]
  rfl

/-- The slab's window is the whole array at its one grid point: fetched, the staging buffer holds the array. -/
theorem xstg_eq (c : Dev nD) : xstg (F := Ideal) m c = m ((c.tc : Thread nD τ).loc main_arg0) := by
  unfold xstg
  have hz : (fun a => win0_0.index t0_0 a * main_arg0.ty.shape.size a) = fun _ => 0 := funext fun a => Nat.zero_mul _
  exact Memref.read_access_unit_zero (Elt Ideal) main_arg0 hz (fun a => by rw [congrFun hz a]; simp) _

/-! ## The mesh coordinates of the partner and the sibling -/

theorem x_le (c : Dev nD) : c.val / 4 ≤ 1 := by have h : c.val < 8 := c.isLt; omega
theorem par_y (c : Dev nD) : ((par c).val / 2) % 2 = 1 - (c.val / 2) % 2 := by rw [par_val]; revert c; decide
theorem sib_y (c : Dev nD) : ((sib c).val / 2) % 2 = (c.val / 2) % 2 := by rw [sib_val]; revert c; decide
theorem sib_x (c : Dev nD) : (sib c).val / 4 = 1 - c.val / 4 := by rw [sib_val]; revert c; decide

/-! ## A 256×512 block of a device's slab is a block of the whole argument -/

/-- Device `d`'s slab is block `y(d)` of the whole argument `X`; the block of it that device `c`'s first addition reads
    (rows `256·x(c) …`, columns `512·y(c) …`), with the unit axis dropped, at `j` is `X` at `(y(d), 256·x(c) + j₀, 512·y(c) + j₁)`. -/
theorem half1_X (X : (⟨3, ![2, 512, 1024]⟩ : Shape).Idx → EReal)
    (hagree : ∀ c : Dev nD, m ((c.tc : Thread nD τ).loc main_arg0)
      = Layout.blockN ⟨3, ![1, 512, 1024]⟩ ⟨3, ![2, 512, 1024]⟩ (Layout.meshBlock [2, 2, 2] ![[1], [], []] c) X)
    (c d : Dev nD) (j : S256x512.Idx) (kk : (⟨3, ![2, 512, 1024]⟩ : Shape).Idx)
    (h0 : (kk 0).val = (d.val / 2) % 2) (h1 : (kk 1).val = 256 * (c.val / 4) + (j 0).val) (h2 : (kk 2).val = 512 * ((c.val / 2) % 2) + (j 1).val) :
    shapeCast S256x512 (xHalf1 c (xstg m d)) shapeCasts_S1x256x512_S256x512 j = X kk := by
  rw [shapeCast_dropUnit_apply ![256, 512]]
  unfold xHalf1
  show (xstg m d) ((rX1 c).toLoadRect.idx _) = X kk
  rw [xstg_eq, hagree d, Layout.blockN_apply]
  refine congrArg X (funext fun a => Fin.ext ?_)
  rw [Layout.TilesN.idx_val, Layout.meshBlock_val, LoadRect.idx_apply]
  show _ * _ + (k0_off2 c _ + 1 * _) = _
  rw [k0_off2_eq c]
  match a with
  | ⟨0, _⟩ => show ((d.val / 2) % 2 * 1 + 0) * 1 + (0 + 1 * 0) = (kk 0).val; omega
  | ⟨1, _⟩ => show 0 * 512 + (256 * (c.val / 4) + 1 * (j 0).val) = (kk 1).val; omega
  | ⟨2, _⟩ => show 0 * 1024 + (512 * ((c.val / 2) % 2) + 1 * (j 1).val) = (kk 2).val; omega

/-- The same for the block the second addition reads: rows `256 − 256·x(c) …`. -/
theorem half2_X (X : (⟨3, ![2, 512, 1024]⟩ : Shape).Idx → EReal)
    (hagree : ∀ c : Dev nD, m ((c.tc : Thread nD τ).loc main_arg0)
      = Layout.blockN ⟨3, ![1, 512, 1024]⟩ ⟨3, ![2, 512, 1024]⟩ (Layout.meshBlock [2, 2, 2] ![[1], [], []] c) X)
    (c d : Dev nD) (j : S256x512.Idx) (kk : (⟨3, ![2, 512, 1024]⟩ : Shape).Idx)
    (h0 : (kk 0).val = (d.val / 2) % 2) (h1 : (kk 1).val = 256 - 256 * (c.val / 4) + (j 0).val) (h2 : (kk 2).val = 512 * ((c.val / 2) % 2) + (j 1).val) :
    shapeCast S256x512 (xHalf2 c (xstg m d)) shapeCasts_S1x256x512_S256x512 j = X kk := by
  rw [shapeCast_dropUnit_apply ![256, 512]]
  unfold xHalf2
  show (xstg m d) ((rX2 c).toLoadRect.idx _) = X kk
  rw [xstg_eq, hagree d, Layout.blockN_apply]
  refine congrArg X (funext fun a => Fin.ext ?_)
  rw [Layout.TilesN.idx_val, Layout.meshBlock_val, LoadRect.idx_apply]
  show _ * _ + (k0_off4 c _ + 1 * _) = _
  rw [k0_off4_eq c]
  match a with
  | ⟨0, _⟩ => show ((d.val / 2) % 2 * 1 + 0) * 1 + (0 + 1 * 0) = (kk 0).val; omega
  | ⟨1, _⟩ => show 0 * 512 + (256 - 256 * (c.val / 4) + 1 * (j 0).val) = (kk 1).val; omega
  | ⟨2, _⟩ => show 0 * 1024 + (512 * ((c.val / 2) % 2) + 1 * (j 1).val) = (kk 2).val; omega

/-! ## The result at an index: the two slabs' entries, added -/

/-- On device `c` the result at `(i₀, i₁)` is the other slab's entry plus the own slab's entry at row `i₀`, column
    `512·y + i₁` — whichever of the two stores wrote row `i₀`. -/
theorem out_apply (X : (⟨3, ![2, 512, 1024]⟩ : Shape).Idx → EReal)
    (hagree : ∀ c : Dev nD, m ((c.tc : Thread nD τ).loc main_arg0)
      = Layout.blockN ⟨3, ![1, 512, 1024]⟩ ⟨3, ![2, 512, 1024]⟩ (Layout.meshBlock [2, 2, 2] ![[1], [], []] c) X)
    (c : Dev nD) (i : S512x512.Idx) (pO pM : (⟨3, ![2, 512, 1024]⟩ : Shape).Idx)
    (hO0 : (pO 0).val = 1 - (c.val / 2) % 2) (hO1 : (pO 1).val = (i 0).val) (hO2 : (pO 2).val = 512 * ((c.val / 2) % 2) + (i 1).val)
    (hM0 : (pM 0).val = (c.val / 2) % 2) (hM1 : (pM 1).val = (i 0).val) (hM2 : (pM 2).val = 512 * ((c.val / 2) % 2) + (i 1).val) :
    outAt (F := Ideal) m c i = X pO + X pM := by
  have hx := x_le c
  have h0lt : (i 0).val < 512 := (i 0).isLt
  have h1lt : (i 1).val < 512 := (i 1).isLt
  have s30 : k0_off3 c 0 = 256 * (c.val / 4) := congrFun (k0_off3_eq c) 0
  have s31 : k0_off3 c 1 = 0 := congrFun (k0_off3_eq c) 1
  have s50 : k0_off5 c 0 = 256 - 256 * (c.val / 4) := congrFun (k0_off5_eq c) 0
  have s51 : k0_off5 c 1 = 0 := congrFun (k0_off5_eq c) 1
  rw [outAt_eq]
  by_cases h2 : ∀ a : Fin S512x512.rank, k0_off5 c a ≤ (i a).val ∧ (i a).val < k0_off5 c a + S256x512.size (a.cast rfl)
  · -- row i₀ is one of the other 256 rows: the second store's value
    obtain ⟨k, hk, e⟩ := updateSlice_of_mem (s := S512x512) (u := S256x512) _ (k0_pay2 (bVal m c) (xHalf2 c (xstg m c))) (k0_off5 c) ⟨rfl, k0_off5_inb c⟩ i h2
    rw [e]
    have hr : k0_off5 c 0 ≤ (i 0).val ∧ (i 0).val < k0_off5 c 0 + 256 := h2 0
    have hk0 : (k 0).val = (i 0).val - k0_off5 c 0 := hk 0
    have hk1 : (k 1).val = (i 1).val - k0_off5 c 1 := hk 1
    have eA : bVal m c k = X pO := half1_X m X hagree (sib c) (par (sib c)) k pO (by rw [hO0, par_y, sib_y]) (by rw [hO1, sib_x]; omega) (by rw [hO2, sib_y]; omega)
    have eB : shapeCast S256x512 (xHalf2 c (xstg m c)) shapeCasts_S1x256x512_S256x512 k = X pM := half2_X m X hagree c c k pM hM0 (by rw [hM1]; omega) (by rw [hM2]; omega)
    unfold k0_pay2
    exact (ValueIdx.addf_apply (bVal m c) (shapeCast S256x512 (xHalf2 c (xstg m c)) shapeCasts_S1x256x512_S256x512) k).trans (congrArg₂ (fun a b : EReal => a + b) eA eB)
  · -- row i₀ is one of the device's own 256 rows: the second store left the first store's value
    rw [updateSlice_of_not_mem (s := S512x512) (u := S256x512) _ _ (k0_off5 c) ⟨rfl, k0_off5_inb c⟩ i h2]
    have hr : ¬ (k0_off5 c 0 ≤ (i 0).val ∧ (i 0).val < k0_off5 c 0 + 256) := fun hr => h2 fun a =>
      match a with
      | ⟨0, _⟩ => hr
      | ⟨1, _⟩ => ⟨by show k0_off5 c 1 ≤ (i 1).val; omega, by show (i 1).val < k0_off5 c 1 + 512; omega⟩
    have h1 : ∀ a : Fin S512x512.rank, k0_off3 c a ≤ (i a).val ∧ (i a).val < k0_off3 c a + S256x512.size (a.cast rfl) := fun a =>
      match a with
      | ⟨0, _⟩ => by show k0_off3 c 0 ≤ (i 0).val ∧ (i 0).val < k0_off3 c 0 + 256; omega
      | ⟨1, _⟩ => ⟨by show k0_off3 c 1 ≤ (i 1).val; omega, by show (i 1).val < k0_off3 c 1 + 512; omega⟩
    obtain ⟨k, hk, e⟩ := updateSlice_of_mem (s := S512x512) (u := S256x512) (fun _ => Classical.arbitrary _) (k0_pay1 (aVal m c) (xHalf1 c (xstg m c))) (k0_off3 c) ⟨rfl, k0_off3_inb c⟩ i h1
    rw [e]
    have hr1 : k0_off3 c 0 ≤ (i 0).val ∧ (i 0).val < k0_off3 c 0 + 256 := h1 0
    have hk0 : (k 0).val = (i 0).val - k0_off3 c 0 := hk 0
    have hk1 : (k 1).val = (i 1).val - k0_off3 c 1 := hk 1
    have eA : aVal m c k = X pO := half1_X m X hagree c (par c) k pO (by rw [hO0, par_y]) (by rw [hO1]; omega) (by rw [hO2]; omega)
    have eB : shapeCast S256x512 (xHalf1 c (xstg m c)) shapeCasts_S1x256x512_S256x512 k = X pM := half1_X m X hagree c c k pM hM0 (by rw [hM1]; omega) (by rw [hM2]; omega)
    unfold k0_pay1
    exact (ValueIdx.addf_apply (aVal m c) (shapeCast S256x512 (xHalf1 c (xstg m c)) shapeCasts_S1x256x512_S256x512) k).trans (congrArg₂ (fun a b : EReal => a + b) eA eB)

/-! ## The reference at an index, and the two sides joined -/

/-- The reference's result at `q`: the sum's initial value is the real zero, so it is the two slabs' entries there, slab 0's first. -/
theorem ref_apply (X : (⟨3, ![2, 512, 1024]⟩ : Shape).Idx → EReal) (q : (⟨2, ![512, 1024]⟩ : Shape).Idx) :
    Cert.ReferenceIdeal.Read.val_main_v0 (F := Ideal) X q
      = X (Cert.ReferenceIdeal.Read.idx_main_v0 q 0) + X (Cert.ReferenceIdeal.Read.idx_main_v0 q 1) := by
  rw [Cert.ReferenceIdeal.Read.val_main_v0_apply, Fin.sum_univ_two, Cert.ReferenceIdeal.Read.val_main_cst_apply]
  show Ideal.ofBits .f32 0x00000000#32 + _ = _
  rw [Ideal.ofBits_zero_f32, zero_add]

/-- Device `c`'s block of the reference's result — columns `512·y …` — at `i` is the result at `(i₀, 512·y + i₁)`. -/
theorem ref_block_apply (X : (⟨3, ![2, 512, 1024]⟩ : Shape).Idx → EReal) (c : Dev nD) (i : S512x512.Idx) :
    ∃ q : (⟨2, ![512, 1024]⟩ : Shape).Idx, (q 0).val = (i 0).val ∧ (q 1).val = 512 * ((c.val / 2) % 2) + (i 1).val
      ∧ (Layout.blockN ⟨2, ![512, 512]⟩ ⟨2, ![512, 1024]⟩ (Layout.meshBlock [2, 2, 2] ![[], [1]] c) (Cert.ReferenceIdeal.Read.val_main_v0 (F := Ideal) X)) i
        = X (Cert.ReferenceIdeal.Read.idx_main_v0 q 0) + X (Cert.ReferenceIdeal.Read.idx_main_v0 q 1) := by
  refine ⟨Layout.TilesN.idx (S := ⟨2, ![512, 512]⟩) (T := ⟨2, ![512, 1024]⟩) (by decide) (Layout.meshBlock [2, 2, 2] ![[], [1]] c) i, ?_, ?_, ?_⟩
  · rw [Layout.TilesN.idx_val, Layout.meshBlock_val]
    show 0 * 512 + (i 0).val = (i 0).val
    omega
  · rw [Layout.TilesN.idx_val, Layout.meshBlock_val]
    show ((c.val / 2) % 2 * 1 + 0) * 512 + (i 1).val = 512 * ((c.val / 2) % 2) + (i 1).val
    omega
  · rw [Layout.blockN_apply, ref_apply]

/-- On every device the result buffer ends holding the device's block of the reference's result. -/
theorem out_eq (X : (⟨3, ![2, 512, 1024]⟩ : Shape).Idx → EReal)
    (hagree : ∀ c : Dev nD, m ((c.tc : Thread nD τ).loc main_arg0)
      = Layout.blockN ⟨3, ![1, 512, 1024]⟩ ⟨3, ![2, 512, 1024]⟩ (Layout.meshBlock [2, 2, 2] ![[1], [], []] c) X)
    (c : Dev nD) :
    outAt (F := Ideal) m c
      = Layout.blockN ⟨2, ![512, 512]⟩ ⟨2, ![512, 1024]⟩ (Layout.meshBlock [2, 2, 2] ![[], [1]] c) (Cert.ReferenceIdeal.Read.val_main_v0 (F := Ideal) X) := by
  funext i
  obtain ⟨q, q0, q1, e⟩ := ref_block_apply X c i
  rw [e]
  rcases Nat.mod_two_eq_zero_or_one (c.val / 2) with hy | hy
  · -- y = 0: the own slab is slab 0, the other slab 1; the reference adds them in the other order
    rw [out_apply m X hagree c i (Cert.ReferenceIdeal.Read.idx_main_v0 q 1) (Cert.ReferenceIdeal.Read.idx_main_v0 q 0)
      (by rw [hy]; rfl) q0 q1 (by rw [hy]; rfl) q0 q1]
    exact add_comm (G := EReal) _ _
  · -- y = 1: the other slab is slab 0, the own slab 1
    rw [out_apply m X hagree c i (Cert.ReferenceIdeal.Read.idx_main_v0 q 0) (Cert.ReferenceIdeal.Read.idx_main_v0 q 1)
      (by rw [hy]; rfl) q0 q1 (by rw [hy]; rfl) q0 q1]

/-! ## The claim's three conjuncts about the idealized programs -/

/-- The idealized kernel runs and leaves every device's argument as it was. -/
theorem frame_KernelIdeal : Cert.frame_KernelIdeal := fun m ρ _ => run_frame m ρ (fun c => body_obligation m c)

/-- The reference runs and leaves its argument as it was. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- From memories where each device holds its slab of the reference's argument, both programs run; the reference's
    result is the sum of the two slabs, and each device's result is its block of columns of it. -/
theorem algebraic : Cert.algebraic_KernelIdeal_ReferenceIdeal := by
  intro m ρ m' ρ' _ hagree
  refine ⟨Cert.ReferenceIdeal.Read.val_main_v0 (F := Ideal)
    (m' (((0 : Dev Cert.ReferenceIdeal.nD).tc : Thread Cert.ReferenceIdeal.nD Cert.ReferenceIdeal.τ).loc Cert.ReferenceIdeal.main_arg0)), ?_, ?_⟩
  · exact (θ_run defs _ _).mono (fun _ h c => ⟨(h c).1.trans (out_eq m _ hagree c), (h c).2⟩)
      (run_values m ρ (fun c => body_obligation m c))
  · exact (θ_run Cert.ReferenceIdeal.defs _ _).mono
      (fun _ h => ⟨(h 0).1.trans (Cert.ReferenceIdeal.Read.val_main_v0_eq _), (h 0).2⟩)
      (Cert.ReferenceIdeal.Value.run (F := Ideal) m' ρ')

end Cert.KernelIdeal.RS.Value

end
-- ==== Proof.lean ====
/-
The certificate's claim for the reduce-scatter kernel on the 2×2×2 mesh.

Every device signals its partner (the device that differs in the mesh's `y` coordinate) and its sibling (the one that
differs in `x`) and waits for their two signals; it then sends its partner, in eight pieces, the entries of its own slab
that the partner's result needs, forwards to its sibling each piece it receives as soon as it has landed, adds its own
slab's entries to what it received from the partner (half of its result's rows) and to what its sibling forwarded (the
other half), and waits for its sixteen transfers to have left. The frames say that this protocol runs to the end on
every fair schedule (each wait is for units some other device still owes, and what a waiting device itself owes always
sits on a strictly higher level); the value claim that the two halves together are columns `512·y …` of the sum of the
two slabs, which is what the one-device reference computes: the two programs add the same two numbers in a different
order.
-/
import proofs.«901027_g7700000000001028_dist_rs_v7x_xyz2x2x2_y_m512_n512_f32_1_alg».proof.Defs
import proofs.«901027_g7700000000001028_dist_rs_v7x_xyz2x2x2_y_m512_n512_f32_1_alg».proof.Proof.Gen.Kernel
import proofs.«901027_g7700000000001028_dist_rs_v7x_xyz2x2x2_y_m512_n512_f32_1_alg».proof.Proof.Gen.KernelIdeal
import proofs.«901027_g7700000000001028_dist_rs_v7x_xyz2x2x2_y_m512_n512_f32_1_alg».proof.Proof.Gen.ReferenceIdeal
import proofs.«901027_g7700000000001028_dist_rs_v7x_xyz2x2x2_y_m512_n512_f32_1_alg».proof.Proof.Gen.Pre_finite_inputs_Kernel
import proofs.«901027_g7700000000001028_dist_rs_v7x_xyz2x2x2_y_m512_n512_f32_1_alg».proof.Proof.Gen.Pre_finite_inputs_ReferenceIdeal
import proofs.«901027_g7700000000001028_dist_rs_v7x_xyz2x2x2_y_m512_n512_f32_1_alg».proof.Proof.WordFrame
import proofs.«901027_g7700000000001028_dist_rs_v7x_xyz2x2x2_y_m512_n512_f32_1_alg».proof.Proof.Value
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Kernel.RS.frame_Kernel,
    Cert.KernelIdeal.RS.Value.frame_KernelIdeal,
    Cert.KernelIdeal.RS.Value.frame_ReferenceIdeal,
    trivial,
    Cert.KernelIdeal.RS.Value.algebraic⟩

end Cert.Proof

end
